-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000x64 : Shape := ⟨2, ![50000, 64]⟩
abbrev S64 : Shape := ⟨1, ![64]⟩
abbrev S64x128 : Shape := ⟨2, ![64, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_

variable [Facts]

def fn_part1 {F : FTy → Type} [FloatOps F] (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  main_v18

def fn {F : FTy → Type} [FloatOps F] (main_arg0 : FVec F S50000x128 .f32) (main_arg1 : IVec S2x800000 32) (main_arg2 : FVec F S50000x64 .f32) (main_arg3 : FVec F S64 .f32) (main_arg4 : FVec F S64x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x64 .f32 := Host.absf main_arg2
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_v13 main_v16
-- ==== Kernel.lean ====
abbrev S50000x128 : Shape := ⟨2, ![50000, 128]⟩
abbrev S2x800000 : Shape := ⟨2, ![2, 800000]⟩
abbrev S50000x64 : Shape := ⟨2, ![50000, 64]⟩
abbrev S64 : Shape := ⟨1, ![64]⟩
abbrev S64x128 : Shape := ⟨2, ![64, 128]⟩
abbrev S1x64 : Shape := ⟨2, ![1, 64]⟩
abbrev S64x64 : Shape := ⟨2, ![64, 64]⟩
abbrev S1x1 : Shape := ⟨2, ![1, 1]⟩
abbrev S2000x64 : Shape := ⟨2, ![2000, 64]⟩
abbrev S2000x128 : Shape := ⟨2, ![2000, 128]⟩
abbrev S64x2000 : Shape := ⟨2, ![64, 2000]⟩
abbrev S2000 : Shape := ⟨1, ![2000]⟩
abbrev S2000x1 : Shape := ⟨2, ![2000, 1]⟩
abbrev S1 : Shape := ⟨1, ![1]⟩
abbrev S_ : Shape := ⟨0, ![]⟩
abbrev S1x800000 : Shape := ⟨2, ![1, 800000]⟩
abbrev S800000 : Shape := ⟨1, ![800000]⟩
abbrev S800000x1 : Shape := ⟨2, ![800000, 1]⟩
abbrev S800000x64 : Shape := ⟨2, ![800000, 64]⟩
abbrev S16000x64 : Shape := ⟨2, ![16000, 64]⟩
abbrev S16000 : Shape := ⟨1, ![16000]⟩
abbrev S16000x1 : Shape := ⟨2, ![16000, 1]⟩

abbrev nBuf : Space → Nat
  | .hbm => 51
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000x64, .f32⟩
  | .hbm, ⟨3, _⟩ => ⟨S64, .f32⟩
  | .hbm, ⟨4, _⟩ => ⟨S64x128, .f32⟩
  | .hbm, ⟨5, _⟩ => ⟨S1x64, .f32⟩
  | .hbm, ⟨6, _⟩ => ⟨S50000x64, .bf16⟩
  | .hbm, ⟨7, _⟩ => ⟨S50000x64, .bf16⟩
  | .hbm, ⟨8, _⟩ => ⟨S64x64, .f32⟩
  | .hbm, ⟨9, _⟩ => ⟨S1x1, .f32⟩
  | .hbm, ⟨10, _⟩ => ⟨S64x64, .f32⟩
  | .hbm, ⟨11, _⟩ => ⟨S64x64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1x800000, .i32⟩
  | .hbm, ⟨18, _⟩ => ⟨S800000, .i32⟩
  | .hbm, ⟨19, _⟩ => ⟨S1x800000, .i32⟩
  | .hbm, ⟨20, _⟩ => ⟨S800000, .i32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x64, .bf16⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x64, .bf16⟩
  | .hbm, ⟨39, _⟩ => ⟨S1x1, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .local _ .vmem, ⟨0, _⟩ => ⟨S2000x64, .f32⟩
  | .local _ .vmem, ⟨1, _⟩ => ⟨S2000x64, .f32⟩
  | .local _ .vmem, ⟨2, _⟩ => ⟨S1x64, .f32⟩
  | .local _ .vmem, ⟨3, _⟩ => ⟨S2000x128, .f32⟩
  | .local _ .vmem, ⟨4, _⟩ => ⟨S2000x128, .f32⟩
  | .local _ .vmem, ⟨5, _⟩ => ⟨S64x128, .f32⟩
  | .local _ .vmem, ⟨6, _⟩ => ⟨S2000x64, .bf16⟩
  | .local _ .vmem, ⟨7, _⟩ => ⟨S2000x64, .bf16⟩
  | .local _ .vmem, ⟨8, _⟩ => ⟨S2000x64, .bf16⟩
  | .local _ .vmem, ⟨9, _⟩ => ⟨S2000x64, .bf16⟩
  | .local _ .vmem, ⟨10, _⟩ => ⟨S64x64, .f32⟩
  | .local _ .vmem, ⟨11, _⟩ => ⟨S1x1, .f32⟩
  | .local _ .vmem, ⟨12, _⟩ => ⟨S64x64, .f32⟩
  | .local _ .vmem, ⟨13, _⟩ => ⟨S1x1, .f32⟩
  | .local _ .vmem, ⟨14, _⟩ => ⟨S16000x64, .bf16⟩
  | .local _ .vmem, ⟨15, _⟩ => ⟨S16000x64, .bf16⟩
  | .local _ .vmem, ⟨16, _⟩ => ⟨S16000x64, .bf16⟩
  | .local _ .vmem, ⟨17, _⟩ => ⟨S16000x64, .bf16⟩
  | .local _ .vmem, ⟨18, _⟩ => ⟨S1x1, .f32⟩
  | .local _ .vmem, ⟨19, _⟩ => ⟨S1x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v35 : BitVec 1 := Scalar.cmpi .eq arg0 c24_i32
  let v36 : BitVec 32 := Scalar.extui v35
  let c0_i32_23 : BitVec 32 := 0#32
  let v37 : BitVec 1 := Scalar.cmpi .ne v36 c0_i32_23
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![50], ![false]⟩

def k1_cond2 (i : grid1.Coords) : BitVec 1 :=
  let arg0 : BitVec 32 := BitVec.ofNat 32 (i 0).val
  let c49_i32 : BitVec 32 := 49#32
  let v19 : BitVec 1 := Scalar.cmpi .eq arg0 c49_i32
  let v20 : BitVec 32 := Scalar.extui v19
  let c0_i32_9 : BitVec 32 := 0#32
  let v21 : BitVec 1 := Scalar.cmpi .ne v20 c0_i32_9
  v21

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S16000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  shapeCasts_S64_S1x64 : S64.ShapeCasts S1x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2000x64_S2000x64_0_0 : ∀ a, (![0, 0] : Fin 2 → Nat) a + S2000x64.size a ≤ S2000x64.size a
  h_S2000x64 : 0 < S2000x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  bitsLt_bf16_f32 : FTy.bits .bf16 < FTy.bits .f32
  packedbf16_S2000x64_S2000x64_0_0 : (Rect.unit (s := S2000x64) ![0, 0] S2000x64.size inb_S2000x64_S2000x64_0_0).PackedRows (EltTy.packing .bf16)
  transposes_S2000x64_p1_0_S64x2000 : S2000x64.Transposes [1, 0] S64x2000
  inb_S64x128_S64x128_0_0 : ∀ a, (![0, 0] : Fin 2 → Nat) a + S64x128.size a ≤ S64x128.size a
  h_S64x128 : 0 < S64x128.numel
  inb_S2000x128_S2000x128_0_0 : ∀ a, (![0, 0] : Fin 2 → Nat) a + S2000x128.size a ≤ S2000x128.size a
  h_S2000x128 : 0 < S2000x128.numel
  reduces_S2000x128_S2000 : S2000x128.Reduces [1] S2000
  shapeCasts_S2000_S2000x1 : S2000.ShapeCasts S2000x1
  reduces_S2000x1_S1 : S2000x1.Reduces [0] S1
  shapeCasts_S1_S1x1 : S1.ShapeCasts S1x1
  transposes_S64x64_S64x64_1_0 : S64x64.Transposes [1, 0] S64x64
  reducesTo_S64x64_S_d0_1 : S64x64.ReducesTo [0, 1] S_
  h_S_ : 0 < S_.numel
  shapeCasts_S1x1_S_ : S1x1.ShapeCasts S_
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  inb_S16000x64_S16000x64_0_0 : ∀ a, (![0, 0] : Fin 2 → Nat) a + S16000x64.size a ≤ S16000x64.size a
  h_S16000x64 : 0 < S16000x64.numel
  shapeCasts_S16000x64_S16000x64 : S16000x64.ShapeCasts S16000x64
  reduces_S16000x64_S16000 : S16000x64.Reduces [1] S16000
  shapeCasts_S16000_S16000x1 : S16000.ShapeCasts S16000x1
  reduces_S16000x1_S1 : S16000x1.Reduces [0] S1
  dot_S64x2000_S2000x64_S64x64_1_0_0_1_n_n_wf : DotDims.WF S64x2000 S2000x64 S64x64 [1] [0] [0] [1] [] []
  dot_S2000x64_S64x128_S2000x128_1_0_0_1_n_n_wf : DotDims.WF S2000x64 S64x128 S2000x128 [1] [0] [0] [1] [] []
  gather_S50000x64_S800000x1_S800000x64_1_0_n_n_0_1_164_wf : GatherDims.WF S50000x64 S800000x1 S800000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x64.size a ≤ S50000x64.size a
  hwx0_4 : ∀ i : grid0.Coords, EltTy.bits .bf16 = 32 ∨ (Rect.block (s := S50000x64) S2000x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S50000x64.size a
  hwx0_5 : ∀ i : grid0.Coords, EltTy.bits .bf16 = 32 ∨ (Rect.block (s := S50000x64) S2000x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16000x64.size a ≤ S800000x64.size a
  hwx1_0 : ∀ i : grid1.Coords, EltTy.bits .bf16 = 32 ∨ (Rect.block (s := S800000x64) S16000x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16000x64.size a ≤ S800000x64.size a
  hwx1_1 : ∀ i : grid1.Coords, EltTy.bits .bf16 = 32 ∨ (Rect.block (s := S800000x64) S16000x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

def dot_S64x2000_S2000x64_S64x64_1_0_0_1_n_n : DotDims S64x2000 S2000x64 S64x64 where
  lhsContracting := [1]
  rhsContracting := [0]
  lhsNonContracting := [0]
  rhsNonContracting := [1]
  lhsBatch := []
  rhsBatch := []
  wf := dot_S64x2000_S2000x64_S64x64_1_0_0_1_n_n_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf

abbrev win0_0 : Pipeline.Window sig grid0 :=
  Pipeline.Window.ofSpec (Memref.whole main_arg2) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S2000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S2000x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_2) S64x64.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1_3) S1x1.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v17) S16000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S16000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S50000x64 : Shape := ⟨2, ![50000, 64]⟩
abbrev S64 : Shape := ⟨1, ![64]⟩
abbrev S64x128 : Shape := ⟨2, ![64, 128]⟩
abbrev S_ : Shape := ⟨0, ![]⟩
abbrev S1x64 : Shape := ⟨2, ![1, 64]⟩
abbrev S64x64 : Shape := ⟨2, ![64, 64]⟩
abbrev S1x800000 : Shape := ⟨2, ![1, 800000]⟩
abbrev S800000 : Shape := ⟨1, ![800000]⟩
abbrev S800000x1 : Shape := ⟨2, ![800000, 1]⟩
abbrev S800000x64 : Shape := ⟨2, ![800000, 64]⟩

abbrev nBuf : Space → Nat
  | .hbm => 66
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000x64, .f32⟩
  | .hbm, ⟨3, _⟩ => ⟨S64, .f32⟩
  | .hbm, ⟨4, _⟩ => ⟨S64x128, .f32⟩
  | .hbm, ⟨5, _⟩ => ⟨S50000x64, .f32⟩
  | .hbm, ⟨6, _⟩ => ⟨S50000x64, .f32⟩
  | .hbm, ⟨7, _⟩ => ⟨S_, .f32⟩
  | .hbm, ⟨8, _⟩ => ⟨S50000x64, .f32⟩
  | .hbm, ⟨9, _⟩ => ⟨S50000x64, .f32⟩
  | .hbm, ⟨10, _⟩ => ⟨S_, .f32⟩
  | .hbm, ⟨11, _⟩ => ⟨S50000x64, .f32⟩
  | .hbm, ⟨12, _⟩ => ⟨S50000x64, .f32⟩
  | .hbm, ⟨13, _⟩ => ⟨S1x64, .f32⟩
  | .hbm, ⟨14, _⟩ => ⟨S50000x64, .f32⟩
  | .hbm, ⟨15, _⟩ => ⟨S50000x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S_, .f32⟩
  | .hbm, ⟨20, _⟩ => ⟨S_, .f32⟩
  | .hbm, ⟨21, _⟩ => ⟨S1x800000, .i32⟩
  | .hbm, ⟨22, _⟩ => ⟨S800000, .i32⟩
  | .hbm, ⟨23, _⟩ => ⟨S1x800000, .i32⟩
  | .hbm, ⟨24, _⟩ => ⟨S800000, .i32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x64, .f32⟩
  | .hbm, ⟨34, _⟩ => ⟨S1x64, .f32⟩
  | .hbm, ⟨35, _⟩ => ⟨S800000x64, .f32⟩
  | .hbm, ⟨36, _⟩ => ⟨S800000x64, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x64, .f32⟩
  | .hbm, ⟨46, _⟩ => ⟨S800000x64, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S50000x128, .f32⟩
  | .hbm, ⟨57, _⟩ => ⟨S50000x128, .f32⟩
  | .hbm, ⟨58, _⟩ => ⟨S50000x128, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_3 : Ref sig .tc := ⟨.hbm, 37, rfl⟩
abbrev main_v27 : Ref sig .tc := ⟨.hbm, 38, rfl⟩
abbrev main_v28 : Ref sig .tc := ⟨.hbm, 39, rfl⟩
abbrev main_c_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_cst_11 : Ref sig .tc := ⟨.hbm, 63, rfl⟩
abbrev main_v45 : Ref sig .tc := ⟨.hbm, 64, rfl⟩
abbrev main_v46 : Ref sig .tc := ⟨.hbm, 65, rfl⟩

abbrev nD : Nat := 1
abbrev τ : Topo := Topo.v7x

variable {F : FTy → Type} [FloatOps F]

class Facts₀ : Prop where
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  transposes_S64x64_S64x64_1_0 : S64x64.Transposes [1, 0] S64x64
  reducesTo_S64x64_S_d0_1 : S64x64.ReducesTo [0, 1] S_
  h_S_ : 0 < S_.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S1x64_S800000x64_0_1 : S1x64.BroadcastsInDim S800000x64 (![0, 1] : Fin 2 → Fin S800000x64.rank)
  reducesTo_S800000x64_S_d0_1 : S800000x64.ReducesTo [0, 1] S_
  reducesTo_S50000x128_S_d0_1 : S50000x128.ReducesTo [0, 1] S_
  dot_S50000x64_S50000x64_S64x64_0_0_1_1_n_n_wf : DotDims.WF S50000x64 S50000x64 S64x64 [0] [0] [1] [1] [] []
  gather_S50000x64_S800000x1_S800000x64_1_0_n_n_0_1_164_wf : GatherDims.WF S50000x64 S800000x1 S800000x64 [1] [0] [] [0] [] 1 ![1, 64]
  dot_S50000x64_S64x128_S50000x128_1_0_0_1_n_n_wf : DotDims.WF S50000x64 S64x128 S50000x128 [1] [0] [0] [1] [] []

variable [Facts₀]

def dot_S50000x64_S50000x64_S64x64_0_0_1_1_n_n : DotDims S50000x64 S50000x64 S64x64 where
  lhsContracting := [0]
  rhsContracting := [0]
  lhsNonContracting := [1]
  rhsNonContracting := [1]
  lhsBatch := []
  rhsBatch := []
  wf := dot_S50000x64_S50000x64_S64x64_0_0_1_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf

class Facts : Prop extends Facts₀ where

variable [Facts]
-- ==== Proof.K.NodeShared.lean ====
import proofs.«137296_j64604898066506_1_alg».proof.Proof.Gen.Kernel.Launch
import proofs.«137296_j64604898066506_1_alg».proof.Proof.Gen.Kernel.Skeleton
import proofs.«137296_j64604898066506_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Node

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there (it is, at every point), for any proof data
    whose array is the entry contents and whose body leaves the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point (fetched at the first point only; the block index never moves afterwards), for any proof data
    whose array is the entry contents and whose body leaves the block in place. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there (it is, at every point), for any proof data
    whose array is the entry contents and whose body leaves the block in place. -/
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point (fetched at the first point only; the block index never moves afterwards), for any proof data
    whose array is the entry contents and whose body leaves the block in place. -/
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, in closed form over the grid -/

/-- The first conditional's condition (the accumulators are reset): the grid coordinate is 0. -/
abbrev cond_0 (i : grid0.Coords) : Prop := (Scalar.cmpi .ne (Scalar.extui (Scalar.cmpi .eq (BitVec.ofNat 32 (i 0).val) 0#32)) 0#32) = 1#1
/-- It holds at the first point only. -/
theorem hcond_0 : ∀ t : Fin cfg0.N, cond_0 (grid0.coords t) ↔ t.val % 25 = 0 :=
  (by decide +kernel : ∀ t : Fin grid0.N, cond_0 (grid0.coords t) ↔ t.val % 25 = 0)

/-- The last conditional's condition (the accumulators are copied out): the grid coordinate is 24. -/
abbrev cond_1 (i : grid0.Coords) : Prop := k0_cond2 i = 1#1
/-- It holds at the last point only. -/
theorem hcond_1 : ∀ t : Fin cfg0.N, cond_1 (grid0.coords t) ↔ t.val % 25 = 24 :=
  (by decide +kernel : ∀ t : Fin grid0.N, cond_1 (grid0.coords t) ↔ t.val % 25 = 24)

/-! ## Where the windows are idle -/

theorem liveAt_0 : ∀ t : Fin cfg0.N, cfg0.idle 0 (grid0.coords t) = false := fun _ => rfl
theorem liveAt_1 : ∀ t : Fin cfg0.N, cfg0.idle 1 (grid0.coords t) = false := fun _ => rfl
theorem liveAt_2 : ∀ t : Fin cfg0.N, cfg0.idle 2 (grid0.coords t) = false := fun _ => rfl
theorem liveAt_3 : ∀ t : Fin cfg0.N, cfg0.idle 3 (grid0.coords t) = false := fun _ => rfl
theorem liveAt_4 : ∀ t : Fin cfg0.N, cfg0.idle 4 (grid0.coords t) = false := fun _ => rfl
theorem liveAt_5 : ∀ t : Fin cfg0.N, cfg0.idle 5 (grid0.coords t) = false := fun _ => rfl
/-- Where the last conditional is not taken, the Gram output (window 6) and the error output (window 7) are idle:
    nothing is stored into them, and the pipeline does not write them back. -/
theorem idleAt_6_A : ∀ t : Fin cfg0.N, cond_0 (grid0.coords t) → ¬cond_1 (grid0.coords t) → cfg0.idle 6 (grid0.coords t) = true := by decide +kernel
theorem noFlush_6_A : ∀ t : Fin cfg0.N, cond_0 (grid0.coords t) → ¬cond_1 (grid0.coords t) → (cfg0.win 6).flush t = false := by decide +kernel
theorem idleAt_7_A : ∀ t : Fin cfg0.N, cond_0 (grid0.coords t) → ¬cond_1 (grid0.coords t) → cfg0.idle 7 (grid0.coords t) = true := by decide +kernel
theorem noFlush_7_A : ∀ t : Fin cfg0.N, cond_0 (grid0.coords t) → ¬cond_1 (grid0.coords t) → (cfg0.win 7).flush t = false := by decide +kernel
theorem idleAt_6_B : ∀ t : Fin cfg0.N, ¬cond_0 (grid0.coords t) → ¬cond_1 (grid0.coords t) → cfg0.idle 6 (grid0.coords t) = true := by decide +kernel
theorem noFlush_6_B : ∀ t : Fin cfg0.N, ¬cond_0 (grid0.coords t) → ¬cond_1 (grid0.coords t) → (cfg0.win 6).flush t = false := by decide +kernel
theorem idleAt_7_B : ∀ t : Fin cfg0.N, ¬cond_0 (grid0.coords t) → ¬cond_1 (grid0.coords t) → cfg0.idle 7 (grid0.coords t) = true := by decide +kernel
theorem noFlush_7_B : ∀ t : Fin cfg0.N, ¬cond_0 (grid0.coords t) → ¬cond_1 (grid0.coords t) → (cfg0.win 7).flush t = false := by decide +kernel
/-- Where it is taken (the last point) both are live. -/
theorem liveAt_6_C : ∀ t : Fin cfg0.N, ¬cond_0 (grid0.coords t) → cond_1 (grid0.coords t) → cfg0.idle 6 (grid0.coords t) = false := by decide +kernel
theorem liveAt_7_C : ∀ t : Fin cfg0.N, ¬cond_0 (grid0.coords t) → cond_1 (grid0.coords t) → cfg0.idle 7 (grid0.coords t) = false := by decide +kernel

/-! ## The memrefs the body is called with -/

/-- One staging buffer of each output window, through which its contents are stated. -/
abbrev VO_4 : View sig .tc .vmem S2000x64 .bf16 := (Memref.whole cc0_stg4_0 : Memref sig .tc .vmem S2000x64 .bf16).view
abbrev VO_5 : View sig .tc .vmem S2000x64 .bf16 := (Memref.whole cc0_stg5_0 : Memref sig .tc .vmem S2000x64 .bf16).view
abbrev VO_6 : View sig .tc .vmem S64x64 .f32 := (Memref.whole cc0_stg6_0 : Memref sig .tc .vmem S64x64 .f32).view
abbrev VO_7 : View sig .tc .vmem S1x1 .f32 := (Memref.whole cc0_stg7_0 : Memref sig .tc .vmem S1x1 .f32).view
/-- Each window's current staging memref at point `t`, and its wholeness. -/
abbrev ms_0 (t : Fin cfg0.N) : Memref sig .tc .vmem S2000x64 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x64 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S2000x128 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S64x128 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S2000x64 .bf16 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S2000x64 .bf16 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S64x64 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S1x1 .f32 := win0_7.stage (cfg0.slots t 7)
abbrev hs_7 (t : Fin cfg0.N) : (ms_7 t).IsWhole := hstage0_7 ((cfg0.slots t 7).cast nbuf0_7)
/-- The two scratch operands: the Gram accumulator and the squared-error accumulator, whole scoped buffers. -/
abbrev scM_0 : Memref sig .tc .vmem S64x64 .f32 := Memref.whole cc0_scratch0
abbrev scM_1 : Memref sig .tc .vmem S1x1 .f32 := Memref.whole cc0_scratch1
/-- The same as views: what the accumulators hold is stated through them. -/
abbrev VS_0 : View sig .tc .vmem S64x64 .f32 := scM_0.view
abbrev VS_1 : View sig .tc .vmem S1x1 .f32 := scM_1.view

/-- The scoped buffers of the core that the node pass never touches (the edge pass's staging and scratch), each at
    some contents. -/
def restOf (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f))

/-- The region's entry invariant with the two accumulators as memrefs owned at some contents. -/
theorem PhiA_eq (c : Dev nD) :
    (Pipeline.ΦA spec0 c : sProp 𝕄)
      = iprop(iprop((∃ d, owns (c : Thread nD τ) scM_0 fullShare d) ∗ (∃ d, owns (c : Thread nD τ) scM_1 fullShare d) ∗ restOf (F := F) c) ∗ (∃ r, prngReg c r)) := by
  unfold Pipeline.ΦA restOf; rw [scopedRest0_eq]; simp only [scM_0, scM_1, owns_whole]; try rfl

end Cert.Kernel.Node

end
-- ==== Proof.K.NodeRunA.lean ====
import proofs.«137296_j64604898066506_1_alg».proof.Proof.K.NodeShared

set_option maxRecDepth 16384

noncomputable section

namespace Cert.Kernel.Node

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

-- (the run's proof term is large)
set_option maxHeartbeats 4000000 in
/-- The body at the first point (the accumulators are reset, nothing is copied out): the pieces its stores leave in the two bf16 outputs and in the two accumulators
    (last store first), with the proof that on whole memrefs — the four inputs at their contents, the bf16 outputs at anything, the Gram and error outputs at contents handed back untouched,
    the accumulators at anything — the body runs to a continuation holding the inputs as they were and every stored buffer
    with its pieces written. -/
noncomputable def kernelRun_A (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : cond_0 i) (hc1 : ¬cond_1 i)
    (x0 : Vec F S2000x64 .f32) (x1 : Vec F S1x64 .f32) (x2 : Vec F S2000x128 .f32) (x3 : Vec F S64x128 .f32) :
    Σ' (L4 : List (View.Piece (Elt F) S2000x64 .bf16)) (L5 : List (View.Piece (Elt F) S2000x64 .bf16)) (LS0 : List (View.Piece (Elt F) S64x64 .f32)), { LS1 : List (View.Piece (Elt F) S1x1 .f32) //
      ∀ (xi6 : Vec F S64x64 .f32) (xi7 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ owns (c : Thread nD τ) arg7 fullShare xi6 ∗ owns (c : Thread nD τ) arg8 fullShare xi7
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)
                ∗ owns (c : Thread nD τ) arg7 fullShare xi6 ∗ owns (c : Thread nD τ) arg8 fullShare xi7
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__node_kernel i arg1 harg1 arg2 harg2 arg3 harg3 arg4 harg4 arg5 harg5 arg6 harg6 arg7 harg7 arg8 harg8 arg9 harg9 arg10 harg10) K } := by
  refine ⟨?_, ?_, ?_, ?_, fun xi6 xi7 E K => ?run⟩
  case run =>
    simp only [cc0__node_kernel_eq_skeleton]; unfold cc0__node_kernel_skel; simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.Kernel.Node

end
-- ==== Proof.K.NodeRunB.lean ====
import proofs.«137296_j64604898066506_1_alg».proof.Proof.K.NodeRunA

set_option maxRecDepth 16384

noncomputable section

namespace Cert.Kernel.Node

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

-- (the run's proof term is large)
set_option maxHeartbeats 4000000 in
/-- The body at a middle point (no reset, nothing copied out): the pieces its stores leave in the two bf16 outputs and in the two accumulators
    (last store first), with the proof that on whole memrefs — the four inputs at their contents, the bf16 outputs at anything, the Gram and error outputs at contents handed back untouched,
    the accumulators at what the point before left — the body runs to a continuation holding the inputs as they were and every stored buffer
    with its pieces written. -/
noncomputable def kernelRun_B (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : ¬cond_1 i)
    (x0 : Vec F S2000x64 .f32) (x1 : Vec F S1x64 .f32) (x2 : Vec F S2000x128 .f32) (x3 : Vec F S64x128 .f32) (xs0 : Vec F S64x64 .f32) (xs1 : Vec F S1x1 .f32) :
    Σ' (L4 : List (View.Piece (Elt F) S2000x64 .bf16)) (L5 : List (View.Piece (Elt F) S2000x64 .bf16)) (LS0 : List (View.Piece (Elt F) S64x64 .f32)), { LS1 : List (View.Piece (Elt F) S1x1 .f32) //
      ∀ (xi6 : Vec F S64x64 .f32) (xi7 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ owns (c : Thread nD τ) arg7 fullShare xi6 ∗ owns (c : Thread nD τ) arg8 fullShare xi7
            ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)
                ∗ owns (c : Thread nD τ) arg7 fullShare xi6 ∗ owns (c : Thread nD τ) arg8 fullShare xi7
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__node_kernel i arg1 harg1 arg2 harg2 arg3 harg3 arg4 harg4 arg5 harg5 arg6 harg6 arg7 harg7 arg8 harg8 arg9 harg9 arg10 harg10) K } := by
  refine ⟨?_, ?_, ?_, ?_, fun xi6 xi7 E K => ?run⟩
  case run =>
    simp only [cc0__node_kernel_eq_skeleton]; unfold cc0__node_kernel_skel; simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg7.eq_unread hf6; obtain rfl := harg8.eq_unread hf7; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.Kernel.Node

end
-- ==== Proof.K.NodeRunC.lean ====
import proofs.«137296_j64604898066506_1_alg».proof.Proof.K.NodeRunB

set_option maxRecDepth 16384

noncomputable section

namespace Cert.Kernel.Node

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

-- (the run's proof term is large)
set_option maxHeartbeats 4000000 in
/-- The body at the last point (no reset; the accumulators are copied out into the Gram and error outputs): the pieces its stores leave in the two bf16 outputs, in the Gram and error outputs and in the two accumulators
    (last store first), with the proof that on whole memrefs — the four inputs at their contents, every output at anything,
    the accumulators at what the point before left — the body runs to a continuation holding the inputs as they were and every stored buffer
    with its pieces written. -/
noncomputable def kernelRun_C (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : cond_1 i)
    (x0 : Vec F S2000x64 .f32) (x1 : Vec F S1x64 .f32) (x2 : Vec F S2000x128 .f32) (x3 : Vec F S64x128 .f32) (xs0 : Vec F S64x64 .f32) (xs1 : Vec F S1x1 .f32) :
    Σ' (L4 : List (View.Piece (Elt F) S2000x64 .bf16)) (L5 : List (View.Piece (Elt F) S2000x64 .bf16)) (L6 : List (View.Piece (Elt F) S64x64 .f32)) (L7 : List (View.Piece (Elt F) S1x1 .f32)) (LS0 : List (View.Piece (Elt F) S64x64 .f32)), { LS1 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (∃ d, owns (c : Thread nD τ) arg7 fullShare d) ∗ (∃ d, owns (c : Thread nD τ) arg8 fullShare d)
            ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__node_kernel i arg1 harg1 arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__node_kernel_eq_skeleton]; unfold cc0__node_kernel_skel; simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [HS0]; · iexists _; iexact HS0
    iexists _; iexact HS1

end Cert.Kernel.Node

end
-- ==== Proof.K.NodeData.lean ====
import proofs.«137296_j64604898066506_1_alg».proof.Proof.K.NodeRunC
import Idealize.ShloMosaic.Lib.Pipeline.Value

set_option maxRecDepth 16384

noncomputable section

namespace Cert.Kernel.Node

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case's stores leave, buffer by buffer -/

/-- The pieces the body's stores leave in the first bf16 output (the logistic block) at the first point tile it, so they cover it. -/
theorem cover_A_4 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : cond_0 i) (hc1 : ¬cond_1 i)
    (x0 : Vec F S2000x64 .f32) (x1 : Vec F S1x64 .f32) (x2 : Vec F S2000x128 .f32) (x3 : Vec F S64x128 .f32) (y : S2000x64.Idx) :
    ∃ pc ∈ (kernelRun_A c i arg1 harg1 arg2 harg2 arg3 harg3 arg4 harg4 arg5 harg5 arg6 harg6 arg7 harg7 arg8 harg8 arg9 harg9 arg10 harg10 hc0 hc1 x0 x1 x2 x3).1, y ∈ pc.1.set :=
  View.cover_of_tiledL (kernelRun_A c i arg1 harg1 arg2 harg2 arg3 harg3 arg4 harg4 arg5 harg5 arg6 harg6 arg7 harg7 arg8 harg8 arg9 harg9 arg10 harg10 hc0 hc1 x0 x1 x2 x3).1 S2000x64.size (by sl_kernel_rfl) y

/-- What the first point leaves in the first bf16 output (the logistic block): its pieces read back over junk. -/
def out_A_4 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : cond_0 i) (hc1 : ¬cond_1 i)
    (x0 : Vec F S2000x64 .f32) (x1 : Vec F S1x64 .f32) (x2 : Vec F S2000x128 .f32) (x3 : Vec F S64x128 .f32) : Vec F S2000x64 .bf16 :=
  VO_4.read (Elt F) (VO_4.writes (Elt F) VO_4.junk (kernelRun_A c i arg1 harg1 arg2 harg2 arg3 harg3 arg4 harg4 arg5 harg5 arg6 harg6 arg7 harg7 arg8 harg8 arg9 harg9 arg10 harg10 hc0 hc1 x0 x1 x2 x3).1)

/-- The pieces the body's stores leave in the second bf16 output (the scaled logistic block) at the first point tile it, so they cover it. -/
theorem cover_A_5 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : cond_0 i) (hc1 : ¬cond_1 i)
    (x0 : Vec F S2000x64 .f32) (x1 : Vec F S1x64 .f32) (x2 : Vec F S2000x128 .f32) (x3 : Vec F S64x128 .f32) (y : S2000x64.Idx) :
    ∃ pc ∈ (kernelRun_A c i arg1 harg1 arg2 harg2 arg3 harg3 arg4 harg4 arg5 harg5 arg6 harg6 arg7 harg7 arg8 harg8 arg9 harg9 arg10 harg10 hc0 hc1 x0 x1 x2 x3).2.1, y ∈ pc.1.set :=
  View.cover_of_tiledL (kernelRun_A c i arg1 harg1 arg2 harg2 arg3 harg3 arg4 harg4 arg5 harg5 arg6 harg6 arg7 harg7 arg8 harg8 arg9 harg9 arg10 harg10 hc0 hc1 x0 x1 x2 x3).2.1 S2000x64.size (by sl_kernel_rfl) y

/-- What the first point leaves in the second bf16 output (the scaled logistic block): its pieces read back over junk. -/
def out_A_5 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : cond_0 i) (hc1 : ¬cond_1 i)
    (x0 : Vec F S2000x64 .f32) (x1 : Vec F S1x64 .f32) (x2 : Vec F S2000x128 .f32) (x3 : Vec F S64x128 .f32) : Vec F S2000x64 .bf16 :=
  VO_5.read (Elt F) (VO_5.writes (Elt F) VO_5.junk (kernelRun_A c i arg1 harg1 arg2 harg2 arg3 harg3 arg4 harg4 arg5 harg5 arg6 harg6 arg7 harg7 arg8 harg8 arg9 harg9 arg10 harg10 hc0 hc1 x0 x1 x2 x3).2.1)

/-- The pieces the body's stores leave in the Gram accumulator at the first point tile it, so they cover it. -/
theorem scover_A_0 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : cond_0 i) (hc1 : ¬cond_1 i)
    (x0 : Vec F S2000x64 .f32) (x1 : Vec F S1x64 .f32) (x2 : Vec F S2000x128 .f32) (x3 : Vec F S64x128 .f32) (y : S64x64.Idx) :
    ∃ pc ∈ (kernelRun_A c i arg1 harg1 arg2 harg2 arg3 harg3 arg4 harg4 arg5 harg5 arg6 harg6 arg7 harg7 arg8 harg8 arg9 harg9 arg10 harg10 hc0 hc1 x0 x1 x2 x3).2.2.1, y ∈ pc.1.set :=
  View.cover_of_tiledL (kernelRun_A c i arg1 harg1 arg2 harg2 arg3 harg3 arg4 harg4 arg5 harg5 arg6 harg6 arg7 harg7 arg8 harg8 arg9 harg9 arg10 harg10 hc0 hc1 x0 x1 x2 x3).2.2.1 S64x64.size (by sl_kernel_rfl) y

/-- What the first point leaves in the Gram accumulator: its pieces read back over junk. -/
def sout_A_0 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : cond_0 i) (hc1 : ¬cond_1 i)
    (x0 : Vec F S2000x64 .f32) (x1 : Vec F S1x64 .f32) (x2 : Vec F S2000x128 .f32) (x3 : Vec F S64x128 .f32) : Vec F S64x64 .f32 :=
  VS_0.read (Elt F) (VS_0.writes (Elt F) VS_0.junk (kernelRun_A c i arg1 harg1 arg2 harg2 arg3 harg3 arg4 harg4 arg5 harg5 arg6 harg6 arg7 harg7 arg8 harg8 arg9 harg9 arg10 harg10 hc0 hc1 x0 x1 x2 x3).2.2.1)

/-- The pieces the body's stores leave in the squared-error accumulator at the first point tile it, so they cover it. -/
theorem scover_A_1 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : cond_0 i) (hc1 : ¬cond_1 i)
    (x0 : Vec F S2000x64 .f32) (x1 : Vec F S1x64 .f32) (x2 : Vec F S2000x128 .f32) (x3 : Vec F S64x128 .f32) (y : S1x1.Idx) :
    ∃ pc ∈ (kernelRun_A c i arg1 harg1 arg2 harg2 arg3 harg3 arg4 harg4 arg5 harg5 arg6 harg6 arg7 harg7 arg8 harg8 arg9 harg9 arg10 harg10 hc0 hc1 x0 x1 x2 x3).2.2.2.1, y ∈ pc.1.set :=
  View.cover_of_tiledL (kernelRun_A c i arg1 harg1 arg2 harg2 arg3 harg3 arg4 harg4 arg5 harg5 arg6 harg6 arg7 harg7 arg8 harg8 arg9 harg9 arg10 harg10 hc0 hc1 x0 x1 x2 x3).2.2.2.1 S1x1.size (by sl_kernel_rfl) y

/-- What the first point leaves in the squared-error accumulator: its pieces read back over junk. -/
def sout_A_1 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : cond_0 i) (hc1 : ¬cond_1 i)
    (x0 : Vec F S2000x64 .f32) (x1 : Vec F S1x64 .f32) (x2 : Vec F S2000x128 .f32) (x3 : Vec F S64x128 .f32) : Vec F S1x1 .f32 :=
  VS_1.read (Elt F) (VS_1.writes (Elt F) VS_1.junk (kernelRun_A c i arg1 harg1 arg2 harg2 arg3 harg3 arg4 harg4 arg5 harg5 arg6 harg6 arg7 harg7 arg8 harg8 arg9 harg9 arg10 harg10 hc0 hc1 x0 x1 x2 x3).2.2.2.1)

/-- The pieces the body's stores leave in the first bf16 output (the logistic block) at a middle point tile it, so they cover it. -/
theorem cover_B_4 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : ¬cond_1 i)
    (x0 : Vec F S2000x64 .f32) (x1 : Vec F S1x64 .f32) (x2 : Vec F S2000x128 .f32) (x3 : Vec F S64x128 .f32) (xs0 : Vec F S64x64 .f32) (xs1 : Vec F S1x1 .f32) (y : S2000x64.Idx) :
    ∃ pc ∈ (kernelRun_B c i arg1 harg1 arg2 harg2 arg3 harg3 arg4 harg4 arg5 harg5 arg6 harg6 arg7 harg7 arg8 harg8 arg9 harg9 arg10 harg10 hc0 hc1 x0 x1 x2 x3 xs0 xs1).1, y ∈ pc.1.set :=
  View.cover_of_tiledL (kernelRun_B c i arg1 harg1 arg2 harg2 arg3 harg3 arg4 harg4 arg5 harg5 arg6 harg6 arg7 harg7 arg8 harg8 arg9 harg9 arg10 harg10 hc0 hc1 x0 x1 x2 x3 xs0 xs1).1 S2000x64.size (by sl_kernel_rfl) y

/-- What a middle point leaves in the first bf16 output (the logistic block): its pieces read back over junk. -/
def out_B_4 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : ¬cond_1 i)
    (x0 : Vec F S2000x64 .f32) (x1 : Vec F S1x64 .f32) (x2 : Vec F S2000x128 .f32) (x3 : Vec F S64x128 .f32) (xs0 : Vec F S64x64 .f32) (xs1 : Vec F S1x1 .f32) : Vec F S2000x64 .bf16 :=
  VO_4.read (Elt F) (VO_4.writes (Elt F) VO_4.junk (kernelRun_B c i arg1 harg1 arg2 harg2 arg3 harg3 arg4 harg4 arg5 harg5 arg6 harg6 arg7 harg7 arg8 harg8 arg9 harg9 arg10 harg10 hc0 hc1 x0 x1 x2 x3 xs0 xs1).1)

/-- The pieces the body's stores leave in the second bf16 output (the scaled logistic block) at a middle point tile it, so they cover it. -/
theorem cover_B_5 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : ¬cond_1 i)
    (x0 : Vec F S2000x64 .f32) (x1 : Vec F S1x64 .f32) (x2 : Vec F S2000x128 .f32) (x3 : Vec F S64x128 .f32) (xs0 : Vec F S64x64 .f32) (xs1 : Vec F S1x1 .f32) (y : S2000x64.Idx) :
    ∃ pc ∈ (kernelRun_B c i arg1 harg1 arg2 harg2 arg3 harg3 arg4 harg4 arg5 harg5 arg6 harg6 arg7 harg7 arg8 harg8 arg9 harg9 arg10 harg10 hc0 hc1 x0 x1 x2 x3 xs0 xs1).2.1, y ∈ pc.1.set :=
  View.cover_of_tiledL (kernelRun_B c i arg1 harg1 arg2 harg2 arg3 harg3 arg4 harg4 arg5 harg5 arg6 harg6 arg7 harg7 arg8 harg8 arg9 harg9 arg10 harg10 hc0 hc1 x0 x1 x2 x3 xs0 xs1).2.1 S2000x64.size (by sl_kernel_rfl) y

/-- What a middle point leaves in the second bf16 output (the scaled logistic block): its pieces read back over junk. -/
def out_B_5 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : ¬cond_1 i)
    (x0 : Vec F S2000x64 .f32) (x1 : Vec F S1x64 .f32) (x2 : Vec F S2000x128 .f32) (x3 : Vec F S64x128 .f32) (xs0 : Vec F S64x64 .f32) (xs1 : Vec F S1x1 .f32) : Vec F S2000x64 .bf16 :=
  VO_5.read (Elt F) (VO_5.writes (Elt F) VO_5.junk (kernelRun_B c i arg1 harg1 arg2 harg2 arg3 harg3 arg4 harg4 arg5 harg5 arg6 harg6 arg7 harg7 arg8 harg8 arg9 harg9 arg10 harg10 hc0 hc1 x0 x1 x2 x3 xs0 xs1).2.1)

/-- The pieces the body's stores leave in the Gram accumulator at a middle point tile it, so they cover it. -/
theorem scover_B_0 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : ¬cond_1 i)
    (x0 : Vec F S2000x64 .f32) (x1 : Vec F S1x64 .f32) (x2 : Vec F S2000x128 .f32) (x3 : Vec F S64x128 .f32) (xs0 : Vec F S64x64 .f32) (xs1 : Vec F S1x1 .f32) (y : S64x64.Idx) :
    ∃ pc ∈ (kernelRun_B c i arg1 harg1 arg2 harg2 arg3 harg3 arg4 harg4 arg5 harg5 arg6 harg6 arg7 harg7 arg8 harg8 arg9 harg9 arg10 harg10 hc0 hc1 x0 x1 x2 x3 xs0 xs1).2.2.1, y ∈ pc.1.set :=
  View.cover_of_tiledL (kernelRun_B c i arg1 harg1 arg2 harg2 arg3 harg3 arg4 harg4 arg5 harg5 arg6 harg6 arg7 harg7 arg8 harg8 arg9 harg9 arg10 harg10 hc0 hc1 x0 x1 x2 x3 xs0 xs1).2.2.1 S64x64.size (by sl_kernel_rfl) y

/-- What a middle point leaves in the Gram accumulator: its pieces read back over junk. -/
def sout_B_0 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : ¬cond_1 i)
    (x0 : Vec F S2000x64 .f32) (x1 : Vec F S1x64 .f32) (x2 : Vec F S2000x128 .f32) (x3 : Vec F S64x128 .f32) (xs0 : Vec F S64x64 .f32) (xs1 : Vec F S1x1 .f32) : Vec F S64x64 .f32 :=
  VS_0.read (Elt F) (VS_0.writes (Elt F) VS_0.junk (kernelRun_B c i arg1 harg1 arg2 harg2 arg3 harg3 arg4 harg4 arg5 harg5 arg6 harg6 arg7 harg7 arg8 harg8 arg9 harg9 arg10 harg10 hc0 hc1 x0 x1 x2 x3 xs0 xs1).2.2.1)

/-- The pieces the body's stores leave in the squared-error accumulator at a middle point tile it, so they cover it. -/
theorem scover_B_1 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : ¬cond_1 i)
    (x0 : Vec F S2000x64 .f32) (x1 : Vec F S1x64 .f32) (x2 : Vec F S2000x128 .f32) (x3 : Vec F S64x128 .f32) (xs0 : Vec F S64x64 .f32) (xs1 : Vec F S1x1 .f32) (y : S1x1.Idx) :
    ∃ pc ∈ (kernelRun_B c i arg1 harg1 arg2 harg2 arg3 harg3 arg4 harg4 arg5 harg5 arg6 harg6 arg7 harg7 arg8 harg8 arg9 harg9 arg10 harg10 hc0 hc1 x0 x1 x2 x3 xs0 xs1).2.2.2.1, y ∈ pc.1.set :=
  View.cover_of_tiledL (kernelRun_B c i arg1 harg1 arg2 harg2 arg3 harg3 arg4 harg4 arg5 harg5 arg6 harg6 arg7 harg7 arg8 harg8 arg9 harg9 arg10 harg10 hc0 hc1 x0 x1 x2 x3 xs0 xs1).2.2.2.1 S1x1.size (by sl_kernel_rfl) y

/-- What a middle point leaves in the squared-error accumulator: its pieces read back over junk. -/
def sout_B_1 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : ¬cond_1 i)
    (x0 : Vec F S2000x64 .f32) (x1 : Vec F S1x64 .f32) (x2 : Vec F S2000x128 .f32) (x3 : Vec F S64x128 .f32) (xs0 : Vec F S64x64 .f32) (xs1 : Vec F S1x1 .f32) : Vec F S1x1 .f32 :=
  VS_1.read (Elt F) (VS_1.writes (Elt F) VS_1.junk (kernelRun_B c i arg1 harg1 arg2 harg2 arg3 harg3 arg4 harg4 arg5 harg5 arg6 harg6 arg7 harg7 arg8 harg8 arg9 harg9 arg10 harg10 hc0 hc1 x0 x1 x2 x3 xs0 xs1).2.2.2.1)

/-- The pieces the body's stores leave in the first bf16 output (the logistic block) at the last point tile it, so they cover it. -/
theorem cover_C_4 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : cond_1 i)
    (x0 : Vec F S2000x64 .f32) (x1 : Vec F S1x64 .f32) (x2 : Vec F S2000x128 .f32) (x3 : Vec F S64x128 .f32) (xs0 : Vec F S64x64 .f32) (xs1 : Vec F S1x1 .f32) (y : S2000x64.Idx) :
    ∃ pc ∈ (kernelRun_C c i arg1 harg1 arg2 harg2 arg3 harg3 arg4 harg4 arg5 harg5 arg6 harg6 arg7 harg7 arg8 harg8 arg9 harg9 arg10 harg10 hc0 hc1 x0 x1 x2 x3 xs0 xs1).1, y ∈ pc.1.set :=
  View.cover_of_tiledL (kernelRun_C c i arg1 harg1 arg2 harg2 arg3 harg3 arg4 harg4 arg5 harg5 arg6 harg6 arg7 harg7 arg8 harg8 arg9 harg9 arg10 harg10 hc0 hc1 x0 x1 x2 x3 xs0 xs1).1 S2000x64.size (by sl_kernel_rfl) y

/-- What the last point leaves in the first bf16 output (the logistic block): its pieces read back over junk. -/
def out_C_4 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : cond_1 i)
    (x0 : Vec F S2000x64 .f32) (x1 : Vec F S1x64 .f32) (x2 : Vec F S2000x128 .f32) (x3 : Vec F S64x128 .f32) (xs0 : Vec F S64x64 .f32) (xs1 : Vec F S1x1 .f32) : Vec F S2000x64 .bf16 :=
  VO_4.read (Elt F) (VO_4.writes (Elt F) VO_4.junk (kernelRun_C c i arg1 harg1 arg2 harg2 arg3 harg3 arg4 harg4 arg5 harg5 arg6 harg6 arg7 harg7 arg8 harg8 arg9 harg9 arg10 harg10 hc0 hc1 x0 x1 x2 x3 xs0 xs1).1)

/-- The pieces the body's stores leave in the second bf16 output (the scaled logistic block) at the last point tile it, so they cover it. -/
theorem cover_C_5 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : cond_1 i)
    (x0 : Vec F S2000x64 .f32) (x1 : Vec F S1x64 .f32) (x2 : Vec F S2000x128 .f32) (x3 : Vec F S64x128 .f32) (xs0 : Vec F S64x64 .f32) (xs1 : Vec F S1x1 .f32) (y : S2000x64.Idx) :
    ∃ pc ∈ (kernelRun_C c i arg1 harg1 arg2 harg2 arg3 harg3 arg4 harg4 arg5 harg5 arg6 harg6 arg7 harg7 arg8 harg8 arg9 harg9 arg10 harg10 hc0 hc1 x0 x1 x2 x3 xs0 xs1).2.1, y ∈ pc.1.set :=
  View.cover_of_tiledL (kernelRun_C c i arg1 harg1 arg2 harg2 arg3 harg3 arg4 harg4 arg5 harg5 arg6 harg6 arg7 harg7 arg8 harg8 arg9 harg9 arg10 harg10 hc0 hc1 x0 x1 x2 x3 xs0 xs1).2.1 S2000x64.size (by sl_kernel_rfl) y

/-- What the last point leaves in the second bf16 output (the scaled logistic block): its pieces read back over junk. -/
def out_C_5 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : cond_1 i)
    (x0 : Vec F S2000x64 .f32) (x1 : Vec F S1x64 .f32) (x2 : Vec F S2000x128 .f32) (x3 : Vec F S64x128 .f32) (xs0 : Vec F S64x64 .f32) (xs1 : Vec F S1x1 .f32) : Vec F S2000x64 .bf16 :=
  VO_5.read (Elt F) (VO_5.writes (Elt F) VO_5.junk (kernelRun_C c i arg1 harg1 arg2 harg2 arg3 harg3 arg4 harg4 arg5 harg5 arg6 harg6 arg7 harg7 arg8 harg8 arg9 harg9 arg10 harg10 hc0 hc1 x0 x1 x2 x3 xs0 xs1).2.1)

/-- The pieces the body's stores leave in the Gram output at the last point tile it, so they cover it. -/
theorem cover_C_6 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : cond_1 i)
    (x0 : Vec F S2000x64 .f32) (x1 : Vec F S1x64 .f32) (x2 : Vec F S2000x128 .f32) (x3 : Vec F S64x128 .f32) (xs0 : Vec F S64x64 .f32) (xs1 : Vec F S1x1 .f32) (y : S64x64.Idx) :
    ∃ pc ∈ (kernelRun_C c i arg1 harg1 arg2 harg2 arg3 harg3 arg4 harg4 arg5 harg5 arg6 harg6 arg7 harg7 arg8 harg8 arg9 harg9 arg10 harg10 hc0 hc1 x0 x1 x2 x3 xs0 xs1).2.2.1, y ∈ pc.1.set :=
  View.cover_of_tiledL (kernelRun_C c i arg1 harg1 arg2 harg2 arg3 harg3 arg4 harg4 arg5 harg5 arg6 harg6 arg7 harg7 arg8 harg8 arg9 harg9 arg10 harg10 hc0 hc1 x0 x1 x2 x3 xs0 xs1).2.2.1 S64x64.size (by sl_kernel_rfl) y

/-- What the last point leaves in the Gram output: its pieces read back over junk. -/
def out_C_6 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : cond_1 i)
    (x0 : Vec F S2000x64 .f32) (x1 : Vec F S1x64 .f32) (x2 : Vec F S2000x128 .f32) (x3 : Vec F S64x128 .f32) (xs0 : Vec F S64x64 .f32) (xs1 : Vec F S1x1 .f32) : Vec F S64x64 .f32 :=
  VO_6.read (Elt F) (VO_6.writes (Elt F) VO_6.junk (kernelRun_C c i arg1 harg1 arg2 harg2 arg3 harg3 arg4 harg4 arg5 harg5 arg6 harg6 arg7 harg7 arg8 harg8 arg9 harg9 arg10 harg10 hc0 hc1 x0 x1 x2 x3 xs0 xs1).2.2.1)

/-- The pieces the body's stores leave in the error output at the last point tile it, so they cover it. -/
theorem cover_C_7 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : cond_1 i)
    (x0 : Vec F S2000x64 .f32) (x1 : Vec F S1x64 .f32) (x2 : Vec F S2000x128 .f32) (x3 : Vec F S64x128 .f32) (xs0 : Vec F S64x64 .f32) (xs1 : Vec F S1x1 .f32) (y : S1x1.Idx) :
    ∃ pc ∈ (kernelRun_C c i arg1 harg1 arg2 harg2 arg3 harg3 arg4 harg4 arg5 harg5 arg6 harg6 arg7 harg7 arg8 harg8 arg9 harg9 arg10 harg10 hc0 hc1 x0 x1 x2 x3 xs0 xs1).2.2.2.1, y ∈ pc.1.set :=
  View.cover_of_tiledL (kernelRun_C c i arg1 harg1 arg2 harg2 arg3 harg3 arg4 harg4 arg5 harg5 arg6 harg6 arg7 harg7 arg8 harg8 arg9 harg9 arg10 harg10 hc0 hc1 x0 x1 x2 x3 xs0 xs1).2.2.2.1 S1x1.size (by sl_kernel_rfl) y

/-- What the last point leaves in the error output: its pieces read back over junk. -/
def out_C_7 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : cond_1 i)
    (x0 : Vec F S2000x64 .f32) (x1 : Vec F S1x64 .f32) (x2 : Vec F S2000x128 .f32) (x3 : Vec F S64x128 .f32) (xs0 : Vec F S64x64 .f32) (xs1 : Vec F S1x1 .f32) : Vec F S1x1 .f32 :=
  VO_7.read (Elt F) (VO_7.writes (Elt F) VO_7.junk (kernelRun_C c i arg1 harg1 arg2 harg2 arg3 harg3 arg4 harg4 arg5 harg5 arg6 harg6 arg7 harg7 arg8 harg8 arg9 harg9 arg10 harg10 hc0 hc1 x0 x1 x2 x3 xs0 xs1).2.2.2.1)

/-- The pieces the body's stores leave in the Gram accumulator at the last point tile it, so they cover it. -/
theorem scover_C_0 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : cond_1 i)
    (x0 : Vec F S2000x64 .f32) (x1 : Vec F S1x64 .f32) (x2 : Vec F S2000x128 .f32) (x3 : Vec F S64x128 .f32) (xs0 : Vec F S64x64 .f32) (xs1 : Vec F S1x1 .f32) (y : S64x64.Idx) :
    ∃ pc ∈ (kernelRun_C c i arg1 harg1 arg2 harg2 arg3 harg3 arg4 harg4 arg5 harg5 arg6 harg6 arg7 harg7 arg8 harg8 arg9 harg9 arg10 harg10 hc0 hc1 x0 x1 x2 x3 xs0 xs1).2.2.2.2.1, y ∈ pc.1.set :=
  View.cover_of_tiledL (kernelRun_C c i arg1 harg1 arg2 harg2 arg3 harg3 arg4 harg4 arg5 harg5 arg6 harg6 arg7 harg7 arg8 harg8 arg9 harg9 arg10 harg10 hc0 hc1 x0 x1 x2 x3 xs0 xs1).2.2.2.2.1 S64x64.size (by sl_kernel_rfl) y

/-- What the last point leaves in the Gram accumulator: its pieces read back over junk. -/
def sout_C_0 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : cond_1 i)
    (x0 : Vec F S2000x64 .f32) (x1 : Vec F S1x64 .f32) (x2 : Vec F S2000x128 .f32) (x3 : Vec F S64x128 .f32) (xs0 : Vec F S64x64 .f32) (xs1 : Vec F S1x1 .f32) : Vec F S64x64 .f32 :=
  VS_0.read (Elt F) (VS_0.writes (Elt F) VS_0.junk (kernelRun_C c i arg1 harg1 arg2 harg2 arg3 harg3 arg4 harg4 arg5 harg5 arg6 harg6 arg7 harg7 arg8 harg8 arg9 harg9 arg10 harg10 hc0 hc1 x0 x1 x2 x3 xs0 xs1).2.2.2.2.1)

/-- The pieces the body's stores leave in the squared-error accumulator at the last point tile it, so they cover it. -/
theorem scover_C_1 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : cond_1 i)
    (x0 : Vec F S2000x64 .f32) (x1 : Vec F S1x64 .f32) (x2 : Vec F S2000x128 .f32) (x3 : Vec F S64x128 .f32) (xs0 : Vec F S64x64 .f32) (xs1 : Vec F S1x1 .f32) (y : S1x1.Idx) :
    ∃ pc ∈ (kernelRun_C c i arg1 harg1 arg2 harg2 arg3 harg3 arg4 harg4 arg5 harg5 arg6 harg6 arg7 harg7 arg8 harg8 arg9 harg9 arg10 harg10 hc0 hc1 x0 x1 x2 x3 xs0 xs1).2.2.2.2.2.1, y ∈ pc.1.set :=
  View.cover_of_tiledL (kernelRun_C c i arg1 harg1 arg2 harg2 arg3 harg3 arg4 harg4 arg5 harg5 arg6 harg6 arg7 harg7 arg8 harg8 arg9 harg9 arg10 harg10 hc0 hc1 x0 x1 x2 x3 xs0 xs1).2.2.2.2.2.1 S1x1.size (by sl_kernel_rfl) y

/-- What the last point leaves in the squared-error accumulator: its pieces read back over junk. -/
def sout_C_1 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : cond_1 i)
    (x0 : Vec F S2000x64 .f32) (x1 : Vec F S1x64 .f32) (x2 : Vec F S2000x128 .f32) (x3 : Vec F S64x128 .f32) (xs0 : Vec F S64x64 .f32) (xs1 : Vec F S1x1 .f32) : Vec F S1x1 .f32 :=
  VS_1.read (Elt F) (VS_1.writes (Elt F) VS_1.junk (kernelRun_C c i arg1 harg1 arg2 harg2 arg3 harg3 arg4 harg4 arg5 harg5 arg6 harg6 arg7 harg7 arg8 harg8 arg9 harg9 arg10 harg10 hc0 hc1 x0 x1 x2 x3 xs0 xs1).2.2.2.2.2.1)

/-! ## What the outputs and the accumulators hold after each point -/

/-- The Gram and error outputs where nothing is stored into them: contents nothing consults (at those points the windows
    are neither written back nor read at the next point). -/
def idle_6 : Vec F S64x64 .f32 := VO_6.read (Elt F) VO_6.junk
def idle_7 : Vec F S1x1 .f32 := VO_7.read (Elt F) VO_7.junk

/-- After the first point no later point of the grid is one where the reset is taken. -/
theorem not_first (n : ℕ) (hn : n + 1 < cfg0.N) : ¬(n + 1) % 25 = 0 := by
  have hN : n + 1 < 25 := lt_of_lt_of_eq hn (show cfg0.N = 25 from N_0)
  omega

/-- THE ACCUMULATION. What the four outputs' staging buffers and the two accumulators hold after the body at position `n`
    (a tuple: windows 4, 5, 6, 7, then the Gram accumulator and the squared-error accumulator): the case the closed forms
    select at `n`, run at the point's memrefs and input blocks, the accumulators at what position `n - 1` left. -/
def outsAt (c : Dev nD) : (n : ℕ) → n < cfg0.N → Vec F S2000x64 .bf16 × Vec F S2000x64 .bf16 × Vec F S64x64 .f32 × Vec F S1x1 .f32 × Vec F S64x64 .f32 × Vec F S1x1 .f32
  | 0, hn =>
    (out_A_4 c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) scM_0 (Memref.isWhole_whole _) scM_1 (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩) (iblk V c 2 ⟨0, hn⟩) (iblk V c 3 ⟨0, hn⟩),
      out_A_5 c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) scM_0 (Memref.isWhole_whole _) scM_1 (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩) (iblk V c 2 ⟨0, hn⟩) (iblk V c 3 ⟨0, hn⟩),
      idle_6,
      idle_7,
      sout_A_0 c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) scM_0 (Memref.isWhole_whole _) scM_1 (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩) (iblk V c 2 ⟨0, hn⟩) (iblk V c 3 ⟨0, hn⟩),
      sout_A_1 c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) scM_0 (Memref.isWhole_whole _) scM_1 (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩) (iblk V c 2 ⟨0, hn⟩) (iblk V c 3 ⟨0, hn⟩))
  | n + 1, hn =>
    if h1 : (n + 1) % 25 = 24 then
      (out_C_4 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) scM_0 (Memref.isWhole_whole _) scM_1 (Memref.isWhole_whole _) (fun h => not_first n hn ((hcond_0 ⟨n + 1, hn⟩).mp h)) ((hcond_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.2.2.2.1 (outsAt c n (Nat.lt_of_succ_lt hn)).2.2.2.2.2,
      out_C_5 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) scM_0 (Memref.isWhole_whole _) scM_1 (Memref.isWhole_whole _) (fun h => not_first n hn ((hcond_0 ⟨n + 1, hn⟩).mp h)) ((hcond_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.2.2.2.1 (outsAt c n (Nat.lt_of_succ_lt hn)).2.2.2.2.2,
      out_C_6 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) scM_0 (Memref.isWhole_whole _) scM_1 (Memref.isWhole_whole _) (fun h => not_first n hn ((hcond_0 ⟨n + 1, hn⟩).mp h)) ((hcond_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.2.2.2.1 (outsAt c n (Nat.lt_of_succ_lt hn)).2.2.2.2.2,
      out_C_7 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) scM_0 (Memref.isWhole_whole _) scM_1 (Memref.isWhole_whole _) (fun h => not_first n hn ((hcond_0 ⟨n + 1, hn⟩).mp h)) ((hcond_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.2.2.2.1 (outsAt c n (Nat.lt_of_succ_lt hn)).2.2.2.2.2,
      sout_C_0 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) scM_0 (Memref.isWhole_whole _) scM_1 (Memref.isWhole_whole _) (fun h => not_first n hn ((hcond_0 ⟨n + 1, hn⟩).mp h)) ((hcond_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.2.2.2.1 (outsAt c n (Nat.lt_of_succ_lt hn)).2.2.2.2.2,
      sout_C_1 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) scM_0 (Memref.isWhole_whole _) scM_1 (Memref.isWhole_whole _) (fun h => not_first n hn ((hcond_0 ⟨n + 1, hn⟩).mp h)) ((hcond_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.2.2.2.1 (outsAt c n (Nat.lt_of_succ_lt hn)).2.2.2.2.2)
    else
      (out_B_4 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) scM_0 (Memref.isWhole_whole _) scM_1 (Memref.isWhole_whole _) (fun h => not_first n hn ((hcond_0 ⟨n + 1, hn⟩).mp h)) (fun h => h1 ((hcond_1 ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.2.2.2.1 (outsAt c n (Nat.lt_of_succ_lt hn)).2.2.2.2.2,
      out_B_5 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) scM_0 (Memref.isWhole_whole _) scM_1 (Memref.isWhole_whole _) (fun h => not_first n hn ((hcond_0 ⟨n + 1, hn⟩).mp h)) (fun h => h1 ((hcond_1 ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.2.2.2.1 (outsAt c n (Nat.lt_of_succ_lt hn)).2.2.2.2.2,
      idle_6,
      idle_7,
      sout_B_0 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) scM_0 (Memref.isWhole_whole _) scM_1 (Memref.isWhole_whole _) (fun h => not_first n hn ((hcond_0 ⟨n + 1, hn⟩).mp h)) (fun h => h1 ((hcond_1 ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.2.2.2.1 (outsAt c n (Nat.lt_of_succ_lt hn)).2.2.2.2.2,
      sout_B_1 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) scM_0 (Memref.isWhole_whole _) scM_1 (Memref.isWhole_whole _) (fun h => not_first n hn ((hcond_0 ⟨n + 1, hn⟩).mp h)) (fun h => h1 ((hcond_1 ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.2.2.2.1 (outsAt c n (Nat.lt_of_succ_lt hn)).2.2.2.2.2)

/-- `outsAt` at the first point. -/
theorem outsAt_A (c : Dev nD) (t : Fin cfg0.N) (h0 : t.val % 25 = 0) (h1 : ¬t.val % 25 = 24) :
    outsAt V c t.val t.isLt =
    (out_A_4 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) ((hcond_0 t).mpr h0) (fun h => h1 ((hcond_1 t).mp h)) (iblk V c 0 t) (iblk V c 1 t) (iblk V c 2 t) (iblk V c 3 t),
      out_A_5 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) ((hcond_0 t).mpr h0) (fun h => h1 ((hcond_1 t).mp h)) (iblk V c 0 t) (iblk V c 1 t) (iblk V c 2 t) (iblk V c 3 t),
      idle_6,
      idle_7,
      sout_A_0 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) ((hcond_0 t).mpr h0) (fun h => h1 ((hcond_1 t).mp h)) (iblk V c 0 t) (iblk V c 1 t) (iblk V c 2 t) (iblk V c 3 t),
      sout_A_1 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) ((hcond_0 t).mpr h0) (fun h => h1 ((hcond_1 t).mp h)) (iblk V c 0 t) (iblk V c 1 t) (iblk V c 2 t) (iblk V c 3 t)) := by
  obtain ⟨n, hn⟩ := t
  cases n with
  | zero => exact rfl
  | succ n => exact absurd h0 (not_first n hn)

/-- `outsAt` at a middle point: over what the point before left in the accumulators. -/
theorem outsAt_B (c : Dev nD) (t : Fin cfg0.N) (h0 : ¬t.val % 25 = 0) (h1 : ¬t.val % 25 = 24) :
    outsAt V c t.val t.isLt =
    (out_B_4 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) (fun h => h1 ((hcond_1 t).mp h)) (iblk V c 0 t) (iblk V c 1 t) (iblk V c 2 t) (iblk V c 3 t) (outsAt V c (t.val - 1) (Nat.lt_of_le_of_lt (Nat.sub_le _ _) t.isLt)).2.2.2.2.1 (outsAt V c (t.val - 1) (Nat.lt_of_le_of_lt (Nat.sub_le _ _) t.isLt)).2.2.2.2.2,
      out_B_5 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) (fun h => h1 ((hcond_1 t).mp h)) (iblk V c 0 t) (iblk V c 1 t) (iblk V c 2 t) (iblk V c 3 t) (outsAt V c (t.val - 1) (Nat.lt_of_le_of_lt (Nat.sub_le _ _) t.isLt)).2.2.2.2.1 (outsAt V c (t.val - 1) (Nat.lt_of_le_of_lt (Nat.sub_le _ _) t.isLt)).2.2.2.2.2,
      idle_6,
      idle_7,
      sout_B_0 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) (fun h => h1 ((hcond_1 t).mp h)) (iblk V c 0 t) (iblk V c 1 t) (iblk V c 2 t) (iblk V c 3 t) (outsAt V c (t.val - 1) (Nat.lt_of_le_of_lt (Nat.sub_le _ _) t.isLt)).2.2.2.2.1 (outsAt V c (t.val - 1) (Nat.lt_of_le_of_lt (Nat.sub_le _ _) t.isLt)).2.2.2.2.2,
      sout_B_1 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) (fun h => h1 ((hcond_1 t).mp h)) (iblk V c 0 t) (iblk V c 1 t) (iblk V c 2 t) (iblk V c 3 t) (outsAt V c (t.val - 1) (Nat.lt_of_le_of_lt (Nat.sub_le _ _) t.isLt)).2.2.2.2.1 (outsAt V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h1).trans rfl

/-- `outsAt` at the last point: over what the point before left in the accumulators. -/
theorem outsAt_C (c : Dev nD) (t : Fin cfg0.N) (h0 : ¬t.val % 25 = 0) (h1 : t.val % 25 = 24) :
    outsAt V c t.val t.isLt =
    (out_C_4 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) ((hcond_1 t).mpr h1) (iblk V c 0 t) (iblk V c 1 t) (iblk V c 2 t) (iblk V c 3 t) (outsAt V c (t.val - 1) (Nat.lt_of_le_of_lt (Nat.sub_le _ _) t.isLt)).2.2.2.2.1 (outsAt V c (t.val - 1) (Nat.lt_of_le_of_lt (Nat.sub_le _ _) t.isLt)).2.2.2.2.2,
      out_C_5 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) ((hcond_1 t).mpr h1) (iblk V c 0 t) (iblk V c 1 t) (iblk V c 2 t) (iblk V c 3 t) (outsAt V c (t.val - 1) (Nat.lt_of_le_of_lt (Nat.sub_le _ _) t.isLt)).2.2.2.2.1 (outsAt V c (t.val - 1) (Nat.lt_of_le_of_lt (Nat.sub_le _ _) t.isLt)).2.2.2.2.2,
      out_C_6 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) ((hcond_1 t).mpr h1) (iblk V c 0 t) (iblk V c 1 t) (iblk V c 2 t) (iblk V c 3 t) (outsAt V c (t.val - 1) (Nat.lt_of_le_of_lt (Nat.sub_le _ _) t.isLt)).2.2.2.2.1 (outsAt V c (t.val - 1) (Nat.lt_of_le_of_lt (Nat.sub_le _ _) t.isLt)).2.2.2.2.2,
      out_C_7 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) ((hcond_1 t).mpr h1) (iblk V c 0 t) (iblk V c 1 t) (iblk V c 2 t) (iblk V c 3 t) (outsAt V c (t.val - 1) (Nat.lt_of_le_of_lt (Nat.sub_le _ _) t.isLt)).2.2.2.2.1 (outsAt V c (t.val - 1) (Nat.lt_of_le_of_lt (Nat.sub_le _ _) t.isLt)).2.2.2.2.2,
      sout_C_0 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) ((hcond_1 t).mpr h1) (iblk V c 0 t) (iblk V c 1 t) (iblk V c 2 t) (iblk V c 3 t) (outsAt V c (t.val - 1) (Nat.lt_of_le_of_lt (Nat.sub_le _ _) t.isLt)).2.2.2.2.1 (outsAt V c (t.val - 1) (Nat.lt_of_le_of_lt (Nat.sub_le _ _) t.isLt)).2.2.2.2.2,
      sout_C_1 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) ((hcond_1 t).mpr h1) (iblk V c 0 t) (iblk V c 1 t) (iblk V c 2 t) (iblk V c 3 t) (outsAt V c (t.val - 1) (Nat.lt_of_le_of_lt (Nat.sub_le _ _) t.isLt)).2.2.2.2.1 (outsAt V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_pos h1).trans rfl

/-- The region invariant before position `n`: before the first point the entry invariant (every scratch at anything);
    afterwards the two accumulators at what the point before left in them, the other scoped buffers at anything, the
    generator register at some state. -/
def PhiS (c : Dev nD) : (n : ℕ) → n ≤ cfg0.N → sProp 𝕄
  | 0, _ => Pipeline.ΦA spec0 c
  | n + 1, hn => iprop(iprop(owns (c : Thread nD τ) scM_0 fullShare ((outsAt V c n hn).2.2.2.2.1) ∗ owns (c : Thread nD τ) scM_1 fullShare ((outsAt V c n hn).2.2.2.2.2) ∗ restOf (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM_0 fullShare ((outsAt V c n hn).2.2.2.2.1) ∗ owns (c : Thread nD τ) scM_1 fullShare ((outsAt V c n hn).2.2.2.2.2) ∗ restOf (F := F) c) ∗ (∃ r, prngReg c r)) := rfl

theorem PhiS_pos (c : Dev nD) (n : ℕ) (h : n ≤ cfg0.N) (hz : n ≠ 0) :
    PhiS V c n h = iprop(iprop(owns (c : Thread nD τ) scM_0 fullShare ((outsAt V c (n - 1) (by omega)).2.2.2.2.1) ∗ owns (c : Thread nD τ) scM_1 fullShare ((outsAt V c (n - 1) (by omega)).2.2.2.2.2) ∗ restOf (F := F) c) ∗ (∃ r, prngReg c r)) := by
  cases n with
  | zero => exact absurd rfl hz
  | succ n => rfl

/-! ## The pipeline's proof data -/

/-- The proof data of the node pass on core `c`: the arrays as the region finds them; after the body at point `t` each
    input's buffer at its block and the outputs' at `outsAt`; the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
    | ⟨5, _⟩ => (outsAt V c t.val t.isLt).2.1
    | ⟨6, _⟩ => (outsAt V c t.val t.isLt).2.2.1
    | ⟨7, _⟩ => (outsAt V c t.val t.isLt).2.2.2.1
  Φ t := PhiS V c t.val (Nat.le_of_lt_succ t.isLt)
  q _ := fullShare
  owed _ := 0

/-- The proof data's arrays are the region-entry contents. -/
theorem A_eq (c : Dev nD) (w : Fin cfg0.W) : (dat V c).A w = V c (Pipeline.arrRef spec0 w) := by
  dsimp only [dat]

/-- The invariant at a point's start, restated at `t.val`. -/
theorem PhiS_castSucc (c : Dev nD) (t : Fin cfg0.N) :
    (dat V c).Φ t.castSucc = PhiS V c t.val (Nat.le_of_lt t.isLt) := by
  dsimp only [dat]; simp only [Fin.coe_castSucc]

/-- What the body leaves, window by window. -/
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = (outsAt V c t.val t.isLt).1 := by dsimp only [dat]
theorem after_5 (c : Dev nD) (t : Fin cfg0.N) : (dat V c).after 5 t = (outsAt V c t.val t.isLt).2.1 := by dsimp only [dat]
theorem after_6 (c : Dev nD) (t : Fin cfg0.N) : (dat V c).after 6 t = (outsAt V c t.val t.isLt).2.2.1 := by dsimp only [dat]
theorem after_7 (c : Dev nD) (t : Fin cfg0.N) : (dat V c).after 7 t = (outsAt V c t.val t.isLt).2.2.2.1 := by dsimp only [dat]

/-- Each input's current staging buffer holds its block at every point, fetched there or not. -/
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d))
    ∗ (∃ d, owns (c : Thread nD τ) (ms_6 t) fullShare ((dat V c).before 6 t d))
    ∗ (∃ d, owns (c : Thread nD τ) (ms_7 t) fullShare ((dat V c).before 7 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 8000000 in
/-- The body at any point: the inputs' memrefs hold their blocks; the closed forms say which case the point is in; the
    invariant hands the body the two accumulators at what the point before left (at anything at the first point) and takes
    them back at this point's contents; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 25 := lt_of_lt_of_eq t.isLt (show cfg0.N = 25 from N_0)
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  rw [show (dat V c).leavesExact 2 t = owns (c : Thread nD τ) (ms_2 t) fullShare ((dat V c).after 2 t) from by
    unfold Dat.leavesExact; rw [liveAt_2 t], after_2]
  rw [show (dat V c).leavesExact 3 t = owns (c : Thread nD τ) (ms_3 t) fullShare ((dat V c).after 3 t) from by
    unfold Dat.leavesExact; rw [liveAt_3 t], after_3]
  rw [show (dat V c).leavesExact 4 t = owns (c : Thread nD τ) (ms_4 t) fullShare ((dat V c).after 4 t) from by
    unfold Dat.leavesExact; rw [liveAt_4 t], after_4]
  rw [show (dat V c).leavesExact 5 t = owns (c : Thread nD τ) (ms_5 t) fullShare ((dat V c).after 5 t) from by
    unfold Dat.leavesExact; rw [liveAt_5 t], after_5]
  by_cases h0 : t.val % 25 = 0
  · have h1 : ¬t.val % 25 = 24 := by omega
    have hz : t.val = 0 := by omega
    rw [Dat.leavesExact_idle (dat V c) 6 t (idleAt_6_A t ((hcond_0 t).mpr h0) (fun h => h1 ((hcond_1 t).mp h))) (noFlush_6_A t ((hcond_0 t).mpr h0) (fun h => h1 ((hcond_1 t).mp h)))]
    rw [Dat.leavesExact_idle (dat V c) 7 t (idleAt_7_A t ((hcond_0 t).mpr h0) (fun h => h1 ((hcond_1 t).mp h))) (noFlush_7_A t ((hcond_0 t).mpr h0) (fun h => h1 ((hcond_1 t).mp h)))]
    rw [outsAt_A V c t h0 h1]
    unfold out_A_4 out_A_5 sout_A_0 sout_A_1; (try dsimp only)
    rw [PhiS_castSucc V c t, PhiS_zero V c _ _ hz, PhiA_eq]
    iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun_A c (grid0.coords t) _ _ _ _ _ _ _ _ _ _ _ _ _ _ _ _ _ _ _ _ ((hcond_0 t).mpr h0) (fun h => h1 ((hcond_1 t).mp h)) (iblk V c 0 t) (iblk V c 1 t) (iblk V c 2 t) (iblk V c 3 t)).2.2.2.2 _ _ Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    isplitl [H7]; · iexact H7
    isplitl [HS0]; · iexact HS0
    isplitl [HS1]; · iexact HS1
    iintro ⟨H0, H1, H2, H3, ⟨%e4, H4⟩, ⟨%e5, H5⟩, H6, H7, ⟨%es0, HS0⟩, ⟨%es1, HS1⟩⟩
    isplitl [HS0 HS1 Hr Hg]
    · isplitl [HS0 HS1 Hr]
      · isplitl [HS0]
        · unfold owns; iexists _; isplitr
          swap; · iexact HS0
          ipureintro; exact View.read_writes_of_cover _ _ _ _ _ (scover_A_0 c _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover_A_1 c _ _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover_A_4 c _ _ _ _ _ _ _ _ _ _ _ _ _ _ _ _ _ _ _ _ _ _ _ _ _ _ _)
    isplitl [H5]
    · unfold owns; iexists _; isplitr
      swap; · iexact H5
      ipureintro; exact View.read_writes_of_cover _ _ _ _ _ (cover_A_5 c _ _ _ _ _ _ _ _ _ _ _ _ _ _ _ _ _ _ _ _ _ _ _ _ _ _ _)
    isplitl [H6]; · iexists _; iexact H6
    iexists _; iexact H7
  · have hz : t.val ≠ 0 := fun e => h0 (by rw [e])
    by_cases h1 : t.val % 25 = 24
    · rw [show (dat V c).leavesExact 6 t = owns (c : Thread nD τ) (ms_6 t) fullShare ((dat V c).after 6 t) from by
        unfold Dat.leavesExact; rw [liveAt_6_C t (fun h => h0 ((hcond_0 t).mp h)) ((hcond_1 t).mpr h1)], after_6]
      rw [show (dat V c).leavesExact 7 t = owns (c : Thread nD τ) (ms_7 t) fullShare ((dat V c).after 7 t) from by
        unfold Dat.leavesExact; rw [liveAt_7_C t (fun h => h0 ((hcond_0 t).mp h)) ((hcond_1 t).mpr h1)], after_7]
      rw [outsAt_C V c t h0 h1]
      unfold out_C_4 out_C_5 out_C_6 out_C_7 sout_C_0 sout_C_1; (try dsimp only)
      rw [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun_C c (grid0.coords t) _ _ _ _ _ _ _ _ _ _ _ _ _ _ _ _ _ _ _ _ (fun h => h0 ((hcond_0 t).mp h)) ((hcond_1 t).mpr h1) (iblk V c 0 t) (iblk V c 1 t) (iblk V c 2 t) (iblk V c 3 t) _ _).2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, ⟨%e4, H4⟩, ⟨%e5, H5⟩, ⟨%e6, H6⟩, ⟨%e7, H7⟩, ⟨%es0, HS0⟩, ⟨%es1, HS1⟩⟩
      isplitl [HS0 HS1 Hr Hg]
      · isplitl [HS0 HS1 Hr]
        · isplitl [HS0]
          · unfold owns; iexists _; isplitr
            swap; · iexact HS0
            ipureintro; exact View.read_writes_of_cover _ _ _ _ _ (scover_C_0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover_C_1 c _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover_C_4 c _ _ _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover_C_5 c _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover_C_6 c _ _ _ _ _ _ _ _ _ _ _ _ _ _ _ _ _ _ _ _ _ _ _ _ _ _ _ _ _)
      unfold owns; iexists _; isplitr
      swap; · iexact H7
      ipureintro; exact View.read_writes_of_cover _ _ _ _ _ (cover_C_7 c _ _ _ _ _ _ _ _ _ _ _ _ _ _ _ _ _ _ _ _ _ _ _ _ _ _ _ _ _)
    · rw [Dat.leavesExact_idle (dat V c) 6 t (idleAt_6_B t (fun h => h0 ((hcond_0 t).mp h)) (fun h => h1 ((hcond_1 t).mp h))) (noFlush_6_B t (fun h => h0 ((hcond_0 t).mp h)) (fun h => h1 ((hcond_1 t).mp h)))]
      rw [Dat.leavesExact_idle (dat V c) 7 t (idleAt_7_B t (fun h => h0 ((hcond_0 t).mp h)) (fun h => h1 ((hcond_1 t).mp h))) (noFlush_7_B t (fun h => h0 ((hcond_0 t).mp h)) (fun h => h1 ((hcond_1 t).mp h)))]
      rw [outsAt_B V c t h0 h1]
      unfold out_B_4 out_B_5 sout_B_0 sout_B_1; (try dsimp only)
      rw [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun_B c (grid0.coords t) _ _ _ _ _ _ _ _ _ _ _ _ _ _ _ _ _ _ _ _ (fun h => h0 ((hcond_0 t).mp h)) (fun h => h1 ((hcond_1 t).mp h)) (iblk V c 0 t) (iblk V c 1 t) (iblk V c 2 t) (iblk V c 3 t) _ _).2.2.2.2 _ _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexact H6
      isplitl [H7]; · iexact H7
      isplitl [HS0]; · iexact HS0
      isplitl [HS1]; · iexact HS1
      iintro ⟨H0, H1, H2, H3, ⟨%e4, H4⟩, ⟨%e5, H5⟩, H6, H7, ⟨%es0, HS0⟩, ⟨%es1, HS1⟩⟩
      isplitl [HS0 HS1 Hr Hg]
      · isplitl [HS0 HS1 Hr]
        · isplitl [HS0]
          · unfold owns; iexists _; isplitr
            swap; · iexact HS0
            ipureintro; exact View.read_writes_of_cover _ _ _ _ _ (scover_B_0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover_B_1 c _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover_B_4 c _ _ _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover_B_5 c _ _ _ _ _ _ _ _ _ _ _ _ _ _ _ _ _ _ _ _ _ _ _ _ _ _ _ _ _)
      isplitl [H6]; · iexists _; iexact H6
      iexists _; iexact H7

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives the entry invariant back: the accumulators' named contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS0, HS1, Hr⟩, Hg⟩
  isplitl [HS0 HS1 Hr]
  · isplitl [HS0]; · iexists _; iexact HS0
    isplitl [HS1]; · iexists _; iexact HS1
    iexact Hr
  iexact Hg

/-- The same after the last point. -/
theorem hout (c : Dev nD) : (dat V c).Φ (Fin.last cfg0.N) ⊢ Pipeline.ΦA spec0 c :=
  Phi_out V c _ (by rw [Fin.val_last]; have : cfg0.N = 25 := N_0; omega)

/-! ## The values: what each found piece list reads back as

Every store of the body writes a whole buffer through the unit rectangle at zero offsets, so the last piece of each list
is what the buffer holds, and a load through the same rectangle reads the contents (or, after a store of the same run,
that store's payload). -/

/-- The zero offsets of a whole-buffer rectangle, however spelt. -/
theorem hz2 : (![0, 0] : Fin 2 → Nat) = fun _ => 0 := funext fun a => by fin_cases a <;> rfl

theorem out_A_4_eq (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : cond_0 i) (hc1 : ¬cond_1 i)
    (x0 : Vec F S2000x64 .f32) (x1 : Vec F S1x64 .f32) (x2 : Vec F S2000x128 .f32) (x3 : Vec F S64x128 .f32) :
    out_A_4 c i arg1 harg1 arg2 harg2 arg3 harg3 arg4 harg4 arg5 harg5 arg6 harg6 arg7 harg7 arg8 harg8 arg9 harg9 arg10 harg10 hc0 hc1 x0 x1 x2 x3 = k0_pay5 x0 := by
  unfold out_A_4
  rw [View.read_writes_eq_canon _ _ _ (cover_A_4 c i arg1 harg1 arg2 harg2 arg3 harg3 arg4 harg4 arg5 harg5 arg6 harg6 arg7 harg7 arg8 harg8 arg9 harg9 arg10 harg10 hc0 hc1 x0 x1 x2 x3)]
  unfold kernelRun_A
  dsimp only
  sl_unfold_words
  rw [View.canon_unit_zero hz2]
  simp only [View.readAt_eq_ld, harg1.read_unread, harg2.read_unread, harg3.read_unread, harg4.read_unread, View.ld_unit_zero (S := S2000x64) hz2, View.ld_unit_zero (S := S1x64) hz2, View.ld_unit_zero (S := S2000x128) hz2, View.ld_unit_zero (S := S64x128) hz2, View.ld_unit_zero (S := S64x64) hz2, View.ld_unit_zero (S := S1x1) hz2]

theorem out_A_5_eq (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : cond_0 i) (hc1 : ¬cond_1 i)
    (x0 : Vec F S2000x64 .f32) (x1 : Vec F S1x64 .f32) (x2 : Vec F S2000x128 .f32) (x3 : Vec F S64x128 .f32) :
    out_A_5 c i arg1 harg1 arg2 harg2 arg3 harg3 arg4 harg4 arg5 harg5 arg6 harg6 arg7 harg7 arg8 harg8 arg9 harg9 arg10 harg10 hc0 hc1 x0 x1 x2 x3 = k0_pay6 x0 x1 := by
  unfold out_A_5
  rw [View.read_writes_eq_canon _ _ _ (cover_A_5 c i arg1 harg1 arg2 harg2 arg3 harg3 arg4 harg4 arg5 harg5 arg6 harg6 arg7 harg7 arg8 harg8 arg9 harg9 arg10 harg10 hc0 hc1 x0 x1 x2 x3)]
  unfold kernelRun_A
  dsimp only
  sl_unfold_words
  rw [View.canon_unit_zero hz2]
  simp only [View.readAt_eq_ld, harg1.read_unread, harg2.read_unread, harg3.read_unread, harg4.read_unread, View.ld_unit_zero (S := S2000x64) hz2, View.ld_unit_zero (S := S1x64) hz2, View.ld_unit_zero (S := S2000x128) hz2, View.ld_unit_zero (S := S64x128) hz2, View.ld_unit_zero (S := S64x64) hz2, View.ld_unit_zero (S := S1x1) hz2]

theorem sout_A_0_eq (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : cond_0 i) (hc1 : ¬cond_1 i)
    (x0 : Vec F S2000x64 .f32) (x1 : Vec F S1x64 .f32) (x2 : Vec F S2000x128 .f32) (x3 : Vec F S64x128 .f32) :
    sout_A_0 c i arg1 harg1 arg2 harg2 arg3 harg3 arg4 harg4 arg5 harg5 arg6 harg6 arg7 harg7 arg8 harg8 arg9 harg9 arg10 harg10 hc0 hc1 x0 x1 x2 x3 = k0_pay7 x0 x1 (k0_pay2 (F := F)) := by
  unfold sout_A_0
  rw [View.read_writes_eq_canon _ _ _ (scover_A_0 c i arg1 harg1 arg2 harg2 arg3 harg3 arg4 harg4 arg5 harg5 arg6 harg6 arg7 harg7 arg8 harg8 arg9 harg9 arg10 harg10 hc0 hc1 x0 x1 x2 x3)]
  unfold kernelRun_A
  dsimp only
  sl_unfold_words
  rw [View.canon_cons_unit_zero (S := S64x64) hz2, View.readCov_unit_zero (S := S64x64) _ hz2]
  simp only [View.readAt_eq_ld, harg1.read_unread, harg2.read_unread, harg3.read_unread, harg4.read_unread, View.ld_unit_zero (S := S2000x64) hz2, View.ld_unit_zero (S := S1x64) hz2, View.ld_unit_zero (S := S2000x128) hz2, View.ld_unit_zero (S := S64x128) hz2, View.ld_unit_zero (S := S64x64) hz2, View.ld_unit_zero (S := S1x1) hz2]

theorem sout_A_1_eq (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : cond_0 i) (hc1 : ¬cond_1 i)
    (x0 : Vec F S2000x64 .f32) (x1 : Vec F S1x64 .f32) (x2 : Vec F S2000x128 .f32) (x3 : Vec F S64x128 .f32) :
    sout_A_1 c i arg1 harg1 arg2 harg2 arg3 harg3 arg4 harg4 arg5 harg5 arg6 harg6 arg7 harg7 arg8 harg8 arg9 harg9 arg10 harg10 hc0 hc1 x0 x1 x2 x3 = k0_pay1 (k0_pay8 x0 x1 x3 x2) (k0_pay3 (F := F)) := by
  unfold sout_A_1
  rw [View.read_writes_eq_canon _ _ _ (scover_A_1 c i arg1 harg1 arg2 harg2 arg3 harg3 arg4 harg4 arg5 harg5 arg6 harg6 arg7 harg7 arg8 harg8 arg9 harg9 arg10 harg10 hc0 hc1 x0 x1 x2 x3)]
  unfold kernelRun_A
  dsimp only
  sl_unfold_words
  rw [View.canon_cons_unit_zero (S := S1x1) hz2, View.readCov_unit_zero (S := S1x1) _ hz2]
  simp only [View.readAt_eq_ld, harg1.read_unread, harg2.read_unread, harg3.read_unread, harg4.read_unread, View.ld_unit_zero (S := S2000x64) hz2, View.ld_unit_zero (S := S1x64) hz2, View.ld_unit_zero (S := S2000x128) hz2, View.ld_unit_zero (S := S64x128) hz2, View.ld_unit_zero (S := S64x64) hz2, View.ld_unit_zero (S := S1x1) hz2]

theorem out_B_4_eq (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : ¬cond_1 i)
    (x0 : Vec F S2000x64 .f32) (x1 : Vec F S1x64 .f32) (x2 : Vec F S2000x128 .f32) (x3 : Vec F S64x128 .f32) (xs0 : Vec F S64x64 .f32) (xs1 : Vec F S1x1 .f32) :
    out_B_4 c i arg1 harg1 arg2 harg2 arg3 harg3 arg4 harg4 arg5 harg5 arg6 harg6 arg7 harg7 arg8 harg8 arg9 harg9 arg10 harg10 hc0 hc1 x0 x1 x2 x3 xs0 xs1 = k0_pay5 x0 := by
  unfold out_B_4
  rw [View.read_writes_eq_canon _ _ _ (cover_B_4 c i arg1 harg1 arg2 harg2 arg3 harg3 arg4 harg4 arg5 harg5 arg6 harg6 arg7 harg7 arg8 harg8 arg9 harg9 arg10 harg10 hc0 hc1 x0 x1 x2 x3 xs0 xs1)]
  unfold kernelRun_B
  dsimp only
  sl_unfold_words
  rw [View.canon_unit_zero hz2]
  simp only [View.readAt_eq_ld, harg1.read_unread, harg2.read_unread, harg3.read_unread, harg4.read_unread, harg9.read_unread, harg10.read_unread, View.ld_unit_zero (S := S2000x64) hz2, View.ld_unit_zero (S := S1x64) hz2, View.ld_unit_zero (S := S2000x128) hz2, View.ld_unit_zero (S := S64x128) hz2, View.ld_unit_zero (S := S64x64) hz2, View.ld_unit_zero (S := S1x1) hz2]

theorem out_B_5_eq (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : ¬cond_1 i)
    (x0 : Vec F S2000x64 .f32) (x1 : Vec F S1x64 .f32) (x2 : Vec F S2000x128 .f32) (x3 : Vec F S64x128 .f32) (xs0 : Vec F S64x64 .f32) (xs1 : Vec F S1x1 .f32) :
    out_B_5 c i arg1 harg1 arg2 harg2 arg3 harg3 arg4 harg4 arg5 harg5 arg6 harg6 arg7 harg7 arg8 harg8 arg9 harg9 arg10 harg10 hc0 hc1 x0 x1 x2 x3 xs0 xs1 = k0_pay6 x0 x1 := by
  unfold out_B_5
  rw [View.read_writes_eq_canon _ _ _ (cover_B_5 c i arg1 harg1 arg2 harg2 arg3 harg3 arg4 harg4 arg5 harg5 arg6 harg6 arg7 harg7 arg8 harg8 arg9 harg9 arg10 harg10 hc0 hc1 x0 x1 x2 x3 xs0 xs1)]
  unfold kernelRun_B
  dsimp only
  sl_unfold_words
  rw [View.canon_unit_zero hz2]
  simp only [View.readAt_eq_ld, harg1.read_unread, harg2.read_unread, harg3.read_unread, harg4.read_unread, harg9.read_unread, harg10.read_unread, View.ld_unit_zero (S := S2000x64) hz2, View.ld_unit_zero (S := S1x64) hz2, View.ld_unit_zero (S := S2000x128) hz2, View.ld_unit_zero (S := S64x128) hz2, View.ld_unit_zero (S := S64x64) hz2, View.ld_unit_zero (S := S1x1) hz2]

theorem sout_B_0_eq (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : ¬cond_1 i)
    (x0 : Vec F S2000x64 .f32) (x1 : Vec F S1x64 .f32) (x2 : Vec F S2000x128 .f32) (x3 : Vec F S64x128 .f32) (xs0 : Vec F S64x64 .f32) (xs1 : Vec F S1x1 .f32) :
    sout_B_0 c i arg1 harg1 arg2 harg2 arg3 harg3 arg4 harg4 arg5 harg5 arg6 harg6 arg7 harg7 arg8 harg8 arg9 harg9 arg10 harg10 hc0 hc1 x0 x1 x2 x3 xs0 xs1 = k0_pay7 x0 x1 xs0 := by
  unfold sout_B_0
  rw [View.read_writes_eq_canon _ _ _ (scover_B_0 c i arg1 harg1 arg2 harg2 arg3 harg3 arg4 harg4 arg5 harg5 arg6 harg6 arg7 harg7 arg8 harg8 arg9 harg9 arg10 harg10 hc0 hc1 x0 x1 x2 x3 xs0 xs1)]
  unfold kernelRun_B
  dsimp only
  sl_unfold_words
  rw [View.canon_unit_zero hz2]
  simp only [View.readAt_eq_ld, harg1.read_unread, harg2.read_unread, harg3.read_unread, harg4.read_unread, harg9.read_unread, harg10.read_unread, View.ld_unit_zero (S := S2000x64) hz2, View.ld_unit_zero (S := S1x64) hz2, View.ld_unit_zero (S := S2000x128) hz2, View.ld_unit_zero (S := S64x128) hz2, View.ld_unit_zero (S := S64x64) hz2, View.ld_unit_zero (S := S1x1) hz2]

theorem sout_B_1_eq (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : ¬cond_1 i)
    (x0 : Vec F S2000x64 .f32) (x1 : Vec F S1x64 .f32) (x2 : Vec F S2000x128 .f32) (x3 : Vec F S64x128 .f32) (xs0 : Vec F S64x64 .f32) (xs1 : Vec F S1x1 .f32) :
    sout_B_1 c i arg1 harg1 arg2 harg2 arg3 harg3 arg4 harg4 arg5 harg5 arg6 harg6 arg7 harg7 arg8 harg8 arg9 harg9 arg10 harg10 hc0 hc1 x0 x1 x2 x3 xs0 xs1 = k0_pay1 (k0_pay8 x0 x1 x3 x2) xs1 := by
  unfold sout_B_1
  rw [View.read_writes_eq_canon _ _ _ (scover_B_1 c i arg1 harg1 arg2 harg2 arg3 harg3 arg4 harg4 arg5 harg5 arg6 harg6 arg7 harg7 arg8 harg8 arg9 harg9 arg10 harg10 hc0 hc1 x0 x1 x2 x3 xs0 xs1)]
  unfold kernelRun_B
  dsimp only
  sl_unfold_words
  rw [View.canon_unit_zero hz2]
  simp only [View.readAt_eq_ld, harg1.read_unread, harg2.read_unread, harg3.read_unread, harg4.read_unread, harg9.read_unread, harg10.read_unread, View.ld_unit_zero (S := S2000x64) hz2, View.ld_unit_zero (S := S1x64) hz2, View.ld_unit_zero (S := S2000x128) hz2, View.ld_unit_zero (S := S64x128) hz2, View.ld_unit_zero (S := S64x64) hz2, View.ld_unit_zero (S := S1x1) hz2]

theorem out_C_4_eq (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : cond_1 i)
    (x0 : Vec F S2000x64 .f32) (x1 : Vec F S1x64 .f32) (x2 : Vec F S2000x128 .f32) (x3 : Vec F S64x128 .f32) (xs0 : Vec F S64x64 .f32) (xs1 : Vec F S1x1 .f32) :
    out_C_4 c i arg1 harg1 arg2 harg2 arg3 harg3 arg4 harg4 arg5 harg5 arg6 harg6 arg7 harg7 arg8 harg8 arg9 harg9 arg10 harg10 hc0 hc1 x0 x1 x2 x3 xs0 xs1 = k0_pay5 x0 := by
  unfold out_C_4
  rw [View.read_writes_eq_canon _ _ _ (cover_C_4 c i arg1 harg1 arg2 harg2 arg3 harg3 arg4 harg4 arg5 harg5 arg6 harg6 arg7 harg7 arg8 harg8 arg9 harg9 arg10 harg10 hc0 hc1 x0 x1 x2 x3 xs0 xs1)]
  unfold kernelRun_C
  dsimp only
  sl_unfold_words
  rw [View.canon_unit_zero hz2]
  simp only [View.readAt_eq_ld, harg1.read_unread, harg2.read_unread, harg3.read_unread, harg4.read_unread, harg9.read_unread, harg10.read_unread, View.ld_unit_zero (S := S2000x64) hz2, View.ld_unit_zero (S := S1x64) hz2, View.ld_unit_zero (S := S2000x128) hz2, View.ld_unit_zero (S := S64x128) hz2, View.ld_unit_zero (S := S64x64) hz2, View.ld_unit_zero (S := S1x1) hz2]

theorem out_C_5_eq (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : cond_1 i)
    (x0 : Vec F S2000x64 .f32) (x1 : Vec F S1x64 .f32) (x2 : Vec F S2000x128 .f32) (x3 : Vec F S64x128 .f32) (xs0 : Vec F S64x64 .f32) (xs1 : Vec F S1x1 .f32) :
    out_C_5 c i arg1 harg1 arg2 harg2 arg3 harg3 arg4 harg4 arg5 harg5 arg6 harg6 arg7 harg7 arg8 harg8 arg9 harg9 arg10 harg10 hc0 hc1 x0 x1 x2 x3 xs0 xs1 = k0_pay6 x0 x1 := by
  unfold out_C_5
  rw [View.read_writes_eq_canon _ _ _ (cover_C_5 c i arg1 harg1 arg2 harg2 arg3 harg3 arg4 harg4 arg5 harg5 arg6 harg6 arg7 harg7 arg8 harg8 arg9 harg9 arg10 harg10 hc0 hc1 x0 x1 x2 x3 xs0 xs1)]
  unfold kernelRun_C
  dsimp only
  sl_unfold_words
  rw [View.canon_unit_zero hz2]
  simp only [View.readAt_eq_ld, harg1.read_unread, harg2.read_unread, harg3.read_unread, harg4.read_unread, harg9.read_unread, harg10.read_unread, View.ld_unit_zero (S := S2000x64) hz2, View.ld_unit_zero (S := S1x64) hz2, View.ld_unit_zero (S := S2000x128) hz2, View.ld_unit_zero (S := S64x128) hz2, View.ld_unit_zero (S := S64x64) hz2, View.ld_unit_zero (S := S1x1) hz2]

theorem out_C_6_eq (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : cond_1 i)
    (x0 : Vec F S2000x64 .f32) (x1 : Vec F S1x64 .f32) (x2 : Vec F S2000x128 .f32) (x3 : Vec F S64x128 .f32) (xs0 : Vec F S64x64 .f32) (xs1 : Vec F S1x1 .f32) :
    out_C_6 c i arg1 harg1 arg2 harg2 arg3 harg3 arg4 harg4 arg5 harg5 arg6 harg6 arg7 harg7 arg8 harg8 arg9 harg9 arg10 harg10 hc0 hc1 x0 x1 x2 x3 xs0 xs1 = k0_pay7 x0 x1 xs0 := by
  unfold out_C_6
  rw [View.read_writes_eq_canon _ _ _ (cover_C_6 c i arg1 harg1 arg2 harg2 arg3 harg3 arg4 harg4 arg5 harg5 arg6 harg6 arg7 harg7 arg8 harg8 arg9 harg9 arg10 harg10 hc0 hc1 x0 x1 x2 x3 xs0 xs1)]
  unfold kernelRun_C
  dsimp only
  sl_unfold_words
  rw [View.canon_unit_zero hz2, View.readCov_unit_zero (S := S64x64) _ hz2]
  simp only [View.readAt_eq_ld, harg1.read_unread, harg2.read_unread, harg3.read_unread, harg4.read_unread, harg9.read_unread, harg10.read_unread, View.ld_unit_zero (S := S2000x64) hz2, View.ld_unit_zero (S := S1x64) hz2, View.ld_unit_zero (S := S2000x128) hz2, View.ld_unit_zero (S := S64x128) hz2, View.ld_unit_zero (S := S64x64) hz2, View.ld_unit_zero (S := S1x1) hz2]

theorem out_C_7_eq (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : cond_1 i)
    (x0 : Vec F S2000x64 .f32) (x1 : Vec F S1x64 .f32) (x2 : Vec F S2000x128 .f32) (x3 : Vec F S64x128 .f32) (xs0 : Vec F S64x64 .f32) (xs1 : Vec F S1x1 .f32) :
    out_C_7 c i arg1 harg1 arg2 harg2 arg3 harg3 arg4 harg4 arg5 harg5 arg6 harg6 arg7 harg7 arg8 harg8 arg9 harg9 arg10 harg10 hc0 hc1 x0 x1 x2 x3 xs0 xs1 = k0_pay1 (k0_pay8 x0 x1 x3 x2) xs1 := by
  unfold out_C_7
  rw [View.read_writes_eq_canon _ _ _ (cover_C_7 c i arg1 harg1 arg2 harg2 arg3 harg3 arg4 harg4 arg5 harg5 arg6 harg6 arg7 harg7 arg8 harg8 arg9 harg9 arg10 harg10 hc0 hc1 x0 x1 x2 x3 xs0 xs1)]
  unfold kernelRun_C
  dsimp only
  sl_unfold_words
  rw [View.canon_unit_zero hz2, View.readCov_unit_zero (S := S1x1) _ hz2]
  simp only [View.readAt_eq_ld, harg1.read_unread, harg2.read_unread, harg3.read_unread, harg4.read_unread, harg9.read_unread, harg10.read_unread, View.ld_unit_zero (S := S2000x64) hz2, View.ld_unit_zero (S := S1x64) hz2, View.ld_unit_zero (S := S2000x128) hz2, View.ld_unit_zero (S := S64x128) hz2, View.ld_unit_zero (S := S64x64) hz2, View.ld_unit_zero (S := S1x1) hz2]

theorem sout_C_0_eq (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : cond_1 i)
    (x0 : Vec F S2000x64 .f32) (x1 : Vec F S1x64 .f32) (x2 : Vec F S2000x128 .f32) (x3 : Vec F S64x128 .f32) (xs0 : Vec F S64x64 .f32) (xs1 : Vec F S1x1 .f32) :
    sout_C_0 c i arg1 harg1 arg2 harg2 arg3 harg3 arg4 harg4 arg5 harg5 arg6 harg6 arg7 harg7 arg8 harg8 arg9 harg9 arg10 harg10 hc0 hc1 x0 x1 x2 x3 xs0 xs1 = k0_pay7 x0 x1 xs0 := by
  unfold sout_C_0
  rw [View.read_writes_eq_canon _ _ _ (scover_C_0 c i arg1 harg1 arg2 harg2 arg3 harg3 arg4 harg4 arg5 harg5 arg6 harg6 arg7 harg7 arg8 harg8 arg9 harg9 arg10 harg10 hc0 hc1 x0 x1 x2 x3 xs0 xs1)]
  unfold kernelRun_C
  dsimp only
  sl_unfold_words
  rw [View.canon_unit_zero hz2]
  simp only [View.readAt_eq_ld, harg1.read_unread, harg2.read_unread, harg3.read_unread, harg4.read_unread, harg9.read_unread, harg10.read_unread, View.ld_unit_zero (S := S2000x64) hz2, View.ld_unit_zero (S := S1x64) hz2, View.ld_unit_zero (S := S2000x128) hz2, View.ld_unit_zero (S := S64x128) hz2, View.ld_unit_zero (S := S64x64) hz2, View.ld_unit_zero (S := S1x1) hz2]

theorem sout_C_1_eq (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : cond_1 i)
    (x0 : Vec F S2000x64 .f32) (x1 : Vec F S1x64 .f32) (x2 : Vec F S2000x128 .f32) (x3 : Vec F S64x128 .f32) (xs0 : Vec F S64x64 .f32) (xs1 : Vec F S1x1 .f32) :
    sout_C_1 c i arg1 harg1 arg2 harg2 arg3 harg3 arg4 harg4 arg5 harg5 arg6 harg6 arg7 harg7 arg8 harg8 arg9 harg9 arg10 harg10 hc0 hc1 x0 x1 x2 x3 xs0 xs1 = k0_pay1 (k0_pay8 x0 x1 x3 x2) xs1 := by
  unfold sout_C_1
  rw [View.read_writes_eq_canon _ _ _ (scover_C_1 c i arg1 harg1 arg2 harg2 arg3 harg3 arg4 harg4 arg5 harg5 arg6 harg6 arg7 harg7 arg8 harg8 arg9 harg9 arg10 harg10 hc0 hc1 x0 x1 x2 x3 xs0 xs1)]
  unfold kernelRun_C
  dsimp only
  sl_unfold_words
  rw [View.canon_unit_zero hz2]
  simp only [View.readAt_eq_ld, harg1.read_unread, harg2.read_unread, harg3.read_unread, harg4.read_unread, harg9.read_unread, harg10.read_unread, View.ld_unit_zero (S := S2000x64) hz2, View.ld_unit_zero (S := S1x64) hz2, View.ld_unit_zero (S := S2000x128) hz2, View.ld_unit_zero (S := S64x128) hz2, View.ld_unit_zero (S := S64x64) hz2, View.ld_unit_zero (S := S1x1) hz2]

/-! ## The values, point by point -/

/-- The Gram accumulator and the squared-error accumulator after the body at position `n`. -/
def accM (c : Dev nD) (n : ℕ) (h : n < cfg0.N) : Vec F S64x64 .f32 := (outsAt V c n h).2.2.2.2.1
def accF (c : Dev nD) (n : ℕ) (h : n < cfg0.N) : Vec F S1x1 .f32 := (outsAt V c n h).2.2.2.2.2

/-- The closed forms at a point: which case it is in. -/
theorem case_of (t : Fin cfg0.N) : (t.val % 25 = 0 ∧ ¬t.val % 25 = 24) ∨ (¬t.val % 25 = 0 ∧ ¬t.val % 25 = 24) ∨ (¬t.val % 25 = 0 ∧ t.val % 25 = 24) := by
  omega

/-- The first bf16 output holds the rounded logistic of the point's block, at every point. -/
theorem out4 (c : Dev nD) (t : Fin cfg0.N) : (dat V c).after 4 t = k0_pay5 (iblk V c 0 t) := by
  rw [after_4]
  rcases case_of t with ⟨h0, h1⟩ | ⟨h0, h1⟩ | ⟨h0, h1⟩
  · rw [outsAt_A V c t h0 h1]; dsimp only; exact out_A_4_eq (F := F) c _ _ _ _ _ _ _ _ _ _ _ _ _ _ _ _ _ _ _ _ _ _ _ _ _ _ _
  · rw [outsAt_B V c t h0 h1]; dsimp only; exact out_B_4_eq (F := F) c _ _ _ _ _ _ _ _ _ _ _ _ _ _ _ _ _ _ _ _ _ _ _ _ _ _ _ _ _
  · rw [outsAt_C V c t h0 h1]; dsimp only; exact out_C_4_eq (F := F) c _ _ _ _ _ _ _ _ _ _ _ _ _ _ _ _ _ _ _ _ _ _ _ _ _ _ _ _ _

/-- The second bf16 output holds the rounded logistic scaled by the community scalars, at every point. -/
theorem out5 (c : Dev nD) (t : Fin cfg0.N) : (dat V c).after 5 t = k0_pay6 (iblk V c 0 t) (iblk V c 1 t) := by
  rw [after_5]
  rcases case_of t with ⟨h0, h1⟩ | ⟨h0, h1⟩ | ⟨h0, h1⟩
  · rw [outsAt_A V c t h0 h1]; dsimp only; exact out_A_5_eq (F := F) c _ _ _ _ _ _ _ _ _ _ _ _ _ _ _ _ _ _ _ _ _ _ _ _ _ _ _
  · rw [outsAt_B V c t h0 h1]; dsimp only; exact out_B_5_eq (F := F) c _ _ _ _ _ _ _ _ _ _ _ _ _ _ _ _ _ _ _ _ _ _ _ _ _ _ _ _ _
  · rw [outsAt_C V c t h0 h1]; dsimp only; exact out_C_5_eq (F := F) c _ _ _ _ _ _ _ _ _ _ _ _ _ _ _ _ _ _ _ _ _ _ _ _ _ _ _ _ _

/-- The Gram accumulator after the first point: the point's Gram block added to the zero block. -/
theorem accM_zero (c : Dev nD) (h : 0 < cfg0.N) : accM V c 0 h = k0_pay7 (iblk V c 0 ⟨0, h⟩) (iblk V c 1 ⟨0, h⟩) (k0_pay2 (F := F)) := by
  unfold accM
  rw [outsAt_A V c ⟨0, h⟩ rfl (show ¬(0 : ℕ) % 25 = 24 by decide)]; dsimp only; exact sout_A_0_eq (F := F) c _ _ _ _ _ _ _ _ _ _ _ _ _ _ _ _ _ _ _ _ _ _ _ _ _ _ _

/-- After a later point: the point's Gram block added to what the point before left. -/
theorem accM_succ (c : Dev nD) (n : ℕ) (h : n + 1 < cfg0.N) : accM V c (n + 1) h = k0_pay7 (iblk V c 0 ⟨n + 1, h⟩) (iblk V c 1 ⟨n + 1, h⟩) (accM V c n (Nat.lt_of_succ_lt h)) := by
  unfold accM
  have h0 : ¬(⟨n + 1, h⟩ : Fin cfg0.N).val % 25 = 0 := not_first n h
  by_cases h1 : (⟨n + 1, h⟩ : Fin cfg0.N).val % 25 = 24
  · rw [outsAt_C V c ⟨n + 1, h⟩ h0 h1]; dsimp only; exact sout_C_0_eq (F := F) c _ _ _ _ _ _ _ _ _ _ _ _ _ _ _ _ _ _ _ _ _ _ _ _ _ _ _ _ _
  · rw [outsAt_B V c ⟨n + 1, h⟩ h0 h1]; dsimp only; exact sout_B_0_eq (F := F) c _ _ _ _ _ _ _ _ _ _ _ _ _ _ _ _ _ _ _ _ _ _ _ _ _ _ _ _ _

/-- The squared-error accumulator after the first point: the point's squared error added to the zero scalar. -/
theorem accF_zero (c : Dev nD) (h : 0 < cfg0.N) : accF V c 0 h = k0_pay1 (k0_pay8 (iblk V c 0 ⟨0, h⟩) (iblk V c 1 ⟨0, h⟩) (iblk V c 3 ⟨0, h⟩) (iblk V c 2 ⟨0, h⟩)) (k0_pay3 (F := F)) := by
  unfold accF
  rw [outsAt_A V c ⟨0, h⟩ rfl (show ¬(0 : ℕ) % 25 = 24 by decide)]; dsimp only; exact sout_A_1_eq (F := F) c _ _ _ _ _ _ _ _ _ _ _ _ _ _ _ _ _ _ _ _ _ _ _ _ _ _ _

/-- After a later point: the point's squared error added to what the point before left. -/
theorem accF_succ (c : Dev nD) (n : ℕ) (h : n + 1 < cfg0.N) : accF V c (n + 1) h = k0_pay1 (k0_pay8 (iblk V c 0 ⟨n + 1, h⟩) (iblk V c 1 ⟨n + 1, h⟩) (iblk V c 3 ⟨n + 1, h⟩) (iblk V c 2 ⟨n + 1, h⟩)) (accF V c n (Nat.lt_of_succ_lt h)) := by
  unfold accF
  have h0 : ¬(⟨n + 1, h⟩ : Fin cfg0.N).val % 25 = 0 := not_first n h
  by_cases h1 : (⟨n + 1, h⟩ : Fin cfg0.N).val % 25 = 24
  · rw [outsAt_C V c ⟨n + 1, h⟩ h0 h1]; dsimp only; exact sout_C_1_eq (F := F) c _ _ _ _ _ _ _ _ _ _ _ _ _ _ _ _ _ _ _ _ _ _ _ _ _ _ _ _ _
  · rw [outsAt_B V c ⟨n + 1, h⟩ h0 h1]; dsimp only; exact sout_B_1_eq (F := F) c _ _ _ _ _ _ _ _ _ _ _ _ _ _ _ _ _ _ _ _ _ _ _ _ _ _ _ _ _

/-- At the last point the Gram output is the Gram accumulator as that point leaves it, -/
theorem out6_last (c : Dev nD) (h : 24 < cfg0.N) : (dat V c).after 6 ⟨24, h⟩ = accM V c 24 h := by
  rw [after_6]; unfold accM
  rw [outsAt_C V c ⟨24, h⟩ (show ¬(24 : ℕ) % 25 = 0 by decide) rfl]; dsimp only
  exact (out_C_6_eq (F := F) c _ _ _ _ _ _ _ _ _ _ _ _ _ _ _ _ _ _ _ _ _ _ _ _ _ _ _ _ _).trans (sout_C_0_eq (F := F) c _ _ _ _ _ _ _ _ _ _ _ _ _ _ _ _ _ _ _ _ _ _ _ _ _ _ _ _ _).symm

/-- and the error output the squared-error accumulator. -/
theorem out7_last (c : Dev nD) (h : 24 < cfg0.N) : (dat V c).after 7 ⟨24, h⟩ = accF V c 24 h := by
  rw [after_7]; unfold accF
  rw [outsAt_C V c ⟨24, h⟩ (show ¬(24 : ℕ) % 25 = 0 by decide) rfl]; dsimp only
  exact (out_C_7_eq (F := F) c _ _ _ _ _ _ _ _ _ _ _ _ _ _ _ _ _ _ _ _ _ _ _ _ _ _ _ _ _).trans (sout_C_1_eq (F := F) c _ _ _ _ _ _ _ _ _ _ _ _ _ _ _ _ _ _ _ _ _ _ _ _ _ _ _ _ _).symm

end Cert.Kernel.Node

end
-- ==== Proof.K.EdgeShared.lean ====
import proofs.«137296_j64604898066506_1_alg».proof.Proof.Gen.Kernel.Launch
import proofs.«137296_j64604898066506_1_alg».proof.Proof.Gen.Kernel.Skeleton
import proofs.«137296_j64604898066506_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Edge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The input windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first gathered operand's staging buffer holds its block of 16000 edges at every point: the window is an
    input, fetched at every point, never idle, and the body stores nothing into it. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the second gathered operand. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditionals, in closed form over the 50 points -/

/-- The first conditional (the accumulator's reset): the point's coordinate is 0. -/
abbrev cond_0 (i : grid1.Coords) : Prop := (Scalar.cmpi .ne (Scalar.extui (Scalar.cmpi .eq (BitVec.ofNat 32 (i 0).val) 0#32)) 0#32) = 1#1
/-- It holds at point 0 only. -/
theorem hcond_0 : ∀ t : Fin cfg1.N, cond_0 (grid1.coords t) ↔ t.val % 50 = 0 :=
  (by decide +kernel : ∀ t : Fin grid1.N, cond_0 (grid1.coords t) ↔ t.val % 50 = 0)

/-- The second conditional (the result's store): the point's coordinate is 49. -/
abbrev cond_1 (i : grid1.Coords) : Prop := k1_cond2 i = 1#1
/-- It holds at point 49 only. -/
theorem hcond_1 : ∀ t : Fin cfg1.N, cond_1 (grid1.coords t) ↔ t.val % 50 = 49 :=
  (by decide +kernel : ∀ t : Fin grid1.N, cond_1 (grid1.coords t) ↔ t.val % 50 = 49)

/-! ## Where the windows are idle -/

/-- The two inputs are never idle. -/
theorem liveAt_0 : ∀ t : Fin cfg1.N, cfg1.idle 0 (grid1.coords t) = false := by decide +kernel
theorem liveAt_1 : ∀ t : Fin cfg1.N, cfg1.idle 1 (grid1.coords t) = false := by decide +kernel
/-- At point 0 (reset taken, result not stored) the result window is idle and not written back. -/
theorem idleAt_2_A : ∀ t : Fin cfg1.N, cond_0 (grid1.coords t) → ¬cond_1 (grid1.coords t) → cfg1.idle 2 (grid1.coords t) = true := by decide +kernel
theorem noFlush_2_A : ∀ t : Fin cfg1.N, cond_0 (grid1.coords t) → ¬cond_1 (grid1.coords t) → (cfg1.win 2).flush t = false := by decide +kernel
/-- At the points 1..48 (neither conditional taken) the same. -/
theorem idleAt_2_B : ∀ t : Fin cfg1.N, ¬cond_0 (grid1.coords t) → ¬cond_1 (grid1.coords t) → cfg1.idle 2 (grid1.coords t) = true := by decide +kernel
theorem noFlush_2_B : ∀ t : Fin cfg1.N, ¬cond_0 (grid1.coords t) → ¬cond_1 (grid1.coords t) → (cfg1.win 2).flush t = false := by decide +kernel
/-- At point 49 the result window is live: the body stores the accumulated sum into it. -/
theorem liveAt_2_C : ∀ t : Fin cfg1.N, ¬cond_0 (grid1.coords t) → cond_1 (grid1.coords t) → cfg1.idle 2 (grid1.coords t) = false := by decide +kernel

/-! ## The memrefs the body is called with -/

/-- The result window's one staging buffer, through which its contents are stated. -/
abbrev VO_2 : View sig .tc .vmem S1x1 .f32 := (Memref.whole cc1_stg2_0 : Memref sig .tc .vmem S1x1 .f32).view
/-- Each window's current staging memref at point `t`, and its wholeness. -/
abbrev ms_0 (t : Fin cfg1.N) : Memref sig .tc .vmem S16000x64 .bf16 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S16000x64 .bf16 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1x1 .f32 := win1_2.stage (cfg1.slots t 2)
abbrev hs_2 (t : Fin cfg1.N) : (ms_2 t).IsWhole := hstage1_2 ((cfg1.slots t 2).cast nbuf1_2)
/-- The accumulator: a whole scoped buffer of one f32 word, passed beside the windows and carried from point to point. -/
abbrev scM : Memref sig .tc .vmem S1x1 .f32 := Memref.whole cc1_scratch0
/-- The accumulator as a view: what it holds is stated through it. -/
abbrev VS : View sig .tc .vmem S1x1 .f32 := scM.view

/-- The scoped buffers of the core that are no staging buffer of this pipeline: the first pipeline's twelve staging
    buffers and its two scratch buffers, each whole at some contents (the body never touches them), and last the
    accumulator, held as `P` says. -/
def restWith (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ P)

/-- What the launch hands the region, with the accumulator as a memref owned at some contents, the other scoped
    buffers as they are, and the generator register at some state. -/
theorem PhiA_eq (c : Dev nD) :
    (Pipeline.ΦA spec1 c : sProp 𝕄)
      = iprop(restWith (F := F) c iprop(∃ d, owns (c : Thread nD τ) scM fullShare d) ∗ (∃ r, prngReg c r)) := by
  unfold Pipeline.ΦA restWith; rw [scopedRest1_eq]; simp only [scM, owns_whole]; try rfl

end Cert.Kernel.Edge

end
-- ==== Proof.K.EdgeRunA.lean ====
import proofs.«137296_j64604898066506_1_alg».proof.Proof.K.EdgeShared

set_option maxRecDepth 16384

noncomputable section

namespace Cert.Kernel.Edge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body at point 0: the accumulator is reset, then updated; the result window is left alone -/

set_option maxHeartbeats 1000000 in
/-- The pieces the body's stores leave in the result window's staging memref (`L2`: none here) and in the
    accumulator (`LS`: the reset to zero, then the update, last first) WHEN THE RESET IS TAKEN AND THE RESULT IS NOT
    STORED, with the proof that on whole memrefs — the two inputs' at their blocks `x0`, `x1`, the result window's at
    contents `xi2` handed back untouched, the accumulator at anything — the body runs to a continuation that holds
    the inputs and the result window as they were and the accumulator with its pieces written. The pieces are the
    witness the symbolic run finds. -/
noncomputable def kernelRun_A (c : Dev nD) (i : grid1.Coords) (arg1 : Memref sig .tc .vmem S16000x64 .bf16) (harg1 : arg1.IsWhole) (arg2 : Memref sig .tc .vmem S16000x64 .bf16) (harg2 : arg2.IsWhole) (arg3 : Memref sig .tc .vmem S1x1 .f32) (harg3 : arg3.IsWhole) (arg4 : Memref sig .tc .vmem S1x1 .f32) (harg4 : arg4.IsWhole) (hc0 : cond_0 i) (hc1 : ¬cond_1 i)
    (x0 : Vec F S16000x64 .bf16) (x1 : Vec F S16000x64 .bf16) :
    Σ' (L2 : List (View.Piece (Elt F) S1x1 .f32)), { LS : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS)) -∗ K ⟨⟩))
          ⊢ wp frame (wpE (defs₀ (F := F)) Variants.none c none) E (cc1__edge_kernel i arg1 harg1 arg2 harg2 arg3 harg3 arg4 harg4) K } := by
  refine ⟨[], ?_, fun xi2 E K => ?run⟩
  case run =>
    simp only [cc1__edge_kernel_eq_skeleton]; unfold cc1__edge_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Edge

end
-- ==== Proof.K.EdgeRunB.lean ====
import proofs.«137296_j64604898066506_1_alg».proof.Proof.K.EdgeRunA

set_option maxRecDepth 16384

noncomputable section

namespace Cert.Kernel.Edge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body at the points 1..48: the accumulator is updated; the result window is left alone -/

set_option maxHeartbeats 1000000 in
/-- The pieces the body's stores leave in the result window's staging memref (`L2`: none) and in the accumulator
    (`LS`: the update) WHEN NEITHER CONDITIONAL IS TAKEN, with the proof that on whole memrefs — the inputs' at their
    blocks, the result window's at contents `xi2` handed back untouched, the accumulator at what the point before
    left (`xs`) — the body runs to a continuation that holds the inputs and the result window as they were and the
    accumulator with its pieces written. -/
noncomputable def kernelRun_B (c : Dev nD) (i : grid1.Coords) (arg1 : Memref sig .tc .vmem S16000x64 .bf16) (harg1 : arg1.IsWhole) (arg2 : Memref sig .tc .vmem S16000x64 .bf16) (harg2 : arg2.IsWhole) (arg3 : Memref sig .tc .vmem S1x1 .f32) (harg3 : arg3.IsWhole) (arg4 : Memref sig .tc .vmem S1x1 .f32) (harg4 : arg4.IsWhole) (hc0 : ¬cond_0 i) (hc1 : ¬cond_1 i)
    (x0 : Vec F S16000x64 .bf16) (x1 : Vec F S16000x64 .bf16) (xs : Vec F S1x1 .f32) :
    Σ' (L2 : List (View.Piece (Elt F) S1x1 .f32)), { LS : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS)) -∗ K ⟨⟩))
          ⊢ wp frame (wpE (defs₀ (F := F)) Variants.none c none) E (cc1__edge_kernel i arg1 harg1 arg2 harg2 arg3 harg3 arg4 harg4) K } := by
  refine ⟨[], ?_, fun xi2 E K => ?run⟩
  case run =>
    simp only [cc1__edge_kernel_eq_skeleton]; unfold cc1__edge_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Edge

end
-- ==== Proof.K.EdgeRunC.lean ====
import proofs.«137296_j64604898066506_1_alg».proof.Proof.K.EdgeRunB

set_option maxRecDepth 16384

noncomputable section

namespace Cert.Kernel.Edge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body at point 49: the accumulator is updated and copied into the result window -/

set_option maxHeartbeats 1000000 in
/-- The pieces the body's stores leave in the result window's staging memref (`L2`: the accumulator as loaded after
    its update) and in the accumulator (`LS`: the update) WHEN THE RESET IS NOT TAKEN AND THE RESULT IS STORED, with the
    proof that on whole memrefs — the inputs' at their blocks, the result window's at anything, the accumulator at
    what the point before left (`xs`) — the body runs to a continuation that holds the inputs as they were and the
    result window and the accumulator with their pieces written. -/
noncomputable def kernelRun_C (c : Dev nD) (i : grid1.Coords) (arg1 : Memref sig .tc .vmem S16000x64 .bf16) (harg1 : arg1.IsWhole) (arg2 : Memref sig .tc .vmem S16000x64 .bf16) (harg2 : arg2.IsWhole) (arg3 : Memref sig .tc .vmem S1x1 .f32) (harg3 : arg3.IsWhole) (arg4 : Memref sig .tc .vmem S1x1 .f32) (harg4 : arg4.IsWhole) (hc0 : ¬cond_0 i) (hc1 : cond_1 i)
    (x0 : Vec F S16000x64 .bf16) (x1 : Vec F S16000x64 .bf16) (xs : Vec F S1x1 .f32) :
    Σ' (L2 : List (View.Piece (Elt F) S1x1 .f32)), { LS : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS)) -∗ K ⟨⟩))
          ⊢ wp frame (wpE (defs₀ (F := F)) Variants.none c none) E (cc1__edge_kernel i arg1 harg1 arg2 harg2 arg3 harg3 arg4 harg4) K } := by
  refine ⟨?_, ?_, fun E K => ?run⟩
  case run =>
    simp only [cc1__edge_kernel_eq_skeleton]; unfold cc1__edge_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Edge

end
-- ==== Proof.K.EdgeData.lean ====
import proofs.«137296_j64604898066506_1_alg».proof.Proof.K.EdgeRunC
import Idealize.ShloMosaic.Lib.Pipeline.Value

set_option maxRecDepth 16384

noncomputable section

namespace Cert.Kernel.Edge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves in the result window's buffer and in the accumulator -/

/-- At point 0 the body stores nothing into the result window (idle there and not written back): no pieces, a
    placeholder that nothing consults. -/
def out_A_2 (c : Dev nD) (i : grid1.Coords) (arg1 : Memref sig .tc .vmem S16000x64 .bf16) (harg1 : arg1.IsWhole) (arg2 : Memref sig .tc .vmem S16000x64 .bf16) (harg2 : arg2.IsWhole) (arg3 : Memref sig .tc .vmem S1x1 .f32) (harg3 : arg3.IsWhole) (arg4 : Memref sig .tc .vmem S1x1 .f32) (harg4 : arg4.IsWhole) (hc0 : cond_0 i) (hc1 : ¬cond_1 i)
    (x0 : Vec F S16000x64 .bf16) (x1 : Vec F S16000x64 .bf16) : Vec F S1x1 .f32 :=
  VO_2.read (Elt F) (VO_2.writes (Elt F) VO_2.junk (kernelRun_A c i arg1 harg1 arg2 harg2 arg3 harg3 arg4 harg4 hc0 hc1 x0 x1).1)

/-- At point 0 the accumulator's two pieces (the reset, then the update) each cover its one word. -/
theorem scover_A (c : Dev nD) (i : grid1.Coords) (arg1 : Memref sig .tc .vmem S16000x64 .bf16) (harg1 : arg1.IsWhole) (arg2 : Memref sig .tc .vmem S16000x64 .bf16) (harg2 : arg2.IsWhole) (arg3 : Memref sig .tc .vmem S1x1 .f32) (harg3 : arg3.IsWhole) (arg4 : Memref sig .tc .vmem S1x1 .f32) (harg4 : arg4.IsWhole) (hc0 : cond_0 i) (hc1 : ¬cond_1 i)
    (x0 : Vec F S16000x64 .bf16) (x1 : Vec F S16000x64 .bf16) (y : S1x1.Idx) :
    ∃ pc ∈ (kernelRun_A c i arg1 harg1 arg2 harg2 arg3 harg3 arg4 harg4 hc0 hc1 x0 x1).2.1, y ∈ pc.1.set :=
  View.cover_of_tiledL (kernelRun_A c i arg1 harg1 arg2 harg2 arg3 harg3 arg4 harg4 hc0 hc1 x0 x1).2.1 S1x1.size (by sl_kernel_rfl) y

/-- What point 0 leaves in the accumulator: its pieces read back. -/
def sout_A (c : Dev nD) (i : grid1.Coords) (arg1 : Memref sig .tc .vmem S16000x64 .bf16) (harg1 : arg1.IsWhole) (arg2 : Memref sig .tc .vmem S16000x64 .bf16) (harg2 : arg2.IsWhole) (arg3 : Memref sig .tc .vmem S1x1 .f32) (harg3 : arg3.IsWhole) (arg4 : Memref sig .tc .vmem S1x1 .f32) (harg4 : arg4.IsWhole) (hc0 : cond_0 i) (hc1 : ¬cond_1 i)
    (x0 : Vec F S16000x64 .bf16) (x1 : Vec F S16000x64 .bf16) : Vec F S1x1 .f32 :=
  VS.read (Elt F) (VS.writes (Elt F) VS.junk (kernelRun_A c i arg1 harg1 arg2 harg2 arg3 harg3 arg4 harg4 hc0 hc1 x0 x1).2.1)

/-- At the points 1..48 the body stores nothing into the result window either. -/
def out_B_2 (c : Dev nD) (i : grid1.Coords) (arg1 : Memref sig .tc .vmem S16000x64 .bf16) (harg1 : arg1.IsWhole) (arg2 : Memref sig .tc .vmem S16000x64 .bf16) (harg2 : arg2.IsWhole) (arg3 : Memref sig .tc .vmem S1x1 .f32) (harg3 : arg3.IsWhole) (arg4 : Memref sig .tc .vmem S1x1 .f32) (harg4 : arg4.IsWhole) (hc0 : ¬cond_0 i) (hc1 : ¬cond_1 i)
    (x0 : Vec F S16000x64 .bf16) (x1 : Vec F S16000x64 .bf16) (xs : Vec F S1x1 .f32) : Vec F S1x1 .f32 :=
  VO_2.read (Elt F) (VO_2.writes (Elt F) VO_2.junk (kernelRun_B c i arg1 harg1 arg2 harg2 arg3 harg3 arg4 harg4 hc0 hc1 x0 x1 xs).1)

/-- At the points 1..48 the accumulator's one piece (the update) covers its word. -/
theorem scover_B (c : Dev nD) (i : grid1.Coords) (arg1 : Memref sig .tc .vmem S16000x64 .bf16) (harg1 : arg1.IsWhole) (arg2 : Memref sig .tc .vmem S16000x64 .bf16) (harg2 : arg2.IsWhole) (arg3 : Memref sig .tc .vmem S1x1 .f32) (harg3 : arg3.IsWhole) (arg4 : Memref sig .tc .vmem S1x1 .f32) (harg4 : arg4.IsWhole) (hc0 : ¬cond_0 i) (hc1 : ¬cond_1 i)
    (x0 : Vec F S16000x64 .bf16) (x1 : Vec F S16000x64 .bf16) (xs : Vec F S1x1 .f32) (y : S1x1.Idx) :
    ∃ pc ∈ (kernelRun_B c i arg1 harg1 arg2 harg2 arg3 harg3 arg4 harg4 hc0 hc1 x0 x1 xs).2.1, y ∈ pc.1.set :=
  View.cover_of_tiledL (kernelRun_B c i arg1 harg1 arg2 harg2 arg3 harg3 arg4 harg4 hc0 hc1 x0 x1 xs).2.1 S1x1.size (by sl_kernel_rfl) y

/-- What such a point leaves in the accumulator. -/
def sout_B (c : Dev nD) (i : grid1.Coords) (arg1 : Memref sig .tc .vmem S16000x64 .bf16) (harg1 : arg1.IsWhole) (arg2 : Memref sig .tc .vmem S16000x64 .bf16) (harg2 : arg2.IsWhole) (arg3 : Memref sig .tc .vmem S1x1 .f32) (harg3 : arg3.IsWhole) (arg4 : Memref sig .tc .vmem S1x1 .f32) (harg4 : arg4.IsWhole) (hc0 : ¬cond_0 i) (hc1 : ¬cond_1 i)
    (x0 : Vec F S16000x64 .bf16) (x1 : Vec F S16000x64 .bf16) (xs : Vec F S1x1 .f32) : Vec F S1x1 .f32 :=
  VS.read (Elt F) (VS.writes (Elt F) VS.junk (kernelRun_B c i arg1 harg1 arg2 harg2 arg3 harg3 arg4 harg4 hc0 hc1 x0 x1 xs).2.1)

/-- At point 49 the one store into the result window covers its word. -/
theorem cover_C_2 (c : Dev nD) (i : grid1.Coords) (arg1 : Memref sig .tc .vmem S16000x64 .bf16) (harg1 : arg1.IsWhole) (arg2 : Memref sig .tc .vmem S16000x64 .bf16) (harg2 : arg2.IsWhole) (arg3 : Memref sig .tc .vmem S1x1 .f32) (harg3 : arg3.IsWhole) (arg4 : Memref sig .tc .vmem S1x1 .f32) (harg4 : arg4.IsWhole) (hc0 : ¬cond_0 i) (hc1 : cond_1 i)
    (x0 : Vec F S16000x64 .bf16) (x1 : Vec F S16000x64 .bf16) (xs : Vec F S1x1 .f32) (y : S1x1.Idx) :
    ∃ pc ∈ (kernelRun_C c i arg1 harg1 arg2 harg2 arg3 harg3 arg4 harg4 hc0 hc1 x0 x1 xs).1, y ∈ pc.1.set :=
  View.cover_of_tiledL (kernelRun_C c i arg1 harg1 arg2 harg2 arg3 harg3 arg4 harg4 hc0 hc1 x0 x1 xs).1 S1x1.size (by sl_kernel_rfl) y

/-- What point 49 leaves in the result window's buffer. -/
def out_C_2 (c : Dev nD) (i : grid1.Coords) (arg1 : Memref sig .tc .vmem S16000x64 .bf16) (harg1 : arg1.IsWhole) (arg2 : Memref sig .tc .vmem S16000x64 .bf16) (harg2 : arg2.IsWhole) (arg3 : Memref sig .tc .vmem S1x1 .f32) (harg3 : arg3.IsWhole) (arg4 : Memref sig .tc .vmem S1x1 .f32) (harg4 : arg4.IsWhole) (hc0 : ¬cond_0 i) (hc1 : cond_1 i)
    (x0 : Vec F S16000x64 .bf16) (x1 : Vec F S16000x64 .bf16) (xs : Vec F S1x1 .f32) : Vec F S1x1 .f32 :=
  VO_2.read (Elt F) (VO_2.writes (Elt F) VO_2.junk (kernelRun_C c i arg1 harg1 arg2 harg2 arg3 harg3 arg4 harg4 hc0 hc1 x0 x1 xs).1)

/-- At point 49 the accumulator's one piece (the update) covers its word. -/
theorem scover_C (c : Dev nD) (i : grid1.Coords) (arg1 : Memref sig .tc .vmem S16000x64 .bf16) (harg1 : arg1.IsWhole) (arg2 : Memref sig .tc .vmem S16000x64 .bf16) (harg2 : arg2.IsWhole) (arg3 : Memref sig .tc .vmem S1x1 .f32) (harg3 : arg3.IsWhole) (arg4 : Memref sig .tc .vmem S1x1 .f32) (harg4 : arg4.IsWhole) (hc0 : ¬cond_0 i) (hc1 : cond_1 i)
    (x0 : Vec F S16000x64 .bf16) (x1 : Vec F S16000x64 .bf16) (xs : Vec F S1x1 .f32) (y : S1x1.Idx) :
    ∃ pc ∈ (kernelRun_C c i arg1 harg1 arg2 harg2 arg3 harg3 arg4 harg4 hc0 hc1 x0 x1 xs).2.1, y ∈ pc.1.set :=
  View.cover_of_tiledL (kernelRun_C c i arg1 harg1 arg2 harg2 arg3 harg3 arg4 harg4 hc0 hc1 x0 x1 xs).2.1 S1x1.size (by sl_kernel_rfl) y

/-- What point 49 leaves in the accumulator. -/
def sout_C (c : Dev nD) (i : grid1.Coords) (arg1 : Memref sig .tc .vmem S16000x64 .bf16) (harg1 : arg1.IsWhole) (arg2 : Memref sig .tc .vmem S16000x64 .bf16) (harg2 : arg2.IsWhole) (arg3 : Memref sig .tc .vmem S1x1 .f32) (harg3 : arg3.IsWhole) (arg4 : Memref sig .tc .vmem S1x1 .f32) (harg4 : arg4.IsWhole) (hc0 : ¬cond_0 i) (hc1 : cond_1 i)
    (x0 : Vec F S16000x64 .bf16) (x1 : Vec F S16000x64 .bf16) (xs : Vec F S1x1 .f32) : Vec F S1x1 .f32 :=
  VS.read (Elt F) (VS.writes (Elt F) VS.junk (kernelRun_C c i arg1 harg1 arg2 harg2 arg3 harg3 arg4 harg4 hc0 hc1 x0 x1 xs).2.1)

/-! ## What the result window's buffer and the accumulator hold after each point -/

/-- The accumulation: (the result window's buffer, the accumulator) after the body at position `n` — the case the
    closed forms select at `n`, run at the point's memrefs and input blocks, over the accumulator as the point
    before left it. -/
def outsAt (c : Dev nD) : (n : ℕ) → n < cfg1.N → Vec F S1x1 .f32 × Vec F S1x1 .f32
  | 0, hn => (out_A_2 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩), sout_A c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩))
  | n + 1, hn =>
    if h0 : (n + 1) % 50 = 0 then
      if h1 : (n + 1) % 50 = 49 then
        False.elim (by omega)
      else
        (out_A_2 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) ((hcond_0 ⟨n + 1, hn⟩).mpr h0) (fun h => h1 ((hcond_1 ⟨n + 1, hn⟩).mp h)) (iblk V c 0 ⟨n + 1, hn⟩) (iblk V c 1 ⟨n + 1, hn⟩), sout_A c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) ((hcond_0 ⟨n + 1, hn⟩).mpr h0) (fun h => h1 ((hcond_1 ⟨n + 1, hn⟩).mp h)) (iblk V c 0 ⟨n + 1, hn⟩) (iblk V c 1 ⟨n + 1, hn⟩))
    else
      if h1 : (n + 1) % 50 = 49 then
        (out_C_2 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcond_0 ⟨n + 1, hn⟩).mp h)) ((hcond_1 ⟨n + 1, hn⟩).mpr h1) (iblk V c 0 ⟨n + 1, hn⟩) (iblk V c 1 ⟨n + 1, hn⟩) (outsAt c n (Nat.lt_of_succ_lt hn)).2, sout_C c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcond_0 ⟨n + 1, hn⟩).mp h)) ((hcond_1 ⟨n + 1, hn⟩).mpr h1) (iblk V c 0 ⟨n + 1, hn⟩) (iblk V c 1 ⟨n + 1, hn⟩) (outsAt c n (Nat.lt_of_succ_lt hn)).2)
      else
        (out_B_2 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcond_0 ⟨n + 1, hn⟩).mp h)) (fun h => h1 ((hcond_1 ⟨n + 1, hn⟩).mp h)) (iblk V c 0 ⟨n + 1, hn⟩) (iblk V c 1 ⟨n + 1, hn⟩) (outsAt c n (Nat.lt_of_succ_lt hn)).2, sout_B c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcond_0 ⟨n + 1, hn⟩).mp h)) (fun h => h1 ((hcond_1 ⟨n + 1, hn⟩).mp h)) (iblk V c 0 ⟨n + 1, hn⟩) (iblk V c 1 ⟨n + 1, hn⟩) (outsAt c n (Nat.lt_of_succ_lt hn)).2)

/-- `outsAt` at point 0. -/
theorem outsAt_A (c : Dev nD) (t : Fin cfg1.N) (h0 : t.val % 50 = 0) (h1 : ¬t.val % 50 = 49) :
    outsAt V c t.val t.isLt = (out_A_2 c (grid1.coords t) (ms_0 t) (hs_0 t) (ms_1 t) (hs_1 t) (ms_2 t) (hs_2 t) scM (Memref.isWhole_whole _) ((hcond_0 t).mpr h0) (fun h => h1 ((hcond_1 t).mp h)) (iblk V c 0 t) (iblk V c 1 t), sout_A c (grid1.coords t) (ms_0 t) (hs_0 t) (ms_1 t) (hs_1 t) (ms_2 t) (hs_2 t) scM (Memref.isWhole_whole _) ((hcond_0 t).mpr h0) (fun h => h1 ((hcond_1 t).mp h)) (iblk V c 0 t) (iblk V c 1 t)) := by
  obtain ⟨n, hn⟩ := t
  cases n with
  | zero => exact rfl
  | succ n => exact (dif_pos h0).trans ((dif_neg h1).trans rfl)

/-- `outsAt` at a point 1..48: over what the point before left. -/
theorem outsAt_B (c : Dev nD) (t : Fin cfg1.N) (h0 : ¬t.val % 50 = 0) (h1 : ¬t.val % 50 = 49) :
    outsAt V c t.val t.isLt = (out_B_2 c (grid1.coords t) (ms_0 t) (hs_0 t) (ms_1 t) (hs_1 t) (ms_2 t) (hs_2 t) scM (Memref.isWhole_whole _) (fun h => h0 ((hcond_0 t).mp h)) (fun h => h1 ((hcond_1 t).mp h)) (iblk V c 0 t) (iblk V c 1 t) (outsAt V c (t.val - 1) (Nat.lt_of_le_of_lt (Nat.sub_le _ _) t.isLt)).2, sout_B c (grid1.coords t) (ms_0 t) (hs_0 t) (ms_1 t) (hs_1 t) (ms_2 t) (hs_2 t) scM (Memref.isWhole_whole _) (fun h => h0 ((hcond_0 t).mp h)) (fun h => h1 ((hcond_1 t).mp h)) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt` at point 49: over what the point before left. -/
theorem outsAt_C (c : Dev nD) (t : Fin cfg1.N) (h0 : ¬t.val % 50 = 0) (h1 : t.val % 50 = 49) :
    outsAt V c t.val t.isLt = (out_C_2 c (grid1.coords t) (ms_0 t) (hs_0 t) (ms_1 t) (hs_1 t) (ms_2 t) (hs_2 t) scM (Memref.isWhole_whole _) (fun h => h0 ((hcond_0 t).mp h)) ((hcond_1 t).mpr h1) (iblk V c 0 t) (iblk V c 1 t) (outsAt V c (t.val - 1) (Nat.lt_of_le_of_lt (Nat.sub_le _ _) t.isLt)).2, sout_C c (grid1.coords t) (ms_0 t) (hs_0 t) (ms_1 t) (hs_1 t) (ms_2 t) (hs_2 t) scM (Memref.isWhole_whole _) (fun h => h0 ((hcond_0 t).mp h)) ((hcond_1 t).mpr h1) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the accumulator at
    anything); afterwards the same scoped buffers with the accumulator at what the point before left in it, and the
    generator register at some state. -/
def PhiS (c : Dev nD) : (n : ℕ) → n ≤ cfg1.N → sProp 𝕄
  | 0, _ => Pipeline.ΦA spec1 c
  | n + 1, hn => iprop(restWith (F := F) c (owns (c : Thread nD τ) scM fullShare ((outsAt V c n hn).2)) ∗ (∃ r, prngReg c r))

theorem PhiS_zero (c : Dev nD) (n : ℕ) (h : n ≤ cfg1.N) (hz : n = 0) : PhiS V c n h = Pipeline.ΦA spec1 c := by
  subst hz; rfl

/-- After point `n`: the accumulator at that point's contents. -/
theorem PhiS_succ (c : Dev nD) (n : ℕ) (hn : n < cfg1.N) :
    PhiS V c (n + 1) hn = iprop(restWith (F := F) c (owns (c : Thread nD τ) scM fullShare ((outsAt V c n hn).2)) ∗ (∃ r, prngReg c r)) := rfl

/-- Before a point that is not the first: the accumulator at what the point before left. -/
theorem PhiS_pos (c : Dev nD) (n : ℕ) (h : n ≤ cfg1.N) (hz : n ≠ 0) :
    PhiS V c n h = iprop(restWith (F := F) c (owns (c : Thread nD τ) scM fullShare ((outsAt V c (n - 1) (by omega)).2)) ∗ (∃ r, prngReg c r)) := by
  cases n with
  | zero => exact absurd rfl hz
  | succ n => rfl

/-! ## The pipeline's proof data -/

/-- The proof data of the edge pipeline on core `c`: the arrays as the region finds them; after the body at point
    `t` each input's buffer at its block and the result window's at `outsAt`'s first component; the invariant
    `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

/-- The proof data's arrays are the region-entry contents. -/
theorem A_eq (c : Dev nD) (w : Fin cfg1.W) : (dat V c).A w = V c (Pipeline.arrRef spec1 w) := by
  dsimp only [dat]

/-- The invariant at a point's start, restated at `t.val`. -/
theorem PhiS_castSucc (c : Dev nD) (t : Fin cfg1.N) :
    (dat V c).Φ t.castSucc = PhiS V c t.val (Nat.le_of_lt t.isLt) := by
  dsimp only [dat]; simp only [Fin.coe_castSucc]

/-- What the body leaves, window by window. -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = (outsAt V c t.val t.isLt).1 := by dsimp only [dat]

/-- Each input's current staging buffer holds its block at every point. -/
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the inputs' memrefs hold their blocks; the closed forms say which of the three cases the
    point is in; the invariant hands the body the accumulator at what the point before left (at anything at point 0)
    and takes it back at this point's contents; the other scoped buffers, the generator register and what the core
    owes pass through untouched. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ]
  have hN : t.val < 50 := lt_of_lt_of_eq t.isLt (show cfg1.N = 50 from N_1)
  by_cases h0 : t.val % 50 = 0
  · by_cases h1 : t.val % 50 = 49
    · exfalso; omega
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [Dat.leavesExact_idle (dat V c) 2 t (idleAt_2_A t ((hcond_0 t).mpr h0) (fun h => h1 ((hcond_1 t).mp h))) (noFlush_2_A t ((hcond_0 t).mpr h0) (fun h => h1 ((hcond_1 t).mp h)))]
      rw [outsAt_A V c t h0 h1]
      unfold sout_A; (try dsimp only)
      by_cases hz : t.val = 0
      · rw [PhiS_castSucc V c t, PhiS_zero V c _ _ hz, PhiA_eq]
        unfold restWith
        iintro ⟨⟨⟨R1, R2, R3, R4, R5, R6, R7, R8, R9, R10, R11, R12, R13, R14, HS0⟩, Hg⟩, Ho, ⟨%d0, H0⟩, ⟨%d1, H1⟩, ⟨%d2, H2⟩⟩
        iapply ((kernelRun_A c (grid1.coords t) _ _ _ _ _ _ _ _ ((hcond_0 t).mpr h0) (fun h => h1 ((hcond_1 t).mp h)) (iblk V c 0 t) (iblk V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [R1 R2 R3 R4 R5 R6 R7 R8 R9 R10 R11 R12 R13 R14 HS0 Hg]
        · isplitl [R1 R2 R3 R4 R5 R6 R7 R8 R9 R10 R11 R12 R13 R14 HS0]
          · isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [R11]; · iexact R11
            isplitl [R12]; · iexact R12
            isplitl [R13]; · iexact R13
            isplitl [R14]; · iexact R14
            unfold owns; iexists _; isplitr
            swap; · iexact HS0
            ipureintro; exact View.read_writes_of_cover _ _ _ _ _ (scover_A c _ _ _ _ _ _ _ _ _ _ _ _ _)
          iexact Hg
        isplitl [Ho]; · iexact Ho
        isplitl [H0]; · iexact H0
        isplitl [H1]; · iexact H1
        iexists _; iexact H2
      · exfalso; omega
  · by_cases h1 : t.val % 50 = 49
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2_C t (fun h => h0 ((hcond_0 t).mp h)) ((hcond_1 t).mpr h1)], after_2]
      rw [outsAt_C V c t h0 h1]
      unfold out_C_2 sout_C; (try dsimp only)
      by_cases hz : t.val = 0
      · exfalso; omega
      · rw [PhiS_castSucc V c t, PhiS_pos V c _ _ hz]
        unfold restWith
        iintro ⟨⟨⟨R1, R2, R3, R4, R5, R6, R7, R8, R9, R10, R11, R12, R13, R14, HS0⟩, Hg⟩, Ho, ⟨%d0, H0⟩, ⟨%d1, H1⟩, ⟨%d2, H2⟩⟩
        iapply ((kernelRun_C c (grid1.coords t) _ _ _ _ _ _ _ _ (fun h => h0 ((hcond_0 t).mp h)) ((hcond_1 t).mpr h1) (iblk V c 0 t) (iblk V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [R1 R2 R3 R4 R5 R6 R7 R8 R9 R10 R11 R12 R13 R14 HS0 Hg]
        · isplitl [R1 R2 R3 R4 R5 R6 R7 R8 R9 R10 R11 R12 R13 R14 HS0]
          · isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [R11]; · iexact R11
            isplitl [R12]; · iexact R12
            isplitl [R13]; · iexact R13
            isplitl [R14]; · iexact R14
            unfold owns; iexists _; isplitr
            swap; · iexact HS0
            ipureintro; exact View.read_writes_of_cover _ _ _ _ _ (scover_C c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover_C_2 c _ _ _ _ _ _ _ _ _ _ _ _ _ _)
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [Dat.leavesExact_idle (dat V c) 2 t (idleAt_2_B t (fun h => h0 ((hcond_0 t).mp h)) (fun h => h1 ((hcond_1 t).mp h))) (noFlush_2_B t (fun h => h0 ((hcond_0 t).mp h)) (fun h => h1 ((hcond_1 t).mp h)))]
      rw [outsAt_B V c t h0 h1]
      unfold sout_B; (try dsimp only)
      by_cases hz : t.val = 0
      · exfalso; omega
      · rw [PhiS_castSucc V c t, PhiS_pos V c _ _ hz]
        unfold restWith
        iintro ⟨⟨⟨R1, R2, R3, R4, R5, R6, R7, R8, R9, R10, R11, R12, R13, R14, HS0⟩, Hg⟩, Ho, ⟨%d0, H0⟩, ⟨%d1, H1⟩, ⟨%d2, H2⟩⟩
        iapply ((kernelRun_B c (grid1.coords t) _ _ _ _ _ _ _ _ (fun h => h0 ((hcond_0 t).mp h)) (fun h => h1 ((hcond_1 t).mp h)) (iblk V c 0 t) (iblk V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [R1 R2 R3 R4 R5 R6 R7 R8 R9 R10 R11 R12 R13 R14 HS0 Hg]
        · isplitl [R1 R2 R3 R4 R5 R6 R7 R8 R9 R10 R11 R12 R13 R14 HS0]
          · isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [R11]; · iexact R11
            isplitl [R12]; · iexact R12
            isplitl [R13]; · iexact R13
            isplitl [R14]; · iexact R14
            unfold owns; iexists _; isplitr
            swap; · iexact HS0
            ipureintro; exact View.read_writes_of_cover _ _ _ _ _ (scover_B c _ _ _ _ _ _ _ _ _ _ _ _ _ _)
          iexact Hg
        isplitl [Ho]; · iexact Ho
        isplitl [H0]; · iexact H0
        isplitl [H1]; · iexact H1
        iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives back what the launch handed over: the accumulator's named
    contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  unfold restWith
  iintro ⟨⟨R1, R2, R3, R4, R5, R6, R7, R8, R9, R10, R11, R12, R13, R14, HS0⟩, Hg⟩
  isplitl [R1 R2 R3 R4 R5 R6 R7 R8 R9 R10 R11 R12 R13 R14 HS0]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexists _; iexact HS0
  iexact Hg

/-- The same after the last point. -/
theorem hout (c : Dev nD) : (dat V c).Φ (Fin.last cfg1.N) ⊢ Pipeline.ΦA spec1 c :=
  Phi_out V c _ (by rw [Fin.val_last]; have : cfg1.N = 50 := N_1; omega)

/-! ## The found pieces as values -/

/-- The offsets of every load and store of the body: the unit rectangle sits at the origin. -/
theorem unitOffs_zero : (![0, 0] : Fin 2 → Nat) = fun _ => 0 := funext fun a => by fin_cases a <;> rfl

/-- At the points 1..48 the accumulator is left at the update of what it held (`xs`) by the two blocks: its one
    covering store's payload, whose loads read the whole buffers. -/
theorem sout_B_eq (c : Dev nD) (i : grid1.Coords) (arg1 : Memref sig .tc .vmem S16000x64 .bf16) (harg1 : arg1.IsWhole) (arg2 : Memref sig .tc .vmem S16000x64 .bf16) (harg2 : arg2.IsWhole) (arg3 : Memref sig .tc .vmem S1x1 .f32) (harg3 : arg3.IsWhole) (arg4 : Memref sig .tc .vmem S1x1 .f32) (harg4 : arg4.IsWhole) (hc0 : ¬cond_0 i) (hc1 : ¬cond_1 i)
    (x0 : Vec F S16000x64 .bf16) (x1 : Vec F S16000x64 .bf16) (xs : Vec F S1x1 .f32) :
    sout_B c i arg1 harg1 arg2 harg2 arg3 harg3 arg4 harg4 hc0 hc1 x0 x1 xs = k1_pay2 x0 x1 xs := by
  unfold sout_B
  rw [View.read_writes_eq_canon _ _ _ (scover_B c i arg1 harg1 arg2 harg2 arg3 harg3 arg4 harg4 hc0 hc1 x0 x1 xs)]
  unfold kernelRun_B
  dsimp only
  rw [View.canon_unit_zero (S := S1x1) unitOffs_zero]
  simp only [View.readAt_eq_ld, harg1.read_unread, harg2.read_unread, harg4.read_unread, View.ld_unit_zero (S := S16000x64) unitOffs_zero, View.ld_unit_zero (S := S1x1) unitOffs_zero]

/-- At point 0 the accumulator is left at the update of the zero word by the two blocks: the reset is stored, read
    back whole, and the update stored over it. -/
theorem sout_A_eq (c : Dev nD) (i : grid1.Coords) (arg1 : Memref sig .tc .vmem S16000x64 .bf16) (harg1 : arg1.IsWhole) (arg2 : Memref sig .tc .vmem S16000x64 .bf16) (harg2 : arg2.IsWhole) (arg3 : Memref sig .tc .vmem S1x1 .f32) (harg3 : arg3.IsWhole) (arg4 : Memref sig .tc .vmem S1x1 .f32) (harg4 : arg4.IsWhole) (hc0 : cond_0 i) (hc1 : ¬cond_1 i)
    (x0 : Vec F S16000x64 .bf16) (x1 : Vec F S16000x64 .bf16) :
    sout_A c i arg1 harg1 arg2 harg2 arg3 harg3 arg4 harg4 hc0 hc1 x0 x1 = k1_pay2 x0 x1 (k1_pay1 (F := F)) := by
  unfold sout_A
  rw [View.read_writes_eq_canon _ _ _ (scover_A c i arg1 harg1 arg2 harg2 arg3 harg3 arg4 harg4 hc0 hc1 x0 x1)]
  unfold kernelRun_A
  dsimp only
  sl_unfold_words
  rw [View.canon_cons_unit_zero (S := S1x1) unitOffs_zero, View.readCov_unit_zero (S := S1x1) _ unitOffs_zero]
  simp only [View.readAt_eq_ld, harg1.read_unread, harg2.read_unread, View.ld_unit_zero (S := S16000x64) unitOffs_zero, View.ld_unit_zero (S := S1x1) unitOffs_zero]

/-- At point 49 the accumulator is left at the update of what it held, as at the points before. -/
theorem sout_C_eq (c : Dev nD) (i : grid1.Coords) (arg1 : Memref sig .tc .vmem S16000x64 .bf16) (harg1 : arg1.IsWhole) (arg2 : Memref sig .tc .vmem S16000x64 .bf16) (harg2 : arg2.IsWhole) (arg3 : Memref sig .tc .vmem S1x1 .f32) (harg3 : arg3.IsWhole) (arg4 : Memref sig .tc .vmem S1x1 .f32) (harg4 : arg4.IsWhole) (hc0 : ¬cond_0 i) (hc1 : cond_1 i)
    (x0 : Vec F S16000x64 .bf16) (x1 : Vec F S16000x64 .bf16) (xs : Vec F S1x1 .f32) :
    sout_C c i arg1 harg1 arg2 harg2 arg3 harg3 arg4 harg4 hc0 hc1 x0 x1 xs = k1_pay2 x0 x1 xs := by
  unfold sout_C
  rw [View.read_writes_eq_canon _ _ _ (scover_C c i arg1 harg1 arg2 harg2 arg3 harg3 arg4 harg4 hc0 hc1 x0 x1 xs)]
  unfold kernelRun_C
  dsimp only
  sl_unfold_words
  rw [View.canon_unit_zero (S := S1x1) unitOffs_zero]
  simp only [View.readAt_eq_ld, harg1.read_unread, harg2.read_unread, harg4.read_unread, View.ld_unit_zero (S := S16000x64) unitOffs_zero, View.ld_unit_zero (S := S1x1) unitOffs_zero]

/-- At point 49 the result window's buffer is left at the same word: the accumulator read back whole after its update. -/
theorem out_C_eq (c : Dev nD) (i : grid1.Coords) (arg1 : Memref sig .tc .vmem S16000x64 .bf16) (harg1 : arg1.IsWhole) (arg2 : Memref sig .tc .vmem S16000x64 .bf16) (harg2 : arg2.IsWhole) (arg3 : Memref sig .tc .vmem S1x1 .f32) (harg3 : arg3.IsWhole) (arg4 : Memref sig .tc .vmem S1x1 .f32) (harg4 : arg4.IsWhole) (hc0 : ¬cond_0 i) (hc1 : cond_1 i)
    (x0 : Vec F S16000x64 .bf16) (x1 : Vec F S16000x64 .bf16) (xs : Vec F S1x1 .f32) :
    out_C_2 c i arg1 harg1 arg2 harg2 arg3 harg3 arg4 harg4 hc0 hc1 x0 x1 xs = k1_pay2 x0 x1 xs := by
  unfold out_C_2
  rw [View.read_writes_eq_canon _ _ _ (cover_C_2 c i arg1 harg1 arg2 harg2 arg3 harg3 arg4 harg4 hc0 hc1 x0 x1 xs)]
  unfold kernelRun_C
  dsimp only
  sl_unfold_words
  rw [View.canon_unit_zero (S := S1x1) unitOffs_zero, View.readCov_unit_zero (S := S1x1) _ unitOffs_zero]
  simp only [View.readAt_eq_ld, harg1.read_unread, harg2.read_unread, harg4.read_unread, View.ld_unit_zero (S := S16000x64) unitOffs_zero, View.ld_unit_zero (S := S1x1) unitOffs_zero]

/-! ## The accumulator's recurrence, read off the found pieces -/

/-- After point 0 the accumulator holds the update of the zero word by the first blocks. -/
theorem acc_zero (c : Dev nD) (h : 0 < cfg1.N) : (outsAt V c 0 h).2 = k1_pay2 (iblk V c 0 ⟨0, h⟩) (iblk V c 1 ⟨0, h⟩) (k1_pay1 (F := F)) := by
  have h0 : (⟨0, h⟩ : Fin cfg1.N).val % 50 = 0 := rfl
  have h1 : ¬(⟨0, h⟩ : Fin cfg1.N).val % 50 = 49 := by dsimp only; omega
  rw [show outsAt V c 0 h = _ from outsAt_A V c ⟨0, h⟩ h0 h1]
  dsimp only
  exact sout_A_eq (F := F) c (grid1.coords ⟨0, h⟩) (ms_0 ⟨0, h⟩) (hs_0 ⟨0, h⟩) (ms_1 ⟨0, h⟩) (hs_1 ⟨0, h⟩) (ms_2 ⟨0, h⟩) (hs_2 ⟨0, h⟩) scM (Memref.isWhole_whole _) ((hcond_0 ⟨0, h⟩).mpr h0) (fun e => h1 ((hcond_1 ⟨0, h⟩).mp e)) (iblk V c 0 ⟨0, h⟩) (iblk V c 1 ⟨0, h⟩)

/-- After every later point it holds the update, by that point's blocks, of what the point before left. -/
theorem acc_succ (c : Dev nD) (n : ℕ) (h : n + 1 < cfg1.N) : (outsAt V c (n + 1) h).2 = k1_pay2 (iblk V c 0 ⟨n + 1, h⟩) (iblk V c 1 ⟨n + 1, h⟩) (outsAt V c n (Nat.lt_of_succ_lt h)).2 := by
  have hN : n + 1 < 50 := lt_of_lt_of_eq h (show cfg1.N = 50 from N_1)
  have h0 : ¬(⟨n + 1, h⟩ : Fin cfg1.N).val % 50 = 0 := by dsimp only; omega
  by_cases h1 : (⟨n + 1, h⟩ : Fin cfg1.N).val % 50 = 49
  · rw [show outsAt V c (n + 1) h = _ from outsAt_C V c ⟨n + 1, h⟩ h0 h1]
    dsimp only
    exact sout_C_eq (F := F) c (grid1.coords ⟨n + 1, h⟩) (ms_0 ⟨n + 1, h⟩) (hs_0 ⟨n + 1, h⟩) (ms_1 ⟨n + 1, h⟩) (hs_1 ⟨n + 1, h⟩) (ms_2 ⟨n + 1, h⟩) (hs_2 ⟨n + 1, h⟩) scM (Memref.isWhole_whole _) (fun e => h0 ((hcond_0 ⟨n + 1, h⟩).mp e)) ((hcond_1 ⟨n + 1, h⟩).mpr h1) (iblk V c 0 ⟨n + 1, h⟩) (iblk V c 1 ⟨n + 1, h⟩) (outsAt V c n (Nat.lt_of_succ_lt h)).2
  · rw [show outsAt V c (n + 1) h = _ from outsAt_B V c ⟨n + 1, h⟩ h0 h1]
    dsimp only
    exact sout_B_eq (F := F) c (grid1.coords ⟨n + 1, h⟩) (ms_0 ⟨n + 1, h⟩) (hs_0 ⟨n + 1, h⟩) (ms_1 ⟨n + 1, h⟩) (hs_1 ⟨n + 1, h⟩) (ms_2 ⟨n + 1, h⟩) (hs_2 ⟨n + 1, h⟩) scM (Memref.isWhole_whole _) (fun e => h0 ((hcond_0 ⟨n + 1, h⟩).mp e)) (fun e => h1 ((hcond_1 ⟨n + 1, h⟩).mp e)) (iblk V c 0 ⟨n + 1, h⟩) (iblk V c 1 ⟨n + 1, h⟩) (outsAt V c n (Nat.lt_of_succ_lt h)).2

/-- At the last point the result window's buffer is left holding the accumulator's final contents. -/
theorem out_last (c : Dev nD) (h : 49 < cfg1.N) : (dat V c).after 2 ⟨49, h⟩ = (outsAt V c 49 h).2 := by
  have h0 : ¬(⟨49, h⟩ : Fin cfg1.N).val % 50 = 0 := by dsimp only; omega
  have h1 : (⟨49, h⟩ : Fin cfg1.N).val % 50 = 49 := rfl
  rw [after_2]
  show (outsAt V c 49 h).1 = (outsAt V c 49 h).2
  rw [show outsAt V c 49 h = _ from outsAt_C V c ⟨49, h⟩ h0 h1]
  dsimp only
  exact (out_C_eq (F := F) c (grid1.coords ⟨49, h⟩) (ms_0 ⟨49, h⟩) (hs_0 ⟨49, h⟩) (ms_1 ⟨49, h⟩) (hs_1 ⟨49, h⟩) (ms_2 ⟨49, h⟩) (hs_2 ⟨49, h⟩) scM (Memref.isWhole_whole _) (fun e => h0 ((hcond_0 ⟨49, h⟩).mp e)) ((hcond_1 ⟨49, h⟩).mpr h1) (iblk V c 0 ⟨49, h⟩) (iblk V c 1 ⟨49, h⟩) _).trans
    (sout_C_eq (F := F) c (grid1.coords ⟨49, h⟩) (ms_0 ⟨49, h⟩) (hs_0 ⟨49, h⟩) (ms_1 ⟨49, h⟩) (hs_1 ⟨49, h⟩) (ms_2 ⟨49, h⟩) (hs_2 ⟨49, h⟩) scM (Memref.isWhole_whole _) (fun e => h0 ((hcond_0 ⟨49, h⟩).mp e)) ((hcond_1 ⟨49, h⟩).mpr h1) (iblk V c 0 ⟨49, h⟩) (iblk V c 1 ⟨49, h⟩) _).symm

end Cert.Kernel.Edge

end
-- ==== Proof.K.Boundaries.lean ====
import proofs.«137296_j64604898066506_1_alg».proof.Proof.Gen.Kernel.Launch
import proofs.«137296_j64604898066506_1_alg».proof.Proof.Gen.Kernel.Skeleton
import proofs.«137296_j64604898066506_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«137296_j64604898066506_1_alg».proof.Proof.K.NodeData
import proofs.«137296_j64604898066506_1_alg».proof.Proof.K.EdgeData
set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! # The buffers' contents at each boundary of the program

The program is: one reshape on the host; the node pass (25 grid points); 29 host operations (the trace term of the
Gram matrix, the feature loss scaled, the two row gathers); the edge pass (50 grid points); 11 host operations (the
loss assembled). The contents of every unscoped buffer at each boundary are a fold from the launch memory: a host
stretch applies its operations, a kernel region replaces its windows' arrays by what its write-backs leave and keeps
every other buffer. -/

/-- Core `c`'s buffers at launch. -/
abbrev W0 : Dev nD → Valuation τ sig (Elt F) := fun c b => m (c, b)
/-- After the reshape of the community scalars (the node pass's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At the node pass's exit: its eight arrays at what the pipeline leaves, every other buffer as entered. -/
def W2 (c : Dev nD) : Valuation τ sig (Elt F) :=
  Pipeline.withArrays spec0 c (W1 m c) fun w => (Node.dat (V1 m) c).arrAt w cfg0.N
theorem W2_arr (c : Dev nD) (w : Fin cfg0.W) :
    W2 m c (Proc.devRef .tc (Pipeline.arrRef spec0 w)) = (Node.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Node.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host operations between the two passes (the edge pass's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the edge pass's exit: its three arrays at what the pipeline leaves, every other buffer as entered. -/
def W4 (c : Dev nD) : Valuation τ sig (Elt F) :=
  Pipeline.withArrays spec1 c (W3 m c) fun w => (Edge.dat (V3 m) c).arrAt w cfg1.N
theorem W4_arr (c : Dev nD) (w : Fin cfg1.W) :
    W4 m c (Proc.devRef .tc (Pipeline.arrRef spec1 w)) = (Edge.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (Edge.dat (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the last host operations: the program's end. -/
abbrev W5 : Dev nD → Valuation τ sig (Elt F) := fun c => StableHlo.after hostOps2 (W4 m c)

end Cert.Kernel.Whole

end
-- ==== Proof.K.WholeRun.lean ====
import proofs.«137296_j64604898066506_1_alg».proof.Proof.K.Boundaries
import proofs.«137296_j64604898066506_1_alg».proof.Proof.Gen.Kernel.Regions
set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the whole program

The program is five stretches in order — the reshape on the host, the node pass, the host operations between the
passes, the edge pass, the host operations that assemble the loss — and every core runs them one after another. Between
two stretches a core holds every unscoped buffer whole, at the contents `W0` … `W5` of that boundary, beside its
generator register (at some state) and the record that it owes no other core anything. A host stretch takes the
buffers from one boundary's contents to the next by applying its operations; a pass takes its windows' arrays out of
the buffers, runs its grid points over them, and puts them back at what the write-backs leave. -/

/-- Neither pass has a prefetched table, so there is nothing to admit. -/
abbrev noTables : (p : Fin 2) → (pcfgs (F := F) p).Adm := fun p => (cfgs p).toPCfg_adm

/-- The two passes' proof data, each taken at the contents its pass is entered from: the node pass at the contents
    after the reshape (`V1`), the edge pass at the contents after the host operations between the passes (`V3`). -/
def passData : (p : Fin 2) → (c : Dev nD) → Dat τ (Elt F) Unit ℕ (UR sig nD τ) ℕ (Pipeline.pin (pcfgs (F := F)) noTables p) c
  | ⟨0, _⟩ => fun c => Node.dat (V1 m) c
  | ⟨1, _⟩ => fun c => Edge.dat (V3 m) c

/-- No pair of cores is assigned a level: no core ever owes another. -/
abbrev noPairs : GSem nD τ sig → Finset Unit := fun _ => ∅
abbrev noLevel : GSem nD τ sig → Unit → ℕ := fun _ _ => 0

/-- What a core holds beside its buffers at every boundary: its generator register at some state, and its debts,
    which are none. -/
abbrev beside (c : Dev nD) : sProp 𝕄 :=
  iprop((∃ r, prngReg c r) ∗ ∃ W, owes (c : Thread nD τ) (0 : CellTallies nD τ sig Unit) W)

/-- A line of host operations as a stretch of the run: from every unscoped buffer at `W c` to every unscoped buffer
    at `StableHlo.after ops (W c)`, the register and the debts untouched. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

/-- An unscoped reference of the TensorCore is one of the buffers a core holds at a boundary. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What a core holds at the program's end, its debts apart: every unscoped buffer at the last contents `W5`, the
    generator register at some state. -/
abbrev atEnd (c : Dev nD) : sProp 𝕄 :=
  iprop(StableHlo.held (c : Thread nD τ) (Pipeline.ucRefs τ sig) (W5 m c) ∗ ∃ r, prngReg c r)

/-! ## The two passes -/

set_option backward.isDefEq.respectTransparency.types false in
/-- THE NODE PASS, entered from the buffers at `W1` and left at `W2`. At entry its eight arrays are taken out of the
    unscoped buffers (they are read off `V1`, which is what the pass's proof data start from) and the other buffers
    go round the pass; the generator register goes into the pass's invariant — through the class invariant `ΦA`,
    which the pass's own first invariant follows from — and comes back out of its last one the same way. At exit the
    arrays, now at what the write-backs leave, rejoin the other buffers: that is `W2` by its definition. The pass owes
    nothing at any point and has no semaphore of its own. -/
def nodePass : Pipeline.RegionSeg (pcfgs (F := F)) noTables (passData m) () defs₀ Variants.none noPairs noLevel 0 where
  win := launch0.win.to₀
  block_pos := launch0.block_pos
  stage_whole := launch0.stage_whole
  K := PEmpty
  osem k := k.elim
  ho := Pipeline.OwnSemFacts.none _
  hbody c := (Node.body_obligation (V1 m) c).loose
  hwaits := Pipeline.hwaits_of_owed_zero _ _ _ _ noPairs noLevel 0 fun _ _ => rfl
  pre c := iprop(StableHlo.held (c : Thread nD τ) (Pipeline.ucRefs τ sig) (W1 m c) ∗ beside c)
  post c := iprop(StableHlo.held (c : Thread nD τ) (Pipeline.ucRefs τ sig) (W2 m c) ∗ beside c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) noTables (passData m) launch0.win launch0.arr_whole c
      ((passData m 0 c).share_full fun _ => rfl) (V1 m c) fun w => Node.A_eq (V1 m) c w
    rw [Pipeline.unscopedBufs_held] at hsplit
    iintro ⟨⟨Hbufs, Hreg, Hdebt⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Hdebt]
    · unfold Pipeline.Dat.owesAt Pipeline.owesWithin
      icases Hdebt with ⟨%W, Hdebt⟩; iexists W; isplitr; · ipureintro; exact fun _ _ => Or.inl trivial
      iexact Hdebt
    isplitl [Hreg]; · iexact Hreg
    iexact Hrest
  hin c := by
    refine BIBase.Entails.trans (Q := Pipeline.ΦA spec0 c) ?_ (Node.hin (V1 m) c)
    unfold Pipeline.ΦA
    iintro ⟨Hreg, -, Hscoped⟩
    isplitl [Hscoped]; · iexact Hscoped
    iexact Hreg
  hout c := by
    refine (Node.hout (V1 m) c).trans ?_
    rw [Pipeline.ownSems0_none]; unfold Pipeline.ΦA
    iintro ⟨Hscoped, Hreg⟩
    isplitl [Hreg]; · iexact Hreg
    isplitr; · iempintro
    iexact Hscoped
  hexit c := by
    have hjoin := Pipeline.unscopedBufs_of_arrays (p := 0) (pcfgs (F := F)) noTables (Ix := Unit) (Name := ℕ) (U := UR sig nD τ) (Lvl := ℕ)
      launch0.win launch0.arr_whole c (passData m) ((passData m 0 c).share_full fun _ => rfl)
      (V1 m c) (V2 m c) ((passData m 0 c).arrAt · cfg0.N) (hF0 m c) (hrest0 m c)
    rw [Pipeline.unscopedBufs_held] at hjoin
    iintro ⟨Harr, Hdebt, Hreg, Hrest⟩
    imodintro
    isplitl [Harr Hrest]
    · iapply hjoin; isplitl [Harr] <;> iassumption
    isplitl [Hreg]; · iexact Hreg
    unfold Pipeline.Dat.owesAt Pipeline.owesWithin
    icases Hdebt with ⟨%W, -, Hdebt⟩; iexists W; iexact Hdebt

set_option backward.isDefEq.respectTransparency.types false in
/-- THE EDGE PASS, entered from the buffers at `W3` and left at `W4`: the same account as the node pass's, for its
    three arrays (the two gathered row tables it reads, the one-element array it writes), read off `V3` at entry and rejoining
    the other buffers at `W4` at exit. -/
def edgePass : Pipeline.RegionSeg (pcfgs (F := F)) noTables (passData m) () defs₀ Variants.none noPairs noLevel 1 where
  win := launch1.win.to₀
  block_pos := launch1.block_pos
  stage_whole := launch1.stage_whole
  K := PEmpty
  osem k := k.elim
  ho := Pipeline.OwnSemFacts.none _
  hbody c := (Edge.body_obligation (V3 m) c).loose
  hwaits := Pipeline.hwaits_of_owed_zero _ _ _ _ noPairs noLevel 1 fun _ _ => rfl
  pre c := iprop(StableHlo.held (c : Thread nD τ) (Pipeline.ucRefs τ sig) (W3 m c) ∗ beside c)
  post c := iprop(StableHlo.held (c : Thread nD τ) (Pipeline.ucRefs τ sig) (W4 m c) ∗ beside c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) noTables (passData m) launch1.win launch1.arr_whole c
      ((passData m 1 c).share_full fun _ => rfl) (V3 m c) fun w => Edge.A_eq (V3 m) c w
    rw [Pipeline.unscopedBufs_held] at hsplit
    iintro ⟨⟨Hbufs, Hreg, Hdebt⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Hdebt]
    · unfold Pipeline.Dat.owesAt Pipeline.owesWithin
      icases Hdebt with ⟨%W, Hdebt⟩; iexists W; isplitr; · ipureintro; exact fun _ _ => Or.inl trivial
      iexact Hdebt
    isplitl [Hreg]; · iexact Hreg
    iexact Hrest
  hin c := by
    refine BIBase.Entails.trans (Q := Pipeline.ΦA spec1 c) ?_ (Edge.hin (V3 m) c)
    unfold Pipeline.ΦA
    iintro ⟨Hreg, -, Hscoped⟩
    isplitl [Hscoped]; · iexact Hscoped
    iexact Hreg
  hout c := by
    refine (Edge.hout (V3 m) c).trans ?_
    rw [Pipeline.ownSems0_none]; unfold Pipeline.ΦA
    iintro ⟨Hscoped, Hreg⟩
    isplitl [Hreg]; · iexact Hreg
    isplitr; · iempintro
    iexact Hscoped
  hexit c := by
    have hjoin := Pipeline.unscopedBufs_of_arrays (p := 1) (pcfgs (F := F)) noTables (Ix := Unit) (Name := ℕ) (U := UR sig nD τ) (Lvl := ℕ)
      launch1.win launch1.arr_whole c (passData m) ((passData m 1 c).share_full fun _ => rfl)
      (V3 m c) (V4 m c) ((passData m 1 c).arrAt · cfg1.N) (hF1 m c) (hrest1 m c)
    rw [Pipeline.unscopedBufs_held] at hjoin
    iintro ⟨Harr, Hdebt, Hreg, Hrest⟩
    imodintro
    isplitl [Harr Hrest]
    · iapply hjoin; isplitl [Harr] <;> iassumption
    isplitl [Hreg]; · iexact Hreg
    unfold Pipeline.Dat.owesAt Pipeline.owesWithin
    icases Hdebt with ⟨%W, -, Hdebt⟩; iexists W; iexact Hdebt

/-! ## The program as its five stretches, and the launch -/

/-- The five stretches in the program's order, each host stretch starting from its boundary's contents. -/
abbrev parts : List (Pipeline.Seg (pcfgs (F := F)) noTables (passData m) () defs₀ Variants.none noPairs noLevel) :=
  [ .host (stretch hostOps0 hostOps0_sub hostOps0_fresh (W0 m)),
    .region (nodePass m),
    .host (stretch hostOps1 hostOps1_sub hostOps1_fresh (W2 m)),
    .region (edgePass m),
    .host (stretch hostOps2 hostOps2_sub hostOps2_fresh (W4 m)) ]

/-- What the last host stretch leaves — the buffers beside (the register beside the debts) — regrouped as (the
    buffers beside the register) beside the debts: separating conjunction is associative. -/
theorem end_regroup (c : Dev nD) :
    iprop(StableHlo.held (c : Thread nD τ) (Pipeline.ucRefs τ sig) (W5 m c) ∗ beside (F := F) c)
      ⊢ iprop(atEnd m c ∗ ∃ W, owes (c : Thread nD τ) (0 : CellTallies nD τ sig Unit) W) := by
  iintro ⟨Hbufs, Hreg, Hdebt⟩
  isplitr [Hdebt]
  · isplitl [Hbufs]; · iexact Hbufs
    iexact Hreg
  iexact Hdebt

/-- The program's text is the five stretches run one after another. -/
theorem main_parts (c : Dev nD) : main (F := F) c = Pipeline.Seg.run (parts m) := (main_chain c).trans (by chain_rfl)

set_option backward.isDefEq.respectTransparency.types false in
/-- THE RUN. From any launch memory `m` with every counter at zero, every weakly fair execution of the program on
    the TensorCores terminates without fault, and in every final state each core's unscoped buffers hold the last
    boundary's contents `W5`. The launch deals each core its unscoped buffers at the launch contents (`W0`), its
    generator register and empty debts; the five stretches chain, each entered from what the one before left; what
    the last host stretch leaves is the buffers at `W5` beside the register and the empty debts, which is read
    against the final memory buffer by buffer. -/
theorem run_all : θ_run defs (onTc (τ := τ) (main (F := F))) ⟨m, fun _ => 0, ρ⟩ (fun r => ∀ c : Dev nD, ∀ b ∈ Pipeline.ucRefs τ sig, r.2.mem ((c : Thread nD τ).1, b) = W5 m c b) :=
  Pipeline.θ_run_regions_kit (pcfgs (F := F)) noTables (passData m) () cellOf_inj emb₁ defs₀ Variants.none noPairs noLevel m ρ main (parts m)
    (fun c Q => by rw [main_parts m c])
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ beside c)) (Tₙ := atEnd m)
    (hch := ⟨fun _ => .rfl, fun _ => .rfl, fun _ => .rfl, fun _ => .rfl, fun _ => .rfl, fun c => end_regroup m c⟩)
    (hinit := by
      refine Pipeline.initEach noPairs noLevel fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Hdebt, -, Hreg, -⟩, -⟩
      imodintro
      isplitl [Hbufs]; · iexact Hbufs
      isplitl [Hreg]; · iexists _; iexact Hreg
      iexists ∅; iexact Hdebt)
    (QY := fun c s => ∀ b ∈ Pipeline.ucRefs τ sig, s.mem (((c : Thread nD τ)).1, b) = W5 m c b)
    (hfin := fun c s' => by
      iintro ⟨⟨Hbufs, -⟩, HSI⟩
      unfold StableHlo.held
      imodintro
      iapply (pointsTo_read_all (Pipeline.ucRefs τ sig) (fun b => (((c : Thread nD τ)).1, b)) (W5 m c) s')
      isplitl [Hbufs] <;> iassumption)
    (hQ := fun s h => h)

/-! ## The arguments end as launched

No host operation writes an argument, and no pass does: the node pass reads the node features (`main_arg0`), the
affiliation logits (`main_arg2`) and the feature matrix (`main_arg4`) through input windows, whose arrays are never written back,
and neither pass has a window on the edge list (`main_arg1`) or the community scalars (`main_arg3`). So the last
contents at an argument's buffer walk back, boundary by boundary, to the launch memory. -/

/-- The node features: the node pass's window 2, an input. -/
theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 2).trans (((Node.dat (V1 m) c).arrAt_in 2 rfl _).trans (Node.A_eq (V1 m) c 2))
    _ = W0 m c (Proc.devRef .tc main_arg0) := StableHlo.after_of_writes_sub hostOps0 _ hostOps0_writes (by decide)
    _ = m ((c : Thread nD τ).loc main_arg0) := rfl

/-- The edge list: no pass has a window on it (the host slices it into its two rows). -/
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-- The affiliation logits: the node pass's window 0, an input. -/
theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := (W2_arr m c 0).trans (((Node.dat (V1 m) c).arrAt_in 0 rfl _).trans (Node.A_eq (V1 m) c 0))
    _ = W0 m c (Proc.devRef .tc main_arg2) := StableHlo.after_of_writes_sub hostOps0 _ hostOps0_writes (by decide)
    _ = m ((c : Thread nD τ).loc main_arg2) := rfl

/-- The community scalars: the node pass reads their reshaped copy, not this buffer. -/
theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

/-- The feature matrix: the node pass's window 3, an input. -/
theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := (W2_arr m c 3).trans (((Node.dat (V1 m) c).arrAt_in 3 rfl _).trans (Node.A_eq (V1 m) c 3))
    _ = W0 m c (Proc.devRef .tc main_arg4) := StableHlo.after_of_writes_sub hostOps0 _ hostOps0_writes (by decide)
    _ = m ((c : Thread nD τ).loc main_arg4) := rfl

/-! ## The frame claim and the result -/

/-- THE FRAME: every weakly fair execution terminates without fault and every final memory holds the five argument
    arrays as launched — each argument's buffer is unscoped, so the run reads it at `W5`, which is the launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

/-- THE RESULT: besides the arguments as launched, every final memory holds at the loss's buffer (`main_v32`) the
    last boundary's contents there. -/
theorem run_result : θ_run defs (onTc (τ := τ) (main (F := F))) ⟨m, fun _ => 0, ρ⟩ (fun r => ∀ c : Dev nD,
      r.2.mem ((c.tc : Thread nD τ).loc main_v32) = W5 m c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v32 (by decide)),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

end Cert.Kernel.Whole

end
-- ==== Proof.KI.NodeShared.lean ====
import proofs.«137296_j64604898066506_1_alg».proof.Proof.Gen.KernelIdeal.Launch
import proofs.«137296_j64604898066506_1_alg».proof.Proof.Gen.KernelIdeal.Skeleton
import proofs.«137296_j64604898066506_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Node

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there (it is, at every point), for any proof data
    whose array is the entry contents and whose body leaves the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point (fetched at the first point only; the block index never moves afterwards), for any proof data
    whose array is the entry contents and whose body leaves the block in place. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there (it is, at every point), for any proof data
    whose array is the entry contents and whose body leaves the block in place. -/
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point (fetched at the first point only; the block index never moves afterwards), for any proof data
    whose array is the entry contents and whose body leaves the block in place. -/
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, in closed form over the grid -/

/-- The first conditional's condition (the accumulators are reset): the grid coordinate is 0. -/
abbrev cond_0 (i : grid0.Coords) : Prop := (Scalar.cmpi .ne (Scalar.extui (Scalar.cmpi .eq (BitVec.ofNat 32 (i 0).val) 0#32)) 0#32) = 1#1
/-- It holds at the first point only. -/
theorem hcond_0 : ∀ t : Fin cfg0.N, cond_0 (grid0.coords t) ↔ t.val % 25 = 0 :=
  (by decide +kernel : ∀ t : Fin grid0.N, cond_0 (grid0.coords t) ↔ t.val % 25 = 0)

/-- The last conditional's condition (the accumulators are copied out): the grid coordinate is 24. -/
abbrev cond_1 (i : grid0.Coords) : Prop := k0_cond2 i = 1#1
/-- It holds at the last point only. -/
theorem hcond_1 : ∀ t : Fin cfg0.N, cond_1 (grid0.coords t) ↔ t.val % 25 = 24 :=
  (by decide +kernel : ∀ t : Fin grid0.N, cond_1 (grid0.coords t) ↔ t.val % 25 = 24)

/-! ## Where the windows are idle -/

theorem liveAt_0 : ∀ t : Fin cfg0.N, cfg0.idle 0 (grid0.coords t) = false := fun _ => rfl
theorem liveAt_1 : ∀ t : Fin cfg0.N, cfg0.idle 1 (grid0.coords t) = false := fun _ => rfl
theorem liveAt_2 : ∀ t : Fin cfg0.N, cfg0.idle 2 (grid0.coords t) = false := fun _ => rfl
theorem liveAt_3 : ∀ t : Fin cfg0.N, cfg0.idle 3 (grid0.coords t) = false := fun _ => rfl
theorem liveAt_4 : ∀ t : Fin cfg0.N, cfg0.idle 4 (grid0.coords t) = false := fun _ => rfl
theorem liveAt_5 : ∀ t : Fin cfg0.N, cfg0.idle 5 (grid0.coords t) = false := fun _ => rfl
/-- Where the last conditional is not taken, the Gram output (window 6) and the error output (window 7) are idle:
    nothing is stored into them, and the pipeline does not write them back. -/
theorem idleAt_6_A : ∀ t : Fin cfg0.N, cond_0 (grid0.coords t) → ¬cond_1 (grid0.coords t) → cfg0.idle 6 (grid0.coords t) = true := by decide +kernel
theorem noFlush_6_A : ∀ t : Fin cfg0.N, cond_0 (grid0.coords t) → ¬cond_1 (grid0.coords t) → (cfg0.win 6).flush t = false := by decide +kernel
theorem idleAt_7_A : ∀ t : Fin cfg0.N, cond_0 (grid0.coords t) → ¬cond_1 (grid0.coords t) → cfg0.idle 7 (grid0.coords t) = true := by decide +kernel
theorem noFlush_7_A : ∀ t : Fin cfg0.N, cond_0 (grid0.coords t) → ¬cond_1 (grid0.coords t) → (cfg0.win 7).flush t = false := by decide +kernel
theorem idleAt_6_B : ∀ t : Fin cfg0.N, ¬cond_0 (grid0.coords t) → ¬cond_1 (grid0.coords t) → cfg0.idle 6 (grid0.coords t) = true := by decide +kernel
theorem noFlush_6_B : ∀ t : Fin cfg0.N, ¬cond_0 (grid0.coords t) → ¬cond_1 (grid0.coords t) → (cfg0.win 6).flush t = false := by decide +kernel
theorem idleAt_7_B : ∀ t : Fin cfg0.N, ¬cond_0 (grid0.coords t) → ¬cond_1 (grid0.coords t) → cfg0.idle 7 (grid0.coords t) = true := by decide +kernel
theorem noFlush_7_B : ∀ t : Fin cfg0.N, ¬cond_0 (grid0.coords t) → ¬cond_1 (grid0.coords t) → (cfg0.win 7).flush t = false := by decide +kernel
/-- Where it is taken (the last point) both are live. -/
theorem liveAt_6_C : ∀ t : Fin cfg0.N, ¬cond_0 (grid0.coords t) → cond_1 (grid0.coords t) → cfg0.idle 6 (grid0.coords t) = false := by decide +kernel
theorem liveAt_7_C : ∀ t : Fin cfg0.N, ¬cond_0 (grid0.coords t) → cond_1 (grid0.coords t) → cfg0.idle 7 (grid0.coords t) = false := by decide +kernel

/-! ## The memrefs the body is called with -/

/-- One staging buffer of each output window, through which its contents are stated. -/
abbrev VO_4 : View sig .tc .vmem S2000x64 .bf16 := (Memref.whole cc0_stg4_0 : Memref sig .tc .vmem S2000x64 .bf16).view
abbrev VO_5 : View sig .tc .vmem S2000x64 .bf16 := (Memref.whole cc0_stg5_0 : Memref sig .tc .vmem S2000x64 .bf16).view
abbrev VO_6 : View sig .tc .vmem S64x64 .f32 := (Memref.whole cc0_stg6_0 : Memref sig .tc .vmem S64x64 .f32).view
abbrev VO_7 : View sig .tc .vmem S1x1 .f32 := (Memref.whole cc0_stg7_0 : Memref sig .tc .vmem S1x1 .f32).view
/-- Each window's current staging memref at point `t`, and its wholeness. -/
abbrev ms_0 (t : Fin cfg0.N) : Memref sig .tc .vmem S2000x64 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x64 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S2000x128 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S64x128 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S2000x64 .bf16 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S2000x64 .bf16 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S64x64 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S1x1 .f32 := win0_7.stage (cfg0.slots t 7)
abbrev hs_7 (t : Fin cfg0.N) : (ms_7 t).IsWhole := hstage0_7 ((cfg0.slots t 7).cast nbuf0_7)
/-- The two scratch operands: the Gram accumulator and the squared-error accumulator, whole scoped buffers. -/
abbrev scM_0 : Memref sig .tc .vmem S64x64 .f32 := Memref.whole cc0_scratch0
abbrev scM_1 : Memref sig .tc .vmem S1x1 .f32 := Memref.whole cc0_scratch1
/-- The same as views: what the accumulators hold is stated through them. -/
abbrev VS_0 : View sig .tc .vmem S64x64 .f32 := scM_0.view
abbrev VS_1 : View sig .tc .vmem S1x1 .f32 := scM_1.view

/-- The scoped buffers of the core that the node pass never touches (the edge pass's staging and scratch), each at
    some contents. -/
def restOf (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f))

/-- The region's entry invariant with the two accumulators as memrefs owned at some contents. -/
theorem PhiA_eq (c : Dev nD) :
    (Pipeline.ΦA spec0 c : sProp 𝕄)
      = iprop(iprop((∃ d, owns (c : Thread nD τ) scM_0 fullShare d) ∗ (∃ d, owns (c : Thread nD τ) scM_1 fullShare d) ∗ restOf (F := F) c) ∗ (∃ r, prngReg c r)) := by
  unfold Pipeline.ΦA restOf; rw [scopedRest0_eq]; simp only [scM_0, scM_1, owns_whole]; try rfl

end Cert.KernelIdeal.Node

end
-- ==== Proof.KI.NodeRunA.lean ====
import proofs.«137296_j64604898066506_1_alg».proof.Proof.KI.NodeShared

set_option maxRecDepth 16384

noncomputable section

namespace Cert.KernelIdeal.Node

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

-- (the run's proof term is large)
set_option maxHeartbeats 4000000 in
/-- The body at the first point (the accumulators are reset, nothing is copied out): the pieces its stores leave in the two bf16 outputs and in the two accumulators
    (last store first), with the proof that on whole memrefs — the four inputs at their contents, the bf16 outputs at anything, the Gram and error outputs at contents handed back untouched,
    the accumulators at anything — the body runs to a continuation holding the inputs as they were and every stored buffer
    with its pieces written. -/
noncomputable def kernelRun_A (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : cond_0 i) (hc1 : ¬cond_1 i)
    (x0 : Vec F S2000x64 .f32) (x1 : Vec F S1x64 .f32) (x2 : Vec F S2000x128 .f32) (x3 : Vec F S64x128 .f32) :
    Σ' (L4 : List (View.Piece (Elt F) S2000x64 .bf16)) (L5 : List (View.Piece (Elt F) S2000x64 .bf16)) (LS0 : List (View.Piece (Elt F) S64x64 .f32)), { LS1 : List (View.Piece (Elt F) S1x1 .f32) //
      ∀ (xi6 : Vec F S64x64 .f32) (xi7 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ owns (c : Thread nD τ) arg7 fullShare xi6 ∗ owns (c : Thread nD τ) arg8 fullShare xi7
            ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)
                ∗ owns (c : Thread nD τ) arg7 fullShare xi6 ∗ owns (c : Thread nD τ) arg8 fullShare xi7
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__node_kernel i arg1 harg1 arg2 harg2 arg3 harg3 arg4 harg4 arg5 harg5 arg6 harg6 arg7 harg7 arg8 harg8 arg9 harg9 arg10 harg10) K } := by
  refine ⟨?_, ?_, ?_, ?_, fun xi6 xi7 E K => ?run⟩
  case run =>
    simp only [cc0__node_kernel_eq_skeleton]; unfold cc0__node_kernel_skel; simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.KernelIdeal.Node

end
-- ==== Proof.KI.NodeRunB.lean ====
import proofs.«137296_j64604898066506_1_alg».proof.Proof.KI.NodeRunA

set_option maxRecDepth 16384

noncomputable section

namespace Cert.KernelIdeal.Node

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

-- (the run's proof term is large)
set_option maxHeartbeats 4000000 in
/-- The body at a middle point (no reset, nothing copied out): the pieces its stores leave in the two bf16 outputs and in the two accumulators
    (last store first), with the proof that on whole memrefs — the four inputs at their contents, the bf16 outputs at anything, the Gram and error outputs at contents handed back untouched,
    the accumulators at what the point before left — the body runs to a continuation holding the inputs as they were and every stored buffer
    with its pieces written. -/
noncomputable def kernelRun_B (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : ¬cond_1 i)
    (x0 : Vec F S2000x64 .f32) (x1 : Vec F S1x64 .f32) (x2 : Vec F S2000x128 .f32) (x3 : Vec F S64x128 .f32) (xs0 : Vec F S64x64 .f32) (xs1 : Vec F S1x1 .f32) :
    Σ' (L4 : List (View.Piece (Elt F) S2000x64 .bf16)) (L5 : List (View.Piece (Elt F) S2000x64 .bf16)) (LS0 : List (View.Piece (Elt F) S64x64 .f32)), { LS1 : List (View.Piece (Elt F) S1x1 .f32) //
      ∀ (xi6 : Vec F S64x64 .f32) (xi7 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ owns (c : Thread nD τ) arg7 fullShare xi6 ∗ owns (c : Thread nD τ) arg8 fullShare xi7
            ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)
                ∗ owns (c : Thread nD τ) arg7 fullShare xi6 ∗ owns (c : Thread nD τ) arg8 fullShare xi7
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__node_kernel i arg1 harg1 arg2 harg2 arg3 harg3 arg4 harg4 arg5 harg5 arg6 harg6 arg7 harg7 arg8 harg8 arg9 harg9 arg10 harg10) K } := by
  refine ⟨?_, ?_, ?_, ?_, fun xi6 xi7 E K => ?run⟩
  case run =>
    simp only [cc0__node_kernel_eq_skeleton]; unfold cc0__node_kernel_skel; simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg7.eq_unread hf6; obtain rfl := harg8.eq_unread hf7; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]
    · iexists _; isplitr; · ipureintro; exact harg7.read_unread _
      iexact H6
    isplitl [H7]
    · iexists _; isplitr; · ipureintro; exact harg8.read_unread _
      iexact H7
    isplitl [HS0]; · iexists _; iexact HS0
    iexists _; iexact HS1

end Cert.KernelIdeal.Node

end
-- ==== Proof.KI.NodeRunC.lean ====
import proofs.«137296_j64604898066506_1_alg».proof.Proof.KI.NodeRunB

set_option maxRecDepth 16384

noncomputable section

namespace Cert.KernelIdeal.Node

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

-- (the run's proof term is large)
set_option maxHeartbeats 4000000 in
/-- The body at the last point (no reset; the accumulators are copied out into the Gram and error outputs): the pieces its stores leave in the two bf16 outputs, in the Gram and error outputs and in the two accumulators
    (last store first), with the proof that on whole memrefs — the four inputs at their contents, every output at anything,
    the accumulators at what the point before left — the body runs to a continuation holding the inputs as they were and every stored buffer
    with its pieces written. -/
noncomputable def kernelRun_C (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : cond_1 i)
    (x0 : Vec F S2000x64 .f32) (x1 : Vec F S1x64 .f32) (x2 : Vec F S2000x128 .f32) (x3 : Vec F S64x128 .f32) (xs0 : Vec F S64x64 .f32) (xs1 : Vec F S1x1 .f32) :
    Σ' (L4 : List (View.Piece (Elt F) S2000x64 .bf16)) (L5 : List (View.Piece (Elt F) S2000x64 .bf16)) (L6 : List (View.Piece (Elt F) S64x64 .f32)) (L7 : List (View.Piece (Elt F) S1x1 .f32)) (LS0 : List (View.Piece (Elt F) S64x64 .f32)), { LS1 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (∃ d, owns (c : Thread nD τ) arg7 fullShare d) ∗ (∃ d, owns (c : Thread nD τ) arg8 fullShare d)
            ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__node_kernel i arg1 harg1 arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0__node_kernel_eq_skeleton]; unfold cc0__node_kernel_skel; simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg9.eq_unread hfs0; obtain rfl := harg10.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [HS0]; · iexists _; iexact HS0
    iexists _; iexact HS1

end Cert.KernelIdeal.Node

end
-- ==== Proof.KI.NodeData.lean ====
import proofs.«137296_j64604898066506_1_alg».proof.Proof.KI.NodeRunC
import Idealize.ShloMosaic.Lib.Pipeline.Value

set_option maxRecDepth 16384

noncomputable section

namespace Cert.KernelIdeal.Node

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case's stores leave, buffer by buffer -/

/-- The pieces the body's stores leave in the first bf16 output (the logistic block) at the first point tile it, so they cover it. -/
theorem cover_A_4 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : cond_0 i) (hc1 : ¬cond_1 i)
    (x0 : Vec F S2000x64 .f32) (x1 : Vec F S1x64 .f32) (x2 : Vec F S2000x128 .f32) (x3 : Vec F S64x128 .f32) (y : S2000x64.Idx) :
    ∃ pc ∈ (kernelRun_A c i arg1 harg1 arg2 harg2 arg3 harg3 arg4 harg4 arg5 harg5 arg6 harg6 arg7 harg7 arg8 harg8 arg9 harg9 arg10 harg10 hc0 hc1 x0 x1 x2 x3).1, y ∈ pc.1.set :=
  View.cover_of_tiledL (kernelRun_A c i arg1 harg1 arg2 harg2 arg3 harg3 arg4 harg4 arg5 harg5 arg6 harg6 arg7 harg7 arg8 harg8 arg9 harg9 arg10 harg10 hc0 hc1 x0 x1 x2 x3).1 S2000x64.size (by sl_kernel_rfl) y

/-- What the first point leaves in the first bf16 output (the logistic block): its pieces read back over junk. -/
def out_A_4 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : cond_0 i) (hc1 : ¬cond_1 i)
    (x0 : Vec F S2000x64 .f32) (x1 : Vec F S1x64 .f32) (x2 : Vec F S2000x128 .f32) (x3 : Vec F S64x128 .f32) : Vec F S2000x64 .bf16 :=
  VO_4.read (Elt F) (VO_4.writes (Elt F) VO_4.junk (kernelRun_A c i arg1 harg1 arg2 harg2 arg3 harg3 arg4 harg4 arg5 harg5 arg6 harg6 arg7 harg7 arg8 harg8 arg9 harg9 arg10 harg10 hc0 hc1 x0 x1 x2 x3).1)

/-- The pieces the body's stores leave in the second bf16 output (the scaled logistic block) at the first point tile it, so they cover it. -/
theorem cover_A_5 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : cond_0 i) (hc1 : ¬cond_1 i)
    (x0 : Vec F S2000x64 .f32) (x1 : Vec F S1x64 .f32) (x2 : Vec F S2000x128 .f32) (x3 : Vec F S64x128 .f32) (y : S2000x64.Idx) :
    ∃ pc ∈ (kernelRun_A c i arg1 harg1 arg2 harg2 arg3 harg3 arg4 harg4 arg5 harg5 arg6 harg6 arg7 harg7 arg8 harg8 arg9 harg9 arg10 harg10 hc0 hc1 x0 x1 x2 x3).2.1, y ∈ pc.1.set :=
  View.cover_of_tiledL (kernelRun_A c i arg1 harg1 arg2 harg2 arg3 harg3 arg4 harg4 arg5 harg5 arg6 harg6 arg7 harg7 arg8 harg8 arg9 harg9 arg10 harg10 hc0 hc1 x0 x1 x2 x3).2.1 S2000x64.size (by sl_kernel_rfl) y

/-- What the first point leaves in the second bf16 output (the scaled logistic block): its pieces read back over junk. -/
def out_A_5 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : cond_0 i) (hc1 : ¬cond_1 i)
    (x0 : Vec F S2000x64 .f32) (x1 : Vec F S1x64 .f32) (x2 : Vec F S2000x128 .f32) (x3 : Vec F S64x128 .f32) : Vec F S2000x64 .bf16 :=
  VO_5.read (Elt F) (VO_5.writes (Elt F) VO_5.junk (kernelRun_A c i arg1 harg1 arg2 harg2 arg3 harg3 arg4 harg4 arg5 harg5 arg6 harg6 arg7 harg7 arg8 harg8 arg9 harg9 arg10 harg10 hc0 hc1 x0 x1 x2 x3).2.1)

/-- The pieces the body's stores leave in the Gram accumulator at the first point tile it, so they cover it. -/
theorem scover_A_0 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : cond_0 i) (hc1 : ¬cond_1 i)
    (x0 : Vec F S2000x64 .f32) (x1 : Vec F S1x64 .f32) (x2 : Vec F S2000x128 .f32) (x3 : Vec F S64x128 .f32) (y : S64x64.Idx) :
    ∃ pc ∈ (kernelRun_A c i arg1 harg1 arg2 harg2 arg3 harg3 arg4 harg4 arg5 harg5 arg6 harg6 arg7 harg7 arg8 harg8 arg9 harg9 arg10 harg10 hc0 hc1 x0 x1 x2 x3).2.2.1, y ∈ pc.1.set :=
  View.cover_of_tiledL (kernelRun_A c i arg1 harg1 arg2 harg2 arg3 harg3 arg4 harg4 arg5 harg5 arg6 harg6 arg7 harg7 arg8 harg8 arg9 harg9 arg10 harg10 hc0 hc1 x0 x1 x2 x3).2.2.1 S64x64.size (by sl_kernel_rfl) y

/-- What the first point leaves in the Gram accumulator: its pieces read back over junk. -/
def sout_A_0 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : cond_0 i) (hc1 : ¬cond_1 i)
    (x0 : Vec F S2000x64 .f32) (x1 : Vec F S1x64 .f32) (x2 : Vec F S2000x128 .f32) (x3 : Vec F S64x128 .f32) : Vec F S64x64 .f32 :=
  VS_0.read (Elt F) (VS_0.writes (Elt F) VS_0.junk (kernelRun_A c i arg1 harg1 arg2 harg2 arg3 harg3 arg4 harg4 arg5 harg5 arg6 harg6 arg7 harg7 arg8 harg8 arg9 harg9 arg10 harg10 hc0 hc1 x0 x1 x2 x3).2.2.1)

/-- The pieces the body's stores leave in the squared-error accumulator at the first point tile it, so they cover it. -/
theorem scover_A_1 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : cond_0 i) (hc1 : ¬cond_1 i)
    (x0 : Vec F S2000x64 .f32) (x1 : Vec F S1x64 .f32) (x2 : Vec F S2000x128 .f32) (x3 : Vec F S64x128 .f32) (y : S1x1.Idx) :
    ∃ pc ∈ (kernelRun_A c i arg1 harg1 arg2 harg2 arg3 harg3 arg4 harg4 arg5 harg5 arg6 harg6 arg7 harg7 arg8 harg8 arg9 harg9 arg10 harg10 hc0 hc1 x0 x1 x2 x3).2.2.2.1, y ∈ pc.1.set :=
  View.cover_of_tiledL (kernelRun_A c i arg1 harg1 arg2 harg2 arg3 harg3 arg4 harg4 arg5 harg5 arg6 harg6 arg7 harg7 arg8 harg8 arg9 harg9 arg10 harg10 hc0 hc1 x0 x1 x2 x3).2.2.2.1 S1x1.size (by sl_kernel_rfl) y

/-- What the first point leaves in the squared-error accumulator: its pieces read back over junk. -/
def sout_A_1 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : cond_0 i) (hc1 : ¬cond_1 i)
    (x0 : Vec F S2000x64 .f32) (x1 : Vec F S1x64 .f32) (x2 : Vec F S2000x128 .f32) (x3 : Vec F S64x128 .f32) : Vec F S1x1 .f32 :=
  VS_1.read (Elt F) (VS_1.writes (Elt F) VS_1.junk (kernelRun_A c i arg1 harg1 arg2 harg2 arg3 harg3 arg4 harg4 arg5 harg5 arg6 harg6 arg7 harg7 arg8 harg8 arg9 harg9 arg10 harg10 hc0 hc1 x0 x1 x2 x3).2.2.2.1)

/-- The pieces the body's stores leave in the first bf16 output (the logistic block) at a middle point tile it, so they cover it. -/
theorem cover_B_4 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : ¬cond_1 i)
    (x0 : Vec F S2000x64 .f32) (x1 : Vec F S1x64 .f32) (x2 : Vec F S2000x128 .f32) (x3 : Vec F S64x128 .f32) (xs0 : Vec F S64x64 .f32) (xs1 : Vec F S1x1 .f32) (y : S2000x64.Idx) :
    ∃ pc ∈ (kernelRun_B c i arg1 harg1 arg2 harg2 arg3 harg3 arg4 harg4 arg5 harg5 arg6 harg6 arg7 harg7 arg8 harg8 arg9 harg9 arg10 harg10 hc0 hc1 x0 x1 x2 x3 xs0 xs1).1, y ∈ pc.1.set :=
  View.cover_of_tiledL (kernelRun_B c i arg1 harg1 arg2 harg2 arg3 harg3 arg4 harg4 arg5 harg5 arg6 harg6 arg7 harg7 arg8 harg8 arg9 harg9 arg10 harg10 hc0 hc1 x0 x1 x2 x3 xs0 xs1).1 S2000x64.size (by sl_kernel_rfl) y

/-- What a middle point leaves in the first bf16 output (the logistic block): its pieces read back over junk. -/
def out_B_4 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : ¬cond_1 i)
    (x0 : Vec F S2000x64 .f32) (x1 : Vec F S1x64 .f32) (x2 : Vec F S2000x128 .f32) (x3 : Vec F S64x128 .f32) (xs0 : Vec F S64x64 .f32) (xs1 : Vec F S1x1 .f32) : Vec F S2000x64 .bf16 :=
  VO_4.read (Elt F) (VO_4.writes (Elt F) VO_4.junk (kernelRun_B c i arg1 harg1 arg2 harg2 arg3 harg3 arg4 harg4 arg5 harg5 arg6 harg6 arg7 harg7 arg8 harg8 arg9 harg9 arg10 harg10 hc0 hc1 x0 x1 x2 x3 xs0 xs1).1)

/-- The pieces the body's stores leave in the second bf16 output (the scaled logistic block) at a middle point tile it, so they cover it. -/
theorem cover_B_5 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : ¬cond_1 i)
    (x0 : Vec F S2000x64 .f32) (x1 : Vec F S1x64 .f32) (x2 : Vec F S2000x128 .f32) (x3 : Vec F S64x128 .f32) (xs0 : Vec F S64x64 .f32) (xs1 : Vec F S1x1 .f32) (y : S2000x64.Idx) :
    ∃ pc ∈ (kernelRun_B c i arg1 harg1 arg2 harg2 arg3 harg3 arg4 harg4 arg5 harg5 arg6 harg6 arg7 harg7 arg8 harg8 arg9 harg9 arg10 harg10 hc0 hc1 x0 x1 x2 x3 xs0 xs1).2.1, y ∈ pc.1.set :=
  View.cover_of_tiledL (kernelRun_B c i arg1 harg1 arg2 harg2 arg3 harg3 arg4 harg4 arg5 harg5 arg6 harg6 arg7 harg7 arg8 harg8 arg9 harg9 arg10 harg10 hc0 hc1 x0 x1 x2 x3 xs0 xs1).2.1 S2000x64.size (by sl_kernel_rfl) y

/-- What a middle point leaves in the second bf16 output (the scaled logistic block): its pieces read back over junk. -/
def out_B_5 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : ¬cond_1 i)
    (x0 : Vec F S2000x64 .f32) (x1 : Vec F S1x64 .f32) (x2 : Vec F S2000x128 .f32) (x3 : Vec F S64x128 .f32) (xs0 : Vec F S64x64 .f32) (xs1 : Vec F S1x1 .f32) : Vec F S2000x64 .bf16 :=
  VO_5.read (Elt F) (VO_5.writes (Elt F) VO_5.junk (kernelRun_B c i arg1 harg1 arg2 harg2 arg3 harg3 arg4 harg4 arg5 harg5 arg6 harg6 arg7 harg7 arg8 harg8 arg9 harg9 arg10 harg10 hc0 hc1 x0 x1 x2 x3 xs0 xs1).2.1)

/-- The pieces the body's stores leave in the Gram accumulator at a middle point tile it, so they cover it. -/
theorem scover_B_0 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : ¬cond_1 i)
    (x0 : Vec F S2000x64 .f32) (x1 : Vec F S1x64 .f32) (x2 : Vec F S2000x128 .f32) (x3 : Vec F S64x128 .f32) (xs0 : Vec F S64x64 .f32) (xs1 : Vec F S1x1 .f32) (y : S64x64.Idx) :
    ∃ pc ∈ (kernelRun_B c i arg1 harg1 arg2 harg2 arg3 harg3 arg4 harg4 arg5 harg5 arg6 harg6 arg7 harg7 arg8 harg8 arg9 harg9 arg10 harg10 hc0 hc1 x0 x1 x2 x3 xs0 xs1).2.2.1, y ∈ pc.1.set :=
  View.cover_of_tiledL (kernelRun_B c i arg1 harg1 arg2 harg2 arg3 harg3 arg4 harg4 arg5 harg5 arg6 harg6 arg7 harg7 arg8 harg8 arg9 harg9 arg10 harg10 hc0 hc1 x0 x1 x2 x3 xs0 xs1).2.2.1 S64x64.size (by sl_kernel_rfl) y

/-- What a middle point leaves in the Gram accumulator: its pieces read back over junk. -/
def sout_B_0 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : ¬cond_1 i)
    (x0 : Vec F S2000x64 .f32) (x1 : Vec F S1x64 .f32) (x2 : Vec F S2000x128 .f32) (x3 : Vec F S64x128 .f32) (xs0 : Vec F S64x64 .f32) (xs1 : Vec F S1x1 .f32) : Vec F S64x64 .f32 :=
  VS_0.read (Elt F) (VS_0.writes (Elt F) VS_0.junk (kernelRun_B c i arg1 harg1 arg2 harg2 arg3 harg3 arg4 harg4 arg5 harg5 arg6 harg6 arg7 harg7 arg8 harg8 arg9 harg9 arg10 harg10 hc0 hc1 x0 x1 x2 x3 xs0 xs1).2.2.1)

/-- The pieces the body's stores leave in the squared-error accumulator at a middle point tile it, so they cover it. -/
theorem scover_B_1 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : ¬cond_1 i)
    (x0 : Vec F S2000x64 .f32) (x1 : Vec F S1x64 .f32) (x2 : Vec F S2000x128 .f32) (x3 : Vec F S64x128 .f32) (xs0 : Vec F S64x64 .f32) (xs1 : Vec F S1x1 .f32) (y : S1x1.Idx) :
    ∃ pc ∈ (kernelRun_B c i arg1 harg1 arg2 harg2 arg3 harg3 arg4 harg4 arg5 harg5 arg6 harg6 arg7 harg7 arg8 harg8 arg9 harg9 arg10 harg10 hc0 hc1 x0 x1 x2 x3 xs0 xs1).2.2.2.1, y ∈ pc.1.set :=
  View.cover_of_tiledL (kernelRun_B c i arg1 harg1 arg2 harg2 arg3 harg3 arg4 harg4 arg5 harg5 arg6 harg6 arg7 harg7 arg8 harg8 arg9 harg9 arg10 harg10 hc0 hc1 x0 x1 x2 x3 xs0 xs1).2.2.2.1 S1x1.size (by sl_kernel_rfl) y

/-- What a middle point leaves in the squared-error accumulator: its pieces read back over junk. -/
def sout_B_1 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : ¬cond_1 i)
    (x0 : Vec F S2000x64 .f32) (x1 : Vec F S1x64 .f32) (x2 : Vec F S2000x128 .f32) (x3 : Vec F S64x128 .f32) (xs0 : Vec F S64x64 .f32) (xs1 : Vec F S1x1 .f32) : Vec F S1x1 .f32 :=
  VS_1.read (Elt F) (VS_1.writes (Elt F) VS_1.junk (kernelRun_B c i arg1 harg1 arg2 harg2 arg3 harg3 arg4 harg4 arg5 harg5 arg6 harg6 arg7 harg7 arg8 harg8 arg9 harg9 arg10 harg10 hc0 hc1 x0 x1 x2 x3 xs0 xs1).2.2.2.1)

/-- The pieces the body's stores leave in the first bf16 output (the logistic block) at the last point tile it, so they cover it. -/
theorem cover_C_4 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : cond_1 i)
    (x0 : Vec F S2000x64 .f32) (x1 : Vec F S1x64 .f32) (x2 : Vec F S2000x128 .f32) (x3 : Vec F S64x128 .f32) (xs0 : Vec F S64x64 .f32) (xs1 : Vec F S1x1 .f32) (y : S2000x64.Idx) :
    ∃ pc ∈ (kernelRun_C c i arg1 harg1 arg2 harg2 arg3 harg3 arg4 harg4 arg5 harg5 arg6 harg6 arg7 harg7 arg8 harg8 arg9 harg9 arg10 harg10 hc0 hc1 x0 x1 x2 x3 xs0 xs1).1, y ∈ pc.1.set :=
  View.cover_of_tiledL (kernelRun_C c i arg1 harg1 arg2 harg2 arg3 harg3 arg4 harg4 arg5 harg5 arg6 harg6 arg7 harg7 arg8 harg8 arg9 harg9 arg10 harg10 hc0 hc1 x0 x1 x2 x3 xs0 xs1).1 S2000x64.size (by sl_kernel_rfl) y

/-- What the last point leaves in the first bf16 output (the logistic block): its pieces read back over junk. -/
def out_C_4 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : cond_1 i)
    (x0 : Vec F S2000x64 .f32) (x1 : Vec F S1x64 .f32) (x2 : Vec F S2000x128 .f32) (x3 : Vec F S64x128 .f32) (xs0 : Vec F S64x64 .f32) (xs1 : Vec F S1x1 .f32) : Vec F S2000x64 .bf16 :=
  VO_4.read (Elt F) (VO_4.writes (Elt F) VO_4.junk (kernelRun_C c i arg1 harg1 arg2 harg2 arg3 harg3 arg4 harg4 arg5 harg5 arg6 harg6 arg7 harg7 arg8 harg8 arg9 harg9 arg10 harg10 hc0 hc1 x0 x1 x2 x3 xs0 xs1).1)

/-- The pieces the body's stores leave in the second bf16 output (the scaled logistic block) at the last point tile it, so they cover it. -/
theorem cover_C_5 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : cond_1 i)
    (x0 : Vec F S2000x64 .f32) (x1 : Vec F S1x64 .f32) (x2 : Vec F S2000x128 .f32) (x3 : Vec F S64x128 .f32) (xs0 : Vec F S64x64 .f32) (xs1 : Vec F S1x1 .f32) (y : S2000x64.Idx) :
    ∃ pc ∈ (kernelRun_C c i arg1 harg1 arg2 harg2 arg3 harg3 arg4 harg4 arg5 harg5 arg6 harg6 arg7 harg7 arg8 harg8 arg9 harg9 arg10 harg10 hc0 hc1 x0 x1 x2 x3 xs0 xs1).2.1, y ∈ pc.1.set :=
  View.cover_of_tiledL (kernelRun_C c i arg1 harg1 arg2 harg2 arg3 harg3 arg4 harg4 arg5 harg5 arg6 harg6 arg7 harg7 arg8 harg8 arg9 harg9 arg10 harg10 hc0 hc1 x0 x1 x2 x3 xs0 xs1).2.1 S2000x64.size (by sl_kernel_rfl) y

/-- What the last point leaves in the second bf16 output (the scaled logistic block): its pieces read back over junk. -/
def out_C_5 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : cond_1 i)
    (x0 : Vec F S2000x64 .f32) (x1 : Vec F S1x64 .f32) (x2 : Vec F S2000x128 .f32) (x3 : Vec F S64x128 .f32) (xs0 : Vec F S64x64 .f32) (xs1 : Vec F S1x1 .f32) : Vec F S2000x64 .bf16 :=
  VO_5.read (Elt F) (VO_5.writes (Elt F) VO_5.junk (kernelRun_C c i arg1 harg1 arg2 harg2 arg3 harg3 arg4 harg4 arg5 harg5 arg6 harg6 arg7 harg7 arg8 harg8 arg9 harg9 arg10 harg10 hc0 hc1 x0 x1 x2 x3 xs0 xs1).2.1)

/-- The pieces the body's stores leave in the Gram output at the last point tile it, so they cover it. -/
theorem cover_C_6 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : cond_1 i)
    (x0 : Vec F S2000x64 .f32) (x1 : Vec F S1x64 .f32) (x2 : Vec F S2000x128 .f32) (x3 : Vec F S64x128 .f32) (xs0 : Vec F S64x64 .f32) (xs1 : Vec F S1x1 .f32) (y : S64x64.Idx) :
    ∃ pc ∈ (kernelRun_C c i arg1 harg1 arg2 harg2 arg3 harg3 arg4 harg4 arg5 harg5 arg6 harg6 arg7 harg7 arg8 harg8 arg9 harg9 arg10 harg10 hc0 hc1 x0 x1 x2 x3 xs0 xs1).2.2.1, y ∈ pc.1.set :=
  View.cover_of_tiledL (kernelRun_C c i arg1 harg1 arg2 harg2 arg3 harg3 arg4 harg4 arg5 harg5 arg6 harg6 arg7 harg7 arg8 harg8 arg9 harg9 arg10 harg10 hc0 hc1 x0 x1 x2 x3 xs0 xs1).2.2.1 S64x64.size (by sl_kernel_rfl) y

/-- What the last point leaves in the Gram output: its pieces read back over junk. -/
def out_C_6 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : cond_1 i)
    (x0 : Vec F S2000x64 .f32) (x1 : Vec F S1x64 .f32) (x2 : Vec F S2000x128 .f32) (x3 : Vec F S64x128 .f32) (xs0 : Vec F S64x64 .f32) (xs1 : Vec F S1x1 .f32) : Vec F S64x64 .f32 :=
  VO_6.read (Elt F) (VO_6.writes (Elt F) VO_6.junk (kernelRun_C c i arg1 harg1 arg2 harg2 arg3 harg3 arg4 harg4 arg5 harg5 arg6 harg6 arg7 harg7 arg8 harg8 arg9 harg9 arg10 harg10 hc0 hc1 x0 x1 x2 x3 xs0 xs1).2.2.1)

/-- The pieces the body's stores leave in the error output at the last point tile it, so they cover it. -/
theorem cover_C_7 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : cond_1 i)
    (x0 : Vec F S2000x64 .f32) (x1 : Vec F S1x64 .f32) (x2 : Vec F S2000x128 .f32) (x3 : Vec F S64x128 .f32) (xs0 : Vec F S64x64 .f32) (xs1 : Vec F S1x1 .f32) (y : S1x1.Idx) :
    ∃ pc ∈ (kernelRun_C c i arg1 harg1 arg2 harg2 arg3 harg3 arg4 harg4 arg5 harg5 arg6 harg6 arg7 harg7 arg8 harg8 arg9 harg9 arg10 harg10 hc0 hc1 x0 x1 x2 x3 xs0 xs1).2.2.2.1, y ∈ pc.1.set :=
  View.cover_of_tiledL (kernelRun_C c i arg1 harg1 arg2 harg2 arg3 harg3 arg4 harg4 arg5 harg5 arg6 harg6 arg7 harg7 arg8 harg8 arg9 harg9 arg10 harg10 hc0 hc1 x0 x1 x2 x3 xs0 xs1).2.2.2.1 S1x1.size (by sl_kernel_rfl) y

/-- What the last point leaves in the error output: its pieces read back over junk. -/
def out_C_7 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : cond_1 i)
    (x0 : Vec F S2000x64 .f32) (x1 : Vec F S1x64 .f32) (x2 : Vec F S2000x128 .f32) (x3 : Vec F S64x128 .f32) (xs0 : Vec F S64x64 .f32) (xs1 : Vec F S1x1 .f32) : Vec F S1x1 .f32 :=
  VO_7.read (Elt F) (VO_7.writes (Elt F) VO_7.junk (kernelRun_C c i arg1 harg1 arg2 harg2 arg3 harg3 arg4 harg4 arg5 harg5 arg6 harg6 arg7 harg7 arg8 harg8 arg9 harg9 arg10 harg10 hc0 hc1 x0 x1 x2 x3 xs0 xs1).2.2.2.1)

/-- The pieces the body's stores leave in the Gram accumulator at the last point tile it, so they cover it. -/
theorem scover_C_0 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : cond_1 i)
    (x0 : Vec F S2000x64 .f32) (x1 : Vec F S1x64 .f32) (x2 : Vec F S2000x128 .f32) (x3 : Vec F S64x128 .f32) (xs0 : Vec F S64x64 .f32) (xs1 : Vec F S1x1 .f32) (y : S64x64.Idx) :
    ∃ pc ∈ (kernelRun_C c i arg1 harg1 arg2 harg2 arg3 harg3 arg4 harg4 arg5 harg5 arg6 harg6 arg7 harg7 arg8 harg8 arg9 harg9 arg10 harg10 hc0 hc1 x0 x1 x2 x3 xs0 xs1).2.2.2.2.1, y ∈ pc.1.set :=
  View.cover_of_tiledL (kernelRun_C c i arg1 harg1 arg2 harg2 arg3 harg3 arg4 harg4 arg5 harg5 arg6 harg6 arg7 harg7 arg8 harg8 arg9 harg9 arg10 harg10 hc0 hc1 x0 x1 x2 x3 xs0 xs1).2.2.2.2.1 S64x64.size (by sl_kernel_rfl) y

/-- What the last point leaves in the Gram accumulator: its pieces read back over junk. -/
def sout_C_0 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : cond_1 i)
    (x0 : Vec F S2000x64 .f32) (x1 : Vec F S1x64 .f32) (x2 : Vec F S2000x128 .f32) (x3 : Vec F S64x128 .f32) (xs0 : Vec F S64x64 .f32) (xs1 : Vec F S1x1 .f32) : Vec F S64x64 .f32 :=
  VS_0.read (Elt F) (VS_0.writes (Elt F) VS_0.junk (kernelRun_C c i arg1 harg1 arg2 harg2 arg3 harg3 arg4 harg4 arg5 harg5 arg6 harg6 arg7 harg7 arg8 harg8 arg9 harg9 arg10 harg10 hc0 hc1 x0 x1 x2 x3 xs0 xs1).2.2.2.2.1)

/-- The pieces the body's stores leave in the squared-error accumulator at the last point tile it, so they cover it. -/
theorem scover_C_1 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : cond_1 i)
    (x0 : Vec F S2000x64 .f32) (x1 : Vec F S1x64 .f32) (x2 : Vec F S2000x128 .f32) (x3 : Vec F S64x128 .f32) (xs0 : Vec F S64x64 .f32) (xs1 : Vec F S1x1 .f32) (y : S1x1.Idx) :
    ∃ pc ∈ (kernelRun_C c i arg1 harg1 arg2 harg2 arg3 harg3 arg4 harg4 arg5 harg5 arg6 harg6 arg7 harg7 arg8 harg8 arg9 harg9 arg10 harg10 hc0 hc1 x0 x1 x2 x3 xs0 xs1).2.2.2.2.2.1, y ∈ pc.1.set :=
  View.cover_of_tiledL (kernelRun_C c i arg1 harg1 arg2 harg2 arg3 harg3 arg4 harg4 arg5 harg5 arg6 harg6 arg7 harg7 arg8 harg8 arg9 harg9 arg10 harg10 hc0 hc1 x0 x1 x2 x3 xs0 xs1).2.2.2.2.2.1 S1x1.size (by sl_kernel_rfl) y

/-- What the last point leaves in the squared-error accumulator: its pieces read back over junk. -/
def sout_C_1 (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : cond_1 i)
    (x0 : Vec F S2000x64 .f32) (x1 : Vec F S1x64 .f32) (x2 : Vec F S2000x128 .f32) (x3 : Vec F S64x128 .f32) (xs0 : Vec F S64x64 .f32) (xs1 : Vec F S1x1 .f32) : Vec F S1x1 .f32 :=
  VS_1.read (Elt F) (VS_1.writes (Elt F) VS_1.junk (kernelRun_C c i arg1 harg1 arg2 harg2 arg3 harg3 arg4 harg4 arg5 harg5 arg6 harg6 arg7 harg7 arg8 harg8 arg9 harg9 arg10 harg10 hc0 hc1 x0 x1 x2 x3 xs0 xs1).2.2.2.2.2.1)

/-! ## What the outputs and the accumulators hold after each point -/

/-- The Gram and error outputs where nothing is stored into them: contents nothing consults (at those points the windows
    are neither written back nor read at the next point). -/
def idle_6 : Vec F S64x64 .f32 := VO_6.read (Elt F) VO_6.junk
def idle_7 : Vec F S1x1 .f32 := VO_7.read (Elt F) VO_7.junk

/-- After the first point no later point of the grid is one where the reset is taken. -/
theorem not_first (n : ℕ) (hn : n + 1 < cfg0.N) : ¬(n + 1) % 25 = 0 := by
  have hN : n + 1 < 25 := lt_of_lt_of_eq hn (show cfg0.N = 25 from N_0)
  omega

/-- THE ACCUMULATION. What the four outputs' staging buffers and the two accumulators hold after the body at position `n`
    (a tuple: windows 4, 5, 6, 7, then the Gram accumulator and the squared-error accumulator): the case the closed forms
    select at `n`, run at the point's memrefs and input blocks, the accumulators at what position `n - 1` left. -/
def outsAt (c : Dev nD) : (n : ℕ) → n < cfg0.N → Vec F S2000x64 .bf16 × Vec F S2000x64 .bf16 × Vec F S64x64 .f32 × Vec F S1x1 .f32 × Vec F S64x64 .f32 × Vec F S1x1 .f32
  | 0, hn =>
    (out_A_4 c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) scM_0 (Memref.isWhole_whole _) scM_1 (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩) (iblk V c 2 ⟨0, hn⟩) (iblk V c 3 ⟨0, hn⟩),
      out_A_5 c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) scM_0 (Memref.isWhole_whole _) scM_1 (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩) (iblk V c 2 ⟨0, hn⟩) (iblk V c 3 ⟨0, hn⟩),
      idle_6,
      idle_7,
      sout_A_0 c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) scM_0 (Memref.isWhole_whole _) scM_1 (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩) (iblk V c 2 ⟨0, hn⟩) (iblk V c 3 ⟨0, hn⟩),
      sout_A_1 c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) scM_0 (Memref.isWhole_whole _) scM_1 (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩) (iblk V c 2 ⟨0, hn⟩) (iblk V c 3 ⟨0, hn⟩))
  | n + 1, hn =>
    if h1 : (n + 1) % 25 = 24 then
      (out_C_4 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) scM_0 (Memref.isWhole_whole _) scM_1 (Memref.isWhole_whole _) (fun h => not_first n hn ((hcond_0 ⟨n + 1, hn⟩).mp h)) ((hcond_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.2.2.2.1 (outsAt c n (Nat.lt_of_succ_lt hn)).2.2.2.2.2,
      out_C_5 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) scM_0 (Memref.isWhole_whole _) scM_1 (Memref.isWhole_whole _) (fun h => not_first n hn ((hcond_0 ⟨n + 1, hn⟩).mp h)) ((hcond_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.2.2.2.1 (outsAt c n (Nat.lt_of_succ_lt hn)).2.2.2.2.2,
      out_C_6 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) scM_0 (Memref.isWhole_whole _) scM_1 (Memref.isWhole_whole _) (fun h => not_first n hn ((hcond_0 ⟨n + 1, hn⟩).mp h)) ((hcond_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.2.2.2.1 (outsAt c n (Nat.lt_of_succ_lt hn)).2.2.2.2.2,
      out_C_7 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) scM_0 (Memref.isWhole_whole _) scM_1 (Memref.isWhole_whole _) (fun h => not_first n hn ((hcond_0 ⟨n + 1, hn⟩).mp h)) ((hcond_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.2.2.2.1 (outsAt c n (Nat.lt_of_succ_lt hn)).2.2.2.2.2,
      sout_C_0 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) scM_0 (Memref.isWhole_whole _) scM_1 (Memref.isWhole_whole _) (fun h => not_first n hn ((hcond_0 ⟨n + 1, hn⟩).mp h)) ((hcond_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.2.2.2.1 (outsAt c n (Nat.lt_of_succ_lt hn)).2.2.2.2.2,
      sout_C_1 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) scM_0 (Memref.isWhole_whole _) scM_1 (Memref.isWhole_whole _) (fun h => not_first n hn ((hcond_0 ⟨n + 1, hn⟩).mp h)) ((hcond_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.2.2.2.1 (outsAt c n (Nat.lt_of_succ_lt hn)).2.2.2.2.2)
    else
      (out_B_4 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) scM_0 (Memref.isWhole_whole _) scM_1 (Memref.isWhole_whole _) (fun h => not_first n hn ((hcond_0 ⟨n + 1, hn⟩).mp h)) (fun h => h1 ((hcond_1 ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.2.2.2.1 (outsAt c n (Nat.lt_of_succ_lt hn)).2.2.2.2.2,
      out_B_5 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) scM_0 (Memref.isWhole_whole _) scM_1 (Memref.isWhole_whole _) (fun h => not_first n hn ((hcond_0 ⟨n + 1, hn⟩).mp h)) (fun h => h1 ((hcond_1 ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.2.2.2.1 (outsAt c n (Nat.lt_of_succ_lt hn)).2.2.2.2.2,
      idle_6,
      idle_7,
      sout_B_0 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) scM_0 (Memref.isWhole_whole _) scM_1 (Memref.isWhole_whole _) (fun h => not_first n hn ((hcond_0 ⟨n + 1, hn⟩).mp h)) (fun h => h1 ((hcond_1 ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.2.2.2.1 (outsAt c n (Nat.lt_of_succ_lt hn)).2.2.2.2.2,
      sout_B_1 c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) scM_0 (Memref.isWhole_whole _) scM_1 (Memref.isWhole_whole _) (fun h => not_first n hn ((hcond_0 ⟨n + 1, hn⟩).mp h)) (fun h => h1 ((hcond_1 ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.2.2.2.1 (outsAt c n (Nat.lt_of_succ_lt hn)).2.2.2.2.2)

/-- `outsAt` at the first point. -/
theorem outsAt_A (c : Dev nD) (t : Fin cfg0.N) (h0 : t.val % 25 = 0) (h1 : ¬t.val % 25 = 24) :
    outsAt V c t.val t.isLt =
    (out_A_4 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) ((hcond_0 t).mpr h0) (fun h => h1 ((hcond_1 t).mp h)) (iblk V c 0 t) (iblk V c 1 t) (iblk V c 2 t) (iblk V c 3 t),
      out_A_5 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) ((hcond_0 t).mpr h0) (fun h => h1 ((hcond_1 t).mp h)) (iblk V c 0 t) (iblk V c 1 t) (iblk V c 2 t) (iblk V c 3 t),
      idle_6,
      idle_7,
      sout_A_0 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) ((hcond_0 t).mpr h0) (fun h => h1 ((hcond_1 t).mp h)) (iblk V c 0 t) (iblk V c 1 t) (iblk V c 2 t) (iblk V c 3 t),
      sout_A_1 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) ((hcond_0 t).mpr h0) (fun h => h1 ((hcond_1 t).mp h)) (iblk V c 0 t) (iblk V c 1 t) (iblk V c 2 t) (iblk V c 3 t)) := by
  obtain ⟨n, hn⟩ := t
  cases n with
  | zero => exact rfl
  | succ n => exact absurd h0 (not_first n hn)

/-- `outsAt` at a middle point: over what the point before left in the accumulators. -/
theorem outsAt_B (c : Dev nD) (t : Fin cfg0.N) (h0 : ¬t.val % 25 = 0) (h1 : ¬t.val % 25 = 24) :
    outsAt V c t.val t.isLt =
    (out_B_4 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) (fun h => h1 ((hcond_1 t).mp h)) (iblk V c 0 t) (iblk V c 1 t) (iblk V c 2 t) (iblk V c 3 t) (outsAt V c (t.val - 1) (Nat.lt_of_le_of_lt (Nat.sub_le _ _) t.isLt)).2.2.2.2.1 (outsAt V c (t.val - 1) (Nat.lt_of_le_of_lt (Nat.sub_le _ _) t.isLt)).2.2.2.2.2,
      out_B_5 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) (fun h => h1 ((hcond_1 t).mp h)) (iblk V c 0 t) (iblk V c 1 t) (iblk V c 2 t) (iblk V c 3 t) (outsAt V c (t.val - 1) (Nat.lt_of_le_of_lt (Nat.sub_le _ _) t.isLt)).2.2.2.2.1 (outsAt V c (t.val - 1) (Nat.lt_of_le_of_lt (Nat.sub_le _ _) t.isLt)).2.2.2.2.2,
      idle_6,
      idle_7,
      sout_B_0 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) (fun h => h1 ((hcond_1 t).mp h)) (iblk V c 0 t) (iblk V c 1 t) (iblk V c 2 t) (iblk V c 3 t) (outsAt V c (t.val - 1) (Nat.lt_of_le_of_lt (Nat.sub_le _ _) t.isLt)).2.2.2.2.1 (outsAt V c (t.val - 1) (Nat.lt_of_le_of_lt (Nat.sub_le _ _) t.isLt)).2.2.2.2.2,
      sout_B_1 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) (fun h => h1 ((hcond_1 t).mp h)) (iblk V c 0 t) (iblk V c 1 t) (iblk V c 2 t) (iblk V c 3 t) (outsAt V c (t.val - 1) (Nat.lt_of_le_of_lt (Nat.sub_le _ _) t.isLt)).2.2.2.2.1 (outsAt V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h1).trans rfl

/-- `outsAt` at the last point: over what the point before left in the accumulators. -/
theorem outsAt_C (c : Dev nD) (t : Fin cfg0.N) (h0 : ¬t.val % 25 = 0) (h1 : t.val % 25 = 24) :
    outsAt V c t.val t.isLt =
    (out_C_4 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) ((hcond_1 t).mpr h1) (iblk V c 0 t) (iblk V c 1 t) (iblk V c 2 t) (iblk V c 3 t) (outsAt V c (t.val - 1) (Nat.lt_of_le_of_lt (Nat.sub_le _ _) t.isLt)).2.2.2.2.1 (outsAt V c (t.val - 1) (Nat.lt_of_le_of_lt (Nat.sub_le _ _) t.isLt)).2.2.2.2.2,
      out_C_5 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) ((hcond_1 t).mpr h1) (iblk V c 0 t) (iblk V c 1 t) (iblk V c 2 t) (iblk V c 3 t) (outsAt V c (t.val - 1) (Nat.lt_of_le_of_lt (Nat.sub_le _ _) t.isLt)).2.2.2.2.1 (outsAt V c (t.val - 1) (Nat.lt_of_le_of_lt (Nat.sub_le _ _) t.isLt)).2.2.2.2.2,
      out_C_6 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) ((hcond_1 t).mpr h1) (iblk V c 0 t) (iblk V c 1 t) (iblk V c 2 t) (iblk V c 3 t) (outsAt V c (t.val - 1) (Nat.lt_of_le_of_lt (Nat.sub_le _ _) t.isLt)).2.2.2.2.1 (outsAt V c (t.val - 1) (Nat.lt_of_le_of_lt (Nat.sub_le _ _) t.isLt)).2.2.2.2.2,
      out_C_7 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) ((hcond_1 t).mpr h1) (iblk V c 0 t) (iblk V c 1 t) (iblk V c 2 t) (iblk V c 3 t) (outsAt V c (t.val - 1) (Nat.lt_of_le_of_lt (Nat.sub_le _ _) t.isLt)).2.2.2.2.1 (outsAt V c (t.val - 1) (Nat.lt_of_le_of_lt (Nat.sub_le _ _) t.isLt)).2.2.2.2.2,
      sout_C_0 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) ((hcond_1 t).mpr h1) (iblk V c 0 t) (iblk V c 1 t) (iblk V c 2 t) (iblk V c 3 t) (outsAt V c (t.val - 1) (Nat.lt_of_le_of_lt (Nat.sub_le _ _) t.isLt)).2.2.2.2.1 (outsAt V c (t.val - 1) (Nat.lt_of_le_of_lt (Nat.sub_le _ _) t.isLt)).2.2.2.2.2,
      sout_C_1 c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) scM_0 (Memref.isWhole_whole _) scM_1 (Memref.isWhole_whole _) (fun h => h0 ((hcond_0 t).mp h)) ((hcond_1 t).mpr h1) (iblk V c 0 t) (iblk V c 1 t) (iblk V c 2 t) (iblk V c 3 t) (outsAt V c (t.val - 1) (Nat.lt_of_le_of_lt (Nat.sub_le _ _) t.isLt)).2.2.2.2.1 (outsAt V c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_pos h1).trans rfl

/-- The region invariant before position `n`: before the first point the entry invariant (every scratch at anything);
    afterwards the two accumulators at what the point before left in them, the other scoped buffers at anything, the
    generator register at some state. -/
def PhiS (c : Dev nD) : (n : ℕ) → n ≤ cfg0.N → sProp 𝕄
  | 0, _ => Pipeline.ΦA spec0 c
  | n + 1, hn => iprop(iprop(owns (c : Thread nD τ) scM_0 fullShare ((outsAt V c n hn).2.2.2.2.1) ∗ owns (c : Thread nD τ) scM_1 fullShare ((outsAt V c n hn).2.2.2.2.2) ∗ restOf (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM_0 fullShare ((outsAt V c n hn).2.2.2.2.1) ∗ owns (c : Thread nD τ) scM_1 fullShare ((outsAt V c n hn).2.2.2.2.2) ∗ restOf (F := F) c) ∗ (∃ r, prngReg c r)) := rfl

theorem PhiS_pos (c : Dev nD) (n : ℕ) (h : n ≤ cfg0.N) (hz : n ≠ 0) :
    PhiS V c n h = iprop(iprop(owns (c : Thread nD τ) scM_0 fullShare ((outsAt V c (n - 1) (by omega)).2.2.2.2.1) ∗ owns (c : Thread nD τ) scM_1 fullShare ((outsAt V c (n - 1) (by omega)).2.2.2.2.2) ∗ restOf (F := F) c) ∗ (∃ r, prngReg c r)) := by
  cases n with
  | zero => exact absurd rfl hz
  | succ n => rfl

/-! ## The pipeline's proof data -/

/-- The proof data of the node pass on core `c`: the arrays as the region finds them; after the body at point `t` each
    input's buffer at its block and the outputs' at `outsAt`; the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
    | ⟨5, _⟩ => (outsAt V c t.val t.isLt).2.1
    | ⟨6, _⟩ => (outsAt V c t.val t.isLt).2.2.1
    | ⟨7, _⟩ => (outsAt V c t.val t.isLt).2.2.2.1
  Φ t := PhiS V c t.val (Nat.le_of_lt_succ t.isLt)
  q _ := fullShare
  owed _ := 0

/-- The proof data's arrays are the region-entry contents. -/
theorem A_eq (c : Dev nD) (w : Fin cfg0.W) : (dat V c).A w = V c (Pipeline.arrRef spec0 w) := by
  dsimp only [dat]

/-- The invariant at a point's start, restated at `t.val`. -/
theorem PhiS_castSucc (c : Dev nD) (t : Fin cfg0.N) :
    (dat V c).Φ t.castSucc = PhiS V c t.val (Nat.le_of_lt t.isLt) := by
  dsimp only [dat]; simp only [Fin.coe_castSucc]

/-- What the body leaves, window by window. -/
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = (outsAt V c t.val t.isLt).1 := by dsimp only [dat]
theorem after_5 (c : Dev nD) (t : Fin cfg0.N) : (dat V c).after 5 t = (outsAt V c t.val t.isLt).2.1 := by dsimp only [dat]
theorem after_6 (c : Dev nD) (t : Fin cfg0.N) : (dat V c).after 6 t = (outsAt V c t.val t.isLt).2.2.1 := by dsimp only [dat]
theorem after_7 (c : Dev nD) (t : Fin cfg0.N) : (dat V c).after 7 t = (outsAt V c t.val t.isLt).2.2.2.1 := by dsimp only [dat]

/-- Each input's current staging buffer holds its block at every point, fetched there or not. -/
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d))
    ∗ (∃ d, owns (c : Thread nD τ) (ms_6 t) fullShare ((dat V c).before 6 t d))
    ∗ (∃ d, owns (c : Thread nD τ) (ms_7 t) fullShare ((dat V c).before 7 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 8000000 in
/-- The body at any point: the inputs' memrefs hold their blocks; the closed forms say which case the point is in; the
    invariant hands the body the two accumulators at what the point before left (at anything at the first point) and takes
    them back at this point's contents; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt () t.succ = (dat V c).owesAt () t.castSucc from rfl]
  rw [show (dat V c).Φ t.succ = PhiS V c (t.val + 1) t.isLt from rfl, PhiS_succ]
  have hN : t.val < 25 := lt_of_lt_of_eq t.isLt (show cfg0.N = 25 from N_0)
  rw [show (dat V c).leavesExact 0 t = owns (c : Thread nD τ) (ms_0 t) fullShare ((dat V c).after 0 t) from by
    unfold Dat.leavesExact; rw [liveAt_0 t], after_0]
  rw [show (dat V c).leavesExact 1 t = owns (c : Thread nD τ) (ms_1 t) fullShare ((dat V c).after 1 t) from by
    unfold Dat.leavesExact; rw [liveAt_1 t], after_1]
  rw [show (dat V c).leavesExact 2 t = owns (c : Thread nD τ) (ms_2 t) fullShare ((dat V c).after 2 t) from by
    unfold Dat.leavesExact; rw [liveAt_2 t], after_2]
  rw [show (dat V c).leavesExact 3 t = owns (c : Thread nD τ) (ms_3 t) fullShare ((dat V c).after 3 t) from by
    unfold Dat.leavesExact; rw [liveAt_3 t], after_3]
  rw [show (dat V c).leavesExact 4 t = owns (c : Thread nD τ) (ms_4 t) fullShare ((dat V c).after 4 t) from by
    unfold Dat.leavesExact; rw [liveAt_4 t], after_4]
  rw [show (dat V c).leavesExact 5 t = owns (c : Thread nD τ) (ms_5 t) fullShare ((dat V c).after 5 t) from by
    unfold Dat.leavesExact; rw [liveAt_5 t], after_5]
  by_cases h0 : t.val % 25 = 0
  · have h1 : ¬t.val % 25 = 24 := by omega
    have hz : t.val = 0 := by omega
    rw [Dat.leavesExact_idle (dat V c) 6 t (idleAt_6_A t ((hcond_0 t).mpr h0) (fun h => h1 ((hcond_1 t).mp h))) (noFlush_6_A t ((hcond_0 t).mpr h0) (fun h => h1 ((hcond_1 t).mp h)))]
    rw [Dat.leavesExact_idle (dat V c) 7 t (idleAt_7_A t ((hcond_0 t).mpr h0) (fun h => h1 ((hcond_1 t).mp h))) (noFlush_7_A t ((hcond_0 t).mpr h0) (fun h => h1 ((hcond_1 t).mp h)))]
    rw [outsAt_A V c t h0 h1]
    unfold out_A_4 out_A_5 sout_A_0 sout_A_1; (try dsimp only)
    rw [PhiS_castSucc V c t, PhiS_zero V c _ _ hz, PhiA_eq]
    iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun_A c (grid0.coords t) _ _ _ _ _ _ _ _ _ _ _ _ _ _ _ _ _ _ _ _ ((hcond_0 t).mpr h0) (fun h => h1 ((hcond_1 t).mp h)) (iblk V c 0 t) (iblk V c 1 t) (iblk V c 2 t) (iblk V c 3 t)).2.2.2.2 _ _ Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexact H6
    isplitl [H7]; · iexact H7
    isplitl [HS0]; · iexact HS0
    isplitl [HS1]; · iexact HS1
    iintro ⟨H0, H1, H2, H3, ⟨%e4, H4⟩, ⟨%e5, H5⟩, H6, H7, ⟨%es0, HS0⟩, ⟨%es1, HS1⟩⟩
    isplitl [HS0 HS1 Hr Hg]
    · isplitl [HS0 HS1 Hr]
      · isplitl [HS0]
        · unfold owns; iexists _; isplitr
          swap; · iexact HS0
          ipureintro; exact View.read_writes_of_cover _ _ _ _ _ (scover_A_0 c _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scover_A_1 c _ _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover_A_4 c _ _ _ _ _ _ _ _ _ _ _ _ _ _ _ _ _ _ _ _ _ _ _ _ _ _ _)
    isplitl [H5]
    · unfold owns; iexists _; isplitr
      swap; · iexact H5
      ipureintro; exact View.read_writes_of_cover _ _ _ _ _ (cover_A_5 c _ _ _ _ _ _ _ _ _ _ _ _ _ _ _ _ _ _ _ _ _ _ _ _ _ _ _)
    isplitl [H6]; · iexists _; iexact H6
    iexists _; iexact H7
  · have hz : t.val ≠ 0 := fun e => h0 (by rw [e])
    by_cases h1 : t.val % 25 = 24
    · rw [show (dat V c).leavesExact 6 t = owns (c : Thread nD τ) (ms_6 t) fullShare ((dat V c).after 6 t) from by
        unfold Dat.leavesExact; rw [liveAt_6_C t (fun h => h0 ((hcond_0 t).mp h)) ((hcond_1 t).mpr h1)], after_6]
      rw [show (dat V c).leavesExact 7 t = owns (c : Thread nD τ) (ms_7 t) fullShare ((dat V c).after 7 t) from by
        unfold Dat.leavesExact; rw [liveAt_7_C t (fun h => h0 ((hcond_0 t).mp h)) ((hcond_1 t).mpr h1)], after_7]
      rw [outsAt_C V c t h0 h1]
      unfold out_C_4 out_C_5 out_C_6 out_C_7 sout_C_0 sout_C_1; (try dsimp only)
      rw [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun_C c (grid0.coords t) _ _ _ _ _ _ _ _ _ _ _ _ _ _ _ _ _ _ _ _ (fun h => h0 ((hcond_0 t).mp h)) ((hcond_1 t).mpr h1) (iblk V c 0 t) (iblk V c 1 t) (iblk V c 2 t) (iblk V c 3 t) _ _).2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, ⟨%e4, H4⟩, ⟨%e5, H5⟩, ⟨%e6, H6⟩, ⟨%e7, H7⟩, ⟨%es0, HS0⟩, ⟨%es1, HS1⟩⟩
      isplitl [HS0 HS1 Hr Hg]
      · isplitl [HS0 HS1 Hr]
        · isplitl [HS0]
          · unfold owns; iexists _; isplitr
            swap; · iexact HS0
            ipureintro; exact View.read_writes_of_cover _ _ _ _ _ (scover_C_0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover_C_1 c _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover_C_4 c _ _ _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover_C_5 c _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover_C_6 c _ _ _ _ _ _ _ _ _ _ _ _ _ _ _ _ _ _ _ _ _ _ _ _ _ _ _ _ _)
      unfold owns; iexists _; isplitr
      swap; · iexact H7
      ipureintro; exact View.read_writes_of_cover _ _ _ _ _ (cover_C_7 c _ _ _ _ _ _ _ _ _ _ _ _ _ _ _ _ _ _ _ _ _ _ _ _ _ _ _ _ _)
    · rw [Dat.leavesExact_idle (dat V c) 6 t (idleAt_6_B t (fun h => h0 ((hcond_0 t).mp h)) (fun h => h1 ((hcond_1 t).mp h))) (noFlush_6_B t (fun h => h0 ((hcond_0 t).mp h)) (fun h => h1 ((hcond_1 t).mp h)))]
      rw [Dat.leavesExact_idle (dat V c) 7 t (idleAt_7_B t (fun h => h0 ((hcond_0 t).mp h)) (fun h => h1 ((hcond_1 t).mp h))) (noFlush_7_B t (fun h => h0 ((hcond_0 t).mp h)) (fun h => h1 ((hcond_1 t).mp h)))]
      rw [outsAt_B V c t h0 h1]
      unfold out_B_4 out_B_5 sout_B_0 sout_B_1; (try dsimp only)
      rw [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun_B c (grid0.coords t) _ _ _ _ _ _ _ _ _ _ _ _ _ _ _ _ _ _ _ _ (fun h => h0 ((hcond_0 t).mp h)) (fun h => h1 ((hcond_1 t).mp h)) (iblk V c 0 t) (iblk V c 1 t) (iblk V c 2 t) (iblk V c 3 t) _ _).2.2.2.2 _ _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexact H6
      isplitl [H7]; · iexact H7
      isplitl [HS0]; · iexact HS0
      isplitl [HS1]; · iexact HS1
      iintro ⟨H0, H1, H2, H3, ⟨%e4, H4⟩, ⟨%e5, H5⟩, H6, H7, ⟨%es0, HS0⟩, ⟨%es1, HS1⟩⟩
      isplitl [HS0 HS1 Hr Hg]
      · isplitl [HS0 HS1 Hr]
        · isplitl [HS0]
          · unfold owns; iexists _; isplitr
            swap; · iexact HS0
            ipureintro; exact View.read_writes_of_cover _ _ _ _ _ (scover_B_0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover_B_1 c _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover_B_4 c _ _ _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover_B_5 c _ _ _ _ _ _ _ _ _ _ _ _ _ _ _ _ _ _ _ _ _ _ _ _ _ _ _ _ _)
      isplitl [H6]; · iexists _; iexact H6
      iexists _; iexact H7

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives the entry invariant back: the accumulators' named contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS0, HS1, Hr⟩, Hg⟩
  isplitl [HS0 HS1 Hr]
  · isplitl [HS0]; · iexists _; iexact HS0
    isplitl [HS1]; · iexists _; iexact HS1
    iexact Hr
  iexact Hg

/-- The same after the last point. -/
theorem hout (c : Dev nD) : (dat V c).Φ (Fin.last cfg0.N) ⊢ Pipeline.ΦA spec0 c :=
  Phi_out V c _ (by rw [Fin.val_last]; have : cfg0.N = 25 := N_0; omega)

/-! ## The values: what each found piece list reads back as

Every store of the body writes a whole buffer through the unit rectangle at zero offsets, so the last piece of each list
is what the buffer holds, and a load through the same rectangle reads the contents (or, after a store of the same run,
that store's payload). -/

/-- The zero offsets of a whole-buffer rectangle, however spelt. -/
theorem hz2 : (![0, 0] : Fin 2 → Nat) = fun _ => 0 := funext fun a => by fin_cases a <;> rfl

theorem out_A_4_eq (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : cond_0 i) (hc1 : ¬cond_1 i)
    (x0 : Vec F S2000x64 .f32) (x1 : Vec F S1x64 .f32) (x2 : Vec F S2000x128 .f32) (x3 : Vec F S64x128 .f32) :
    out_A_4 c i arg1 harg1 arg2 harg2 arg3 harg3 arg4 harg4 arg5 harg5 arg6 harg6 arg7 harg7 arg8 harg8 arg9 harg9 arg10 harg10 hc0 hc1 x0 x1 x2 x3 = k0_pay5 x0 := by
  unfold out_A_4
  rw [View.read_writes_eq_canon _ _ _ (cover_A_4 c i arg1 harg1 arg2 harg2 arg3 harg3 arg4 harg4 arg5 harg5 arg6 harg6 arg7 harg7 arg8 harg8 arg9 harg9 arg10 harg10 hc0 hc1 x0 x1 x2 x3)]
  unfold kernelRun_A
  dsimp only
  sl_unfold_words
  rw [View.canon_unit_zero hz2]
  simp only [View.readAt_eq_ld, harg1.read_unread, harg2.read_unread, harg3.read_unread, harg4.read_unread, View.ld_unit_zero (S := S2000x64) hz2, View.ld_unit_zero (S := S1x64) hz2, View.ld_unit_zero (S := S2000x128) hz2, View.ld_unit_zero (S := S64x128) hz2, View.ld_unit_zero (S := S64x64) hz2, View.ld_unit_zero (S := S1x1) hz2]

theorem out_A_5_eq (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : cond_0 i) (hc1 : ¬cond_1 i)
    (x0 : Vec F S2000x64 .f32) (x1 : Vec F S1x64 .f32) (x2 : Vec F S2000x128 .f32) (x3 : Vec F S64x128 .f32) :
    out_A_5 c i arg1 harg1 arg2 harg2 arg3 harg3 arg4 harg4 arg5 harg5 arg6 harg6 arg7 harg7 arg8 harg8 arg9 harg9 arg10 harg10 hc0 hc1 x0 x1 x2 x3 = k0_pay6 x0 x1 := by
  unfold out_A_5
  rw [View.read_writes_eq_canon _ _ _ (cover_A_5 c i arg1 harg1 arg2 harg2 arg3 harg3 arg4 harg4 arg5 harg5 arg6 harg6 arg7 harg7 arg8 harg8 arg9 harg9 arg10 harg10 hc0 hc1 x0 x1 x2 x3)]
  unfold kernelRun_A
  dsimp only
  sl_unfold_words
  rw [View.canon_unit_zero hz2]
  simp only [View.readAt_eq_ld, harg1.read_unread, harg2.read_unread, harg3.read_unread, harg4.read_unread, View.ld_unit_zero (S := S2000x64) hz2, View.ld_unit_zero (S := S1x64) hz2, View.ld_unit_zero (S := S2000x128) hz2, View.ld_unit_zero (S := S64x128) hz2, View.ld_unit_zero (S := S64x64) hz2, View.ld_unit_zero (S := S1x1) hz2]

theorem sout_A_0_eq (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : cond_0 i) (hc1 : ¬cond_1 i)
    (x0 : Vec F S2000x64 .f32) (x1 : Vec F S1x64 .f32) (x2 : Vec F S2000x128 .f32) (x3 : Vec F S64x128 .f32) :
    sout_A_0 c i arg1 harg1 arg2 harg2 arg3 harg3 arg4 harg4 arg5 harg5 arg6 harg6 arg7 harg7 arg8 harg8 arg9 harg9 arg10 harg10 hc0 hc1 x0 x1 x2 x3 = k0_pay7 x0 x1 (k0_pay2 (F := F)) := by
  unfold sout_A_0
  rw [View.read_writes_eq_canon _ _ _ (scover_A_0 c i arg1 harg1 arg2 harg2 arg3 harg3 arg4 harg4 arg5 harg5 arg6 harg6 arg7 harg7 arg8 harg8 arg9 harg9 arg10 harg10 hc0 hc1 x0 x1 x2 x3)]
  unfold kernelRun_A
  dsimp only
  sl_unfold_words
  rw [View.canon_cons_unit_zero (S := S64x64) hz2, View.readCov_unit_zero (S := S64x64) _ hz2]
  simp only [View.readAt_eq_ld, harg1.read_unread, harg2.read_unread, harg3.read_unread, harg4.read_unread, View.ld_unit_zero (S := S2000x64) hz2, View.ld_unit_zero (S := S1x64) hz2, View.ld_unit_zero (S := S2000x128) hz2, View.ld_unit_zero (S := S64x128) hz2, View.ld_unit_zero (S := S64x64) hz2, View.ld_unit_zero (S := S1x1) hz2]

theorem sout_A_1_eq (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : cond_0 i) (hc1 : ¬cond_1 i)
    (x0 : Vec F S2000x64 .f32) (x1 : Vec F S1x64 .f32) (x2 : Vec F S2000x128 .f32) (x3 : Vec F S64x128 .f32) :
    sout_A_1 c i arg1 harg1 arg2 harg2 arg3 harg3 arg4 harg4 arg5 harg5 arg6 harg6 arg7 harg7 arg8 harg8 arg9 harg9 arg10 harg10 hc0 hc1 x0 x1 x2 x3 = k0_pay1 (k0_pay8 x0 x1 x3 x2) (k0_pay3 (F := F)) := by
  unfold sout_A_1
  rw [View.read_writes_eq_canon _ _ _ (scover_A_1 c i arg1 harg1 arg2 harg2 arg3 harg3 arg4 harg4 arg5 harg5 arg6 harg6 arg7 harg7 arg8 harg8 arg9 harg9 arg10 harg10 hc0 hc1 x0 x1 x2 x3)]
  unfold kernelRun_A
  dsimp only
  sl_unfold_words
  rw [View.canon_cons_unit_zero (S := S1x1) hz2, View.readCov_unit_zero (S := S1x1) _ hz2]
  simp only [View.readAt_eq_ld, harg1.read_unread, harg2.read_unread, harg3.read_unread, harg4.read_unread, View.ld_unit_zero (S := S2000x64) hz2, View.ld_unit_zero (S := S1x64) hz2, View.ld_unit_zero (S := S2000x128) hz2, View.ld_unit_zero (S := S64x128) hz2, View.ld_unit_zero (S := S64x64) hz2, View.ld_unit_zero (S := S1x1) hz2]

theorem out_B_4_eq (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : ¬cond_1 i)
    (x0 : Vec F S2000x64 .f32) (x1 : Vec F S1x64 .f32) (x2 : Vec F S2000x128 .f32) (x3 : Vec F S64x128 .f32) (xs0 : Vec F S64x64 .f32) (xs1 : Vec F S1x1 .f32) :
    out_B_4 c i arg1 harg1 arg2 harg2 arg3 harg3 arg4 harg4 arg5 harg5 arg6 harg6 arg7 harg7 arg8 harg8 arg9 harg9 arg10 harg10 hc0 hc1 x0 x1 x2 x3 xs0 xs1 = k0_pay5 x0 := by
  unfold out_B_4
  rw [View.read_writes_eq_canon _ _ _ (cover_B_4 c i arg1 harg1 arg2 harg2 arg3 harg3 arg4 harg4 arg5 harg5 arg6 harg6 arg7 harg7 arg8 harg8 arg9 harg9 arg10 harg10 hc0 hc1 x0 x1 x2 x3 xs0 xs1)]
  unfold kernelRun_B
  dsimp only
  sl_unfold_words
  rw [View.canon_unit_zero hz2]
  simp only [View.readAt_eq_ld, harg1.read_unread, harg2.read_unread, harg3.read_unread, harg4.read_unread, harg9.read_unread, harg10.read_unread, View.ld_unit_zero (S := S2000x64) hz2, View.ld_unit_zero (S := S1x64) hz2, View.ld_unit_zero (S := S2000x128) hz2, View.ld_unit_zero (S := S64x128) hz2, View.ld_unit_zero (S := S64x64) hz2, View.ld_unit_zero (S := S1x1) hz2]

theorem out_B_5_eq (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : ¬cond_1 i)
    (x0 : Vec F S2000x64 .f32) (x1 : Vec F S1x64 .f32) (x2 : Vec F S2000x128 .f32) (x3 : Vec F S64x128 .f32) (xs0 : Vec F S64x64 .f32) (xs1 : Vec F S1x1 .f32) :
    out_B_5 c i arg1 harg1 arg2 harg2 arg3 harg3 arg4 harg4 arg5 harg5 arg6 harg6 arg7 harg7 arg8 harg8 arg9 harg9 arg10 harg10 hc0 hc1 x0 x1 x2 x3 xs0 xs1 = k0_pay6 x0 x1 := by
  unfold out_B_5
  rw [View.read_writes_eq_canon _ _ _ (cover_B_5 c i arg1 harg1 arg2 harg2 arg3 harg3 arg4 harg4 arg5 harg5 arg6 harg6 arg7 harg7 arg8 harg8 arg9 harg9 arg10 harg10 hc0 hc1 x0 x1 x2 x3 xs0 xs1)]
  unfold kernelRun_B
  dsimp only
  sl_unfold_words
  rw [View.canon_unit_zero hz2]
  simp only [View.readAt_eq_ld, harg1.read_unread, harg2.read_unread, harg3.read_unread, harg4.read_unread, harg9.read_unread, harg10.read_unread, View.ld_unit_zero (S := S2000x64) hz2, View.ld_unit_zero (S := S1x64) hz2, View.ld_unit_zero (S := S2000x128) hz2, View.ld_unit_zero (S := S64x128) hz2, View.ld_unit_zero (S := S64x64) hz2, View.ld_unit_zero (S := S1x1) hz2]

theorem sout_B_0_eq (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : ¬cond_1 i)
    (x0 : Vec F S2000x64 .f32) (x1 : Vec F S1x64 .f32) (x2 : Vec F S2000x128 .f32) (x3 : Vec F S64x128 .f32) (xs0 : Vec F S64x64 .f32) (xs1 : Vec F S1x1 .f32) :
    sout_B_0 c i arg1 harg1 arg2 harg2 arg3 harg3 arg4 harg4 arg5 harg5 arg6 harg6 arg7 harg7 arg8 harg8 arg9 harg9 arg10 harg10 hc0 hc1 x0 x1 x2 x3 xs0 xs1 = k0_pay7 x0 x1 xs0 := by
  unfold sout_B_0
  rw [View.read_writes_eq_canon _ _ _ (scover_B_0 c i arg1 harg1 arg2 harg2 arg3 harg3 arg4 harg4 arg5 harg5 arg6 harg6 arg7 harg7 arg8 harg8 arg9 harg9 arg10 harg10 hc0 hc1 x0 x1 x2 x3 xs0 xs1)]
  unfold kernelRun_B
  dsimp only
  sl_unfold_words
  rw [View.canon_unit_zero hz2]
  simp only [View.readAt_eq_ld, harg1.read_unread, harg2.read_unread, harg3.read_unread, harg4.read_unread, harg9.read_unread, harg10.read_unread, View.ld_unit_zero (S := S2000x64) hz2, View.ld_unit_zero (S := S1x64) hz2, View.ld_unit_zero (S := S2000x128) hz2, View.ld_unit_zero (S := S64x128) hz2, View.ld_unit_zero (S := S64x64) hz2, View.ld_unit_zero (S := S1x1) hz2]

theorem sout_B_1_eq (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : ¬cond_1 i)
    (x0 : Vec F S2000x64 .f32) (x1 : Vec F S1x64 .f32) (x2 : Vec F S2000x128 .f32) (x3 : Vec F S64x128 .f32) (xs0 : Vec F S64x64 .f32) (xs1 : Vec F S1x1 .f32) :
    sout_B_1 c i arg1 harg1 arg2 harg2 arg3 harg3 arg4 harg4 arg5 harg5 arg6 harg6 arg7 harg7 arg8 harg8 arg9 harg9 arg10 harg10 hc0 hc1 x0 x1 x2 x3 xs0 xs1 = k0_pay1 (k0_pay8 x0 x1 x3 x2) xs1 := by
  unfold sout_B_1
  rw [View.read_writes_eq_canon _ _ _ (scover_B_1 c i arg1 harg1 arg2 harg2 arg3 harg3 arg4 harg4 arg5 harg5 arg6 harg6 arg7 harg7 arg8 harg8 arg9 harg9 arg10 harg10 hc0 hc1 x0 x1 x2 x3 xs0 xs1)]
  unfold kernelRun_B
  dsimp only
  sl_unfold_words
  rw [View.canon_unit_zero hz2]
  simp only [View.readAt_eq_ld, harg1.read_unread, harg2.read_unread, harg3.read_unread, harg4.read_unread, harg9.read_unread, harg10.read_unread, View.ld_unit_zero (S := S2000x64) hz2, View.ld_unit_zero (S := S1x64) hz2, View.ld_unit_zero (S := S2000x128) hz2, View.ld_unit_zero (S := S64x128) hz2, View.ld_unit_zero (S := S64x64) hz2, View.ld_unit_zero (S := S1x1) hz2]

theorem out_C_4_eq (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : cond_1 i)
    (x0 : Vec F S2000x64 .f32) (x1 : Vec F S1x64 .f32) (x2 : Vec F S2000x128 .f32) (x3 : Vec F S64x128 .f32) (xs0 : Vec F S64x64 .f32) (xs1 : Vec F S1x1 .f32) :
    out_C_4 c i arg1 harg1 arg2 harg2 arg3 harg3 arg4 harg4 arg5 harg5 arg6 harg6 arg7 harg7 arg8 harg8 arg9 harg9 arg10 harg10 hc0 hc1 x0 x1 x2 x3 xs0 xs1 = k0_pay5 x0 := by
  unfold out_C_4
  rw [View.read_writes_eq_canon _ _ _ (cover_C_4 c i arg1 harg1 arg2 harg2 arg3 harg3 arg4 harg4 arg5 harg5 arg6 harg6 arg7 harg7 arg8 harg8 arg9 harg9 arg10 harg10 hc0 hc1 x0 x1 x2 x3 xs0 xs1)]
  unfold kernelRun_C
  dsimp only
  sl_unfold_words
  rw [View.canon_unit_zero hz2]
  simp only [View.readAt_eq_ld, harg1.read_unread, harg2.read_unread, harg3.read_unread, harg4.read_unread, harg9.read_unread, harg10.read_unread, View.ld_unit_zero (S := S2000x64) hz2, View.ld_unit_zero (S := S1x64) hz2, View.ld_unit_zero (S := S2000x128) hz2, View.ld_unit_zero (S := S64x128) hz2, View.ld_unit_zero (S := S64x64) hz2, View.ld_unit_zero (S := S1x1) hz2]

theorem out_C_5_eq (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : cond_1 i)
    (x0 : Vec F S2000x64 .f32) (x1 : Vec F S1x64 .f32) (x2 : Vec F S2000x128 .f32) (x3 : Vec F S64x128 .f32) (xs0 : Vec F S64x64 .f32) (xs1 : Vec F S1x1 .f32) :
    out_C_5 c i arg1 harg1 arg2 harg2 arg3 harg3 arg4 harg4 arg5 harg5 arg6 harg6 arg7 harg7 arg8 harg8 arg9 harg9 arg10 harg10 hc0 hc1 x0 x1 x2 x3 xs0 xs1 = k0_pay6 x0 x1 := by
  unfold out_C_5
  rw [View.read_writes_eq_canon _ _ _ (cover_C_5 c i arg1 harg1 arg2 harg2 arg3 harg3 arg4 harg4 arg5 harg5 arg6 harg6 arg7 harg7 arg8 harg8 arg9 harg9 arg10 harg10 hc0 hc1 x0 x1 x2 x3 xs0 xs1)]
  unfold kernelRun_C
  dsimp only
  sl_unfold_words
  rw [View.canon_unit_zero hz2]
  simp only [View.readAt_eq_ld, harg1.read_unread, harg2.read_unread, harg3.read_unread, harg4.read_unread, harg9.read_unread, harg10.read_unread, View.ld_unit_zero (S := S2000x64) hz2, View.ld_unit_zero (S := S1x64) hz2, View.ld_unit_zero (S := S2000x128) hz2, View.ld_unit_zero (S := S64x128) hz2, View.ld_unit_zero (S := S64x64) hz2, View.ld_unit_zero (S := S1x1) hz2]

theorem out_C_6_eq (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : cond_1 i)
    (x0 : Vec F S2000x64 .f32) (x1 : Vec F S1x64 .f32) (x2 : Vec F S2000x128 .f32) (x3 : Vec F S64x128 .f32) (xs0 : Vec F S64x64 .f32) (xs1 : Vec F S1x1 .f32) :
    out_C_6 c i arg1 harg1 arg2 harg2 arg3 harg3 arg4 harg4 arg5 harg5 arg6 harg6 arg7 harg7 arg8 harg8 arg9 harg9 arg10 harg10 hc0 hc1 x0 x1 x2 x3 xs0 xs1 = k0_pay7 x0 x1 xs0 := by
  unfold out_C_6
  rw [View.read_writes_eq_canon _ _ _ (cover_C_6 c i arg1 harg1 arg2 harg2 arg3 harg3 arg4 harg4 arg5 harg5 arg6 harg6 arg7 harg7 arg8 harg8 arg9 harg9 arg10 harg10 hc0 hc1 x0 x1 x2 x3 xs0 xs1)]
  unfold kernelRun_C
  dsimp only
  sl_unfold_words
  rw [View.canon_unit_zero hz2, View.readCov_unit_zero (S := S64x64) _ hz2]
  simp only [View.readAt_eq_ld, harg1.read_unread, harg2.read_unread, harg3.read_unread, harg4.read_unread, harg9.read_unread, harg10.read_unread, View.ld_unit_zero (S := S2000x64) hz2, View.ld_unit_zero (S := S1x64) hz2, View.ld_unit_zero (S := S2000x128) hz2, View.ld_unit_zero (S := S64x128) hz2, View.ld_unit_zero (S := S64x64) hz2, View.ld_unit_zero (S := S1x1) hz2]

theorem out_C_7_eq (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : cond_1 i)
    (x0 : Vec F S2000x64 .f32) (x1 : Vec F S1x64 .f32) (x2 : Vec F S2000x128 .f32) (x3 : Vec F S64x128 .f32) (xs0 : Vec F S64x64 .f32) (xs1 : Vec F S1x1 .f32) :
    out_C_7 c i arg1 harg1 arg2 harg2 arg3 harg3 arg4 harg4 arg5 harg5 arg6 harg6 arg7 harg7 arg8 harg8 arg9 harg9 arg10 harg10 hc0 hc1 x0 x1 x2 x3 xs0 xs1 = k0_pay1 (k0_pay8 x0 x1 x3 x2) xs1 := by
  unfold out_C_7
  rw [View.read_writes_eq_canon _ _ _ (cover_C_7 c i arg1 harg1 arg2 harg2 arg3 harg3 arg4 harg4 arg5 harg5 arg6 harg6 arg7 harg7 arg8 harg8 arg9 harg9 arg10 harg10 hc0 hc1 x0 x1 x2 x3 xs0 xs1)]
  unfold kernelRun_C
  dsimp only
  sl_unfold_words
  rw [View.canon_unit_zero hz2, View.readCov_unit_zero (S := S1x1) _ hz2]
  simp only [View.readAt_eq_ld, harg1.read_unread, harg2.read_unread, harg3.read_unread, harg4.read_unread, harg9.read_unread, harg10.read_unread, View.ld_unit_zero (S := S2000x64) hz2, View.ld_unit_zero (S := S1x64) hz2, View.ld_unit_zero (S := S2000x128) hz2, View.ld_unit_zero (S := S64x128) hz2, View.ld_unit_zero (S := S64x64) hz2, View.ld_unit_zero (S := S1x1) hz2]

theorem sout_C_0_eq (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : cond_1 i)
    (x0 : Vec F S2000x64 .f32) (x1 : Vec F S1x64 .f32) (x2 : Vec F S2000x128 .f32) (x3 : Vec F S64x128 .f32) (xs0 : Vec F S64x64 .f32) (xs1 : Vec F S1x1 .f32) :
    sout_C_0 c i arg1 harg1 arg2 harg2 arg3 harg3 arg4 harg4 arg5 harg5 arg6 harg6 arg7 harg7 arg8 harg8 arg9 harg9 arg10 harg10 hc0 hc1 x0 x1 x2 x3 xs0 xs1 = k0_pay7 x0 x1 xs0 := by
  unfold sout_C_0
  rw [View.read_writes_eq_canon _ _ _ (scover_C_0 c i arg1 harg1 arg2 harg2 arg3 harg3 arg4 harg4 arg5 harg5 arg6 harg6 arg7 harg7 arg8 harg8 arg9 harg9 arg10 harg10 hc0 hc1 x0 x1 x2 x3 xs0 xs1)]
  unfold kernelRun_C
  dsimp only
  sl_unfold_words
  rw [View.canon_unit_zero hz2]
  simp only [View.readAt_eq_ld, harg1.read_unread, harg2.read_unread, harg3.read_unread, harg4.read_unread, harg9.read_unread, harg10.read_unread, View.ld_unit_zero (S := S2000x64) hz2, View.ld_unit_zero (S := S1x64) hz2, View.ld_unit_zero (S := S2000x128) hz2, View.ld_unit_zero (S := S64x128) hz2, View.ld_unit_zero (S := S64x64) hz2, View.ld_unit_zero (S := S1x1) hz2]

theorem sout_C_1_eq (c : Dev nD) (i : grid0.Coords) (arg1 : Memref sig .tc .vmem S2000x64 .f32) (harg1 : arg1.IsWhole) (arg2 : Memref sig .tc .vmem S1x64 .f32) (harg2 : arg2.IsWhole) (arg3 : Memref sig .tc .vmem S2000x128 .f32) (harg3 : arg3.IsWhole) (arg4 : Memref sig .tc .vmem S64x128 .f32) (harg4 : arg4.IsWhole) (arg5 : Memref sig .tc .vmem S2000x64 .bf16) (harg5 : arg5.IsWhole) (arg6 : Memref sig .tc .vmem S2000x64 .bf16) (harg6 : arg6.IsWhole) (arg7 : Memref sig .tc .vmem S64x64 .f32) (harg7 : arg7.IsWhole) (arg8 : Memref sig .tc .vmem S1x1 .f32) (harg8 : arg8.IsWhole) (arg9 : Memref sig .tc .vmem S64x64 .f32) (harg9 : arg9.IsWhole) (arg10 : Memref sig .tc .vmem S1x1 .f32) (harg10 : arg10.IsWhole) (hc0 : ¬cond_0 i) (hc1 : cond_1 i)
    (x0 : Vec F S2000x64 .f32) (x1 : Vec F S1x64 .f32) (x2 : Vec F S2000x128 .f32) (x3 : Vec F S64x128 .f32) (xs0 : Vec F S64x64 .f32) (xs1 : Vec F S1x1 .f32) :
    sout_C_1 c i arg1 harg1 arg2 harg2 arg3 harg3 arg4 harg4 arg5 harg5 arg6 harg6 arg7 harg7 arg8 harg8 arg9 harg9 arg10 harg10 hc0 hc1 x0 x1 x2 x3 xs0 xs1 = k0_pay1 (k0_pay8 x0 x1 x3 x2) xs1 := by
  unfold sout_C_1
  rw [View.read_writes_eq_canon _ _ _ (scover_C_1 c i arg1 harg1 arg2 harg2 arg3 harg3 arg4 harg4 arg5 harg5 arg6 harg6 arg7 harg7 arg8 harg8 arg9 harg9 arg10 harg10 hc0 hc1 x0 x1 x2 x3 xs0 xs1)]
  unfold kernelRun_C
  dsimp only
  sl_unfold_words
  rw [View.canon_unit_zero hz2]
  simp only [View.readAt_eq_ld, harg1.read_unread, harg2.read_unread, harg3.read_unread, harg4.read_unread, harg9.read_unread, harg10.read_unread, View.ld_unit_zero (S := S2000x64) hz2, View.ld_unit_zero (S := S1x64) hz2, View.ld_unit_zero (S := S2000x128) hz2, View.ld_unit_zero (S := S64x128) hz2, View.ld_unit_zero (S := S64x64) hz2, View.ld_unit_zero (S := S1x1) hz2]

/-! ## The values, point by point -/

/-- The Gram accumulator and the squared-error accumulator after the body at position `n`. -/
def accM (c : Dev nD) (n : ℕ) (h : n < cfg0.N) : Vec F S64x64 .f32 := (outsAt V c n h).2.2.2.2.1
def accF (c : Dev nD) (n : ℕ) (h : n < cfg0.N) : Vec F S1x1 .f32 := (outsAt V c n h).2.2.2.2.2

/-- The closed forms at a point: which case it is in. -/
theorem case_of (t : Fin cfg0.N) : (t.val % 25 = 0 ∧ ¬t.val % 25 = 24) ∨ (¬t.val % 25 = 0 ∧ ¬t.val % 25 = 24) ∨ (¬t.val % 25 = 0 ∧ t.val % 25 = 24) := by
  omega

/-- The first bf16 output holds the rounded logistic of the point's block, at every point. -/
theorem out4 (c : Dev nD) (t : Fin cfg0.N) : (dat V c).after 4 t = k0_pay5 (iblk V c 0 t) := by
  rw [after_4]
  rcases case_of t with ⟨h0, h1⟩ | ⟨h0, h1⟩ | ⟨h0, h1⟩
  · rw [outsAt_A V c t h0 h1]; dsimp only; exact out_A_4_eq (F := F) c _ _ _ _ _ _ _ _ _ _ _ _ _ _ _ _ _ _ _ _ _ _ _ _ _ _ _
  · rw [outsAt_B V c t h0 h1]; dsimp only; exact out_B_4_eq (F := F) c _ _ _ _ _ _ _ _ _ _ _ _ _ _ _ _ _ _ _ _ _ _ _ _ _ _ _ _ _
  · rw [outsAt_C V c t h0 h1]; dsimp only; exact out_C_4_eq (F := F) c _ _ _ _ _ _ _ _ _ _ _ _ _ _ _ _ _ _ _ _ _ _ _ _ _ _ _ _ _

/-- The second bf16 output holds the rounded logistic scaled by the community scalars, at every point. -/
theorem out5 (c : Dev nD) (t : Fin cfg0.N) : (dat V c).after 5 t = k0_pay6 (iblk V c 0 t) (iblk V c 1 t) := by
  rw [after_5]
  rcases case_of t with ⟨h0, h1⟩ | ⟨h0, h1⟩ | ⟨h0, h1⟩
  · rw [outsAt_A V c t h0 h1]; dsimp only; exact out_A_5_eq (F := F) c _ _ _ _ _ _ _ _ _ _ _ _ _ _ _ _ _ _ _ _ _ _ _ _ _ _ _
  · rw [outsAt_B V c t h0 h1]; dsimp only; exact out_B_5_eq (F := F) c _ _ _ _ _ _ _ _ _ _ _ _ _ _ _ _ _ _ _ _ _ _ _ _ _ _ _ _ _
  · rw [outsAt_C V c t h0 h1]; dsimp only; exact out_C_5_eq (F := F) c _ _ _ _ _ _ _ _ _ _ _ _ _ _ _ _ _ _ _ _ _ _ _ _ _ _ _ _ _

/-- The Gram accumulator after the first point: the point's Gram block added to the zero block. -/
theorem accM_zero (c : Dev nD) (h : 0 < cfg0.N) : accM V c 0 h = k0_pay7 (iblk V c 0 ⟨0, h⟩) (iblk V c 1 ⟨0, h⟩) (k0_pay2 (F := F)) := by
  unfold accM
  rw [outsAt_A V c ⟨0, h⟩ rfl (show ¬(0 : ℕ) % 25 = 24 by decide)]; dsimp only; exact sout_A_0_eq (F := F) c _ _ _ _ _ _ _ _ _ _ _ _ _ _ _ _ _ _ _ _ _ _ _ _ _ _ _

/-- After a later point: the point's Gram block added to what the point before left. -/
theorem accM_succ (c : Dev nD) (n : ℕ) (h : n + 1 < cfg0.N) : accM V c (n + 1) h = k0_pay7 (iblk V c 0 ⟨n + 1, h⟩) (iblk V c 1 ⟨n + 1, h⟩) (accM V c n (Nat.lt_of_succ_lt h)) := by
  unfold accM
  have h0 : ¬(⟨n + 1, h⟩ : Fin cfg0.N).val % 25 = 0 := not_first n h
  by_cases h1 : (⟨n + 1, h⟩ : Fin cfg0.N).val % 25 = 24
  · rw [outsAt_C V c ⟨n + 1, h⟩ h0 h1]; dsimp only; exact sout_C_0_eq (F := F) c _ _ _ _ _ _ _ _ _ _ _ _ _ _ _ _ _ _ _ _ _ _ _ _ _ _ _ _ _
  · rw [outsAt_B V c ⟨n + 1, h⟩ h0 h1]; dsimp only; exact sout_B_0_eq (F := F) c _ _ _ _ _ _ _ _ _ _ _ _ _ _ _ _ _ _ _ _ _ _ _ _ _ _ _ _ _

/-- The squared-error accumulator after the first point: the point's squared error added to the zero scalar. -/
theorem accF_zero (c : Dev nD) (h : 0 < cfg0.N) : accF V c 0 h = k0_pay1 (k0_pay8 (iblk V c 0 ⟨0, h⟩) (iblk V c 1 ⟨0, h⟩) (iblk V c 3 ⟨0, h⟩) (iblk V c 2 ⟨0, h⟩)) (k0_pay3 (F := F)) := by
  unfold accF
  rw [outsAt_A V c ⟨0, h⟩ rfl (show ¬(0 : ℕ) % 25 = 24 by decide)]; dsimp only; exact sout_A_1_eq (F := F) c _ _ _ _ _ _ _ _ _ _ _ _ _ _ _ _ _ _ _ _ _ _ _ _ _ _ _

/-- After a later point: the point's squared error added to what the point before left. -/
theorem accF_succ (c : Dev nD) (n : ℕ) (h : n + 1 < cfg0.N) : accF V c (n + 1) h = k0_pay1 (k0_pay8 (iblk V c 0 ⟨n + 1, h⟩) (iblk V c 1 ⟨n + 1, h⟩) (iblk V c 3 ⟨n + 1, h⟩) (iblk V c 2 ⟨n + 1, h⟩)) (accF V c n (Nat.lt_of_succ_lt h)) := by
  unfold accF
  have h0 : ¬(⟨n + 1, h⟩ : Fin cfg0.N).val % 25 = 0 := not_first n h
  by_cases h1 : (⟨n + 1, h⟩ : Fin cfg0.N).val % 25 = 24
  · rw [outsAt_C V c ⟨n + 1, h⟩ h0 h1]; dsimp only; exact sout_C_1_eq (F := F) c _ _ _ _ _ _ _ _ _ _ _ _ _ _ _ _ _ _ _ _ _ _ _ _ _ _ _ _ _
  · rw [outsAt_B V c ⟨n + 1, h⟩ h0 h1]; dsimp only; exact sout_B_1_eq (F := F) c _ _ _ _ _ _ _ _ _ _ _ _ _ _ _ _ _ _ _ _ _ _ _ _ _ _ _ _ _

/-- At the last point the Gram output is the Gram accumulator as that point leaves it, -/
theorem out6_last (c : Dev nD) (h : 24 < cfg0.N) : (dat V c).after 6 ⟨24, h⟩ = accM V c 24 h := by
  rw [after_6]; unfold accM
  rw [outsAt_C V c ⟨24, h⟩ (show ¬(24 : ℕ) % 25 = 0 by decide) rfl]; dsimp only
  exact (out_C_6_eq (F := F) c _ _ _ _ _ _ _ _ _ _ _ _ _ _ _ _ _ _ _ _ _ _ _ _ _ _ _ _ _).trans (sout_C_0_eq (F := F) c _ _ _ _ _ _ _ _ _ _ _ _ _ _ _ _ _ _ _ _ _ _ _ _ _ _ _ _ _).symm

/-- and the error output the squared-error accumulator. -/
theorem out7_last (c : Dev nD) (h : 24 < cfg0.N) : (dat V c).after 7 ⟨24, h⟩ = accF V c 24 h := by
  rw [after_7]; unfold accF
  rw [outsAt_C V c ⟨24, h⟩ (show ¬(24 : ℕ) % 25 = 0 by decide) rfl]; dsimp only
  exact (out_C_7_eq (F := F) c _ _ _ _ _ _ _ _ _ _ _ _ _ _ _ _ _ _ _ _ _ _ _ _ _ _ _ _ _).trans (sout_C_1_eq (F := F) c _ _ _ _ _ _ _ _ _ _ _ _ _ _ _ _ _ _ _ _ _ _ _ _ _ _ _ _ _).symm

end Cert.KernelIdeal.Node

end
-- ==== Proof.KI.EdgeShared.lean ====
import proofs.«137296_j64604898066506_1_alg».proof.Proof.Gen.KernelIdeal.Launch
import proofs.«137296_j64604898066506_1_alg».proof.Proof.Gen.KernelIdeal.Skeleton
import proofs.«137296_j64604898066506_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Edge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The input windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first gathered operand's staging buffer holds its block of 16000 edges at every point: the window is an
    input, fetched at every point, never idle, and the body stores nothing into it. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the second gathered operand. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditionals, in closed form over the 50 points -/

/-- The first conditional (the accumulator's reset): the point's coordinate is 0. -/
abbrev cond_0 (i : grid1.Coords) : Prop := (Scalar.cmpi .ne (Scalar.extui (Scalar.cmpi .eq (BitVec.ofNat 32 (i 0).val) 0#32)) 0#32) = 1#1
/-- It holds at point 0 only. -/
theorem hcond_0 : ∀ t : Fin cfg1.N, cond_0 (grid1.coords t) ↔ t.val % 50 = 0 :=
  (by decide +kernel : ∀ t : Fin grid1.N, cond_0 (grid1.coords t) ↔ t.val % 50 = 0)

/-- The second conditional (the result's store): the point's coordinate is 49. -/
abbrev cond_1 (i : grid1.Coords) : Prop := k1_cond2 i = 1#1
/-- It holds at point 49 only. -/
theorem hcond_1 : ∀ t : Fin cfg1.N, cond_1 (grid1.coords t) ↔ t.val % 50 = 49 :=
  (by decide +kernel : ∀ t : Fin grid1.N, cond_1 (grid1.coords t) ↔ t.val % 50 = 49)

/-! ## Where the windows are idle -/

/-- The two inputs are never idle. -/
theorem liveAt_0 : ∀ t : Fin cfg1.N, cfg1.idle 0 (grid1.coords t) = false := by decide +kernel
theorem liveAt_1 : ∀ t : Fin cfg1.N, cfg1.idle 1 (grid1.coords t) = false := by decide +kernel
/-- At point 0 (reset taken, result not stored) the result window is idle and not written back. -/
theorem idleAt_2_A : ∀ t : Fin cfg1.N, cond_0 (grid1.coords t) → ¬cond_1 (grid1.coords t) → cfg1.idle 2 (grid1.coords t) = true := by decide +kernel
theorem noFlush_2_A : ∀ t : Fin cfg1.N, cond_0 (grid1.coords t) → ¬cond_1 (grid1.coords t) → (cfg1.win 2).flush t = false := by decide +kernel
/-- At the points 1..48 (neither conditional taken) the same. -/
theorem idleAt_2_B : ∀ t : Fin cfg1.N, ¬cond_0 (grid1.coords t) → ¬cond_1 (grid1.coords t) → cfg1.idle 2 (grid1.coords t) = true := by decide +kernel
theorem noFlush_2_B : ∀ t : Fin cfg1.N, ¬cond_0 (grid1.coords t) → ¬cond_1 (grid1.coords t) → (cfg1.win 2).flush t = false := by decide +kernel
/-- At point 49 the result window is live: the body stores the accumulated sum into it. -/
theorem liveAt_2_C : ∀ t : Fin cfg1.N, ¬cond_0 (grid1.coords t) → cond_1 (grid1.coords t) → cfg1.idle 2 (grid1.coords t) = false := by decide +kernel

/-! ## The memrefs the body is called with -/

/-- The result window's one staging buffer, through which its contents are stated. -/
abbrev VO_2 : View sig .tc .vmem S1x1 .f32 := (Memref.whole cc1_stg2_0 : Memref sig .tc .vmem S1x1 .f32).view
/-- Each window's current staging memref at point `t`, and its wholeness. -/
abbrev ms_0 (t : Fin cfg1.N) : Memref sig .tc .vmem S16000x64 .bf16 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S16000x64 .bf16 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1x1 .f32 := win1_2.stage (cfg1.slots t 2)
abbrev hs_2 (t : Fin cfg1.N) : (ms_2 t).IsWhole := hstage1_2 ((cfg1.slots t 2).cast nbuf1_2)
/-- The accumulator: a whole scoped buffer of one f32 word, passed beside the windows and carried from point to point. -/
abbrev scM : Memref sig .tc .vmem S1x1 .f32 := Memref.whole cc1_scratch0
/-- The accumulator as a view: what it holds is stated through it. -/
abbrev VS : View sig .tc .vmem S1x1 .f32 := scM.view

/-- The scoped buffers of the core that are no staging buffer of this pipeline: the first pipeline's twelve staging
    buffers and its two scratch buffers, each whole at some contents (the body never touches them), and last the
    accumulator, held as `P` says. -/
def restWith (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ P)

/-- What the launch hands the region, with the accumulator as a memref owned at some contents, the other scoped
    buffers as they are, and the generator register at some state. -/
theorem PhiA_eq (c : Dev nD) :
    (Pipeline.ΦA spec1 c : sProp 𝕄)
      = iprop(restWith (F := F) c iprop(∃ d, owns (c : Thread nD τ) scM fullShare d) ∗ (∃ r, prngReg c r)) := by
  unfold Pipeline.ΦA restWith; rw [scopedRest1_eq]; simp only [scM, owns_whole]; try rfl

end Cert.KernelIdeal.Edge

end
-- ==== Proof.KI.EdgeRunA.lean ====
import proofs.«137296_j64604898066506_1_alg».proof.Proof.KI.EdgeShared

set_option maxRecDepth 16384

noncomputable section

namespace Cert.KernelIdeal.Edge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body at point 0: the accumulator is reset, then updated; the result window is left alone -/

set_option maxHeartbeats 1000000 in
/-- The pieces the body's stores leave in the result window's staging memref (`L2`: none here) and in the
    accumulator (`LS`: the reset to zero, then the update, last first) WHEN THE RESET IS TAKEN AND THE RESULT IS NOT
    STORED, with the proof that on whole memrefs — the two inputs' at their blocks `x0`, `x1`, the result window's at
    contents `xi2` handed back untouched, the accumulator at anything — the body runs to a continuation that holds
    the inputs and the result window as they were and the accumulator with its pieces written. The pieces are the
    witness the symbolic run finds. -/
noncomputable def kernelRun_A (c : Dev nD) (i : grid1.Coords) (arg1 : Memref sig .tc .vmem S16000x64 .bf16) (harg1 : arg1.IsWhole) (arg2 : Memref sig .tc .vmem S16000x64 .bf16) (harg2 : arg2.IsWhole) (arg3 : Memref sig .tc .vmem S1x1 .f32) (harg3 : arg3.IsWhole) (arg4 : Memref sig .tc .vmem S1x1 .f32) (harg4 : arg4.IsWhole) (hc0 : cond_0 i) (hc1 : ¬cond_1 i)
    (x0 : Vec F S16000x64 .bf16) (x1 : Vec F S16000x64 .bf16) :
    Σ' (L2 : List (View.Piece (Elt F) S1x1 .f32)), { LS : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS)) -∗ K ⟨⟩))
          ⊢ wp frame (wpE (defs₀ (F := F)) Variants.none c none) E (cc1__edge_kernel i arg1 harg1 arg2 harg2 arg3 harg3 arg4 harg4) K } := by
  refine ⟨[], ?_, fun xi2 E K => ?run⟩
  case run =>
    simp only [cc1__edge_kernel_eq_skeleton]; unfold cc1__edge_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Edge

end
-- ==== Proof.KI.EdgeRunB.lean ====
import proofs.«137296_j64604898066506_1_alg».proof.Proof.KI.EdgeRunA

set_option maxRecDepth 16384

noncomputable section

namespace Cert.KernelIdeal.Edge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body at the points 1..48: the accumulator is updated; the result window is left alone -/

set_option maxHeartbeats 1000000 in
/-- The pieces the body's stores leave in the result window's staging memref (`L2`: none) and in the accumulator
    (`LS`: the update) WHEN NEITHER CONDITIONAL IS TAKEN, with the proof that on whole memrefs — the inputs' at their
    blocks, the result window's at contents `xi2` handed back untouched, the accumulator at what the point before
    left (`xs`) — the body runs to a continuation that holds the inputs and the result window as they were and the
    accumulator with its pieces written. -/
noncomputable def kernelRun_B (c : Dev nD) (i : grid1.Coords) (arg1 : Memref sig .tc .vmem S16000x64 .bf16) (harg1 : arg1.IsWhole) (arg2 : Memref sig .tc .vmem S16000x64 .bf16) (harg2 : arg2.IsWhole) (arg3 : Memref sig .tc .vmem S1x1 .f32) (harg3 : arg3.IsWhole) (arg4 : Memref sig .tc .vmem S1x1 .f32) (harg4 : arg4.IsWhole) (hc0 : ¬cond_0 i) (hc1 : ¬cond_1 i)
    (x0 : Vec F S16000x64 .bf16) (x1 : Vec F S16000x64 .bf16) (xs : Vec F S1x1 .f32) :
    Σ' (L2 : List (View.Piece (Elt F) S1x1 .f32)), { LS : List (View.Piece (Elt F) S1x1 .f32) //
      ∀ (xi2 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS)) -∗ K ⟨⟩))
          ⊢ wp frame (wpE (defs₀ (F := F)) Variants.none c none) E (cc1__edge_kernel i arg1 harg1 arg2 harg2 arg3 harg3 arg4 harg4) K } := by
  refine ⟨[], ?_, fun xi2 E K => ?run⟩
  case run =>
    simp only [cc1__edge_kernel_eq_skeleton]; unfold cc1__edge_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Edge

end
-- ==== Proof.KI.EdgeRunC.lean ====
import proofs.«137296_j64604898066506_1_alg».proof.Proof.KI.EdgeRunB

set_option maxRecDepth 16384

noncomputable section

namespace Cert.KernelIdeal.Edge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body at point 49: the accumulator is updated and copied into the result window -/

set_option maxHeartbeats 1000000 in
/-- The pieces the body's stores leave in the result window's staging memref (`L2`: the accumulator as loaded after
    its update) and in the accumulator (`LS`: the update) WHEN THE RESET IS NOT TAKEN AND THE RESULT IS STORED, with the
    proof that on whole memrefs — the inputs' at their blocks, the result window's at anything, the accumulator at
    what the point before left (`xs`) — the body runs to a continuation that holds the inputs as they were and the
    result window and the accumulator with their pieces written. -/
noncomputable def kernelRun_C (c : Dev nD) (i : grid1.Coords) (arg1 : Memref sig .tc .vmem S16000x64 .bf16) (harg1 : arg1.IsWhole) (arg2 : Memref sig .tc .vmem S16000x64 .bf16) (harg2 : arg2.IsWhole) (arg3 : Memref sig .tc .vmem S1x1 .f32) (harg3 : arg3.IsWhole) (arg4 : Memref sig .tc .vmem S1x1 .f32) (harg4 : arg4.IsWhole) (hc0 : ¬cond_0 i) (hc1 : cond_1 i)
    (x0 : Vec F S16000x64 .bf16) (x1 : Vec F S16000x64 .bf16) (xs : Vec F S1x1 .f32) :
    Σ' (L2 : List (View.Piece (Elt F) S1x1 .f32)), { LS : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS)) -∗ K ⟨⟩))
          ⊢ wp frame (wpE (defs₀ (F := F)) Variants.none c none) E (cc1__edge_kernel i arg1 harg1 arg2 harg2 arg3 harg3 arg4 harg4) K } := by
  refine ⟨?_, ?_, fun E K => ?run⟩
  case run =>
    simp only [cc1__edge_kernel_eq_skeleton]; unfold cc1__edge_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Edge

end
-- ==== Proof.KI.EdgeData.lean ====
import proofs.«137296_j64604898066506_1_alg».proof.Proof.KI.EdgeRunC
import Idealize.ShloMosaic.Lib.Pipeline.Value

set_option maxRecDepth 16384

noncomputable section

namespace Cert.KernelIdeal.Edge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves in the result window's buffer and in the accumulator -/

/-- At point 0 the body stores nothing into the result window (idle there and not written back): no pieces, a
    placeholder that nothing consults. -/
def out_A_2 (c : Dev nD) (i : grid1.Coords) (arg1 : Memref sig .tc .vmem S16000x64 .bf16) (harg1 : arg1.IsWhole) (arg2 : Memref sig .tc .vmem S16000x64 .bf16) (harg2 : arg2.IsWhole) (arg3 : Memref sig .tc .vmem S1x1 .f32) (harg3 : arg3.IsWhole) (arg4 : Memref sig .tc .vmem S1x1 .f32) (harg4 : arg4.IsWhole) (hc0 : cond_0 i) (hc1 : ¬cond_1 i)
    (x0 : Vec F S16000x64 .bf16) (x1 : Vec F S16000x64 .bf16) : Vec F S1x1 .f32 :=
  VO_2.read (Elt F) (VO_2.writes (Elt F) VO_2.junk (kernelRun_A c i arg1 harg1 arg2 harg2 arg3 harg3 arg4 harg4 hc0 hc1 x0 x1).1)

/-- At point 0 the accumulator's two pieces (the reset, then the update) each cover its one word. -/
theorem scover_A (c : Dev nD) (i : grid1.Coords) (arg1 : Memref sig .tc .vmem S16000x64 .bf16) (harg1 : arg1.IsWhole) (arg2 : Memref sig .tc .vmem S16000x64 .bf16) (harg2 : arg2.IsWhole) (arg3 : Memref sig .tc .vmem S1x1 .f32) (harg3 : arg3.IsWhole) (arg4 : Memref sig .tc .vmem S1x1 .f32) (harg4 : arg4.IsWhole) (hc0 : cond_0 i) (hc1 : ¬cond_1 i)
    (x0 : Vec F S16000x64 .bf16) (x1 : Vec F S16000x64 .bf16) (y : S1x1.Idx) :
    ∃ pc ∈ (kernelRun_A c i arg1 harg1 arg2 harg2 arg3 harg3 arg4 harg4 hc0 hc1 x0 x1).2.1, y ∈ pc.1.set :=
  View.cover_of_tiledL (kernelRun_A c i arg1 harg1 arg2 harg2 arg3 harg3 arg4 harg4 hc0 hc1 x0 x1).2.1 S1x1.size (by sl_kernel_rfl) y

/-- What point 0 leaves in the accumulator: its pieces read back. -/
def sout_A (c : Dev nD) (i : grid1.Coords) (arg1 : Memref sig .tc .vmem S16000x64 .bf16) (harg1 : arg1.IsWhole) (arg2 : Memref sig .tc .vmem S16000x64 .bf16) (harg2 : arg2.IsWhole) (arg3 : Memref sig .tc .vmem S1x1 .f32) (harg3 : arg3.IsWhole) (arg4 : Memref sig .tc .vmem S1x1 .f32) (harg4 : arg4.IsWhole) (hc0 : cond_0 i) (hc1 : ¬cond_1 i)
    (x0 : Vec F S16000x64 .bf16) (x1 : Vec F S16000x64 .bf16) : Vec F S1x1 .f32 :=
  VS.read (Elt F) (VS.writes (Elt F) VS.junk (kernelRun_A c i arg1 harg1 arg2 harg2 arg3 harg3 arg4 harg4 hc0 hc1 x0 x1).2.1)

/-- At the points 1..48 the body stores nothing into the result window either. -/
def out_B_2 (c : Dev nD) (i : grid1.Coords) (arg1 : Memref sig .tc .vmem S16000x64 .bf16) (harg1 : arg1.IsWhole) (arg2 : Memref sig .tc .vmem S16000x64 .bf16) (harg2 : arg2.IsWhole) (arg3 : Memref sig .tc .vmem S1x1 .f32) (harg3 : arg3.IsWhole) (arg4 : Memref sig .tc .vmem S1x1 .f32) (harg4 : arg4.IsWhole) (hc0 : ¬cond_0 i) (hc1 : ¬cond_1 i)
    (x0 : Vec F S16000x64 .bf16) (x1 : Vec F S16000x64 .bf16) (xs : Vec F S1x1 .f32) : Vec F S1x1 .f32 :=
  VO_2.read (Elt F) (VO_2.writes (Elt F) VO_2.junk (kernelRun_B c i arg1 harg1 arg2 harg2 arg3 harg3 arg4 harg4 hc0 hc1 x0 x1 xs).1)

/-- At the points 1..48 the accumulator's one piece (the update) covers its word. -/
theorem scover_B (c : Dev nD) (i : grid1.Coords) (arg1 : Memref sig .tc .vmem S16000x64 .bf16) (harg1 : arg1.IsWhole) (arg2 : Memref sig .tc .vmem S16000x64 .bf16) (harg2 : arg2.IsWhole) (arg3 : Memref sig .tc .vmem S1x1 .f32) (harg3 : arg3.IsWhole) (arg4 : Memref sig .tc .vmem S1x1 .f32) (harg4 : arg4.IsWhole) (hc0 : ¬cond_0 i) (hc1 : ¬cond_1 i)
    (x0 : Vec F S16000x64 .bf16) (x1 : Vec F S16000x64 .bf16) (xs : Vec F S1x1 .f32) (y : S1x1.Idx) :
    ∃ pc ∈ (kernelRun_B c i arg1 harg1 arg2 harg2 arg3 harg3 arg4 harg4 hc0 hc1 x0 x1 xs).2.1, y ∈ pc.1.set :=
  View.cover_of_tiledL (kernelRun_B c i arg1 harg1 arg2 harg2 arg3 harg3 arg4 harg4 hc0 hc1 x0 x1 xs).2.1 S1x1.size (by sl_kernel_rfl) y

/-- What such a point leaves in the accumulator. -/
def sout_B (c : Dev nD) (i : grid1.Coords) (arg1 : Memref sig .tc .vmem S16000x64 .bf16) (harg1 : arg1.IsWhole) (arg2 : Memref sig .tc .vmem S16000x64 .bf16) (harg2 : arg2.IsWhole) (arg3 : Memref sig .tc .vmem S1x1 .f32) (harg3 : arg3.IsWhole) (arg4 : Memref sig .tc .vmem S1x1 .f32) (harg4 : arg4.IsWhole) (hc0 : ¬cond_0 i) (hc1 : ¬cond_1 i)
    (x0 : Vec F S16000x64 .bf16) (x1 : Vec F S16000x64 .bf16) (xs : Vec F S1x1 .f32) : Vec F S1x1 .f32 :=
  VS.read (Elt F) (VS.writes (Elt F) VS.junk (kernelRun_B c i arg1 harg1 arg2 harg2 arg3 harg3 arg4 harg4 hc0 hc1 x0 x1 xs).2.1)

/-- At point 49 the one store into the result window covers its word. -/
theorem cover_C_2 (c : Dev nD) (i : grid1.Coords) (arg1 : Memref sig .tc .vmem S16000x64 .bf16) (harg1 : arg1.IsWhole) (arg2 : Memref sig .tc .vmem S16000x64 .bf16) (harg2 : arg2.IsWhole) (arg3 : Memref sig .tc .vmem S1x1 .f32) (harg3 : arg3.IsWhole) (arg4 : Memref sig .tc .vmem S1x1 .f32) (harg4 : arg4.IsWhole) (hc0 : ¬cond_0 i) (hc1 : cond_1 i)
    (x0 : Vec F S16000x64 .bf16) (x1 : Vec F S16000x64 .bf16) (xs : Vec F S1x1 .f32) (y : S1x1.Idx) :
    ∃ pc ∈ (kernelRun_C c i arg1 harg1 arg2 harg2 arg3 harg3 arg4 harg4 hc0 hc1 x0 x1 xs).1, y ∈ pc.1.set :=
  View.cover_of_tiledL (kernelRun_C c i arg1 harg1 arg2 harg2 arg3 harg3 arg4 harg4 hc0 hc1 x0 x1 xs).1 S1x1.size (by sl_kernel_rfl) y

/-- What point 49 leaves in the result window's buffer. -/
def out_C_2 (c : Dev nD) (i : grid1.Coords) (arg1 : Memref sig .tc .vmem S16000x64 .bf16) (harg1 : arg1.IsWhole) (arg2 : Memref sig .tc .vmem S16000x64 .bf16) (harg2 : arg2.IsWhole) (arg3 : Memref sig .tc .vmem S1x1 .f32) (harg3 : arg3.IsWhole) (arg4 : Memref sig .tc .vmem S1x1 .f32) (harg4 : arg4.IsWhole) (hc0 : ¬cond_0 i) (hc1 : cond_1 i)
    (x0 : Vec F S16000x64 .bf16) (x1 : Vec F S16000x64 .bf16) (xs : Vec F S1x1 .f32) : Vec F S1x1 .f32 :=
  VO_2.read (Elt F) (VO_2.writes (Elt F) VO_2.junk (kernelRun_C c i arg1 harg1 arg2 harg2 arg3 harg3 arg4 harg4 hc0 hc1 x0 x1 xs).1)

/-- At point 49 the accumulator's one piece (the update) covers its word. -/
theorem scover_C (c : Dev nD) (i : grid1.Coords) (arg1 : Memref sig .tc .vmem S16000x64 .bf16) (harg1 : arg1.IsWhole) (arg2 : Memref sig .tc .vmem S16000x64 .bf16) (harg2 : arg2.IsWhole) (arg3 : Memref sig .tc .vmem S1x1 .f32) (harg3 : arg3.IsWhole) (arg4 : Memref sig .tc .vmem S1x1 .f32) (harg4 : arg4.IsWhole) (hc0 : ¬cond_0 i) (hc1 : cond_1 i)
    (x0 : Vec F S16000x64 .bf16) (x1 : Vec F S16000x64 .bf16) (xs : Vec F S1x1 .f32) (y : S1x1.Idx) :
    ∃ pc ∈ (kernelRun_C c i arg1 harg1 arg2 harg2 arg3 harg3 arg4 harg4 hc0 hc1 x0 x1 xs).2.1, y ∈ pc.1.set :=
  View.cover_of_tiledL (kernelRun_C c i arg1 harg1 arg2 harg2 arg3 harg3 arg4 harg4 hc0 hc1 x0 x1 xs).2.1 S1x1.size (by sl_kernel_rfl) y

/-- What point 49 leaves in the accumulator. -/
def sout_C (c : Dev nD) (i : grid1.Coords) (arg1 : Memref sig .tc .vmem S16000x64 .bf16) (harg1 : arg1.IsWhole) (arg2 : Memref sig .tc .vmem S16000x64 .bf16) (harg2 : arg2.IsWhole) (arg3 : Memref sig .tc .vmem S1x1 .f32) (harg3 : arg3.IsWhole) (arg4 : Memref sig .tc .vmem S1x1 .f32) (harg4 : arg4.IsWhole) (hc0 : ¬cond_0 i) (hc1 : cond_1 i)
    (x0 : Vec F S16000x64 .bf16) (x1 : Vec F S16000x64 .bf16) (xs : Vec F S1x1 .f32) : Vec F S1x1 .f32 :=
  VS.read (Elt F) (VS.writes (Elt F) VS.junk (kernelRun_C c i arg1 harg1 arg2 harg2 arg3 harg3 arg4 harg4 hc0 hc1 x0 x1 xs).2.1)

/-! ## What the result window's buffer and the accumulator hold after each point -/

/-- The accumulation: (the result window's buffer, the accumulator) after the body at position `n` — the case the
    closed forms select at `n`, run at the point's memrefs and input blocks, over the accumulator as the point
    before left it. -/
def outsAt (c : Dev nD) : (n : ℕ) → n < cfg1.N → Vec F S1x1 .f32 × Vec F S1x1 .f32
  | 0, hn => (out_A_2 c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩), sout_A c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) scM (Memref.isWhole_whole _) ((hcond_0 ⟨0, hn⟩).mpr (Nat.zero_mod _)) (fun h => (fun h => by (try dsimp only at h); omega) ((hcond_1 ⟨0, hn⟩).mp h)) (iblk V c 0 ⟨0, hn⟩) (iblk V c 1 ⟨0, hn⟩))
  | n + 1, hn =>
    if h0 : (n + 1) % 50 = 0 then
      if h1 : (n + 1) % 50 = 49 then
        False.elim (by omega)
      else
        (out_A_2 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) ((hcond_0 ⟨n + 1, hn⟩).mpr h0) (fun h => h1 ((hcond_1 ⟨n + 1, hn⟩).mp h)) (iblk V c 0 ⟨n + 1, hn⟩) (iblk V c 1 ⟨n + 1, hn⟩), sout_A c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) ((hcond_0 ⟨n + 1, hn⟩).mpr h0) (fun h => h1 ((hcond_1 ⟨n + 1, hn⟩).mp h)) (iblk V c 0 ⟨n + 1, hn⟩) (iblk V c 1 ⟨n + 1, hn⟩))
    else
      if h1 : (n + 1) % 50 = 49 then
        (out_C_2 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcond_0 ⟨n + 1, hn⟩).mp h)) ((hcond_1 ⟨n + 1, hn⟩).mpr h1) (iblk V c 0 ⟨n + 1, hn⟩) (iblk V c 1 ⟨n + 1, hn⟩) (outsAt c n (Nat.lt_of_succ_lt hn)).2, sout_C c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcond_0 ⟨n + 1, hn⟩).mp h)) ((hcond_1 ⟨n + 1, hn⟩).mpr h1) (iblk V c 0 ⟨n + 1, hn⟩) (iblk V c 1 ⟨n + 1, hn⟩) (outsAt c n (Nat.lt_of_succ_lt hn)).2)
      else
        (out_B_2 c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcond_0 ⟨n + 1, hn⟩).mp h)) (fun h => h1 ((hcond_1 ⟨n + 1, hn⟩).mp h)) (iblk V c 0 ⟨n + 1, hn⟩) (iblk V c 1 ⟨n + 1, hn⟩) (outsAt c n (Nat.lt_of_succ_lt hn)).2, sout_B c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scM (Memref.isWhole_whole _) (fun h => h0 ((hcond_0 ⟨n + 1, hn⟩).mp h)) (fun h => h1 ((hcond_1 ⟨n + 1, hn⟩).mp h)) (iblk V c 0 ⟨n + 1, hn⟩) (iblk V c 1 ⟨n + 1, hn⟩) (outsAt c n (Nat.lt_of_succ_lt hn)).2)

/-- `outsAt` at point 0. -/
theorem outsAt_A (c : Dev nD) (t : Fin cfg1.N) (h0 : t.val % 50 = 0) (h1 : ¬t.val % 50 = 49) :
    outsAt V c t.val t.isLt = (out_A_2 c (grid1.coords t) (ms_0 t) (hs_0 t) (ms_1 t) (hs_1 t) (ms_2 t) (hs_2 t) scM (Memref.isWhole_whole _) ((hcond_0 t).mpr h0) (fun h => h1 ((hcond_1 t).mp h)) (iblk V c 0 t) (iblk V c 1 t), sout_A c (grid1.coords t) (ms_0 t) (hs_0 t) (ms_1 t) (hs_1 t) (ms_2 t) (hs_2 t) scM (Memref.isWhole_whole _) ((hcond_0 t).mpr h0) (fun h => h1 ((hcond_1 t).mp h)) (iblk V c 0 t) (iblk V c 1 t)) := by
  obtain ⟨n, hn⟩ := t
  cases n with
  | zero => exact rfl
  | succ n => exact (dif_pos h0).trans ((dif_neg h1).trans rfl)

/-- `outsAt` at a point 1..48: over what the point before left. -/
theorem outsAt_B (c : Dev nD) (t : Fin cfg1.N) (h0 : ¬t.val % 50 = 0) (h1 : ¬t.val % 50 = 49) :
    outsAt V c t.val t.isLt = (out_B_2 c (grid1.coords t) (ms_0 t) (hs_0 t) (ms_1 t) (hs_1 t) (ms_2 t) (hs_2 t) scM (Memref.isWhole_whole _) (fun h => h0 ((hcond_0 t).mp h)) (fun h => h1 ((hcond_1 t).mp h)) (iblk V c 0 t) (iblk V c 1 t) (outsAt V c (t.val - 1) (Nat.lt_of_le_of_lt (Nat.sub_le _ _) t.isLt)).2, sout_B c (grid1.coords t) (ms_0 t) (hs_0 t) (ms_1 t) (hs_1 t) (ms_2 t) (hs_2 t) scM (Memref.isWhole_whole _) (fun h => h0 ((hcond_0 t).mp h)) (fun h => h1 ((hcond_1 t).mp h)) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt` at point 49: over what the point before left. -/
theorem outsAt_C (c : Dev nD) (t : Fin cfg1.N) (h0 : ¬t.val % 50 = 0) (h1 : t.val % 50 = 49) :
    outsAt V c t.val t.isLt = (out_C_2 c (grid1.coords t) (ms_0 t) (hs_0 t) (ms_1 t) (hs_1 t) (ms_2 t) (hs_2 t) scM (Memref.isWhole_whole _) (fun h => h0 ((hcond_0 t).mp h)) ((hcond_1 t).mpr h1) (iblk V c 0 t) (iblk V c 1 t) (outsAt V c (t.val - 1) (Nat.lt_of_le_of_lt (Nat.sub_le _ _) t.isLt)).2, sout_C c (grid1.coords t) (ms_0 t) (hs_0 t) (ms_1 t) (hs_1 t) (ms_2 t) (hs_2 t) scM (Memref.isWhole_whole _) (fun h => h0 ((hcond_0 t).mp h)) ((hcond_1 t).mpr h1) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (the accumulator at
    anything); afterwards the same scoped buffers with the accumulator at what the point before left in it, and the
    generator register at some state. -/
def PhiS (c : Dev nD) : (n : ℕ) → n ≤ cfg1.N → sProp 𝕄
  | 0, _ => Pipeline.ΦA spec1 c
  | n + 1, hn => iprop(restWith (F := F) c (owns (c : Thread nD τ) scM fullShare ((outsAt V c n hn).2)) ∗ (∃ r, prngReg c r))

theorem PhiS_zero (c : Dev nD) (n : ℕ) (h : n ≤ cfg1.N) (hz : n = 0) : PhiS V c n h = Pipeline.ΦA spec1 c := by
  subst hz; rfl

/-- After point `n`: the accumulator at that point's contents. -/
theorem PhiS_succ (c : Dev nD) (n : ℕ) (hn : n < cfg1.N) :
    PhiS V c (n + 1) hn = iprop(restWith (F := F) c (owns (c : Thread nD τ) scM fullShare ((outsAt V c n hn).2)) ∗ (∃ r, prngReg c r)) := rfl

/-- Before a point that is not the first: the accumulator at what the point before left. -/
theorem PhiS_pos (c : Dev nD) (n : ℕ) (h : n ≤ cfg1.N) (hz : n ≠ 0) :
    PhiS V c n h = iprop(restWith (F := F) c (owns (c : Thread nD τ) scM fullShare ((outsAt V c (n - 1) (by omega)).2)) ∗ (∃ r, prngReg c r)) := by
  cases n with
  | zero => exact absurd rfl hz
  | succ n => rfl

/-! ## The pipeline's proof data -/

/-- The proof data of the edge pipeline on core `c`: the arrays as the region finds them; after the body at point
    `t` each input's buffer at its block and the result window's at `outsAt`'s first component; the invariant
    `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

/-- The proof data's arrays are the region-entry contents. -/
theorem A_eq (c : Dev nD) (w : Fin cfg1.W) : (dat V c).A w = V c (Pipeline.arrRef spec1 w) := by
  dsimp only [dat]

/-- The invariant at a point's start, restated at `t.val`. -/
theorem PhiS_castSucc (c : Dev nD) (t : Fin cfg1.N) :
    (dat V c).Φ t.castSucc = PhiS V c t.val (Nat.le_of_lt t.isLt) := by
  dsimp only [dat]; simp only [Fin.coe_castSucc]

/-- What the body leaves, window by window. -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = (outsAt V c t.val t.isLt).1 := by dsimp only [dat]

/-- Each input's current staging buffer holds its block at every point. -/
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the inputs' memrefs hold their blocks; the closed forms say which of the three cases the
    point is in; the invariant hands the body the accumulator at what the point before left (at anything at point 0)
    and takes it back at this point's contents; the other scoped buffers, the generator register and what the core
    owes pass through untouched. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = PhiS V c (t.val + 1) t.isLt from rfl, PhiS_succ]
  have hN : t.val < 50 := lt_of_lt_of_eq t.isLt (show cfg1.N = 50 from N_1)
  by_cases h0 : t.val % 50 = 0
  · by_cases h1 : t.val % 50 = 49
    · exfalso; omega
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [Dat.leavesExact_idle (dat V c) 2 t (idleAt_2_A t ((hcond_0 t).mpr h0) (fun h => h1 ((hcond_1 t).mp h))) (noFlush_2_A t ((hcond_0 t).mpr h0) (fun h => h1 ((hcond_1 t).mp h)))]
      rw [outsAt_A V c t h0 h1]
      unfold sout_A; (try dsimp only)
      by_cases hz : t.val = 0
      · rw [PhiS_castSucc V c t, PhiS_zero V c _ _ hz, PhiA_eq]
        unfold restWith
        iintro ⟨⟨⟨R1, R2, R3, R4, R5, R6, R7, R8, R9, R10, R11, R12, R13, R14, HS0⟩, Hg⟩, Ho, ⟨%d0, H0⟩, ⟨%d1, H1⟩, ⟨%d2, H2⟩⟩
        iapply ((kernelRun_A c (grid1.coords t) _ _ _ _ _ _ _ _ ((hcond_0 t).mpr h0) (fun h => h1 ((hcond_1 t).mp h)) (iblk V c 0 t) (iblk V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [R1 R2 R3 R4 R5 R6 R7 R8 R9 R10 R11 R12 R13 R14 HS0 Hg]
        · isplitl [R1 R2 R3 R4 R5 R6 R7 R8 R9 R10 R11 R12 R13 R14 HS0]
          · isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [R11]; · iexact R11
            isplitl [R12]; · iexact R12
            isplitl [R13]; · iexact R13
            isplitl [R14]; · iexact R14
            unfold owns; iexists _; isplitr
            swap; · iexact HS0
            ipureintro; exact View.read_writes_of_cover _ _ _ _ _ (scover_A c _ _ _ _ _ _ _ _ _ _ _ _ _)
          iexact Hg
        isplitl [Ho]; · iexact Ho
        isplitl [H0]; · iexact H0
        isplitl [H1]; · iexact H1
        iexists _; iexact H2
      · exfalso; omega
  · by_cases h1 : t.val % 50 = 49
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2_C t (fun h => h0 ((hcond_0 t).mp h)) ((hcond_1 t).mpr h1)], after_2]
      rw [outsAt_C V c t h0 h1]
      unfold out_C_2 sout_C; (try dsimp only)
      by_cases hz : t.val = 0
      · exfalso; omega
      · rw [PhiS_castSucc V c t, PhiS_pos V c _ _ hz]
        unfold restWith
        iintro ⟨⟨⟨R1, R2, R3, R4, R5, R6, R7, R8, R9, R10, R11, R12, R13, R14, HS0⟩, Hg⟩, Ho, ⟨%d0, H0⟩, ⟨%d1, H1⟩, ⟨%d2, H2⟩⟩
        iapply ((kernelRun_C c (grid1.coords t) _ _ _ _ _ _ _ _ (fun h => h0 ((hcond_0 t).mp h)) ((hcond_1 t).mpr h1) (iblk V c 0 t) (iblk V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [R1 R2 R3 R4 R5 R6 R7 R8 R9 R10 R11 R12 R13 R14 HS0 Hg]
        · isplitl [R1 R2 R3 R4 R5 R6 R7 R8 R9 R10 R11 R12 R13 R14 HS0]
          · isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [R11]; · iexact R11
            isplitl [R12]; · iexact R12
            isplitl [R13]; · iexact R13
            isplitl [R14]; · iexact R14
            unfold owns; iexists _; isplitr
            swap; · iexact HS0
            ipureintro; exact View.read_writes_of_cover _ _ _ _ _ (scover_C c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover_C_2 c _ _ _ _ _ _ _ _ _ _ _ _ _ _)
    ·
      rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [Dat.leavesExact_idle (dat V c) 2 t (idleAt_2_B t (fun h => h0 ((hcond_0 t).mp h)) (fun h => h1 ((hcond_1 t).mp h))) (noFlush_2_B t (fun h => h0 ((hcond_0 t).mp h)) (fun h => h1 ((hcond_1 t).mp h)))]
      rw [outsAt_B V c t h0 h1]
      unfold sout_B; (try dsimp only)
      by_cases hz : t.val = 0
      · exfalso; omega
      · rw [PhiS_castSucc V c t, PhiS_pos V c _ _ hz]
        unfold restWith
        iintro ⟨⟨⟨R1, R2, R3, R4, R5, R6, R7, R8, R9, R10, R11, R12, R13, R14, HS0⟩, Hg⟩, Ho, ⟨%d0, H0⟩, ⟨%d1, H1⟩, ⟨%d2, H2⟩⟩
        iapply ((kernelRun_B c (grid1.coords t) _ _ _ _ _ _ _ _ (fun h => h0 ((hcond_0 t).mp h)) (fun h => h1 ((hcond_1 t).mp h)) (iblk V c 0 t) (iblk V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [R1 R2 R3 R4 R5 R6 R7 R8 R9 R10 R11 R12 R13 R14 HS0 Hg]
        · isplitl [R1 R2 R3 R4 R5 R6 R7 R8 R9 R10 R11 R12 R13 R14 HS0]
          · isplitl [R1]; · iexact R1
            isplitl [R2]; · iexact R2
            isplitl [R3]; · iexact R3
            isplitl [R4]; · iexact R4
            isplitl [R5]; · iexact R5
            isplitl [R6]; · iexact R6
            isplitl [R7]; · iexact R7
            isplitl [R8]; · iexact R8
            isplitl [R9]; · iexact R9
            isplitl [R10]; · iexact R10
            isplitl [R11]; · iexact R11
            isplitl [R12]; · iexact R12
            isplitl [R13]; · iexact R13
            isplitl [R14]; · iexact R14
            unfold owns; iexists _; isplitr
            swap; · iexact HS0
            ipureintro; exact View.read_writes_of_cover _ _ _ _ _ (scover_B c _ _ _ _ _ _ _ _ _ _ _ _ _ _)
          iexact Hg
        isplitl [Ho]; · iexact Ho
        isplitl [H0]; · iexact H0
        isplitl [H1]; · iexact H1
        iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives back what the launch handed over: the accumulator's named
    contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  unfold restWith
  iintro ⟨⟨R1, R2, R3, R4, R5, R6, R7, R8, R9, R10, R11, R12, R13, R14, HS0⟩, Hg⟩
  isplitl [R1 R2 R3 R4 R5 R6 R7 R8 R9 R10 R11 R12 R13 R14 HS0]
  · isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexists _; iexact HS0
  iexact Hg

/-- The same after the last point. -/
theorem hout (c : Dev nD) : (dat V c).Φ (Fin.last cfg1.N) ⊢ Pipeline.ΦA spec1 c :=
  Phi_out V c _ (by rw [Fin.val_last]; have : cfg1.N = 50 := N_1; omega)

/-! ## The found pieces as values -/

/-- The offsets of every load and store of the body: the unit rectangle sits at the origin. -/
theorem unitOffs_zero : (![0, 0] : Fin 2 → Nat) = fun _ => 0 := funext fun a => by fin_cases a <;> rfl

/-- At the points 1..48 the accumulator is left at the update of what it held (`xs`) by the two blocks: its one
    covering store's payload, whose loads read the whole buffers. -/
theorem sout_B_eq (c : Dev nD) (i : grid1.Coords) (arg1 : Memref sig .tc .vmem S16000x64 .bf16) (harg1 : arg1.IsWhole) (arg2 : Memref sig .tc .vmem S16000x64 .bf16) (harg2 : arg2.IsWhole) (arg3 : Memref sig .tc .vmem S1x1 .f32) (harg3 : arg3.IsWhole) (arg4 : Memref sig .tc .vmem S1x1 .f32) (harg4 : arg4.IsWhole) (hc0 : ¬cond_0 i) (hc1 : ¬cond_1 i)
    (x0 : Vec F S16000x64 .bf16) (x1 : Vec F S16000x64 .bf16) (xs : Vec F S1x1 .f32) :
    sout_B c i arg1 harg1 arg2 harg2 arg3 harg3 arg4 harg4 hc0 hc1 x0 x1 xs = k1_pay2 x0 x1 xs := by
  unfold sout_B
  rw [View.read_writes_eq_canon _ _ _ (scover_B c i arg1 harg1 arg2 harg2 arg3 harg3 arg4 harg4 hc0 hc1 x0 x1 xs)]
  unfold kernelRun_B
  dsimp only
  rw [View.canon_unit_zero (S := S1x1) unitOffs_zero]
  simp only [View.readAt_eq_ld, harg1.read_unread, harg2.read_unread, harg4.read_unread, View.ld_unit_zero (S := S16000x64) unitOffs_zero, View.ld_unit_zero (S := S1x1) unitOffs_zero]

/-- At point 0 the accumulator is left at the update of the zero word by the two blocks: the reset is stored, read
    back whole, and the update stored over it. -/
theorem sout_A_eq (c : Dev nD) (i : grid1.Coords) (arg1 : Memref sig .tc .vmem S16000x64 .bf16) (harg1 : arg1.IsWhole) (arg2 : Memref sig .tc .vmem S16000x64 .bf16) (harg2 : arg2.IsWhole) (arg3 : Memref sig .tc .vmem S1x1 .f32) (harg3 : arg3.IsWhole) (arg4 : Memref sig .tc .vmem S1x1 .f32) (harg4 : arg4.IsWhole) (hc0 : cond_0 i) (hc1 : ¬cond_1 i)
    (x0 : Vec F S16000x64 .bf16) (x1 : Vec F S16000x64 .bf16) :
    sout_A c i arg1 harg1 arg2 harg2 arg3 harg3 arg4 harg4 hc0 hc1 x0 x1 = k1_pay2 x0 x1 (k1_pay1 (F := F)) := by
  unfold sout_A
  rw [View.read_writes_eq_canon _ _ _ (scover_A c i arg1 harg1 arg2 harg2 arg3 harg3 arg4 harg4 hc0 hc1 x0 x1)]
  unfold kernelRun_A
  dsimp only
  sl_unfold_words
  rw [View.canon_cons_unit_zero (S := S1x1) unitOffs_zero, View.readCov_unit_zero (S := S1x1) _ unitOffs_zero]
  simp only [View.readAt_eq_ld, harg1.read_unread, harg2.read_unread, View.ld_unit_zero (S := S16000x64) unitOffs_zero, View.ld_unit_zero (S := S1x1) unitOffs_zero]

/-- At point 49 the accumulator is left at the update of what it held, as at the points before. -/
theorem sout_C_eq (c : Dev nD) (i : grid1.Coords) (arg1 : Memref sig .tc .vmem S16000x64 .bf16) (harg1 : arg1.IsWhole) (arg2 : Memref sig .tc .vmem S16000x64 .bf16) (harg2 : arg2.IsWhole) (arg3 : Memref sig .tc .vmem S1x1 .f32) (harg3 : arg3.IsWhole) (arg4 : Memref sig .tc .vmem S1x1 .f32) (harg4 : arg4.IsWhole) (hc0 : ¬cond_0 i) (hc1 : cond_1 i)
    (x0 : Vec F S16000x64 .bf16) (x1 : Vec F S16000x64 .bf16) (xs : Vec F S1x1 .f32) :
    sout_C c i arg1 harg1 arg2 harg2 arg3 harg3 arg4 harg4 hc0 hc1 x0 x1 xs = k1_pay2 x0 x1 xs := by
  unfold sout_C
  rw [View.read_writes_eq_canon _ _ _ (scover_C c i arg1 harg1 arg2 harg2 arg3 harg3 arg4 harg4 hc0 hc1 x0 x1 xs)]
  unfold kernelRun_C
  dsimp only
  sl_unfold_words
  rw [View.canon_unit_zero (S := S1x1) unitOffs_zero]
  simp only [View.readAt_eq_ld, harg1.read_unread, harg2.read_unread, harg4.read_unread, View.ld_unit_zero (S := S16000x64) unitOffs_zero, View.ld_unit_zero (S := S1x1) unitOffs_zero]

/-- At point 49 the result window's buffer is left at the same word: the accumulator read back whole after its update. -/
theorem out_C_eq (c : Dev nD) (i : grid1.Coords) (arg1 : Memref sig .tc .vmem S16000x64 .bf16) (harg1 : arg1.IsWhole) (arg2 : Memref sig .tc .vmem S16000x64 .bf16) (harg2 : arg2.IsWhole) (arg3 : Memref sig .tc .vmem S1x1 .f32) (harg3 : arg3.IsWhole) (arg4 : Memref sig .tc .vmem S1x1 .f32) (harg4 : arg4.IsWhole) (hc0 : ¬cond_0 i) (hc1 : cond_1 i)
    (x0 : Vec F S16000x64 .bf16) (x1 : Vec F S16000x64 .bf16) (xs : Vec F S1x1 .f32) :
    out_C_2 c i arg1 harg1 arg2 harg2 arg3 harg3 arg4 harg4 hc0 hc1 x0 x1 xs = k1_pay2 x0 x1 xs := by
  unfold out_C_2
  rw [View.read_writes_eq_canon _ _ _ (cover_C_2 c i arg1 harg1 arg2 harg2 arg3 harg3 arg4 harg4 hc0 hc1 x0 x1 xs)]
  unfold kernelRun_C
  dsimp only
  sl_unfold_words
  rw [View.canon_unit_zero (S := S1x1) unitOffs_zero, View.readCov_unit_zero (S := S1x1) _ unitOffs_zero]
  simp only [View.readAt_eq_ld, harg1.read_unread, harg2.read_unread, harg4.read_unread, View.ld_unit_zero (S := S16000x64) unitOffs_zero, View.ld_unit_zero (S := S1x1) unitOffs_zero]

/-! ## The accumulator's recurrence, read off the found pieces -/

/-- After point 0 the accumulator holds the update of the zero word by the first blocks. -/
theorem acc_zero (c : Dev nD) (h : 0 < cfg1.N) : (outsAt V c 0 h).2 = k1_pay2 (iblk V c 0 ⟨0, h⟩) (iblk V c 1 ⟨0, h⟩) (k1_pay1 (F := F)) := by
  have h0 : (⟨0, h⟩ : Fin cfg1.N).val % 50 = 0 := rfl
  have h1 : ¬(⟨0, h⟩ : Fin cfg1.N).val % 50 = 49 := by dsimp only; omega
  rw [show outsAt V c 0 h = _ from outsAt_A V c ⟨0, h⟩ h0 h1]
  dsimp only
  exact sout_A_eq (F := F) c (grid1.coords ⟨0, h⟩) (ms_0 ⟨0, h⟩) (hs_0 ⟨0, h⟩) (ms_1 ⟨0, h⟩) (hs_1 ⟨0, h⟩) (ms_2 ⟨0, h⟩) (hs_2 ⟨0, h⟩) scM (Memref.isWhole_whole _) ((hcond_0 ⟨0, h⟩).mpr h0) (fun e => h1 ((hcond_1 ⟨0, h⟩).mp e)) (iblk V c 0 ⟨0, h⟩) (iblk V c 1 ⟨0, h⟩)

/-- After every later point it holds the update, by that point's blocks, of what the point before left. -/
theorem acc_succ (c : Dev nD) (n : ℕ) (h : n + 1 < cfg1.N) : (outsAt V c (n + 1) h).2 = k1_pay2 (iblk V c 0 ⟨n + 1, h⟩) (iblk V c 1 ⟨n + 1, h⟩) (outsAt V c n (Nat.lt_of_succ_lt h)).2 := by
  have hN : n + 1 < 50 := lt_of_lt_of_eq h (show cfg1.N = 50 from N_1)
  have h0 : ¬(⟨n + 1, h⟩ : Fin cfg1.N).val % 50 = 0 := by dsimp only; omega
  by_cases h1 : (⟨n + 1, h⟩ : Fin cfg1.N).val % 50 = 49
  · rw [show outsAt V c (n + 1) h = _ from outsAt_C V c ⟨n + 1, h⟩ h0 h1]
    dsimp only
    exact sout_C_eq (F := F) c (grid1.coords ⟨n + 1, h⟩) (ms_0 ⟨n + 1, h⟩) (hs_0 ⟨n + 1, h⟩) (ms_1 ⟨n + 1, h⟩) (hs_1 ⟨n + 1, h⟩) (ms_2 ⟨n + 1, h⟩) (hs_2 ⟨n + 1, h⟩) scM (Memref.isWhole_whole _) (fun e => h0 ((hcond_0 ⟨n + 1, h⟩).mp e)) ((hcond_1 ⟨n + 1, h⟩).mpr h1) (iblk V c 0 ⟨n + 1, h⟩) (iblk V c 1 ⟨n + 1, h⟩) (outsAt V c n (Nat.lt_of_succ_lt h)).2
  · rw [show outsAt V c (n + 1) h = _ from outsAt_B V c ⟨n + 1, h⟩ h0 h1]
    dsimp only
    exact sout_B_eq (F := F) c (grid1.coords ⟨n + 1, h⟩) (ms_0 ⟨n + 1, h⟩) (hs_0 ⟨n + 1, h⟩) (ms_1 ⟨n + 1, h⟩) (hs_1 ⟨n + 1, h⟩) (ms_2 ⟨n + 1, h⟩) (hs_2 ⟨n + 1, h⟩) scM (Memref.isWhole_whole _) (fun e => h0 ((hcond_0 ⟨n + 1, h⟩).mp e)) (fun e => h1 ((hcond_1 ⟨n + 1, h⟩).mp e)) (iblk V c 0 ⟨n + 1, h⟩) (iblk V c 1 ⟨n + 1, h⟩) (outsAt V c n (Nat.lt_of_succ_lt h)).2

/-- At the last point the result window's buffer is left holding the accumulator's final contents. -/
theorem out_last (c : Dev nD) (h : 49 < cfg1.N) : (dat V c).after 2 ⟨49, h⟩ = (outsAt V c 49 h).2 := by
  have h0 : ¬(⟨49, h⟩ : Fin cfg1.N).val % 50 = 0 := by dsimp only; omega
  have h1 : (⟨49, h⟩ : Fin cfg1.N).val % 50 = 49 := rfl
  rw [after_2]
  show (outsAt V c 49 h).1 = (outsAt V c 49 h).2
  rw [show outsAt V c 49 h = _ from outsAt_C V c ⟨49, h⟩ h0 h1]
  dsimp only
  exact (out_C_eq (F := F) c (grid1.coords ⟨49, h⟩) (ms_0 ⟨49, h⟩) (hs_0 ⟨49, h⟩) (ms_1 ⟨49, h⟩) (hs_1 ⟨49, h⟩) (ms_2 ⟨49, h⟩) (hs_2 ⟨49, h⟩) scM (Memref.isWhole_whole _) (fun e => h0 ((hcond_0 ⟨49, h⟩).mp e)) ((hcond_1 ⟨49, h⟩).mpr h1) (iblk V c 0 ⟨49, h⟩) (iblk V c 1 ⟨49, h⟩) _).trans
    (sout_C_eq (F := F) c (grid1.coords ⟨49, h⟩) (ms_0 ⟨49, h⟩) (hs_0 ⟨49, h⟩) (ms_1 ⟨49, h⟩) (hs_1 ⟨49, h⟩) (ms_2 ⟨49, h⟩) (hs_2 ⟨49, h⟩) scM (Memref.isWhole_whole _) (fun e => h0 ((hcond_0 ⟨49, h⟩).mp e)) ((hcond_1 ⟨49, h⟩).mpr h1) (iblk V c 0 ⟨49, h⟩) (iblk V c 1 ⟨49, h⟩) _).symm

end Cert.KernelIdeal.Edge

end
-- ==== Proof.KI.Boundaries.lean ====
import proofs.«137296_j64604898066506_1_alg».proof.Proof.Gen.KernelIdeal.Launch
import proofs.«137296_j64604898066506_1_alg».proof.Proof.Gen.KernelIdeal.Skeleton
import proofs.«137296_j64604898066506_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«137296_j64604898066506_1_alg».proof.Proof.KI.NodeData
import proofs.«137296_j64604898066506_1_alg».proof.Proof.KI.EdgeData
set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! # The buffers' contents at each boundary of the program

The program is: one reshape on the host; the node pass (25 grid points); 29 host operations (the trace term of the
Gram matrix, the feature loss scaled, the two row gathers); the edge pass (50 grid points); 11 host operations (the
loss assembled). The contents of every unscoped buffer at each boundary are a fold from the launch memory: a host
stretch applies its operations, a kernel region replaces its windows' arrays by what its write-backs leave and keeps
every other buffer. -/

/-- Core `c`'s buffers at launch. -/
abbrev W0 : Dev nD → Valuation τ sig (Elt F) := fun c b => m (c, b)
/-- After the reshape of the community scalars (the node pass's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At the node pass's exit: its eight arrays at what the pipeline leaves, every other buffer as entered. -/
def W2 (c : Dev nD) : Valuation τ sig (Elt F) :=
  Pipeline.withArrays spec0 c (W1 m c) fun w => (Node.dat (V1 m) c).arrAt w cfg0.N
theorem W2_arr (c : Dev nD) (w : Fin cfg0.W) :
    W2 m c (Proc.devRef .tc (Pipeline.arrRef spec0 w)) = (Node.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Node.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host operations between the two passes (the edge pass's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the edge pass's exit: its three arrays at what the pipeline leaves, every other buffer as entered. -/
def W4 (c : Dev nD) : Valuation τ sig (Elt F) :=
  Pipeline.withArrays spec1 c (W3 m c) fun w => (Edge.dat (V3 m) c).arrAt w cfg1.N
theorem W4_arr (c : Dev nD) (w : Fin cfg1.W) :
    W4 m c (Proc.devRef .tc (Pipeline.arrRef spec1 w)) = (Edge.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (Edge.dat (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the last host operations: the program's end. -/
abbrev W5 : Dev nD → Valuation τ sig (Elt F) := fun c => StableHlo.after hostOps2 (W4 m c)

end Cert.KernelIdeal.Whole

end
-- ==== Proof.KI.WholeRun.lean ====
import proofs.«137296_j64604898066506_1_alg».proof.Proof.KI.Boundaries
import proofs.«137296_j64604898066506_1_alg».proof.Proof.Gen.KernelIdeal.Regions
set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the whole program

The program is five stretches in order — the reshape on the host, the node pass, the host operations between the
passes, the edge pass, the host operations that assemble the loss — and every core runs them one after another. Between
two stretches a core holds every unscoped buffer whole, at the contents `W0` … `W5` of that boundary, beside its
generator register (at some state) and the record that it owes no other core anything. A host stretch takes the
buffers from one boundary's contents to the next by applying its operations; a pass takes its windows' arrays out of
the buffers, runs its grid points over them, and puts them back at what the write-backs leave. -/

/-- Neither pass has a prefetched table, so there is nothing to admit. -/
abbrev noTables : (p : Fin 2) → (pcfgs (F := F) p).Adm := fun p => (cfgs p).toPCfg_adm

/-- The two passes' proof data, each taken at the contents its pass is entered from: the node pass at the contents
    after the reshape (`V1`), the edge pass at the contents after the host operations between the passes (`V3`). -/
def passData : (p : Fin 2) → (c : Dev nD) → Dat τ (Elt F) Unit ℕ (UR sig nD τ) ℕ (Pipeline.pin (pcfgs (F := F)) noTables p) c
  | ⟨0, _⟩ => fun c => Node.dat (V1 m) c
  | ⟨1, _⟩ => fun c => Edge.dat (V3 m) c

/-- No pair of cores is assigned a level: no core ever owes another. -/
abbrev noPairs : GSem nD τ sig → Finset Unit := fun _ => ∅
abbrev noLevel : GSem nD τ sig → Unit → ℕ := fun _ _ => 0

/-- What a core holds beside its buffers at every boundary: its generator register at some state, and its debts,
    which are none. -/
abbrev beside (c : Dev nD) : sProp 𝕄 :=
  iprop((∃ r, prngReg c r) ∗ ∃ W, owes (c : Thread nD τ) (0 : CellTallies nD τ sig Unit) W)

/-- A line of host operations as a stretch of the run: from every unscoped buffer at `W c` to every unscoped buffer
    at `StableHlo.after ops (W c)`, the register and the debts untouched. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

/-- An unscoped reference of the TensorCore is one of the buffers a core holds at a boundary. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- What a core holds at the program's end, its debts apart: every unscoped buffer at the last contents `W5`, the
    generator register at some state. -/
abbrev atEnd (c : Dev nD) : sProp 𝕄 :=
  iprop(StableHlo.held (c : Thread nD τ) (Pipeline.ucRefs τ sig) (W5 m c) ∗ ∃ r, prngReg c r)

/-! ## The two passes -/

set_option backward.isDefEq.respectTransparency.types false in
/-- THE NODE PASS, entered from the buffers at `W1` and left at `W2`. At entry its eight arrays are taken out of the
    unscoped buffers (they are read off `V1`, which is what the pass's proof data start from) and the other buffers
    go round the pass; the generator register goes into the pass's invariant — through the class invariant `ΦA`,
    which the pass's own first invariant follows from — and comes back out of its last one the same way. At exit the
    arrays, now at what the write-backs leave, rejoin the other buffers: that is `W2` by its definition. The pass owes
    nothing at any point and has no semaphore of its own. -/
def nodePass : Pipeline.RegionSeg (pcfgs (F := F)) noTables (passData m) () defs₀ Variants.none noPairs noLevel 0 where
  win := launch0.win.to₀
  block_pos := launch0.block_pos
  stage_whole := launch0.stage_whole
  K := PEmpty
  osem k := k.elim
  ho := Pipeline.OwnSemFacts.none _
  hbody c := (Node.body_obligation (V1 m) c).loose
  hwaits := Pipeline.hwaits_of_owed_zero _ _ _ _ noPairs noLevel 0 fun _ _ => rfl
  pre c := iprop(StableHlo.held (c : Thread nD τ) (Pipeline.ucRefs τ sig) (W1 m c) ∗ beside c)
  post c := iprop(StableHlo.held (c : Thread nD τ) (Pipeline.ucRefs τ sig) (W2 m c) ∗ beside c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) noTables (passData m) launch0.win launch0.arr_whole c
      ((passData m 0 c).share_full fun _ => rfl) (V1 m c) fun w => Node.A_eq (V1 m) c w
    rw [Pipeline.unscopedBufs_held] at hsplit
    iintro ⟨⟨Hbufs, Hreg, Hdebt⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Hdebt]
    · unfold Pipeline.Dat.owesAt Pipeline.owesWithin
      icases Hdebt with ⟨%W, Hdebt⟩; iexists W; isplitr; · ipureintro; exact fun _ _ => Or.inl trivial
      iexact Hdebt
    isplitl [Hreg]; · iexact Hreg
    iexact Hrest
  hin c := by
    refine BIBase.Entails.trans (Q := Pipeline.ΦA spec0 c) ?_ (Node.hin (V1 m) c)
    unfold Pipeline.ΦA
    iintro ⟨Hreg, -, Hscoped⟩
    isplitl [Hscoped]; · iexact Hscoped
    iexact Hreg
  hout c := by
    refine (Node.hout (V1 m) c).trans ?_
    rw [Pipeline.ownSems0_none]; unfold Pipeline.ΦA
    iintro ⟨Hscoped, Hreg⟩
    isplitl [Hreg]; · iexact Hreg
    isplitr; · iempintro
    iexact Hscoped
  hexit c := by
    have hjoin := Pipeline.unscopedBufs_of_arrays (p := 0) (pcfgs (F := F)) noTables (Ix := Unit) (Name := ℕ) (U := UR sig nD τ) (Lvl := ℕ)
      launch0.win launch0.arr_whole c (passData m) ((passData m 0 c).share_full fun _ => rfl)
      (V1 m c) (V2 m c) ((passData m 0 c).arrAt · cfg0.N) (hF0 m c) (hrest0 m c)
    rw [Pipeline.unscopedBufs_held] at hjoin
    iintro ⟨Harr, Hdebt, Hreg, Hrest⟩
    imodintro
    isplitl [Harr Hrest]
    · iapply hjoin; isplitl [Harr] <;> iassumption
    isplitl [Hreg]; · iexact Hreg
    unfold Pipeline.Dat.owesAt Pipeline.owesWithin
    icases Hdebt with ⟨%W, -, Hdebt⟩; iexists W; iexact Hdebt

set_option backward.isDefEq.respectTransparency.types false in
/-- THE EDGE PASS, entered from the buffers at `W3` and left at `W4`: the same account as the node pass's, for its
    three arrays (the two gathered row tables it reads, the one-element array it writes), read off `V3` at entry and rejoining
    the other buffers at `W4` at exit. -/
def edgePass : Pipeline.RegionSeg (pcfgs (F := F)) noTables (passData m) () defs₀ Variants.none noPairs noLevel 1 where
  win := launch1.win.to₀
  block_pos := launch1.block_pos
  stage_whole := launch1.stage_whole
  K := PEmpty
  osem k := k.elim
  ho := Pipeline.OwnSemFacts.none _
  hbody c := (Edge.body_obligation (V3 m) c).loose
  hwaits := Pipeline.hwaits_of_owed_zero _ _ _ _ noPairs noLevel 1 fun _ _ => rfl
  pre c := iprop(StableHlo.held (c : Thread nD τ) (Pipeline.ucRefs τ sig) (W3 m c) ∗ beside c)
  post c := iprop(StableHlo.held (c : Thread nD τ) (Pipeline.ucRefs τ sig) (W4 m c) ∗ beside c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) noTables (passData m) launch1.win launch1.arr_whole c
      ((passData m 1 c).share_full fun _ => rfl) (V3 m c) fun w => Edge.A_eq (V3 m) c w
    rw [Pipeline.unscopedBufs_held] at hsplit
    iintro ⟨⟨Hbufs, Hreg, Hdebt⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Hdebt]
    · unfold Pipeline.Dat.owesAt Pipeline.owesWithin
      icases Hdebt with ⟨%W, Hdebt⟩; iexists W; isplitr; · ipureintro; exact fun _ _ => Or.inl trivial
      iexact Hdebt
    isplitl [Hreg]; · iexact Hreg
    iexact Hrest
  hin c := by
    refine BIBase.Entails.trans (Q := Pipeline.ΦA spec1 c) ?_ (Edge.hin (V3 m) c)
    unfold Pipeline.ΦA
    iintro ⟨Hreg, -, Hscoped⟩
    isplitl [Hscoped]; · iexact Hscoped
    iexact Hreg
  hout c := by
    refine (Edge.hout (V3 m) c).trans ?_
    rw [Pipeline.ownSems0_none]; unfold Pipeline.ΦA
    iintro ⟨Hscoped, Hreg⟩
    isplitl [Hreg]; · iexact Hreg
    isplitr; · iempintro
    iexact Hscoped
  hexit c := by
    have hjoin := Pipeline.unscopedBufs_of_arrays (p := 1) (pcfgs (F := F)) noTables (Ix := Unit) (Name := ℕ) (U := UR sig nD τ) (Lvl := ℕ)
      launch1.win launch1.arr_whole c (passData m) ((passData m 1 c).share_full fun _ => rfl)
      (V3 m c) (V4 m c) ((passData m 1 c).arrAt · cfg1.N) (hF1 m c) (hrest1 m c)
    rw [Pipeline.unscopedBufs_held] at hjoin
    iintro ⟨Harr, Hdebt, Hreg, Hrest⟩
    imodintro
    isplitl [Harr Hrest]
    · iapply hjoin; isplitl [Harr] <;> iassumption
    isplitl [Hreg]; · iexact Hreg
    unfold Pipeline.Dat.owesAt Pipeline.owesWithin
    icases Hdebt with ⟨%W, -, Hdebt⟩; iexists W; iexact Hdebt

/-! ## The program as its five stretches, and the launch -/

/-- The five stretches in the program's order, each host stretch starting from its boundary's contents. -/
abbrev parts : List (Pipeline.Seg (pcfgs (F := F)) noTables (passData m) () defs₀ Variants.none noPairs noLevel) :=
  [ .host (stretch hostOps0 hostOps0_sub hostOps0_fresh (W0 m)),
    .region (nodePass m),
    .host (stretch hostOps1 hostOps1_sub hostOps1_fresh (W2 m)),
    .region (edgePass m),
    .host (stretch hostOps2 hostOps2_sub hostOps2_fresh (W4 m)) ]

/-- What the last host stretch leaves — the buffers beside (the register beside the debts) — regrouped as (the
    buffers beside the register) beside the debts: separating conjunction is associative. -/
theorem end_regroup (c : Dev nD) :
    iprop(StableHlo.held (c : Thread nD τ) (Pipeline.ucRefs τ sig) (W5 m c) ∗ beside (F := F) c)
      ⊢ iprop(atEnd m c ∗ ∃ W, owes (c : Thread nD τ) (0 : CellTallies nD τ sig Unit) W) := by
  iintro ⟨Hbufs, Hreg, Hdebt⟩
  isplitr [Hdebt]
  · isplitl [Hbufs]; · iexact Hbufs
    iexact Hreg
  iexact Hdebt

/-- The program's text is the five stretches run one after another. -/
theorem main_parts (c : Dev nD) : main (F := F) c = Pipeline.Seg.run (parts m) := (main_chain c).trans (by chain_rfl)

set_option backward.isDefEq.respectTransparency.types false in
/-- THE RUN. From any launch memory `m` with every counter at zero, every weakly fair execution of the program on
    the TensorCores terminates without fault, and in every final state each core's unscoped buffers hold the last
    boundary's contents `W5`. The launch deals each core its unscoped buffers at the launch contents (`W0`), its
    generator register and empty debts; the five stretches chain, each entered from what the one before left; what
    the last host stretch leaves is the buffers at `W5` beside the register and the empty debts, which is read
    against the final memory buffer by buffer. -/
theorem run_all : θ_run defs (onTc (τ := τ) (main (F := F))) ⟨m, fun _ => 0, ρ⟩ (fun r => ∀ c : Dev nD, ∀ b ∈ Pipeline.ucRefs τ sig, r.2.mem ((c : Thread nD τ).1, b) = W5 m c b) :=
  Pipeline.θ_run_regions_kit (pcfgs (F := F)) noTables (passData m) () cellOf_inj emb₁ defs₀ Variants.none noPairs noLevel m ρ main (parts m)
    (fun c Q => by rw [main_parts m c])
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ beside c)) (Tₙ := atEnd m)
    (hch := ⟨fun _ => .rfl, fun _ => .rfl, fun _ => .rfl, fun _ => .rfl, fun _ => .rfl, fun c => end_regroup m c⟩)
    (hinit := by
      refine Pipeline.initEach noPairs noLevel fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Hdebt, -, Hreg, -⟩, -⟩
      imodintro
      isplitl [Hbufs]; · iexact Hbufs
      isplitl [Hreg]; · iexists _; iexact Hreg
      iexists ∅; iexact Hdebt)
    (QY := fun c s => ∀ b ∈ Pipeline.ucRefs τ sig, s.mem (((c : Thread nD τ)).1, b) = W5 m c b)
    (hfin := fun c s' => by
      iintro ⟨⟨Hbufs, -⟩, HSI⟩
      unfold StableHlo.held
      imodintro
      iapply (pointsTo_read_all (Pipeline.ucRefs τ sig) (fun b => (((c : Thread nD τ)).1, b)) (W5 m c) s')
      isplitl [Hbufs] <;> iassumption)
    (hQ := fun s h => h)

/-! ## The arguments end as launched

No host operation writes an argument, and no pass does: the node pass reads the node features (`main_arg0`), the
affiliation logits (`main_arg2`) and the feature matrix (`main_arg4`) through input windows, whose arrays are never written back,
and neither pass has a window on the edge list (`main_arg1`) or the community scalars (`main_arg3`). So the last
contents at an argument's buffer walk back, boundary by boundary, to the launch memory. -/

/-- The node features: the node pass's window 2, an input. -/
theorem W5_main_arg0 (c : Dev nD) : W5 m c (Proc.devRef .tc main_arg0) = m ((c : Thread nD τ).loc main_arg0) :=
  calc W5 m c (Proc.devRef .tc main_arg0)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 2).trans (((Node.dat (V1 m) c).arrAt_in 2 rfl _).trans (Node.A_eq (V1 m) c 2))
    _ = W0 m c (Proc.devRef .tc main_arg0) := StableHlo.after_of_writes_sub hostOps0 _ hostOps0_writes (by decide)
    _ = m ((c : Thread nD τ).loc main_arg0) := rfl

/-- The edge list: no pass has a window on it (the host slices it into its two rows). -/
theorem W5_main_arg1 (c : Dev nD) : W5 m c (Proc.devRef .tc main_arg1) = m ((c : Thread nD τ).loc main_arg1) :=
  calc W5 m c (Proc.devRef .tc main_arg1)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-- The affiliation logits: the node pass's window 0, an input. -/
theorem W5_main_arg2 (c : Dev nD) : W5 m c (Proc.devRef .tc main_arg2) = m ((c : Thread nD τ).loc main_arg2) :=
  calc W5 m c (Proc.devRef .tc main_arg2)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := (W2_arr m c 0).trans (((Node.dat (V1 m) c).arrAt_in 0 rfl _).trans (Node.A_eq (V1 m) c 0))
    _ = W0 m c (Proc.devRef .tc main_arg2) := StableHlo.after_of_writes_sub hostOps0 _ hostOps0_writes (by decide)
    _ = m ((c : Thread nD τ).loc main_arg2) := rfl

/-- The community scalars: the node pass reads their reshaped copy, not this buffer. -/
theorem W5_main_arg3 (c : Dev nD) : W5 m c (Proc.devRef .tc main_arg3) = m ((c : Thread nD τ).loc main_arg3) :=
  calc W5 m c (Proc.devRef .tc main_arg3)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

/-- The feature matrix: the node pass's window 3, an input. -/
theorem W5_main_arg4 (c : Dev nD) : W5 m c (Proc.devRef .tc main_arg4) = m ((c : Thread nD τ).loc main_arg4) :=
  calc W5 m c (Proc.devRef .tc main_arg4)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := (W2_arr m c 3).trans (((Node.dat (V1 m) c).arrAt_in 3 rfl _).trans (Node.A_eq (V1 m) c 3))
    _ = W0 m c (Proc.devRef .tc main_arg4) := StableHlo.after_of_writes_sub hostOps0 _ hostOps0_writes (by decide)
    _ = m ((c : Thread nD τ).loc main_arg4) := rfl

/-! ## The frame claim and the result -/

/-- THE FRAME: every weakly fair execution terminates without fault and every final memory holds the five argument
    arrays as launched — each argument's buffer is unscoped, so the run reads it at `W5`, which is the launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

/-- THE RESULT: besides the arguments as launched, every final memory holds at the loss's buffer (`main_v32`) the
    last boundary's contents there. -/
theorem run_result : θ_run defs (onTc (τ := τ) (main (F := F))) ⟨m, fun _ => 0, ρ⟩ (fun r => ∀ c : Dev nD,
      r.2.mem ((c.tc : Thread nD τ).loc main_v32) = W5 m c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v32 (by decide)),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c)⟩) (run_all m ρ)

end Cert.KernelIdeal.Whole

end
-- ==== Proof.LossTail.lean ====
/-
  The scalar arithmetic both programs apply to the three sums, as ONE function: from the trace term g, the feature
  error f and the edge term l (each a rank-0 array),

      ( g − 2 · l + 800000 ) / 50000  +  0.1 · ( f / 128 ).

  Both printed programs spell exactly these operations with exactly these literal words, so neither proof opens
  them.  The trace term of a 64 × 64 matrix M, Σ_{k,l} M(k,l) · M(l,k), is likewise the same text in both.
-/
import Idealize.ShloMosaic.PureOps
import Idealize.ShloMosaic.PureOps.Ideal

noncomputable section

namespace Cert.LossTail

open Idealize.ShloMosaic

/-- ( g − 2·l + 800000 ) / 50000 + 0.1 · ( f / 128 ), in the programs' own operations and literals. -/
def lossTail (g f l : FVec Ideal ⟨0, ![]⟩ .f32) : FVec Ideal ⟨0, ![]⟩ .f32 :=
  addf
    (Host.divf
      (addf (subf g (mulf (constant (F := Ideal) ⟨0, ![]⟩ .f32 0x40000000#32) l))
        (constant (F := Ideal) ⟨0, ![]⟩ .f32 0x49435000#32))
      (constant (F := Ideal) ⟨0, ![]⟩ .f32 0x47435000#32))
    (mulf (constant (F := Ideal) ⟨0, ![]⟩ .f32 0x3DCCCCCD#32)
      (Host.divf f (constant (F := Ideal) ⟨0, ![]⟩ .f32 0x43000000#32)))

/-- Σ_{k,l} M(k,l) · M(l,k): the product of M with its transpose, entry by entry, summed over both axes from zero. -/
def traceTerm (M : FVec Ideal ⟨2, ![64, 64]⟩ .f32)
    (ht : (⟨2, ![64, 64]⟩ : Shape).Transposes [1, 0] ⟨2, ![64, 64]⟩)
    (hr : (⟨2, ![64, 64]⟩ : Shape).ReducesTo [0, 1] ⟨0, ![]⟩) (h0 : 0 < (⟨0, ![]⟩ : Shape).numel) :
    FVec Ideal ⟨0, ![]⟩ .f32 :=
  Host.reduceAdd (mulf M (transpose ⟨2, ![64, 64]⟩ [1, 0] M ht)) (constant (F := Ideal) ⟨0, ![]⟩ .f32 0x00000000#32) hr h0

end Cert.LossTail

end
-- ==== Proof.KI.HostReads.lean ====
import proofs.«137296_j64604898066506_1_alg».proof.Proof.KI.Boundaries
import proofs.«137296_j64604898066506_1_alg».proof.Proof.LossTail
import proofs.«137296_j64604898066506_1_alg».proof.Proof.Gen.KernelIdeal.Regions
import Idealize.ShloMosaic.Lib.StableHlo.Run
import Idealize.ShloMosaic.Lib.ValueLayout
set_option maxRecDepth 16384

noncomputable section

namespace Cert.KernelIdeal.HostReads

open Idealize.ShloMosaic Idealize.ShloMosaic.TcCoe Idealize.ShloMosaic.Tactic
open Idealize.ShloMosaic.ValueIdx
open Cert.KernelIdeal Cert.KernelIdeal.Whole
open Cert.KernelIdeal.Gen hiding V0 V1 V2 V3 V4 V5

variable (m : (ℓ : Loc nD τ sig) → Buf (Elt Ideal) ℓ)

/-! # What the host operations compute around the two passes

Three stretches of host operations surround the node pass and the edge pass. Before the node pass: the community
scalars reshaped [64] → [1, 64]. Between the passes: the trace term of the Gram matrix, the feature error divided by
128, and, for each of the two rows of the edge list, the row with negative entries wrapped by 50000, as a column, and
the gather of the embedding rows at it. After the edge pass: the scalar arithmetic of the loss. -/

/-- An index vector with its negative entries wrapped around an axis of extent 50000 (x < 0 ↦ x + 50000), then made a
    column [800000] → [800000, 1]. -/
def wrapIdx (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The source endpoints: row 0 of the edge list, wrapped, as a column. -/
def srcIdx (ei : IVec S2x800000 32) : IVec S800000x1 32 :=
  wrapIdx (shapeCast S800000 (extractStridedSlice S1x800000 ![0, 0] ei slices_S2x800000_S1x800000_0_0) shapeCasts_S1x800000_S800000)

/-- The destination endpoints: row 1 of the edge list, wrapped, as a column. -/
def dstIdx (ei : IVec S2x800000 32) : IVec S800000x1 32 :=
  wrapIdx (shapeCast S800000 (extractStridedSlice S1x800000 ![1, 0] ei slices_S2x800000_S1x800000_1_0) shapeCasts_S1x800000_S800000)

/-- The edge list is an argument: neither the first reshape nor the node pass writes it. -/
theorem edges_kept (c : Dev nD) : W2 m c (Proc.devRef .tc main_arg1) = m ((c : Thread nD τ).loc main_arg1) := by
  rw [W2_of_ne m c main_arg1 (by decide)]
  exact (StableHlo.after_of_writes_sub hostOps0 _ hostOps0_writes (by decide)).trans rfl

/-- The program's result: the loss arithmetic applied to the trace term of the node pass's Gram matrix, its feature error
    as a scalar, and the edge pass's sum as a scalar. -/
theorem result (c : Dev nD) : W5 m c (Proc.devRef .tc main_v32) = Cert.LossTail.lossTail (Cert.LossTail.traceTerm (V2 m c main_v1_2) transposes_S64x64_S64x64_1_0 reducesTo_S64x64_S_d0_1 h_S_) (shapeCast S_ (V2 m c main_v1_3) shapeCasts_S1x1_S_) (shapeCast S_ (V4 m c main_v25) shapeCasts_S1x1_S_) := by
  -- the buffers the last stretch reads that the edge pass does not own are as the middle stretch left them
  have h4 : W4 m c (Proc.devRef .tc main_v4)
      = Cert.LossTail.traceTerm (V2 m c main_v1_2) transposes_S64x64_S64x64_1_0 reducesTo_S64x64_S_d0_1 h_S_ := by
    rw [W4_of_ne m c main_v4 (by decide)]
    show StableHlo.after hostOps1 (W2 m c) (Proc.devRef .tc main_v4) = _
    after_results
    rfl
  have h6 : W4 m c (Proc.devRef .tc main_v6)
      = Host.divf (shapeCast S_ (V2 m c main_v1_3) shapeCasts_S1x1_S_) (constant (F := Ideal) S_ .f32 0x43000000#32) := by
    rw [W4_of_ne m c main_v6 (by decide)]
    show StableHlo.after hostOps1 (W2 m c) (Proc.devRef .tc main_v6) = _
    after_results
    rfl
  show StableHlo.after hostOps2 (W4 m c) (Proc.devRef .tc main_v32) = _
  after_results
  rw [h4, h6]
  rfl

/-- At the edge pass's entry the source column is the wrapped row 0 of the launched edge list. -/
theorem idx_src (c : Dev nD) : V3 m c main_v16 = srcIdx (m ((c : Thread nD τ).loc main_arg1)) := by
  show StableHlo.after hostOps1 (W2 m c) (Proc.devRef .tc main_v16) = _
  after_results_simp
  rw [edges_kept m c]
  rfl

/-- At the edge pass's entry the destination column is the wrapped row 1 of the launched edge list. -/
theorem idx_dst (c : Dev nD) : V3 m c main_v23 = dstIdx (m ((c : Thread nD τ).loc main_arg1)) := by
  show StableHlo.after hostOps1 (W2 m c) (Proc.devRef .tc main_v23) = _
  after_results_simp
  rw [edges_kept m c]
  rfl

/-- The edge pass's first input: the node pass's first embedding array gathered, row by row, at the source column. -/
theorem edge_in0 (c : Dev nD) : V3 m c main_v17 = Host.gather gather_S50000x64_S800000x1_S800000x64_1_0_n_n_0_1_164 (V2 m c main_v1_0) (V3 m c main_v16) := by
  rw [idx_src m c]
  show StableHlo.after hostOps1 (W2 m c) (Proc.devRef .tc main_v17) = _
  after_results_simp
  rw [edges_kept m c]
  rfl

/-- The edge pass's second input: the node pass's second embedding array gathered at the destination column. -/
theorem edge_in1 (c : Dev nD) : V3 m c main_v24 = Host.gather gather_S50000x64_S800000x1_S800000x64_1_0_n_n_0_1_164 (V2 m c main_v1_1) (V3 m c main_v23) := by
  rw [idx_dst m c]
  show StableHlo.after hostOps1 (W2 m c) (Proc.devRef .tc main_v24) = _
  after_results_simp
  rw [edges_kept m c]
  rfl

/-- At the node pass's entry the [1, 64] row of community scalars reads the launched [64] vector entry by entry. -/
theorem entry_cs (c : Dev nD) (k : Fin 64) : V1 m c main_v0 (ValueIdx.ix2 0 k) = m ((c : Thread nD τ).loc main_arg3) (ValueIdx.ix1 k) := by
  have e : V1 m c main_v0 = shapeCast S1x64 (m ((c : Thread nD τ).loc main_arg3)) shapeCasts_S64_S1x64 := by
    show StableHlo.after hostOps0 (W0 m c) (Proc.devRef .tc main_v0) = _
    after_results
    rfl
  rw [e]
  exact shapeCast_a_1a_apply _ _ 0 k

/-- The first reshape writes no argument: each argument array enters the node pass as launched. -/
theorem entry_arg0 (c : Dev nD) : V1 m c main_arg0 = m ((c : Thread nD τ).loc main_arg0) :=
  (StableHlo.after_of_writes_sub hostOps0 _ hostOps0_writes (by decide)).trans rfl

theorem entry_arg2 (c : Dev nD) : V1 m c main_arg2 = m ((c : Thread nD τ).loc main_arg2) :=
  (StableHlo.after_of_writes_sub hostOps0 _ hostOps0_writes (by decide)).trans rfl

theorem entry_arg4 (c : Dev nD) : V1 m c main_arg4 = m ((c : Thread nD τ).loc main_arg4) :=
  (StableHlo.after_of_writes_sub hostOps0 _ hostOps0_writes (by decide)).trans rfl

end Cert.KernelIdeal.HostReads

end
-- ==== Proof.LossSpec.lean ====
/-
  The loss both programs compute, as plain sums over the extended reals.

  With a = logistic(affiliate_logits) (an N × K array, N = 50000 nodes, K = 64 communities) and s the community
  scalars, the loss is

      ( Σ_{k,l} M(k,l) · M(l,k)  −  2 · Σ_{e,k} a(src e, k) · (a(dst e, k) · s(k))  +  E ) / N
        +  0.1 · ( Σ_{n,f} (x(n,f) − Σ_j (a(n,j) · s(j)) · W(j,f))² ) / F

  where M(k,l) = Σ_n a(n,k) · (a(n,l) · s(l)) is the K × K Gram matrix of a against a·s, E = 800000 edges, F = 128
  features, W the K × F feature matrix.  This file names the three sums that the two programs reach by different
  groupings (a tile at a time against all at once); the scalar arithmetic around them is the same text in both
  programs and is never opened.  Sums in the extended reals are sums in a commutative monoid, so regrouping them
  needs no finiteness.
-/
import Idealize.ShloMosaic.PureOps.Ideal
import Idealize.ShloMosaic.Lib.ValueIdx

noncomputable section

namespace Cert.LossSpec

open Idealize.ShloMosaic Idealize.ShloMosaic.ValueIdx
open scoped BigOperators

/-- The node activations: the logistic function of the affiliation logits, entry by entry. -/
def act (aff : (⟨2, ![50000, 64]⟩ : Shape).Idx → EReal) (n : Fin 50000) (k : Fin 64) : EReal :=
  Ideal.logistic (aff (ix2 n k))

/-- The activations scaled by the community scalars. -/
def actScaled (aff : (⟨2, ![50000, 64]⟩ : Shape).Idx → EReal) (cs : (⟨1, ![64]⟩ : Shape).Idx → EReal)
    (n : Fin 50000) (k : Fin 64) : EReal :=
  act aff n k * cs (ix1 k)

/-- The Gram matrix of the activations against the scaled activations: M(k,l) = Σ_n a(n,k) · (a(n,l) · s(l)). -/
def gram (aff : (⟨2, ![50000, 64]⟩ : Shape).Idx → EReal) (cs : (⟨1, ![64]⟩ : Shape).Idx → EReal)
    (k l : Fin 64) : EReal :=
  ∑ n : Fin 50000, act aff n k * actScaled aff cs n l

/-- The reconstruction of feature f of node n: Σ_j (a(n,j) · s(j)) · W(j,f). -/
def recon (aff : (⟨2, ![50000, 64]⟩ : Shape).Idx → EReal) (cs : (⟨1, ![64]⟩ : Shape).Idx → EReal)
    (feat : (⟨2, ![64, 128]⟩ : Shape).Idx → EReal) (n : Fin 50000) (f : Fin 128) : EReal :=
  ∑ j : Fin 64, actScaled aff cs n j * feat (ix2 j f)

/-- The squared reconstruction error summed over all nodes and features. -/
def featErr (x : (⟨2, ![50000, 128]⟩ : Shape).Idx → EReal) (aff : (⟨2, ![50000, 64]⟩ : Shape).Idx → EReal)
    (cs : (⟨1, ![64]⟩ : Shape).Idx → EReal) (feat : (⟨2, ![64, 128]⟩ : Shape).Idx → EReal) : EReal :=
  ∑ n : Fin 50000, ∑ f : Fin 128,
    (x (ix2 n f) - recon aff cs feat n f) * (x (ix2 n f) - recon aff cs feat n f)

/-- The edge term: over all edges e and communities k, the source row's activation times the target row's scaled
    activation.  `src e`, `dst e` are the rows the two gathers read for edge e. -/
def edgeSum (aff : (⟨2, ![50000, 64]⟩ : Shape).Idx → EReal) (cs : (⟨1, ![64]⟩ : Shape).Idx → EReal)
    (src dst : Fin 800000 → Fin 64 → Fin 50000) : EReal :=
  ∑ e : Fin 800000, ∑ k : Fin 64, act aff (src e k) k * actScaled aff cs (dst e k) k

end Cert.LossSpec

end
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.KI.NodeSums.lean ====
/-
  The node pass's arithmetic at the ideal values, in two layers.

  Layer 1 reads each pure value the node body computes at one index: the activation tile is the logistic function
  of the logits entry by entry; the scaled tile multiplies column q by the community scalar s(q); the Gram update at
  (k, l) adds, to the running value, the sum over the tile's 2000 rows r of a(r,k) * (a(r,l) * s(l)); the feature
  error of a tile is the sum over its rows r and the 128 features f of the square of x(r,f) minus the reconstruction
  sum over the 64 communities j of (a(r,j) * s(j)) * W(j,f); the running scalar adds the tile's error.

  Layer 2 adds the 25 tiles up.  With tile t holding rows 2000 * t + r of the arrays, a running value that starts at
  zero and takes one tile's sum per step is, after the last step, the sum over all 50000 rows: sums in the extended
  reals are sums in a commutative monoid, so only the regrouping of the index set {0, …, 49999} into 25 runs of 2000 is
  used, no finiteness and no distributivity.
-/
import proofs.«137296_j64604898066506_1_alg».proof.Proof.Gen.KernelIdeal.Skeleton
import proofs.«137296_j64604898066506_1_alg».proof.Proof.LossSpec
import proofs.«137296_j64604898066506_1_alg».proof.Proof.LibPlainDot
import Idealize.ShloMosaic.PureOps.Ideal.Laws
import Idealize.ShloMosaic.Lib.ValueIdx
import Idealize.ShloMosaic.Lib.Pipeline.Value
import Mathlib.Algebra.BigOperators.Fin
import Mathlib.Logic.Equiv.Fin.Basic

noncomputable section

namespace Cert.KernelIdeal.NodeSums

open Cert.KernelIdeal Cert.KernelIdeal.Gen Idealize.ShloMosaic Idealize.ShloMosaic.ValueIdx
open scoped BigOperators

/-! ## Layer 1: each pure value of the node body read at an index -/

/-- The activation tile: the logistic function of the logits, entry by entry (the narrowing is the identity). -/
theorem pay5_apply (v3 : Vec Ideal S2000x64 .f32) (p : Fin 2000) (q : Fin 64) :
    k0_pay5 (F := Ideal) v3 (ix2 p q) = Ideal.logistic (v3 (ix2 p q)) := rfl

/-- The scaled tile: column q of the activations times the community scalar s(q).  The scalars are a one-row block
    spread over the 2000 rows, so row p of the spread block reads row 0 of the block. -/
theorem pay6_apply (v3 : Vec Ideal S2000x64 .f32) (v5 : Vec Ideal S1x64 .f32) (p : Fin 2000) (q : Fin 64) :
    k0_pay6 (F := Ideal) v3 v5 (ix2 p q) = Ideal.logistic (v3 (ix2 p q)) * v5 (ix2 0 q) := by
  unfold k0_pay6
  rw [shapeCast_self]
  show Ideal.logistic (v3 (ix2 p q)) * broadcastTo S2000x64 v5 broadcasts_S1x64_S2000x64 (ix2 p q) = _
  rw [broadcastTo_apply v5 broadcasts_S1x64_S2000x64 (ix2 p q) (ix2 0 q)
    (fun a => by match a with | ⟨0, _⟩ => rfl | ⟨1, _⟩ => rfl)]

/-- The Gram accumulator's starting value is zero everywhere: the splat of the zero word. -/
theorem pay2_apply (k l : Fin 64) : k0_pay2 (F := Ideal) (ix2 k l) = 0 := by
  unfold k0_pay2
  rw [shapeCast_self]
  exact Ideal.ofBits_zero_f32

/-- The feature-error accumulator's starting value is zero. -/
theorem pay3_apply : k0_pay3 (F := Ideal) (ix2 0 0) = 0 := by
  unfold k0_pay3
  rw [shapeCast_self]
  exact Ideal.ofBits_zero_f32

/-- The running scalar's update: the running value plus the tile's error. -/
theorem pay1_apply (v29 v30 : Vec Ideal S1x1 .f32) :
    k0_pay1 (F := Ideal) v29 v30 (ix2 0 0) = v30 (ix2 0 0) + v29 (ix2 0 0) := by
  unfold k0_pay1
  rw [shapeCast_self]
  rfl

/-- The transposed tile at (k, r) is the tile at (r, k). -/
theorem transpose_tile (w : FVec Ideal S2000x64 .bf16) (h : S2000x64.Transposes [1, 0] S64x2000)
    (k : Fin 64) (r : Fin 2000) :
    transpose S64x2000 [1, 0] w h (ix2 k r) = w (ix2 r k) :=
  transpose_apply [1, 0] w h (ix2 k r) (ix2 r k) (fun b => by match b with | ⟨0, _⟩ => rfl | ⟨1, _⟩ => rfl)

/-- A [64,2000] by [2000,64] product into the zero splat, at (k, l): the sum over the 2000 contracted rows of
    A(k,r) * B(r,l). -/
theorem gramDot_apply (A : FVec Ideal S64x2000 .bf16) (B : FVec Ideal S2000x64 .bf16) (k l : Fin 64) :
    FloatOps.matmul dot_S64x2000_S2000x64_S64x64_1_0_0_1_n_n none A B (constant (F := Ideal) S64x64 .f32 0x00000000#32) (ix2 k l)
      = ∑ r : Fin 2000, A (ix2 k r) * B (ix2 r l) :=
  (Ideal.matmul_constant_zero_apply dot_S64x2000_S2000x64_S64x64_1_0_0_1_n_n none A B (ix2 k l)).trans
    (PlainDot.sum_eq (R := 64) (K := 2000) (C := 64) dot_S64x2000_S2000x64_S64x64_1_0_0_1_n_n rfl rfl rfl rfl rfl rfl A B k l)

/-- The Gram update at (k, l): the running value plus the sum over the tile's rows r of a(r,k) * (a(r,l) * s(l)).
    The left factor is the transposed activation tile, the right factor the scaled tile. -/
theorem pay7_apply (v3 : Vec Ideal S2000x64 .f32) (v5 : Vec Ideal S1x64 .f32) (v15 : Vec Ideal S64x64 .f32)
    (k l : Fin 64) :
    k0_pay7 (F := Ideal) v3 v5 v15 (ix2 k l)
      = v15 (ix2 k l) + ∑ r : Fin 2000, Ideal.logistic (v3 (ix2 r k)) * (Ideal.logistic (v3 (ix2 r l)) * v5 (ix2 0 l)) := by
  unfold k0_pay7
  rw [shapeCast_self]
  show v15 (ix2 k l) + FloatOps.matmul dot_S64x2000_S2000x64_S64x64_1_0_0_1_n_n none
      (transpose S64x2000 [1, 0] (k0_pay5 (F := Ideal) v3) transposes_S2000x64_p1_0_S64x2000) (k0_pay6 (F := Ideal) v3 v5)
      (constant (F := Ideal) S64x64 .f32 0x00000000#32) (ix2 k l) = _
  rw [gramDot_apply]
  refine congrArg (v15 (ix2 k l) + ·) (Finset.sum_congr rfl fun r _ => ?_)
  rw [transpose_tile, pay5_apply, pay6_apply]

/-- A [2000,64] by [64,128] product into the zero splat, at (r, f): the sum over the 64 contracted columns of
    A(r,j) * B(j,f). -/
theorem reconDot_apply (A : FVec Ideal S2000x64 .bf16) (B : FVec Ideal S64x128 .bf16) (r : Fin 2000) (f : Fin 128) :
    FloatOps.matmul dot_S2000x64_S64x128_S2000x128_1_0_0_1_n_n none A B (constant (F := Ideal) S2000x128 .f32 0x00000000#32) (ix2 r f)
      = ∑ j : Fin 64, A (ix2 r j) * B (ix2 j f) :=
  (Ideal.matmul_constant_zero_apply dot_S2000x64_S64x128_S2000x128_1_0_0_1_n_n none A B (ix2 r f)).trans
    (PlainDot.sum_eq (R := 2000) (K := 64) (C := 128) dot_S2000x64_S64x128_S2000x128_1_0_0_1_n_n rfl rfl rfl rfl rfl rfl A B r f)

/-- The sum over the 128 lanes of a [2000,128] array, at row r: the index over row r with lane f put back is (r, f). -/
theorem laneSum_apply (v : FVec Ideal S2000x128 .f32) (h : S2000x128.Reduces [1] S2000) (hφ : FKind.Formats .f32)
    (hacc : (0x00000000#32 : BitVec (FTy.bits .f32)) = FKind.add.neutral .f32 hφ) (r : Fin 2000) :
    multiReduction (F := Ideal) .add [1] S2000 v 0x00000000#32 h hφ hacc (ix1 r) = ∑ f : Fin 128, v (ix2 r f) := by
  refine (Ideal.multiReduction_add_single v 0x00000000#32 h hφ hacc (ix1 r)).trans ?_
  show ∑ f : Fin 128, v (h.lift (ix1 r) f) = _
  refine Finset.sum_congr rfl fun f _ => congrArg v (funext fun a => ?_)
  match a with
  | ⟨0, _⟩ => exact Fin.ext rfl
  | ⟨1, _⟩ => exact Fin.ext rfl

/-- The sum over the 2000 rows of a [2000,1] column, at its one index: the index with row r put back is (r, 0). -/
theorem rowSum_apply (v : FVec Ideal S2000x1 .f32) (h : S2000x1.Reduces [0] S1) (hφ : FKind.Formats .f32)
    (hacc : (0x00000000#32 : BitVec (FTy.bits .f32)) = FKind.add.neutral .f32 hφ) :
    multiReduction (F := Ideal) .add [0] S1 v 0x00000000#32 h hφ hacc (ix1 0) = ∑ r : Fin 2000, v (ix2 r 0) := by
  refine (Ideal.multiReduction_add_single v 0x00000000#32 h hφ hacc (ix1 0)).trans ?_
  show ∑ r : Fin 2000, v (h.lift (ix1 0) r) = _
  refine Finset.sum_congr rfl fun r _ => congrArg v (funext fun a => ?_)
  match a with
  | ⟨0, _⟩ => exact Fin.ext rfl
  | ⟨1, _⟩ => exact Fin.ext rfl

/-- A [2000] vector recast as a [2000,1] column keeps its entries: (r, 0) and r have the same row-major position. -/
theorem column_apply (v : FVec Ideal S2000 .f32) (h : S2000.ShapeCasts S2000x1) (r : Fin 2000) :
    shapeCast S2000x1 v h (ix2 r 0) = v (ix1 r) :=
  shapeCast_apply v h (ix2 r 0) (ix1 r) (by
    rw [Shape.rowMajor_val_one, Shape.rowMajor_val_two]; show r.val = r.val * 1 + 0; omega)

/-- A [1] vector recast as [1,1] keeps its entry. -/
theorem unit_apply (v : FVec Ideal S1 .f32) (h : S1.ShapeCasts S1x1) :
    shapeCast S1x1 v h (ix2 0 0) = v (ix1 0) :=
  shapeCast_apply v h (ix2 0 0) (ix1 0) (by
    rw [Shape.rowMajor_val_one, Shape.rowMajor_val_two]; rfl)

/-- One tile's feature error: over its rows r and the features f, the square of x(r,f) minus the reconstruction
    sum over the communities j of (a(r,j) * s(j)) * W(j,f).  Read from the outside in: the recast of a one-entry
    vector, the sum over the rows of a column, the recast of the vector of lane sums as a column, the lane sum of
    the squared differences, and inside the difference the product of the scaled tile with the feature matrix. -/
theorem pay8_apply (v3 : Vec Ideal S2000x64 .f32) (v5 : Vec Ideal S1x64 .f32) (v20 : Vec Ideal S64x128 .f32)
    (v23 : Vec Ideal S2000x128 .f32) :
    k0_pay8 (F := Ideal) v3 v5 v20 v23 (ix2 0 0)
      = ∑ r : Fin 2000, ∑ f : Fin 128,
          (v23 (ix2 r f) - ∑ j : Fin 64, (Ideal.logistic (v3 (ix2 r j)) * v5 (ix2 0 j)) * v20 (ix2 j f))
            * (v23 (ix2 r f) - ∑ j : Fin 64, (Ideal.logistic (v3 (ix2 r j)) * v5 (ix2 0 j)) * v20 (ix2 j f)) := by
  unfold k0_pay8
  refine (unit_apply _ _).trans ?_
  refine (rowSum_apply _ _ _ _).trans ?_
  refine Finset.sum_congr rfl fun r _ => ?_
  refine (column_apply _ _ r).trans ?_
  refine (laneSum_apply _ _ _ _ r).trans ?_
  refine Finset.sum_congr rfl fun f _ => ?_
  have hrec : FloatOps.matmul dot_S2000x64_S64x128_S2000x128_1_0_0_1_n_n none (k0_pay6 (F := Ideal) v3 v5)
      (truncf .bf16 v20 bitsLt_bf16_f32) (constant (F := Ideal) S2000x128 .f32 0x00000000#32) (ix2 r f)
      = ∑ j : Fin 64, (Ideal.logistic (v3 (ix2 r j)) * v5 (ix2 0 j)) * v20 (ix2 j f) := by
    rw [reconDot_apply]
    refine Finset.sum_congr rfl fun j _ => ?_
    rw [pay6_apply]; rfl
  show (v23 (ix2 r f) - FloatOps.matmul dot_S2000x64_S64x128_S2000x128_1_0_0_1_n_n none (k0_pay6 (F := Ideal) v3 v5)
      (truncf .bf16 v20 bitsLt_bf16_f32) (constant (F := Ideal) S2000x128 .f32 0x00000000#32) (ix2 r f))
    * (v23 (ix2 r f) - FloatOps.matmul dot_S2000x64_S64x128_S2000x128_1_0_0_1_n_n none (k0_pay6 (F := Ideal) v3 v5)
      (truncf .bf16 v20 bitsLt_bf16_f32) (constant (F := Ideal) S2000x128 .f32 0x00000000#32) (ix2 r f)) = _
  rw [hrec]

/-! ## Layer 2: the 25 tiles added up -/

/-- T runs of R consecutive numbers are the numbers below T * R: the pair (t, r) is sent to R * t + r, a bijection
    of the pairs with the numbers below T * R, and the sum is carried along it. -/
theorem sum_tiles {M : Type} [AddCommMonoid M] (T R : ℕ) (f : ℕ → M) :
    ∑ t : Fin T, ∑ r : Fin R, f (R * t.val + r.val) = ∑ n : Fin (T * R), f n.val := by
  rw [← Equiv.sum_comp (finProdFinEquiv (m := T) (n := R)) (fun n : Fin (T * R) => f n.val), Fintype.sum_prod_type]
  refine Finset.sum_congr rfl fun t _ => Finset.sum_congr rfl fun r _ => congrArg f ?_
  show R * t.val + r.val = r.val + R * t.val
  exact Nat.add_comm _ _

/-- A running value that starts at z plus the first term and adds one term per step holds, after step n, z plus the
    terms up to n. -/
theorem fold_eq_sum {M : Type} [AddCommMonoid M] (a : (n : ℕ) → n < 25 → M) (s : ℕ → M)
    (h0 : a 0 (by omega) = s 0) (hs : ∀ (n : ℕ) (h : n + 1 < 25), a (n + 1) h = a n (by omega) + s (n + 1)) :
    a 24 (by omega) = ∑ t : Fin 25, s t.val := by
  have part : ∀ (n : ℕ) (h : n < 25), a n h = ∑ i ∈ Finset.range (n + 1), s i := by
    intro n
    induction n with
    | zero => intro h; rw [Finset.sum_range_one]; exact h0
    | succ n ih => intro h; rw [hs n h, ih (by omega), Finset.sum_range_succ _ (n + 1)]
  rw [part 24 (by omega)]
  exact Finset.sum_range s

/-- The activation tile of point t holds the activations of rows 2000 * t + r. -/
theorem act_of_block
    (aff : (⟨2, ![50000, 64]⟩ : Shape).Idx → EReal)
    (b0 : Fin 25 → Vec Ideal S2000x64 .f32)
    (hb0 : ∀ (t : Fin 25) (r : Fin 2000) (k : Fin 64), b0 t (ix2 r k) = aff (ix2 ⟨2000 * t.val + r.val, by omega⟩ k))
    (t : Fin 25) (r : Fin 2000) (k : Fin 64) :
    k0_pay5 (F := Ideal) (b0 t) (ix2 r k) = Cert.LossSpec.act aff ⟨2000 * t.val + r.val, by omega⟩ k := by
  rw [pay5_apply, hb0]
  rfl

/-- The scaled tile of point t holds the scaled activations of rows 2000 * t + r. -/
theorem actScaled_of_block
    (aff : (⟨2, ![50000, 64]⟩ : Shape).Idx → EReal) (cs : (⟨1, ![64]⟩ : Shape).Idx → EReal)
    (b0 : Fin 25 → Vec Ideal S2000x64 .f32) (b1 : Fin 25 → Vec Ideal S1x64 .f32)
    (hb0 : ∀ (t : Fin 25) (r : Fin 2000) (k : Fin 64), b0 t (ix2 r k) = aff (ix2 ⟨2000 * t.val + r.val, by omega⟩ k))
    (hb1 : ∀ (t : Fin 25) (k : Fin 64), b1 t (ix2 0 k) = cs (ix1 k))
    (t : Fin 25) (r : Fin 2000) (k : Fin 64) :
    k0_pay6 (F := Ideal) (b0 t) (b1 t) (ix2 r k)
      = Cert.LossSpec.actScaled aff cs ⟨2000 * t.val + r.val, by omega⟩ k := by
  rw [pay6_apply, hb0, hb1]
  rfl

/-- After the last point the Gram accumulator holds the Gram matrix over all 50000 rows: it starts at zero plus the
    first tile's sum, takes one tile's sum per step, and the 25 runs of 2000 rows are the rows below 50000. -/
theorem gram_of_acc
    (aff : (⟨2, ![50000, 64]⟩ : Shape).Idx → EReal) (cs : (⟨1, ![64]⟩ : Shape).Idx → EReal)
    (b0 : Fin 25 → Vec Ideal S2000x64 .f32) (b1 : Fin 25 → Vec Ideal S1x64 .f32)
    (hb0 : ∀ (t : Fin 25) (r : Fin 2000) (k : Fin 64), b0 t (ix2 r k) = aff (ix2 ⟨2000 * t.val + r.val, by omega⟩ k))
    (hb1 : ∀ (t : Fin 25) (k : Fin 64), b1 t (ix2 0 k) = cs (ix1 k))
    (aM : (n : ℕ) → n < 25 → Vec Ideal S64x64 .f32)
    (hM0 : aM 0 (by omega) = k0_pay7 (F := Ideal) (b0 0) (b1 0) (k0_pay2 (F := Ideal)))
    (hMs : ∀ (n : ℕ) (h : n + 1 < 25),
      aM (n + 1) h = k0_pay7 (F := Ideal) (b0 ⟨n + 1, h⟩) (b1 ⟨n + 1, h⟩) (aM n (by omega)))
    (k l : Fin 64) :
    aM 24 (by omega) (ix2 k l) = Cert.LossSpec.gram aff cs k l := by
  -- the summand of row n, as a function on all of ℕ
  let g : ℕ → EReal := fun n =>
    if h : n < 50000 then Cert.LossSpec.act aff ⟨n, h⟩ k * Cert.LossSpec.actScaled aff cs ⟨n, h⟩ l else 0
  -- one tile's sum is the sum of g over the tile's run of rows
  have tile : ∀ t : Fin 25,
      ∑ r : Fin 2000, Ideal.logistic (b0 t (ix2 r k)) * (Ideal.logistic (b0 t (ix2 r l)) * b1 t (ix2 0 l))
        = ∑ r : Fin 2000, g (2000 * t.val + r.val) := by
    intro t
    refine Finset.sum_congr rfl fun r _ => ?_
    have hlt : 2000 * t.val + r.val < 50000 := by omega
    show _ = (if h : 2000 * t.val + r.val < 50000 then
      Cert.LossSpec.act aff ⟨2000 * t.val + r.val, h⟩ k * Cert.LossSpec.actScaled aff cs ⟨2000 * t.val + r.val, h⟩ l else 0)
    rw [dif_pos hlt, hb0, hb0, hb1]
    rfl
  have fold := fold_eq_sum (fun n h => aM n h (ix2 k l)) (fun i => ∑ r : Fin 2000, g (2000 * i + r.val))
    (by
      show aM 0 _ (ix2 k l) = _
      rw [hM0, pay7_apply, pay2_apply, zero_add, tile 0]
      rfl)
    (fun n h => by
      show aM (n + 1) h (ix2 k l) = aM n _ (ix2 k l) + _
      rw [hMs n h, pay7_apply, tile ⟨n + 1, h⟩])
  refine fold.trans ?_
  refine (sum_tiles 25 2000 g).trans ?_
  show ∑ n : Fin 50000, g n.val = _
  unfold Cert.LossSpec.gram
  refine Finset.sum_congr rfl fun n _ => ?_
  show (if h : n.val < 50000 then
      Cert.LossSpec.act aff ⟨n.val, h⟩ k * Cert.LossSpec.actScaled aff cs ⟨n.val, h⟩ l else 0) = _
  rw [dif_pos n.isLt]

/-- After the last point the running scalar holds the squared reconstruction error over all rows and features,
    by the same regrouping of the rows into 25 runs of 2000. -/
theorem featErr_of_acc
    (aff : (⟨2, ![50000, 64]⟩ : Shape).Idx → EReal) (cs : (⟨1, ![64]⟩ : Shape).Idx → EReal)
    (x : (⟨2, ![50000, 128]⟩ : Shape).Idx → EReal) (feat : (⟨2, ![64, 128]⟩ : Shape).Idx → EReal)
    (b0 : Fin 25 → Vec Ideal S2000x64 .f32) (b1 : Fin 25 → Vec Ideal S1x64 .f32)
    (b2 : Fin 25 → Vec Ideal S2000x128 .f32) (b3 : Fin 25 → Vec Ideal S64x128 .f32)
    (hb0 : ∀ (t : Fin 25) (r : Fin 2000) (k : Fin 64), b0 t (ix2 r k) = aff (ix2 ⟨2000 * t.val + r.val, by omega⟩ k))
    (hb1 : ∀ (t : Fin 25) (k : Fin 64), b1 t (ix2 0 k) = cs (ix1 k))
    (hb2 : ∀ (t : Fin 25) (r : Fin 2000) (f : Fin 128), b2 t (ix2 r f) = x (ix2 ⟨2000 * t.val + r.val, by omega⟩ f))
    (hb3 : ∀ (t : Fin 25) (j : Fin 64) (f : Fin 128), b3 t (ix2 j f) = feat (ix2 j f))
    (aF : (n : ℕ) → n < 25 → Vec Ideal S1x1 .f32)
    (hF0 : aF 0 (by omega)
      = k0_pay1 (F := Ideal) (k0_pay8 (F := Ideal) (b0 0) (b1 0) (b3 0) (b2 0)) (k0_pay3 (F := Ideal)))
    (hFs : ∀ (n : ℕ) (h : n + 1 < 25),
      aF (n + 1) h = k0_pay1 (F := Ideal)
        (k0_pay8 (F := Ideal) (b0 ⟨n + 1, h⟩) (b1 ⟨n + 1, h⟩) (b3 ⟨n + 1, h⟩) (b2 ⟨n + 1, h⟩)) (aF n (by omega))) :
    aF 24 (by omega) (ix2 0 0) = Cert.LossSpec.featErr x aff cs feat := by
  -- the summand of row n: its squared error over the 128 features, as a function on all of ℕ
  let g : ℕ → EReal := fun n =>
    if h : n < 50000 then
      ∑ f : Fin 128, (x (ix2 ⟨n, h⟩ f) - Cert.LossSpec.recon aff cs feat ⟨n, h⟩ f)
        * (x (ix2 ⟨n, h⟩ f) - Cert.LossSpec.recon aff cs feat ⟨n, h⟩ f)
    else 0
  -- one tile's error is the sum of g over the tile's run of rows
  have tile : ∀ t : Fin 25,
      k0_pay8 (F := Ideal) (b0 t) (b1 t) (b3 t) (b2 t) (ix2 0 0) = ∑ r : Fin 2000, g (2000 * t.val + r.val) := by
    intro t
    rw [pay8_apply]
    refine Finset.sum_congr rfl fun r _ => ?_
    have hlt : 2000 * t.val + r.val < 50000 := by omega
    show _ = (if h : 2000 * t.val + r.val < 50000 then
      ∑ f : Fin 128, (x (ix2 ⟨2000 * t.val + r.val, h⟩ f) - Cert.LossSpec.recon aff cs feat ⟨2000 * t.val + r.val, h⟩ f)
        * (x (ix2 ⟨2000 * t.val + r.val, h⟩ f) - Cert.LossSpec.recon aff cs feat ⟨2000 * t.val + r.val, h⟩ f)
      else 0)
    rw [dif_pos hlt]
    refine Finset.sum_congr rfl fun f _ => ?_
    have hre : ∑ j : Fin 64, (Ideal.logistic (b0 t (ix2 r j)) * b1 t (ix2 0 j)) * b3 t (ix2 j f)
        = Cert.LossSpec.recon aff cs feat ⟨2000 * t.val + r.val, hlt⟩ f := by
      unfold Cert.LossSpec.recon
      refine Finset.sum_congr rfl fun j _ => ?_
      rw [hb0, hb1, hb3]
      rfl
    rw [hre, hb2]
  have fold := fold_eq_sum (fun n h => aF n h (ix2 0 0)) (fun i => ∑ r : Fin 2000, g (2000 * i + r.val))
    (by
      show aF 0 _ (ix2 0 0) = _
      rw [hF0, pay1_apply, pay3_apply, zero_add, tile 0]
      rfl)
    (fun n h => by
      show aF (n + 1) h (ix2 0 0) = aF n _ (ix2 0 0) + _
      rw [hFs n h, pay1_apply, tile ⟨n + 1, h⟩])
  refine fold.trans ?_
  refine (sum_tiles 25 2000 g).trans ?_
  show ∑ n : Fin 50000, g n.val = _
  unfold Cert.LossSpec.featErr
  refine Finset.sum_congr rfl fun n _ => ?_
  show (if h : n.val < 50000 then
      ∑ f : Fin 128, (x (ix2 ⟨n.val, h⟩ f) - Cert.LossSpec.recon aff cs feat ⟨n.val, h⟩ f)
        * (x (ix2 ⟨n.val, h⟩ f) - Cert.LossSpec.recon aff cs feat ⟨n.val, h⟩ f)
      else 0) = _
  rw [dif_pos n.isLt]

end Cert.KernelIdeal.NodeSums

end
-- ==== Proof.KI.EdgeSums.lean ====
/-
  The edge pass's arithmetic over the extended reals.

  One grid point of the edge pass reads a block of 16000 source rows and a block of 16000 target rows (64 lanes each),
  multiplies them entry by entry, sums the products over the lanes and then over the rows, and adds the result to a
  running one-entry accumulator that starts at zero.  Layer 1 reads the two stored values at their one index: the
  start value is 0, the step's value is the accumulator plus the double sum of the block's products.  Layer 2 follows
  the accumulator over the 50 grid points: after point n it holds the sum over the points up to n, and the 50 blocks of
  16000 rows lay the 800000 edges end to end, so the last value is the sum over all edges and lanes.
-/
import proofs.«137296_j64604898066506_1_alg».proof.Proof.Gen.KernelIdeal.Skeleton
import proofs.«137296_j64604898066506_1_alg».proof.Proof.LossSpec
import Idealize.ShloMosaic.PureOps.Ideal
import Idealize.ShloMosaic.PureOps.Ideal.Laws
import Idealize.ShloMosaic.Lib.ValueIdx
import Idealize.ShloMosaic.Lib.Pipeline.Value

noncomputable section

namespace Cert.KernelIdeal.EdgeSums

open Cert.KernelIdeal Cert.KernelIdeal.Gen Idealize.ShloMosaic Idealize.ShloMosaic.ValueIdx
open scoped BigOperators

/-! ## Layer 1: the two stored values at their one index -/

/-- The accumulator's start value is zero: the splat of the f32 pattern of all zero bits, whose ideal value is 0. -/
theorem pay1_apply : k1_pay1 (F := Ideal) (ix2 0 0) = 0 := by
  unfold k1_pay1
  rw [shapeCast_self]
  show FloatOps.ofBits (F := Ideal) .f32 0x00000000#32 = 0
  rw [Ideal.ofBits_def, Ideal.ofBits_zero_f32]

/-- Row r of the lane reduction's result with lane k put back is the entry (r, k) of the source. -/
private theorem lift_lane (h : Shape.Reduces S16000x64 [1] S16000) (r : Fin 16000) (k : Fin 64) :
    h.lift (ix1 r) k = ix2 r k := by
  funext d
  match d with
  | ⟨0, _⟩ => exact Fin.ext rfl
  | ⟨1, _⟩ => exact Fin.ext rfl

/-- The one entry of the row reduction's result with row r put back is the entry (r, 0) of the [16000, 1] source. -/
private theorem lift_row (h : Shape.Reduces S16000x1 [0] S1) (r : Fin 16000) :
    h.lift (ix1 0) r = ix2 r 0 := by
  funext d
  match d with
  | ⟨0, _⟩ => exact Fin.ext rfl
  | ⟨1, _⟩ => exact Fin.ext rfl

/-- The lane sums of a [16000, 64] array, laid out as a column, then summed over the rows, laid out as a [1, 1] array:
    at its one index, the sum over all rows and lanes.  Each reduction over one axis is the sum over that axis'
    coordinates; each reshape keeps the row-major position (row r of [16000] is entry (r, 0) of [16000, 1], the one
    entry of [1] is the one entry of [1, 1]). -/
private theorem rows_of_lanes (w : FVec Ideal S16000x64 .f32)
    (h1 : Shape.Reduces S16000x64 [1] S16000) (hc1 : S16000.ShapeCasts S16000x1)
    (h0 : Shape.Reduces S16000x1 [0] S1) (hc0 : S1.ShapeCasts S1x1)
    (hφ : FKind.Formats .f32) (hacc : (0x00000000#32 : BitVec 32) = FKind.add.neutral .f32 hφ) :
    shapeCast S1x1 (multiReduction .add [0] S1
        (shapeCast S16000x1 (multiReduction .add [1] S16000 w 0x00000000#32 h1 hφ hacc) hc1)
        0x00000000#32 h0 hφ hacc) hc0 (ix2 0 0)
      = ∑ r : Fin 16000, ∑ k : Fin 64, w (ix2 r k) := by
  refine (shapeCast_apply _ hc0 (ix2 0 0) (ix1 0)
    (by rw [Shape.rowMajor_val_one, Shape.rowMajor_val_two]; rfl)).trans ?_
  refine (Ideal.multiReduction_add_single _ _ h0 hφ hacc (ix1 0)).trans ?_
  refine Finset.sum_congr rfl fun r _ => ?_
  rw [lift_row h0 r]
  refine (shapeCast_apply _ hc1 (ix2 r 0) (ix1 r)
    (by rw [Shape.rowMajor_val_one, Shape.rowMajor_val_two]; show r.val = r.val * 1 + 0; omega)).trans ?_
  refine (Ideal.multiReduction_add_single _ _ h1 hφ hacc (ix1 r)).trans ?_
  refine Finset.sum_congr rfl fun k _ => ?_
  rw [lift_lane h1 r k]

/-- One step: the accumulator plus the sum, over the block's rows and lanes, of the two blocks' products. -/
theorem pay2_apply (v3 v6 : Vec Ideal S16000x64 .bf16) (v14 : Vec Ideal S1x1 .f32) :
    k1_pay2 (F := Ideal) v3 v6 v14 (ix2 0 0)
      = v14 (ix2 0 0) + ∑ r : Fin 16000, ∑ k : Fin 64, v3 (ix2 r k) * v6 (ix2 r k) := by
  unfold k1_pay2
  rw [shapeCast_self, shapeCast_self, shapeCast_self]
  -- the widening of the two blocks is the identity on extended reals, the product and the final sum are entrywise
  refine congrArg (fun z => v14 (ix2 0 0) + z) ((rows_of_lanes _ _ _ _ _ _ _).trans ?_)
  rfl

/-! ## Layer 2: the accumulator over the 50 grid points -/

/-- T blocks of R consecutive numbers lay the numbers below T * R end to end (block t holds R t … R t + R − 1), so a
    sum taken block by block is the sum over all of them: the pairs (t, r) correspond one to one to the numbers
    r + R t below T * R. -/
theorem sum_blocks {M : Type*} [AddCommMonoid M] (T R : ℕ) (f : ℕ → M) :
    ∑ t : Fin T, ∑ r : Fin R, f (R * t.val + r.val) = ∑ n : Fin (T * R), f n.val := by
  rw [← Fintype.sum_prod_type (f := fun p : Fin T × Fin R => f (R * p.1.val + p.2.val))]
  rw [← Equiv.sum_comp finProdFinEquiv (fun n : Fin (T * R) => f n.val)]
  refine Finset.sum_congr rfl fun p _ => ?_
  show f (R * p.1.val + p.2.val) = f (p.2.val + R * p.1.val)
  rw [Nat.add_comm]

/-- Edge e's term: the sum over the 64 lanes of the products of the two gathered rows (zero past the last edge, so
    that it is a function of a plain number). -/
private def edgeTerm (G1 G2 : (⟨2, ![800000, 64]⟩ : Shape).Idx → EReal) (n : ℕ) : EReal :=
  if h : n < 800000 then ∑ k : Fin 64, G1 (ix2 ⟨n, h⟩ k) * G2 (ix2 ⟨n, h⟩ k) else 0

/-- The accumulator after the last of the 50 points is the sum over all 800000 edges and 64 lanes of the products
    of the two gathered arrays: point t's block holds the rows 16000 t … 16000 t + 15999. -/
theorem edge_of_acc (G1 G2 : (⟨2, ![800000, 64]⟩ : Shape).Idx → EReal)
    (b0 b1 : Fin 50 → Vec Ideal S16000x64 .bf16)
    (hb0 : ∀ (t : Fin 50) (r : Fin 16000) (k : Fin 64),
      b0 t (ix2 r k) = G1 (ix2 ⟨16000 * t.val + r.val, by omega⟩ k))
    (hb1 : ∀ (t : Fin 50) (r : Fin 16000) (k : Fin 64),
      b1 t (ix2 r k) = G2 (ix2 ⟨16000 * t.val + r.val, by omega⟩ k))
    (a : (n : ℕ) → n < 50 → Vec Ideal S1x1 .f32)
    (h0 : a 0 (by omega) = k1_pay2 (b0 0) (b1 0) (k1_pay1 (F := Ideal)))
    (hs : ∀ n (h : n + 1 < 50), a (n + 1) h = k1_pay2 (b0 ⟨n + 1, h⟩) (b1 ⟨n + 1, h⟩) (a n (by omega))) :
    a 49 (by omega) (ix2 0 0) = ∑ e : Fin 800000, ∑ k : Fin 64, G1 (ix2 e k) * G2 (ix2 e k) := by
  -- point t's double sum over its block is the sum of the edge terms 16000 t … 16000 t + 15999
  have blk : ∀ t : Fin 50, ∑ r : Fin 16000, ∑ k : Fin 64, b0 t (ix2 r k) * b1 t (ix2 r k)
      = ∑ r : Fin 16000, edgeTerm G1 G2 (16000 * t.val + r.val) := by
    intro t
    refine Finset.sum_congr rfl fun r _ => ?_
    have hlt : 16000 * t.val + r.val < 800000 := by omega
    unfold edgeTerm
    rw [dif_pos hlt]
    refine Finset.sum_congr rfl fun k _ => ?_
    rw [hb0 t r k, hb1 t r k]
  -- after point n the accumulator holds the sum over the points 0 … n
  have key : ∀ (n : ℕ) (h : n < 50), a n h (ix2 0 0)
      = ∑ t ∈ Finset.range (n + 1), ∑ r : Fin 16000, edgeTerm G1 G2 (16000 * t + r.val) := by
    intro n
    induction n with
    | zero =>
      intro h
      rw [h0, pay2_apply, pay1_apply, zero_add, Finset.sum_range_one]
      exact blk 0
    | succ n ih =>
      intro h
      rw [hs n h, pay2_apply, ih (by omega), Finset.sum_range_succ _ (n + 1)]
      exact congrArg₂ (· + ·) rfl (blk ⟨n + 1, h⟩)
  rw [key 49 (by omega), Finset.sum_range, sum_blocks 50 16000 (edgeTerm G1 G2)]
  -- 50 * 16000 = 800000, and below 800000 the edge term is the lane sum
  show ∑ e : Fin 800000, edgeTerm G1 G2 e.val = _
  refine Finset.sum_congr rfl fun e _ => ?_
  unfold edgeTerm
  rw [dif_pos e.isLt]

end Cert.KernelIdeal.EdgeSums

end
-- ==== Proof.KI.ArrayReads.lean ====
/-
  What the two kernel regions leave in their output arrays, at the ideal values, as the specification's sums.

  The node region runs over 25 points; point t works on rows 2000 t … 2000 t + 1999 of the logits and of the features.
  Its first two outputs are written back block by block at every point, so the arrays end holding, row by row, the
  activations and the scaled activations.  Its last two outputs are written back once, after the last point, from two
  running values that started at zero and took one tile's contribution per point: they end holding the Gram matrix
  and the squared reconstruction error over all 50000 rows.  The edge region runs over 50 points of 16000 edges each
  and writes back, after the last point, the running sum of the products of the two gathered arrays over all 800000
  edges and 64 lanes.

  Three ingredients are joined here: which entries of an array a window's block at a point holds (a block's coordinate
  in the array is the block index times the block's size plus the coordinate inside the block); what the body leaves in
  each window at each point, as the pure value of the input blocks; and the arithmetic that adds the tiles up.
-/
import proofs.«137296_j64604898066506_1_alg».proof.Proof.KI.NodeData
import proofs.«137296_j64604898066506_1_alg».proof.Proof.KI.EdgeData
import proofs.«137296_j64604898066506_1_alg».proof.Proof.KI.NodeSums
import proofs.«137296_j64604898066506_1_alg».proof.Proof.KI.EdgeSums
import proofs.«137296_j64604898066506_1_alg».proof.Proof.LossSpec
import Idealize.ShloMosaic.Lib.Pipeline.Value
import Idealize.ShloMosaic.Lib.ValueIdx

set_option maxRecDepth 16384

noncomputable section

namespace Cert.KernelIdeal.ArrayReads

open Idealize.ShloMosaic Idealize.ShloMosaic.TcCoe Idealize.ShloMosaic.ValueIdx
open Idealize.SL.Sem
open Idealize.ShloMosaic.Pipeline (Dat)
open Cert.KernelIdeal Cert.KernelIdeal.Gen
open scoped BigOperators

-- the TensorCore's buffer contents when a region is entered
variable (V : (c : Dev nD) → (b : Ref sig .tc) → Buf (Elt Ideal) ((c : Thread nD τ).loc b))

/-! ## The arrays of the edge region, at their literal types -/

/-- The edge region's first operand: 800000 rows of 64 lanes, gathered from the node region's first output. -/
abbrev gatheredAct (c : Dev nD) : (⟨2, ![800000, 64]⟩ : Shape).Idx → EReal := V c main_v17
/-- The edge region's second operand: 800000 rows of 64 lanes, gathered from the node region's second output. -/
abbrev gatheredScaled (c : Dev nD) : (⟨2, ![800000, 64]⟩ : Shape).Idx → EReal := V c main_v24
/-- The edge region's one-entry output array after its run. -/
abbrev edgeOut (c : Dev nD) : (⟨2, ![1, 1]⟩ : Shape).Idx → EReal := (Edge.dat V c).arrAt 2 cfg1.N

/-! ## Which entries of an array a block holds

A block's coordinate in its array is, on each axis, the block index times the block's size plus the coordinate inside
the block.  The block indices are decided once over the grid. -/

/-- The block indices of the node region's windows over its 25 points: the row-tiled windows (the logits, the
    features, the two row-tiled outputs) move one block of 2000 rows per point; the whole-array windows (the
    community scalars, the feature matrix, the Gram matrix, the error) stay at block (0, 0). -/
theorem node_index : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-- The logits' block at point t holds rows 2000 t … 2000 t + 1999 of the logits. -/
theorem node_blk0 (c : Dev nD) (t : Fin cfg0.N) (r : Fin 2000) (k : Fin 64) (n : Fin 50000)
    (hn : n.val = 2000 * t.val + r.val) :
    (Node.iblk V c 0 t : Vec Ideal S2000x64 .f32) (ix2 r k) = (V c main_arg2 : Vec Ideal S50000x64 .f32) (ix2 n k) := by
  have hi := (node_index t).1
  unfold Node.iblk
  rw [View.read_apply]
  show V c main_arg2 _ = V c main_arg2 _
  congr 1
  funext a
  apply Fin.ext
  match a with
  | ⟨0, _⟩ => show win0_0.index t (0 : Fin 2) * 2000 + 1 * r.val = n.val; rw [hi.1, hn]; omega
  | ⟨1, _⟩ => show win0_0.index t (1 : Fin 2) * 64 + 1 * k.val = k.val; rw [hi.2]; omega

/-- The community scalars' block at every point is the whole one-row array. -/
theorem node_blk1 (c : Dev nD) (t : Fin cfg0.N) (k : Fin 64) :
    (Node.iblk V c 1 t : Vec Ideal S1x64 .f32) (ix2 0 k) = (V c main_v0 : Vec Ideal S1x64 .f32) (ix2 0 k) := by
  have hi := (node_index t).2.1
  unfold Node.iblk
  rw [View.read_apply]
  show V c main_v0 _ = V c main_v0 _
  congr 1
  funext a
  apply Fin.ext
  match a with
  | ⟨0, _⟩ => show win0_1.index t (0 : Fin 2) * 1 + 1 * 0 = 0; rw [hi.1]
  | ⟨1, _⟩ => show win0_1.index t (1 : Fin 2) * 64 + 1 * k.val = k.val; rw [hi.2]; omega

/-- The features' block at point t holds rows 2000 t … 2000 t + 1999 of the features. -/
theorem node_blk2 (c : Dev nD) (t : Fin cfg0.N) (r : Fin 2000) (f : Fin 128) (n : Fin 50000)
    (hn : n.val = 2000 * t.val + r.val) :
    (Node.iblk V c 2 t : Vec Ideal S2000x128 .f32) (ix2 r f) = (V c main_arg0 : Vec Ideal S50000x128 .f32) (ix2 n f) := by
  have hi := (node_index t).2.2.1
  unfold Node.iblk
  rw [View.read_apply]
  show V c main_arg0 _ = V c main_arg0 _
  congr 1
  funext a
  apply Fin.ext
  match a with
  | ⟨0, _⟩ => show win0_2.index t (0 : Fin 2) * 2000 + 1 * r.val = n.val; rw [hi.1, hn]; omega
  | ⟨1, _⟩ => show win0_2.index t (1 : Fin 2) * 128 + 1 * f.val = f.val; rw [hi.2]; omega

/-- The feature matrix's block at every point is the whole matrix. -/
theorem node_blk3 (c : Dev nD) (t : Fin cfg0.N) (j : Fin 64) (f : Fin 128) :
    (Node.iblk V c 3 t : Vec Ideal S64x128 .f32) (ix2 j f) = (V c main_arg4 : Vec Ideal S64x128 .f32) (ix2 j f) := by
  have hi := (node_index t).2.2.2.1
  unfold Node.iblk
  rw [View.read_apply]
  show V c main_arg4 _ = V c main_arg4 _
  congr 1
  funext a
  apply Fin.ext
  match a with
  | ⟨0, _⟩ => show win0_3.index t (0 : Fin 2) * 64 + 1 * j.val = j.val; rw [hi.1]; omega
  | ⟨1, _⟩ => show win0_3.index t (1 : Fin 2) * 128 + 1 * f.val = f.val; rw [hi.2]; omega

/-- The block indices of the edge region's windows over its 50 points: the two gathered operands move one block of
    16000 rows per point; the one-entry output stays at block (0, 0). -/
theorem edge_index : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0) :=
  (by decide +kernel : ∀ t : Fin grid1.N, _)

/-- The first operand's block at point t holds rows 16000 t … 16000 t + 15999 of the first gathered array. -/
theorem edge_blk0 (c : Dev nD) (t : Fin cfg1.N) (r : Fin 16000) (k : Fin 64) (e : Fin 800000)
    (he : e.val = 16000 * t.val + r.val) :
    (Edge.iblk V c 0 t : Vec Ideal S16000x64 .bf16) (ix2 r k) = gatheredAct V c (ix2 e k) := by
  have hi := (edge_index t).1
  unfold Edge.iblk
  rw [View.read_apply]
  show V c main_v17 _ = V c main_v17 _
  congr 1
  funext a
  apply Fin.ext
  match a with
  | ⟨0, _⟩ => show win1_0.index t (0 : Fin 2) * 16000 + 1 * r.val = e.val; rw [hi.1, he]; omega
  | ⟨1, _⟩ => show win1_0.index t (1 : Fin 2) * 64 + 1 * k.val = k.val; rw [hi.2]; omega

/-- The second operand's block at point t holds the same rows of the second gathered array. -/
theorem edge_blk1 (c : Dev nD) (t : Fin cfg1.N) (r : Fin 16000) (k : Fin 64) (e : Fin 800000)
    (he : e.val = 16000 * t.val + r.val) :
    (Edge.iblk V c 1 t : Vec Ideal S16000x64 .bf16) (ix2 r k) = gatheredScaled V c (ix2 e k) := by
  have hi := (edge_index t).2.1
  unfold Edge.iblk
  rw [View.read_apply]
  show V c main_v24 _ = V c main_v24 _
  congr 1
  funext a
  apply Fin.ext
  match a with
  | ⟨0, _⟩ => show win1_1.index t (0 : Fin 2) * 16000 + 1 * r.val = e.val; rw [hi.1, he]; omega
  | ⟨1, _⟩ => show win1_1.index t (1 : Fin 2) * 64 + 1 * k.val = k.val; rw [hi.2]; omega

/-! ## The node region's row-tiled outputs -/

/-- The activations as one array: what the first output ends holding. -/
abbrev actArr (c : Dev nD) : Vec Ideal S50000x64 .bf16 :=
  fun i => Cert.LossSpec.act (V c main_arg2) (i 0) (i 1)

/-- The scaled activations as one array: what the second output ends holding. -/
abbrev actScaledArr (c : Dev nD) (cs : (⟨1, ![64]⟩ : Shape).Idx → EReal) : Vec Ideal S50000x64 .bf16 :=
  fun i => Cert.LossSpec.actScaled (V c main_arg2) cs (i 0) (i 1)

/-- Entry (r, k) of the first output's block at point t is entry (2000 t + r, k) of its array. -/
theorem node_emb4 (t : Fin cfg0.N) (r : Fin 2000) (k : Fin 64) (n : Fin 50000) (hn : n.val = 2000 * t.val + r.val) :
    ((cfg0.win 4).blk t).view.emb (ix2 r k) = (ix2 n k : S50000x64.Idx) := by
  have hi := (node_index t).2.2.2.2.1
  funext a
  apply Fin.ext
  match a with
  | ⟨0, _⟩ => show win0_4.index t (0 : Fin 2) * 2000 + 1 * r.val = n.val; rw [hi.1, hn]; omega
  | ⟨1, _⟩ => show win0_4.index t (1 : Fin 2) * 64 + 1 * k.val = k.val; rw [hi.2]; omega

/-- The same for the second output. -/
theorem node_emb5 (t : Fin cfg0.N) (r : Fin 2000) (k : Fin 64) (n : Fin 50000) (hn : n.val = 2000 * t.val + r.val) :
    ((cfg0.win 5).blk t).view.emb (ix2 r k) = (ix2 n k : S50000x64.Idx) := by
  have hi := (node_index t).2.2.2.2.2.1
  funext a
  apply Fin.ext
  match a with
  | ⟨0, _⟩ => show win0_5.index t (0 : Fin 2) * 2000 + 1 * r.val = n.val; rw [hi.1, hn]; omega
  | ⟨1, _⟩ => show win0_5.index t (1 : Fin 2) * 64 + 1 * k.val = k.val; rw [hi.2]; omega

/-- What point t writes back into the first output is block t of the activations. -/
theorem node_flushed4 (c : Dev nD) (t : Fin cfg0.N) :
    (Node.dat V c).flushed 4 t = ((cfg0.win 4).blk t).view.read (Elt Ideal) (actArr V c) := by
  have hN : cfg0.N = 25 := N_0
  show (cfg0.win 4).cut (grid0.coords t) ((Node.dat V c).after 4 t) = _
  rw [Node.out4]
  funext y
  obtain ⟨r, k, rfl⟩ : ∃ (r : Fin 2000) (k : Fin 64), y = ix2 r k := ⟨y 0, y 1, eq_ix2 y⟩
  have hlt : 2000 * t.val + r.val < 50000 := by have := t.isLt; omega
  rw [View.read_apply]
  show k0_pay5 (F := Ideal) (Node.iblk V c 0 t) (ix2 r k) = actArr V c (((cfg0.win 4).blk t).view.emb (ix2 r k))
  rw [node_emb4 t r k ⟨_, hlt⟩ rfl]
  exact NodeSums.act_of_block (V c main_arg2) (fun t' => Node.iblk V c 0 (Fin.cast hN.symm t'))
    (fun t' r' k' => node_blk0 V c (Fin.cast hN.symm t') r' k' _ rfl) (Fin.cast hN t) r k

/-- What point t writes back into the second output is block t of the scaled activations. -/
theorem node_flushed5 (c : Dev nD) (cs : (⟨1, ![64]⟩ : Shape).Idx → EReal)
    (hcs : ∀ k : Fin 64, V c main_v0 (ix2 0 k) = cs (ix1 k)) (t : Fin cfg0.N) :
    (Node.dat V c).flushed 5 t = ((cfg0.win 5).blk t).view.read (Elt Ideal) (actScaledArr V c cs) := by
  have hN : cfg0.N = 25 := N_0
  show (cfg0.win 5).cut (grid0.coords t) ((Node.dat V c).after 5 t) = _
  rw [Node.out5]
  funext y
  obtain ⟨r, k, rfl⟩ : ∃ (r : Fin 2000) (k : Fin 64), y = ix2 r k := ⟨y 0, y 1, eq_ix2 y⟩
  have hlt : 2000 * t.val + r.val < 50000 := by have := t.isLt; omega
  rw [View.read_apply]
  show k0_pay6 (F := Ideal) (Node.iblk V c 0 t) (Node.iblk V c 1 t) (ix2 r k)
    = actScaledArr V c cs (((cfg0.win 5).blk t).view.emb (ix2 r k))
  rw [node_emb5 t r k ⟨_, hlt⟩ rfl]
  exact NodeSums.actScaled_of_block (V c main_arg2) cs
    (fun t' => Node.iblk V c 0 (Fin.cast hN.symm t')) (fun t' => Node.iblk V c 1 (Fin.cast hN.symm t'))
    (fun t' r' k' => node_blk0 V c (Fin.cast hN.symm t') r' k' _ rfl)
    (fun t' k' => (node_blk1 V c (Fin.cast hN.symm t') k').trans (hcs k')) (Fin.cast hN t) r k

/-- Every index of the first output is in the block of the point its row falls in: row n is in block n / 2000. -/
theorem node_cover4 (i : S50000x64.Idx) :
    ∃ t : Fin cfg0.N, (cfg0.win 4).flush t = true ∧ i ∈ ((cfg0.win 4).blk t).view.set := by
  have hN : cfg0.N = 25 := N_0
  have h0 : (i 0 : Nat) < 50000 := (i 0).isLt
  have h1 : (i 1 : Nat) < 64 := (i 1).isLt
  obtain ⟨t, ht⟩ : ∃ t : Fin cfg0.N, t.val = (i 0 : Nat) / 2000 := ⟨⟨(i 0 : Nat) / 2000, by omega⟩, rfl⟩
  refine ⟨t, flush0_4 t, ?_⟩
  have hi := (node_index t).2.2.2.2.1
  show i ∈ ((View.whole main_v1_0).slice (win0_4.rect t)).set
  rw [View.set_slice_whole, Rect.mem_set_unit]
  intro a
  match a with
  | ⟨0, _⟩ =>
    show win0_4.index t (0 : Fin 2) * 2000 ≤ (i 0 : Nat) ∧ (i 0 : Nat) < win0_4.index t (0 : Fin 2) * 2000 + 2000
    rw [hi.1, ht]; omega
  | ⟨1, _⟩ =>
    show win0_4.index t (1 : Fin 2) * 64 ≤ (i 1 : Nat) ∧ (i 1 : Nat) < win0_4.index t (1 : Fin 2) * 64 + 64
    rw [hi.2]; omega

/-- The same for the second output. -/
theorem node_cover5 (i : S50000x64.Idx) :
    ∃ t : Fin cfg0.N, (cfg0.win 5).flush t = true ∧ i ∈ ((cfg0.win 5).blk t).view.set := by
  have hN : cfg0.N = 25 := N_0
  have h0 : (i 0 : Nat) < 50000 := (i 0).isLt
  have h1 : (i 1 : Nat) < 64 := (i 1).isLt
  obtain ⟨t, ht⟩ : ∃ t : Fin cfg0.N, t.val = (i 0 : Nat) / 2000 := ⟨⟨(i 0 : Nat) / 2000, by omega⟩, rfl⟩
  refine ⟨t, flush0_5 t, ?_⟩
  have hi := (node_index t).2.2.2.2.2.1
  show i ∈ ((View.whole main_v1_1).slice (win0_5.rect t)).set
  rw [View.set_slice_whole, Rect.mem_set_unit]
  intro a
  match a with
  | ⟨0, _⟩ =>
    show win0_5.index t (0 : Fin 2) * 2000 ≤ (i 0 : Nat) ∧ (i 0 : Nat) < win0_5.index t (0 : Fin 2) * 2000 + 2000
    rw [hi.1, ht]; omega
  | ⟨1, _⟩ =>
    show win0_5.index t (1 : Fin 2) * 64 ≤ (i 1 : Nat) ∧ (i 1 : Nat) < win0_5.index t (1 : Fin 2) * 64 + 64
    rw [hi.2]; omega

/-- The first output array of the node region ends holding the activations, row by row. -/
theorem node_act (c : Dev nD) (n : Fin 50000) (k : Fin 64) :
    (Node.dat V c).arrAt 4 cfg0.N (ix2 n k) = Cert.LossSpec.act (V c main_arg2) n k :=
  congrFun ((Node.dat V c).arrAt_eq_of_cover 4 (actArr V c) (fun t _ => node_flushed4 V c t) node_cover4) (ix2 n k)

/-- The second output array of the node region ends holding the scaled activations, row by row. -/
theorem node_actScaled (c : Dev nD) (cs : (⟨1, ![64]⟩ : Shape).Idx → EReal)
    (hcs : ∀ k : Fin 64, V c main_v0 (ix2 0 k) = cs (ix1 k)) (n : Fin 50000) (k : Fin 64) :
    (Node.dat V c).arrAt 5 cfg0.N (ix2 n k) = Cert.LossSpec.actScaled (V c main_arg2) cs n k :=
  congrFun ((Node.dat V c).arrAt_eq_of_cover 5 (actScaledArr V c cs) (fun t _ => node_flushed5 V c cs hcs t) node_cover5)
    (ix2 n k)

/-! ## The node region's accumulated outputs -/

/-- The Gram output's block at any point is the whole 64 × 64 array, so it holds every index. -/
theorem node_mem_blk6 (t : Fin cfg0.N) (i : S64x64.Idx) : i ∈ ((cfg0.win 6).blk t).view.set := by
  have hi := (node_index t).2.2.2.2.2.2.1
  show i ∈ ((View.whole main_v1_2).slice (win0_6.rect t)).set
  rw [View.set_slice_whole, Rect.mem_set_unit]
  intro a
  have h0 : (i 0 : Nat) < 64 := (i 0).isLt
  have h1 : (i 1 : Nat) < 64 := (i 1).isLt
  match a with
  | ⟨0, _⟩ =>
    show win0_6.index t (0 : Fin 2) * 64 ≤ (i 0 : Nat) ∧ (i 0 : Nat) < win0_6.index t (0 : Fin 2) * 64 + 64
    rw [hi.1]; omega
  | ⟨1, _⟩ =>
    show win0_6.index t (1 : Fin 2) * 64 ≤ (i 1 : Nat) ∧ (i 1 : Nat) < win0_6.index t (1 : Fin 2) * 64 + 64
    rw [hi.2]; omega

/-- The error output's block at any point is the whole one-entry array. -/
theorem node_mem_blk7 (t : Fin cfg0.N) (i : S1x1.Idx) : i ∈ ((cfg0.win 7).blk t).view.set := by
  have hi := (node_index t).2.2.2.2.2.2.2
  show i ∈ ((View.whole main_v1_3).slice (win0_7.rect t)).set
  rw [View.set_slice_whole, Rect.mem_set_unit]
  intro a
  have h0 : (i 0 : Nat) < 1 := (i 0).isLt
  have h1 : (i 1 : Nat) < 1 := (i 1).isLt
  match a with
  | ⟨0, _⟩ =>
    show win0_7.index t (0 : Fin 2) * 1 ≤ (i 0 : Nat) ∧ (i 0 : Nat) < win0_7.index t (0 : Fin 2) * 1 + 1
    rw [hi.1]; omega
  | ⟨1, _⟩ =>
    show win0_7.index t (1 : Fin 2) * 1 ≤ (i 1 : Nat) ∧ (i 1 : Nat) < win0_7.index t (1 : Fin 2) * 1 + 1
    rw [hi.2]; omega

/-- The Gram output's one write-back, after the last point, writes the Gram accumulator: the block at (0, 0) of the
    64 × 64 array, read through zero offsets, is the array. -/
theorem node_flushed6 (c : Dev nD) (h24 : 24 < cfg0.N) (t : Fin cfg0.N) (hf : (cfg0.win 6).flush t = true) :
    (Node.dat V c).flushed 6 t = ((cfg0.win 6).blk t).view.read (Elt Ideal) (Node.accM V c 24 h24) := by
  have hN : cfg0.N = 25 := N_0
  have ht : t.val = 24 := by have := (flush0_6 t).mp hf; have := t.isLt; omega
  obtain rfl : t = ⟨24, h24⟩ := Fin.ext ht
  show (cfg0.win 6).cut (grid0.coords ⟨24, h24⟩) ((Node.dat V c).after 6 ⟨24, h24⟩) = _
  rw [Node.out6_last]
  have hi := (node_index ⟨24, h24⟩).2.2.2.2.2.2.1
  have hz : (fun a => win0_6.index ⟨24, h24⟩ a * main_v1_2.ty.shape.size a) = fun _ => 0 := funext fun a => by
    match a with
    | ⟨0, _⟩ => show win0_6.index ⟨24, h24⟩ (0 : Fin 2) * 64 = 0; rw [hi.1]
    | ⟨1, _⟩ => show win0_6.index ⟨24, h24⟩ (1 : Fin 2) * 64 = 0; rw [hi.2]
  exact (Memref.read_access_unit_zero (Elt Ideal) main_v1_2 hz (fun a => by rw [congrFun hz a]; simp)
    (Node.accM V c 24 h24)).symm

/-- The error output's one write-back, after the last point, writes the error accumulator. -/
theorem node_flushed7 (c : Dev nD) (h24 : 24 < cfg0.N) (t : Fin cfg0.N) (hf : (cfg0.win 7).flush t = true) :
    (Node.dat V c).flushed 7 t = ((cfg0.win 7).blk t).view.read (Elt Ideal) (Node.accF V c 24 h24) := by
  have hN : cfg0.N = 25 := N_0
  have ht : t.val = 24 := by have := (flush0_7 t).mp hf; have := t.isLt; omega
  obtain rfl : t = ⟨24, h24⟩ := Fin.ext ht
  show (cfg0.win 7).cut (grid0.coords ⟨24, h24⟩) ((Node.dat V c).after 7 ⟨24, h24⟩) = _
  rw [Node.out7_last]
  have hi := (node_index ⟨24, h24⟩).2.2.2.2.2.2.2
  have hz : (fun a => win0_7.index ⟨24, h24⟩ a * main_v1_3.ty.shape.size a) = fun _ => 0 := funext fun a => by
    match a with
    | ⟨0, _⟩ => show win0_7.index ⟨24, h24⟩ (0 : Fin 2) * 1 = 0; rw [hi.1]
    | ⟨1, _⟩ => show win0_7.index ⟨24, h24⟩ (1 : Fin 2) * 1 = 0; rw [hi.2]
  exact (Memref.read_access_unit_zero (Elt Ideal) main_v1_3 hz (fun a => by rw [congrFun hz a]; simp)
    (Node.accF V c 24 h24)).symm

/-- The third output array of the node region ends holding the Gram matrix over all rows. -/
theorem node_gram (c : Dev nD) (cs : (⟨1, ![64]⟩ : Shape).Idx → EReal)
    (hcs : ∀ k : Fin 64, V c main_v0 (ix2 0 k) = cs (ix1 k)) (k l : Fin 64) :
    (Node.dat V c).arrAt 6 cfg0.N (ix2 k l) = Cert.LossSpec.gram (V c main_arg2) cs k l := by
  have hN : cfg0.N = 25 := N_0
  have h24 : 24 < cfg0.N := by omega
  -- the array after the run is what the last point wrote back: the Gram accumulator after point 24
  have hfin : (Node.dat V c).arrAt 6 cfg0.N = Node.accM V c 24 h24 :=
    (Node.dat V c).arrAt_eq_of_cover 6 (Node.accM V c 24 h24) (node_flushed6 V c h24)
      fun i => ⟨⟨24, h24⟩, (flush0_6 ⟨24, h24⟩).mpr rfl, node_mem_blk6 ⟨24, h24⟩ i⟩
  refine (congrFun hfin (ix2 k l)).trans ?_
  -- the accumulator over the 25 tiles of 2000 rows is the sum over all 50000 rows
  exact NodeSums.gram_of_acc (V c main_arg2) cs
    (fun t => Node.iblk V c 0 (Fin.cast hN.symm t)) (fun t => Node.iblk V c 1 (Fin.cast hN.symm t))
    (fun t r k' => node_blk0 V c (Fin.cast hN.symm t) r k' _ rfl)
    (fun t k' => (node_blk1 V c (Fin.cast hN.symm t) k').trans (hcs k'))
    (fun n h => Node.accM V c n (lt_of_lt_of_eq h hN.symm))
    (Node.accM_zero V c _) (fun n h => Node.accM_succ V c n _) k l

/-- The fourth output array of the node region ends holding the squared reconstruction error over all rows and features. -/
theorem node_featErr (c : Dev nD) (cs : (⟨1, ![64]⟩ : Shape).Idx → EReal)
    (hcs : ∀ k : Fin 64, V c main_v0 (ix2 0 k) = cs (ix1 k)) :
    (Node.dat V c).arrAt 7 cfg0.N (ix2 0 0)
      = Cert.LossSpec.featErr (V c main_arg0) (V c main_arg2) cs (V c main_arg4) := by
  have hN : cfg0.N = 25 := N_0
  have h24 : 24 < cfg0.N := by omega
  -- the array after the run is what the last point wrote back: the error accumulator after point 24
  have hfin : (Node.dat V c).arrAt 7 cfg0.N = Node.accF V c 24 h24 :=
    (Node.dat V c).arrAt_eq_of_cover 7 (Node.accF V c 24 h24) (node_flushed7 V c h24)
      fun i => ⟨⟨24, h24⟩, (flush0_7 ⟨24, h24⟩).mpr rfl, node_mem_blk7 ⟨24, h24⟩ i⟩
  refine (congrFun hfin (ix2 0 0)).trans ?_
  -- the accumulator over the 25 tiles of 2000 rows is the sum over all 50000 rows
  exact NodeSums.featErr_of_acc (V c main_arg2) cs (V c main_arg0) (V c main_arg4)
    (fun t => Node.iblk V c 0 (Fin.cast hN.symm t)) (fun t => Node.iblk V c 1 (Fin.cast hN.symm t))
    (fun t => Node.iblk V c 2 (Fin.cast hN.symm t)) (fun t => Node.iblk V c 3 (Fin.cast hN.symm t))
    (fun t r k' => node_blk0 V c (Fin.cast hN.symm t) r k' _ rfl)
    (fun t k' => (node_blk1 V c (Fin.cast hN.symm t) k').trans (hcs k'))
    (fun t r f => node_blk2 V c (Fin.cast hN.symm t) r f _ rfl)
    (fun t j f => node_blk3 V c (Fin.cast hN.symm t) j f)
    (fun n h => Node.accF V c n (lt_of_lt_of_eq h hN.symm))
    (Node.accF_zero V c _) (fun n h => Node.accF_succ V c n _)

/-! ## The edge region's output -/

/-- The output window's block at any point is the whole one-entry array, so it holds every index. -/
theorem edge_mem_blk2 (t : Fin cfg1.N) (i : S1x1.Idx) : i ∈ ((cfg1.win 2).blk t).view.set := by
  have hi := (edge_index t).2.2
  show i ∈ ((View.whole main_v25).slice (win1_2.rect t)).set
  rw [View.set_slice_whole, Rect.mem_set_unit]
  intro a
  have h0 : (i 0 : Nat) < 1 := (i 0).isLt
  have h1 : (i 1 : Nat) < 1 := (i 1).isLt
  match a with
  | ⟨0, _⟩ =>
    show win1_2.index t (0 : Fin 2) * 1 ≤ (i 0 : Nat) ∧ (i 0 : Nat) < win1_2.index t (0 : Fin 2) * 1 + 1
    rw [hi.1]; omega
  | ⟨1, _⟩ =>
    show win1_2.index t (1 : Fin 2) * 1 ≤ (i 1 : Nat) ∧ (i 1 : Nat) < win1_2.index t (1 : Fin 2) * 1 + 1
    rw [hi.2]; omega

/-- The one write-back, after the last point, writes the running sum: the block at (0, 0) of the one-entry array,
    read through zero offsets, is the array. -/
theorem edge_flushed (c : Dev nD) (h49 : 49 < cfg1.N) (t : Fin cfg1.N) (hf : (cfg1.win 2).flush t = true) :
    (Edge.dat V c).flushed 2 t = ((cfg1.win 2).blk t).view.read (Elt Ideal) (Edge.outsAt V c 49 h49).2 := by
  have hN : cfg1.N = 50 := N_1
  have ht : t.val = 49 := by have := (flush1_2 t).mp hf; have := t.isLt; omega
  obtain rfl : t = ⟨49, h49⟩ := Fin.ext ht
  show (cfg1.win 2).cut (grid1.coords ⟨49, h49⟩) ((Edge.dat V c).after 2 ⟨49, h49⟩) = _
  rw [Edge.out_last]
  have hi := (edge_index ⟨49, h49⟩).2.2
  have hz : (fun a => win1_2.index ⟨49, h49⟩ a * main_v25.ty.shape.size a) = fun _ => 0 := funext fun a => by
    match a with
    | ⟨0, _⟩ => show win1_2.index ⟨49, h49⟩ (0 : Fin 2) * 1 = 0; rw [hi.1]
    | ⟨1, _⟩ => show win1_2.index ⟨49, h49⟩ (1 : Fin 2) * 1 = 0; rw [hi.2]
  exact (Memref.read_access_unit_zero (Elt Ideal) main_v25 hz (fun a => by rw [congrFun hz a]; simp)
    (Edge.outsAt V c 49 h49).2).symm

/-- The edge region's output array ends holding the sum, over all edges and lanes, of the products of the two gathered arrays. -/
theorem edge_sum (c : Dev nD) :
    edgeOut V c (ix2 0 0)
      = ∑ e : Fin 800000, ∑ k : Fin 64, gatheredAct V c (ix2 e k) * gatheredScaled V c (ix2 e k) := by
  have hN : cfg1.N = 50 := N_1
  have h49 : 49 < cfg1.N := by omega
  -- the array after the run is what the last point wrote back: the running sum after point 49
  have hfin : (Edge.dat V c).arrAt 2 cfg1.N = (Edge.outsAt V c 49 h49).2 :=
    (Edge.dat V c).arrAt_eq_of_cover 2 (Edge.outsAt V c 49 h49).2 (edge_flushed V c h49)
      fun i => ⟨⟨49, h49⟩, (flush1_2 ⟨49, h49⟩).mpr rfl, edge_mem_blk2 ⟨49, h49⟩ i⟩
  refine (congrFun hfin (ix2 0 0)).trans ?_
  -- the running sum over the 50 blocks of 16000 rows is the sum over all 800000 rows
  exact EdgeSums.edge_of_acc (gatheredAct V c) (gatheredScaled V c)
    (fun t => Edge.iblk V c 0 (Fin.cast hN.symm t)) (fun t => Edge.iblk V c 1 (Fin.cast hN.symm t))
    (fun t r k => edge_blk0 V c (Fin.cast hN.symm t) r k _ rfl)
    (fun t r k => edge_blk1 V c (Fin.cast hN.symm t) r k _ rfl)
    (fun n h => (Edge.outsAt V c n (lt_of_lt_of_eq h hN.symm)).2)
    (Edge.acc_zero V c _) (fun n h => Edge.acc_succ V c n _)

end Cert.KernelIdeal.ArrayReads

end
-- ==== Proof.RefValue.lean ====
import proofs.«137296_j64604898066506_1_alg».proof.Proof.Gen.ReferenceIdeal.Run
import proofs.«137296_j64604898066506_1_alg».proof.Proof.Gen.ReferenceIdeal.Read
import proofs.«137296_j64604898066506_1_alg».proof.Proof.LossSpec
import Idealize.ShloMosaic.Lib.IdealHost

/-
  The reference program at the ideal values, stage by stage, is the loss specification's sums.

  Each stage of the reference is read at an index; the composed index maps of the broadcasts and of the two products
  are identified with plain coordinates, and what is left is the same sum term by term.  The only law used beyond
  that is the commutativity of the product in the edge term.
-/

noncomputable section

namespace Cert.ReferenceIdeal.RefValue

open Cert.ReferenceIdeal Cert.ReferenceIdeal.Read Idealize.ShloMosaic Idealize.ShloMosaic.ValueIdx
open scoped BigOperators

variable (aff : (⟨S50000x64, .f32⟩ : BufTy).Contents (Elt Ideal)) (cs : (⟨S64, .f32⟩ : BufTy).Contents (Elt Ideal))
  (x : (⟨S50000x128, .f32⟩ : BufTy).Contents (Elt Ideal)) (feat : (⟨S64x128, .f32⟩ : BufTy).Contents (Elt Ideal))
  (ei : (⟨S2x800000, .i32⟩ : BufTy).Contents (Elt Ideal))

/-- The reference's activation stage (negate, exponential, add one, divide one by it) is the logistic function. -/
theorem act_eq (n : Fin 50000) (k : Fin 64) :
    val_main_v5 (F := Ideal) aff (ix2 n k) = Cert.LossSpec.act aff n k := by
  rw [val_main_v5_apply, val_main_v4_apply, val_main_cst_0_apply, val_main_v3_apply, val_main_v2_apply,
    val_main_cst_apply, val_main_v1_apply, val_main_v0_apply]
  simp only [Ideal.ofBits_def, Ideal.ofBits_one_f32]
  rfl

/-- The two broadcasts of the community scalars over the nodes read the scalar of the entry's column. -/
theorem scalarIdx_eq (n : Fin 50000) (k : Fin 64) : idx_main_v6 (idx_main_v7 (ix2 n k)) = ix1 k :=
  funext fun a => by match a with | ⟨0, _⟩ => rfl

/-- The scaled activations: the activation times the community scalar of its column. -/
theorem actScaled_eq (n : Fin 50000) (k : Fin 64) :
    val_main_v8 (F := Ideal) aff cs (ix2 n k) = Cert.LossSpec.actScaled aff cs n k := by
  rw [val_main_v8_apply, val_main_v7_apply, val_main_v6_apply, scalarIdx_eq, act_eq]
  rfl

/-- The reference's 64 × 64 product contracting the node axis of both operands is the Gram matrix. -/
theorem gram_eq (k l : Fin 64) :
    val_main_v9 (F := Ideal) aff cs (ix2 k l) = Cert.LossSpec.gram aff cs k l := by
  rw [val_main_v9_apply]
  unfold Cert.LossSpec.gram
  refine Finset.sum_congr rfl fun n _ => ?_
  -- entry (k, l) of the product pairs row n, column k of the left operand with row n, column l of the right one
  have el : lidx_main_v9 (ix2 k l) n = ix2 n k :=
    funext fun a => by match a with | ⟨0, _⟩ => rfl | ⟨1, _⟩ => rfl
  have er : ridx_main_v9 (ix2 k l) n = ix2 n l :=
    funext fun a => by match a with | ⟨0, _⟩ => rfl | ⟨1, _⟩ => rfl
  rw [el, er, act_eq, actScaled_eq]

/-- The reference's product of the scaled activations with the feature matrix is the reconstruction. -/
theorem recon_eq (n : Fin 50000) (f : Fin 128) :
    val_main_v40 (F := Ideal) aff cs feat (ix2 n f) = Cert.LossSpec.recon aff cs feat n f := by
  rw [val_main_v40_apply]
  unfold Cert.LossSpec.recon
  refine Finset.sum_congr rfl fun j _ => ?_
  -- entry (n, f) pairs row n, column j of the scaled activations with row j, column f of the feature matrix
  have el : lidx_main_v40 (ix2 n f) j = ix2 n j :=
    funext fun a => by match a with | ⟨0, _⟩ => rfl | ⟨1, _⟩ => rfl
  have er : ridx_main_v40 (ix2 n f) j = ix2 j f :=
    funext fun a => by match a with | ⟨0, _⟩ => rfl | ⟨1, _⟩ => rfl
  rw [el, er, actScaled_eq]

/-- The reference's total sum of squared reconstruction errors. -/
theorem featErr_eq (i : S_.Idx) :
    val_main_v43 (F := Ideal) x aff cs feat i = Cert.LossSpec.featErr x aff cs feat := by
  -- the total sum starts from the zero word, which is the extended real zero
  rw [val_main_v43_apply, val_main_cst_9_apply, Ideal.ofBits_def, Ideal.ofBits_zero_f32, zero_add]
  -- a sum over all index pairs is the double sum over nodes and features
  rw [sum_idx2]
  unfold Cert.LossSpec.featErr
  refine Finset.sum_congr rfl fun n _ => Finset.sum_congr rfl fun f _ => ?_
  rw [val_main_v42_apply, val_main_v41_apply, recon_eq]
  rfl

/-- The gather of the target rows reads the activations at the row its start index names. -/
theorem gatherDst_apply (j : S800000x64.Idx) :
    val_main_v23 (F := Ideal) ei aff j
      = val_main_v5 (F := Ideal) aff
          (gather_S50000x64_S800000x1_S800000x64_1_0_n_n_0_1_164.operandIdx j (val_main_v22 (F := Ideal) ei)) := rfl

/-- The gather of the source rows reads the activations at the row its start index names. -/
theorem gatherSrc_apply (j : S800000x64.Idx) :
    val_main_v33 (F := Ideal) ei aff j
      = val_main_v5 (F := Ideal) aff
          (gather_S50000x64_S800000x1_S800000x64_1_0_n_n_0_1_164.operandIdx j (val_main_v32 (F := Ideal) ei)) := rfl

/-- The two broadcasts of the community scalars over the edges read the scalar of the entry's column. -/
theorem edgeScalarIdx_eq (e : Fin 800000) (k : Fin 64) : idx_main_v24 (idx_main_v25 (ix2 e k)) = ix1 k :=
  funext fun a => by match a with | ⟨0, _⟩ => rfl

/-- The reference's edge term, given which row each of the two gathers reads. -/
theorem edgeSum_eq (i : S_.Idx) (src dst : Fin 800000 → Fin 64 → Fin 50000)
    (hsrc : ∀ e k, gather_S50000x64_S800000x1_S800000x64_1_0_n_n_0_1_164.operandIdx (ix2 e k) (val_main_v32 (F := Ideal) ei)
      = ix2 (src e k) k)
    (hdst : ∀ e k, gather_S50000x64_S800000x1_S800000x64_1_0_n_n_0_1_164.operandIdx (ix2 e k) (val_main_v22 (F := Ideal) ei)
      = ix2 (dst e k) k) :
    val_main_v35 (F := Ideal) ei aff cs i = Cert.LossSpec.edgeSum aff cs src dst := by
  -- the total sum starts from the zero word, which is the extended real zero
  rw [val_main_v35_apply, val_main_cst_5_apply, Ideal.ofBits_def, Ideal.ofBits_zero_f32, zero_add]
  -- a sum over all index pairs is the double sum over edges and communities
  rw [sum_idx2]
  unfold Cert.LossSpec.edgeSum
  refine Finset.sum_congr rfl fun e _ => Finset.sum_congr rfl fun k _ => ?_
  rw [val_main_v34_apply, val_main_v26_apply, gatherDst_apply, gatherSrc_apply, hdst, hsrc, act_eq, act_eq,
    val_main_v25_apply, val_main_v24_apply, edgeScalarIdx_eq]
  -- the reference multiplies (target row · scalar) · source row; the specification source row · (target row · scalar)
  exact mul_comm _ _

end Cert.ReferenceIdeal.RefValue

end
-- ==== Proof.RefTail.lean ====
/-
  The reference's last scalar stages are the common loss arithmetic.

  After its three total sums (the trace term of the 64 × 64 Gram matrix, the feature error, the edge term) the
  reference applies ( g − 2·l + 800000 ) / 50000 + 0.1 · ( f / 128 ) with the same operations and the same literal
  words as the shared definition of that arithmetic, so the two are one term once the stages' names are unfolded;
  nothing of the three sums themselves is opened.  A last general fact reads a [1, 1] array reshaped to a scalar.
-/
import proofs.«137296_j64604898066506_1_alg».proof.Proof.Gen.ReferenceIdeal.Read
import proofs.«137296_j64604898066506_1_alg».proof.Proof.LossTail
import Idealize.ShloMosaic.Lib.Pipeline.Value
import Idealize.ShloMosaic.Lib.ValueIdx

noncomputable section

namespace Cert.ReferenceIdeal.RefTail

open Cert.ReferenceIdeal Cert.ReferenceIdeal.Gen Cert.ReferenceIdeal.Read Idealize.ShloMosaic

/-- The reference's result, from its arguments: the common loss arithmetic of the trace term of stage 9's matrix,
    stage 43's feature error and stage 35's edge term. -/
theorem tail_eq (x0 : (⟨S50000x128, .f32⟩ : BufTy).Contents (Elt Ideal))
    (x1 : (⟨S2x800000, .i32⟩ : BufTy).Contents (Elt Ideal))
    (x2 : (⟨S50000x64, .f32⟩ : BufTy).Contents (Elt Ideal))
    (x3 : (⟨S64, .f32⟩ : BufTy).Contents (Elt Ideal))
    (x4 : (⟨S64x128, .f32⟩ : BufTy).Contents (Elt Ideal)) :
    val_main_v46 (F := Ideal) x0 x1 x2 x3 x4
      = Cert.LossTail.lossTail
          (Cert.LossTail.traceTerm (val_main_v9 (F := Ideal) x2 x3) transposes_S64x64_S64x64_1_0
            reducesTo_S64x64_S_d0_1 h_S_)
          (val_main_v43 (F := Ideal) x0 x2 x3 x4) (val_main_v35 (F := Ideal) x1 x2 x3) := by
  -- only the scalar stages and the trace term's three stages are named apart; the three large operands stay closed
  unfold val_main_v46 val_main_v45 val_main_v44 val_main_v39 val_main_v38 val_main_v37 val_main_v36 val_main_v12
    val_main_v11 val_main_v10 val_main_cst_1 val_main_cst_6 val_main_cst_7 val_main_cst_8 val_main_cst_10
    val_main_cst_11 Cert.LossTail.lossTail Cert.LossTail.traceTerm
  generalize val_main_v9 (F := Ideal) x2 x3 = M
  generalize val_main_v43 (F := Ideal) x0 x2 x3 x4 = f
  generalize val_main_v35 (F := Ideal) x1 x2 x3 = l
  rfl

/-- The same of the value the reference's run ends with, from the memory it starts in. -/
theorem result_eq (m : (ℓ : Loc nD τ sig) → Buf (Elt Ideal) ℓ) (c : Dev nD) :
    Cert.ReferenceIdeal.Value.res_main_v46 m c
      = Cert.LossTail.lossTail
          (Cert.LossTail.traceTerm
            (val_main_v9 (F := Ideal) (m ((c.tc : Thread nD τ).loc main_arg2)) (m ((c.tc : Thread nD τ).loc main_arg3)))
            transposes_S64x64_S64x64_1_0 reducesTo_S64x64_S_d0_1 h_S_)
          (val_main_v43 (F := Ideal) (m ((c.tc : Thread nD τ).loc main_arg0)) (m ((c.tc : Thread nD τ).loc main_arg2))
            (m ((c.tc : Thread nD τ).loc main_arg3)) (m ((c.tc : Thread nD τ).loc main_arg4)))
          (val_main_v35 (F := Ideal) (m ((c.tc : Thread nD τ).loc main_arg1)) (m ((c.tc : Thread nD τ).loc main_arg2))
            (m ((c.tc : Thread nD τ).loc main_arg3))) := by
  rw [val_main_v46_eq, tail_eq]

/-- A [1, 1] array reshaped to a scalar: the scalar's one entry is the array's one entry (both sit at row-major
    position 0). -/
theorem scalar_of_1x1 {F : FTy → Type} [FloatOps F] {φ : FTy} (v : FVec F ⟨2, ![1, 1]⟩ φ)
    (h : (⟨2, ![1, 1]⟩ : Shape).ShapeCasts ⟨0, ![]⟩) (i : (⟨0, ![]⟩ : Shape).Idx) :
    shapeCast ⟨0, ![]⟩ v h i = v (ValueIdx.ix2 0 0) := by
  refine shapeCast_apply v h i (ValueIdx.ix2 0 0) ?_
  rw [Shape.rowMajor_val_two]
  show 0 * 1 + 0 = ((⟨0, ![]⟩ : Shape).rowMajor i).val
  exact (Shape.rowMajorPi_zero _ i).symm

end Cert.ReferenceIdeal.RefTail

end
-- ==== Proof.LibRowGather.lean ====
/-
  A row gather read at an index.

  The gather `table[idx]` of a [N, K] table at E start indices (an [E, 1] array of row numbers): offset axis 1,
  collapsed slice axis 0, start index map [0], no batching axes, slices of one row.  Its operand index at result
  index (e, k) has, on axis 1, no start component (axis 1 is not in the start index map) and no batching component,
  and its offset component is the result's coordinate on the one offset axis: the column is kept.  On axis 0 it is
  the start index of edge e, read signed and clamped into the table: some row, which this file names and never
  evaluates.
-/
import Idealize.ShloMosaic.PureOps.Dims
import Idealize.ShloMosaic.PureOps.ShapeOps
import Idealize.ShloMosaic.Lib.ValueIdx

namespace RowGather

open Idealize.ShloMosaic Idealize.ShloMosaic.ValueIdx

variable {N K E w : Nat}

/-- The column is kept: on axis 1 the operand index is the result index's coordinate. -/
theorem col_val (d : GatherDims ⟨2, ![N, K]⟩ ⟨2, ![E, 1]⟩ ⟨2, ![E, K]⟩)
    (hod : d.offsetDims = [1]) (hcs : d.collapsedSliceDims = [0]) (hob : d.operandBatchingDims = [])
    (hsm : d.startIndexMap = [0])
    (y : (⟨2, ![E, K]⟩ : Shape).Idx) (idx : IVec ⟨2, ![E, 1]⟩ w) :
    (d.operandIdx y idx (1 : Fin 2)).val = (y (1 : Fin 2)).val := by
  show d.start y idx 1 + d.batchCoord y 1 + d.offCoord y 1 = _
  have hst : d.start y idx 1 = 0 := by
    unfold GatherDims.start
    rw [dif_neg (by rw [hsm]; simp)]
  have hbc : d.batchCoord y 1 = 0 := d.batchCoord_eq_zero y 1 (by rw [hob]; exact List.not_mem_nil)
  have hk : d.sKept = [1] := by
    show Shape.kept _ (d.collapsedSliceDims ++ d.operandBatchingDims) = _
    rw [hcs, hob]; rfl
  have hmem : (1 : Fin 2) ∈ d.sKept := by rw [hk]; exact List.mem_singleton.mpr rfl
  rw [hst, hbc, Nat.zero_add]
  unfold GatherDims.offCoord
  rw [dif_pos hmem]
  have hi : d.sKept.idxOf (1 : Fin 2) = 0 := by rw [hk]; rfl
  have hget : ∀ (i : Nat) (hlt : i < d.offsetDims.length), i = 0 → d.offsetDims[i]'hlt = (1 : Fin 2) := by
    intro i hlt h0; subst h0
    have h1 : d.offsetDims[0]? = some (1 : Fin 2) := by rw [hod]; rfl
    have h2 : d.offsetDims[0]? = some (d.offsetDims[0]'hlt) := List.getElem?_eq_getElem hlt
    exact Option.some.inj (h2.symm.trans h1)
  exact congrArg (fun a => (y a).val) (hget _ _ hi)

/-- The row the gather reads for result index (e, k). -/
def row (d : GatherDims ⟨2, ![N, K]⟩ ⟨2, ![E, 1]⟩ ⟨2, ![E, K]⟩) (idx : IVec ⟨2, ![E, 1]⟩ w)
    (e : Fin E) (k : Fin K) : Fin N :=
  ⟨(d.operandIdx (ix2 e k) idx (0 : Fin 2)).val, (d.operandIdx (ix2 e k) idx (0 : Fin 2)).isLt⟩

/-- The operand index at (e, k) is (that row, k). -/
theorem operandIdx_eq (d : GatherDims ⟨2, ![N, K]⟩ ⟨2, ![E, 1]⟩ ⟨2, ![E, K]⟩)
    (hod : d.offsetDims = [1]) (hcs : d.collapsedSliceDims = [0]) (hob : d.operandBatchingDims = [])
    (hsm : d.startIndexMap = [0])
    (idx : IVec ⟨2, ![E, 1]⟩ w) (e : Fin E) (k : Fin K) :
    d.operandIdx (ix2 e k) idx = ix2 (row d idx e k) k := by
  funext a
  apply Fin.ext
  match a with
  | ⟨0, _⟩ => rfl
  | ⟨1, _⟩ => exact col_val d hod hcs hob hsm (ix2 e k) idx

/-- The gather at (e, k) is the table at (that row, k). -/
theorem gather_apply {α : Type} (d : GatherDims ⟨2, ![N, K]⟩ ⟨2, ![E, 1]⟩ ⟨2, ![E, K]⟩)
    (hod : d.offsetDims = [1]) (hcs : d.collapsedSliceDims = [0]) (hob : d.operandBatchingDims = [])
    (hsm : d.startIndexMap = [0])
    (x : (⟨2, ![N, K]⟩ : Shape).Idx → α) (idx : IVec ⟨2, ![E, 1]⟩ w) (e : Fin E) (k : Fin K) :
    Host.gather d x idx (ix2 e k) = x (ix2 (row d idx e k) k) := by
  unfold Host.gather
  rw [operandIdx_eq d hod hcs hob hsm idx e k]

end RowGather
-- ==== Proof.Bridge.lean ====
import proofs.«137296_j64604898066506_1_alg».proof.Proof.KI.HostReads
import proofs.«137296_j64604898066506_1_alg».proof.Proof.KI.ArrayReads
import proofs.«137296_j64604898066506_1_alg».proof.Proof.RefValue
import proofs.«137296_j64604898066506_1_alg».proof.Proof.RefTail
import proofs.«137296_j64604898066506_1_alg».proof.Proof.LibRowGather

set_option maxRecDepth 16384
set_option quotPrecheck false

noncomputable section

/-! # The two programs end with the same loss

At the ideal instance the kernel program's result is the scalar tail applied to (the trace term of region 0's Gram
output, region 0's feature-error output, region 1's edge-sum output), and the reference's result is the same tail
applied to its own three stages.  The Gram matrices agree entry by entry (25 tiles of 2000 rows against one sum over
50000 rows), the feature errors agree (the same regrouping), and the edge sums agree: the kernel gathers rows of the
stored activations a and of a·s and multiplies, the reference gathers rows of a twice and scales one of them, and a row
gather keeps the column, so (a·s)[row] at column k is a[row, k]·s(k). -/

namespace Cert.Proof.Bridge

open Idealize.ShloMosaic Idealize.ShloMosaic.TcCoe Idealize.ShloMosaic.ValueIdx Idealize.SL.Sem
open Cert.KernelIdeal.Whole

variable (m : (ℓ : Loc Cert.KernelIdeal.nD Cert.KernelIdeal.τ Cert.KernelIdeal.sig) → Buf (Elt Ideal) ℓ)
variable (c : Dev Cert.KernelIdeal.nD)

local notation "aff" => m ((c.tc : Thread Cert.KernelIdeal.nD Cert.KernelIdeal.τ).loc Cert.KernelIdeal.main_arg2)
local notation "cs" => m ((c.tc : Thread Cert.KernelIdeal.nD Cert.KernelIdeal.τ).loc Cert.KernelIdeal.main_arg3)
local notation "xx" => m ((c.tc : Thread Cert.KernelIdeal.nD Cert.KernelIdeal.τ).loc Cert.KernelIdeal.main_arg0)
local notation "feat" => m ((c.tc : Thread Cert.KernelIdeal.nD Cert.KernelIdeal.τ).loc Cert.KernelIdeal.main_arg4)
local notation "ei" => m ((c.tc : Thread Cert.KernelIdeal.nD Cert.KernelIdeal.τ).loc Cert.KernelIdeal.main_arg1)
local notation "gdK" => Cert.KernelIdeal.gather_S50000x64_S800000x1_S800000x64_1_0_n_n_0_1_164
local notation "gdR" => Cert.ReferenceIdeal.gather_S50000x64_S800000x1_S800000x64_1_0_n_n_0_1_164

/-- The community scalars as region 0 finds them ([1, 64]) are the argument ([64]). -/
theorem hcs (k : Fin 64) : V1 m c Cert.KernelIdeal.main_v0 (ix2 0 k) = cs (ix1 k) :=
  Cert.KernelIdeal.HostReads.entry_cs m c k

/-- Region 0's Gram output is the reference's Gram stage. -/
theorem gram_agree :
    (V2 m c Cert.KernelIdeal.main_v1_2 : FVec Ideal ⟨2, ![64, 64]⟩ .f32) = Cert.ReferenceIdeal.Read.val_main_v9 (F := Ideal) aff cs := by
  funext i
  rw [eq_ix2 i]
  refine (congrFun (W2_arr m c 6) (ix2 (i 0) (i 1))).trans ?_
  refine (Cert.KernelIdeal.ArrayReads.node_gram (V1 m) c cs (hcs m c) (i 0) (i 1)).trans ?_
  rw [Cert.KernelIdeal.HostReads.entry_arg2 m c]
  exact (Cert.ReferenceIdeal.RefValue.gram_eq aff cs (i 0) (i 1)).symm

/-- Region 0's feature-error output, as a scalar, is the reference's feature-error stage. -/
theorem featErr_agree (h : (⟨2, ![1, 1]⟩ : Shape).ShapeCasts ⟨0, ![]⟩) :
    shapeCast ⟨0, ![]⟩ (V2 m c Cert.KernelIdeal.main_v1_3 : FVec Ideal ⟨2, ![1, 1]⟩ .f32) h
      = Cert.ReferenceIdeal.Read.val_main_v43 (F := Ideal) xx aff cs feat := by
  funext i
  refine (Cert.ReferenceIdeal.RefTail.scalar_of_1x1 (F := Ideal) (φ := .f32) _ h i).trans ?_
  refine (congrFun (W2_arr m c 7) (ix2 0 0)).trans ?_
  refine (Cert.KernelIdeal.ArrayReads.node_featErr (V1 m) c cs (hcs m c)).trans ?_
  rw [Cert.KernelIdeal.HostReads.entry_arg0 m c, Cert.KernelIdeal.HostReads.entry_arg2 m c,
    Cert.KernelIdeal.HostReads.entry_arg4 m c]
  exact (Cert.ReferenceIdeal.RefValue.featErr_eq aff cs xx feat i).symm

/-- The rows the kernel's two gathers read. -/
def srcRow : Fin 800000 → Fin 64 → Fin 50000 := RowGather.row gdK (V3 m c Cert.KernelIdeal.main_v16)
def dstRow : Fin 800000 → Fin 64 → Fin 50000 := RowGather.row gdK (V3 m c Cert.KernelIdeal.main_v23)

/-- The gathered activations at edge e, community k. -/
theorem gathered_act (e : Fin 800000) (k : Fin 64) :
    Cert.KernelIdeal.ArrayReads.gatheredAct (V3 m) c (ix2 e k) = Cert.LossSpec.act aff (srcRow m c e k) k := by
  show V3 m c Cert.KernelIdeal.main_v17 (ix2 e k) = _
  rw [Cert.KernelIdeal.HostReads.edge_in0 m c]
  refine (RowGather.gather_apply gdK rfl rfl rfl rfl _ _ e k).trans ?_
  refine (congrFun (W2_arr m c 4) (ix2 _ k)).trans ?_
  refine (Cert.KernelIdeal.ArrayReads.node_act (V1 m) c _ k).trans ?_
  rw [Cert.KernelIdeal.HostReads.entry_arg2 m c]
  rfl

/-- The gathered scaled activations at edge e, community k. -/
theorem gathered_actScaled (e : Fin 800000) (k : Fin 64) :
    Cert.KernelIdeal.ArrayReads.gatheredScaled (V3 m) c (ix2 e k) = Cert.LossSpec.actScaled aff cs (dstRow m c e k) k := by
  show V3 m c Cert.KernelIdeal.main_v24 (ix2 e k) = _
  rw [Cert.KernelIdeal.HostReads.edge_in1 m c]
  refine (RowGather.gather_apply gdK rfl rfl rfl rfl _ _ e k).trans ?_
  refine (congrFun (W2_arr m c 5) (ix2 _ k)).trans ?_
  refine (Cert.KernelIdeal.ArrayReads.node_actScaled (V1 m) c cs (hcs m c) _ k).trans ?_
  rw [Cert.KernelIdeal.HostReads.entry_arg2 m c]
  rfl

/-- Region 1's output, as a scalar, is the reference's edge-sum stage. -/
theorem edge_agree (h : (⟨2, ![1, 1]⟩ : Shape).ShapeCasts ⟨0, ![]⟩) :
    shapeCast ⟨0, ![]⟩ (V4 m c Cert.KernelIdeal.main_v25 : FVec Ideal ⟨2, ![1, 1]⟩ .f32) h
      = Cert.ReferenceIdeal.Read.val_main_v35 (F := Ideal) ei aff cs := by
  funext i
  refine (Cert.ReferenceIdeal.RefTail.scalar_of_1x1 (F := Ideal) (φ := .f32) _ h i).trans ?_
  refine (congrFun (W4_arr m c 2) (ix2 0 0)).trans ?_
  refine (Cert.KernelIdeal.ArrayReads.edge_sum (V3 m) c).trans ?_
  have hsum : (∑ e : Fin 800000, ∑ k : Fin 64, Cert.KernelIdeal.ArrayReads.gatheredAct (V3 m) c (ix2 e k) * Cert.KernelIdeal.ArrayReads.gatheredScaled (V3 m) c (ix2 e k))
      = Cert.LossSpec.edgeSum aff cs (srcRow m c) (dstRow m c) := by
    unfold Cert.LossSpec.edgeSum
    exact Finset.sum_congr rfl fun e _ => Finset.sum_congr rfl fun k _ => by
      rw [gathered_act m c e k, gathered_actScaled m c e k]
  refine hsum.trans ?_
  refine (Cert.ReferenceIdeal.RefValue.edgeSum_eq aff cs ei i (srcRow m c) (dstRow m c) ?_ ?_).symm
  · intro e k
    have hi : Cert.ReferenceIdeal.Read.val_main_v32 (F := Ideal) ei = V3 m c Cert.KernelIdeal.main_v16 := by
      rw [Cert.KernelIdeal.HostReads.idx_src m c]; rfl
    rw [hi]
    exact RowGather.operandIdx_eq gdK rfl rfl rfl rfl _ e k
  · intro e k
    have hi : Cert.ReferenceIdeal.Read.val_main_v22 (F := Ideal) ei = V3 m c Cert.KernelIdeal.main_v23 := by
      rw [Cert.KernelIdeal.HostReads.idx_dst m c]; rfl
    rw [hi]
    exact RowGather.operandIdx_eq gdK rfl rfl rfl rfl _ e k

/-- The two programs' results, from memories that agree on the five arguments. -/
theorem kernel_eq_reference
    (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = xx)
    (h1 : m' ((c.tc : Thread Cert.ReferenceIdeal.nD Cert.ReferenceIdeal.τ).loc Cert.ReferenceIdeal.main_arg1) = ei)
    (h2 : m' ((c.tc : Thread Cert.ReferenceIdeal.nD Cert.ReferenceIdeal.τ).loc Cert.ReferenceIdeal.main_arg2) = aff)
    (h3 : m' ((c.tc : Thread Cert.ReferenceIdeal.nD Cert.ReferenceIdeal.τ).loc Cert.ReferenceIdeal.main_arg3) = cs)
    (h4 : m' ((c.tc : Thread Cert.ReferenceIdeal.nD Cert.ReferenceIdeal.τ).loc Cert.ReferenceIdeal.main_arg4) = feat) :
    Cert.ReferenceIdeal.Value.res_main_v46 m' c = W5 m c (Proc.devRef .tc Cert.KernelIdeal.main_v32) := by
  rw [Cert.ReferenceIdeal.RefTail.result_eq m' c, h0, h1, h2, h3, h4, Cert.KernelIdeal.HostReads.result m c,
    gram_agree m c, featErr_agree m c, edge_agree m c]

end Cert.Proof.Bridge

end
-- ==== Proof.lean ====
/-
  The loss of a graph-affiliation model, computed two ways, is one function of its inputs.

  With a = logistic(affiliate_logits) (50000 nodes × 64 communities), s the community scalars, W the 64 × 128 feature
  matrix, x the node features and an edge list of 800000 (source, target) pairs, both programs compute

      ( Σ_{k,l} M(k,l)·M(l,k) − 2·Σ_{e,k} a(src e,k)·(a(dst e,k)·s(k)) + 800000 ) / 50000
        + 0.1 · ( Σ_{n,f} (x(n,f) − Σ_j (a(n,j)·s(j))·W(j,f))² ) / 128,        M(k,l) = Σ_n a(n,k)·(a(n,l)·s(l)).

  The kernel program runs two grid passes.  The node pass walks the nodes 2000 rows at a time: it stores the tiles of
  a and a·s, adds the tile's 64 × 64 Gram block to an accumulator and the tile's squared reconstruction error to a
  second one, and writes both accumulators out at the last tile.  Between the passes the host gathers the rows of a at
  the edges' sources and of a·s at their targets.  The edge pass walks the edges 16000 at a time, adds each tile's sum
  of products to an accumulator and writes it out at the last tile.  The reference computes each of the three sums in
  one piece.  Sums in the extended reals form a commutative monoid, so the tiles' partial sums regroup into the whole
  sums with no appeal to finiteness; the logistic function is the same function in both spellings; a row gather keeps
  the column, so gathering a·s is gathering a and scaling; and the scalar arithmetic around the three sums is the same
  text in both programs.

  The three frames: each kernel program terminates without fault and leaves its arguments unchanged because each pass's
  body runs, at every grid point, from the accumulators as the previous point left them (reset at the first point) to
  the accumulators updated, touching only its own staging buffers and scratch; the reference is host operations only.
  The idealization rewrote nothing, so there is nothing to preserve.
-/
import proofs.«137296_j64604898066506_1_alg».proof.Defs
import proofs.«137296_j64604898066506_1_alg».proof.Proof.Gen.Kernel
import proofs.«137296_j64604898066506_1_alg».proof.Proof.Gen.KernelIdeal
import proofs.«137296_j64604898066506_1_alg».proof.Proof.Gen.ReferenceIdeal
import proofs.«137296_j64604898066506_1_alg».proof.Proof.Gen.Pre_finite_inputs
import proofs.«137296_j64604898066506_1_alg».proof.Proof.K.WholeRun
import proofs.«137296_j64604898066506_1_alg».proof.Proof.KI.WholeRun
import proofs.«137296_j64604898066506_1_alg».proof.Proof.Bridge

noncomputable section

namespace Cert.Proof

open Idealize.ShloMosaic Idealize.ShloMosaic.TcCoe Idealize.SL.Sem

/-- The word-level kernel program runs and keeps its arguments. -/
theorem frame_kernel [Cert.Kernel.Facts] [Cert.Pre_finite_inputs.Facts] : Cert.frame_Kernel :=
  fun m ρ _ => Cert.Kernel.Whole.frame (F := Bits) m ρ

/-- The idealized kernel program runs and keeps its arguments. -/
theorem frame_kernelIdeal [Cert.KernelIdeal.Facts] [Cert.Pre_finite_inputs.Facts] : Cert.frame_KernelIdeal :=
  fun m ρ _ => Cert.KernelIdeal.Whole.frame (F := Ideal) m ρ

/-- The reference runs and keeps its arguments: its run with the result dropped. -/
theorem frame_reference [Cert.ReferenceIdeal.Facts] [Cert.Pre_finite_inputs.Facts] : Cert.frame_ReferenceIdeal :=
  fun m ρ _ =>
    (θ_run Cert.ReferenceIdeal.defs _ _).mono (fun _ h c => (h c).2) (Cert.ReferenceIdeal.Value.run (F := Ideal) m ρ)

/-- From memories that agree on the five arguments the two idealized programs end with the same loss. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Whole.W5 m c (Proc.devRef .tc Cert.KernelIdeal.main_v32),
    Cert.KernelIdeal.Whole.run_result (F := Ideal) m ρ, ?_⟩
  refine (θ_run Cert.ReferenceIdeal.defs _ _).mono (fun _ h c => ⟨(h c).1.trans ?_, (h c).2⟩)
    (Cert.ReferenceIdeal.Value.run (F := Ideal) m' ρ')
  exact Cert.Proof.Bridge.kernel_eq_reference m c m' (hagree c).1 (hagree c).2.1 (hagree c).2.2.1 (hagree c).2.2.2.1
    (hagree c).2.2.2.2

theorem claim : Cert.Claim :=
  ⟨Cert.Kernel.Gen.facts, Cert.KernelIdeal.Gen.facts, Cert.ReferenceIdeal.Gen.facts, Cert.Pre_finite_inputs.Gen.facts,
    @frame_kernel Cert.Kernel.Gen.facts Cert.Pre_finite_inputs.Gen.facts,
    @frame_kernelIdeal Cert.KernelIdeal.Gen.facts Cert.Pre_finite_inputs.Gen.facts,
    @frame_reference Cert.ReferenceIdeal.Gen.facts Cert.Pre_finite_inputs.Gen.facts,
    trivial,
    @algebraic Cert.KernelIdeal.Gen.facts Cert.ReferenceIdeal.Gen.facts Cert.Pre_finite_inputs.Gen.facts⟩

end Cert.Proof

end
